-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S4x32 : Shape := ⟨2, ![4, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S100000 : Shape := ⟨1, ![100000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S4x32 : S_.BroadcastsInDim S4x32 (![] : Fin 0 → Fin S4x32.rank)
  reducesTo_S4x32_S_d0_1 : S4x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  bcast_S_S100000 : S_.BroadcastsInDim S100000 (![] : Fin 0 → Fin S100000.rank)
  reducesTo_S100000_S_d0 : S100000.ReducesTo [0] S_

variable [Facts]

def fn_part3 {F : FTy → Type} [FloatOps F] (main_arg11 : IVec S100000 32) (main_v48 : IVec S_ 1) (main_v50 : IVec S100000 1) : IVec S_ 1 :=
  let main_c_19 : IVec S_ 1 := constantI S_ 1 1#1
  let main_v51 : IVec S_ 1 := (fun x v => Host.reduce IntOp.andi x v reducesTo_S100000_S_d0 h_S_) main_v50 main_c_19
  let main_v52 : IVec S_ 1 := andi main_v48 main_v51
  let main_c_20 : IVec S_ 32 := constantI S_ 32 512#32
  let main_v53 : IVec S100000 32 := broadcastInDim S100000 ![] bcast_S_S100000 main_c_20
  let main_v54 : IVec S100000 1 := cmpi .slt main_arg11 main_v53
  let main_c_21 : IVec S_ 1 := constantI S_ 1 1#1
  let main_v55 : IVec S_ 1 := (fun x v => Host.reduce IntOp.andi x v reducesTo_S100000_S_d0 h_S_) main_v54 main_c_21
  let main_v56 : IVec S_ 1 := andi main_v52 main_v55
  main_v56

def fn_part2 {F : FTy → Type} [FloatOps F] (main_arg7 : FVec F S16 .f32) (main_arg8 : FVec F S16x2 .f32) (main_arg9 : FVec F S2 .f32) (main_arg11 : IVec S100000 32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x2 .f32 := Host.absf main_arg8
  let main_cst_14 : FVec F S_ .f32 := constant S_ .f32 0x7F800000#32
  let main_v40 : FVec F S16x2 .f32 := broadcastInDim S16x2 ![] bcast_S_S16x2 main_cst_14
  let main_v41 : IVec S16x2 1 := cmpf .olt main_v39 main_v40
  let main_c_15 : IVec S_ 1 := constantI S_ 1 1#1
  let main_v42 : IVec S_ 1 := (fun x v => Host.reduce IntOp.andi x v reducesTo_S16x2_S_d0_1 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_c_18 : IVec S_ 32 := constantI S_ 32 0#32
  let main_v49 : IVec S100000 32 := broadcastInDim S100000 ![] bcast_S_S100000 main_c_18
  let main_v50 : IVec S100000 1 := cmpi .sge main_arg11 main_v49
  fn_part3 (F := F) main_arg11 main_v48 main_v50

def fn_part1 {F : FTy → Type} [FloatOps F] (main_arg4 : FVec F S32 .f32) (main_arg5 : FVec F S32 .f32) (main_arg6 : FVec F S32x16 .f32) (main_arg7 : FVec F S16 .f32) (main_arg8 : FVec F S16x2 .f32) (main_arg9 : FVec F S2 .f32) (main_arg11 : IVec S100000 32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg6
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg7 main_arg8 main_arg9 main_arg11 main_v33

def fn {F : FTy → Type} [FloatOps F] (main_arg0 : FVec F S100000x256 .f32) (main_arg1 : FVec F S100000x256 .f32) (main_arg2 : FVec F S4x32 .f32) (main_arg3 : FVec F S32 .f32) (main_arg4 : FVec F S32 .f32) (main_arg5 : FVec F S32 .f32) (main_arg6 : FVec F S32x16 .f32) (main_arg7 : FVec F S16 .f32) (main_arg8 : FVec F S16x2 .f32) (main_arg9 : FVec F S2 .f32) (main_arg10 : IVec S2x3200000 32) (main_arg11 : IVec S100000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S4x32 .f32 := Host.absf main_arg2
  let main_cst_2 : FVec F S_ .f32 := constant S_ .f32 0x7F800000#32
  let main_v10 : FVec F S4x32 .f32 := broadcastInDim S4x32 ![] bcast_S_S4x32 main_cst_2
  let main_v11 : IVec S4x32 1 := cmpf .olt main_v9 main_v10
  let main_c_3 : IVec S_ 1 := constantI S_ 1 1#1
  let main_v12 : IVec S_ 1 := (fun x v => Host.reduce IntOp.andi x v reducesTo_S4x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg11 main_v13 main_v16
-- ==== Kernel.lean ====
abbrev S100000x256 : Shape := ⟨2, ![100000, 256]⟩
abbrev S4x32 : Shape := ⟨2, ![4, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S100000 : Shape := ⟨1, ![100000]⟩
abbrev S100000x1 : Shape := ⟨2, ![100000, 1]⟩
abbrev S512x1 : Shape := ⟨2, ![512, 1]⟩
abbrev S512x256 : Shape := ⟨2, ![512, 256]⟩
abbrev S2000x256 : Shape := ⟨2, ![2000, 256]⟩
abbrev S2000x1 : Shape := ⟨2, ![2000, 1]⟩
abbrev S2000x512 : Shape := ⟨2, ![2000, 512]⟩
abbrev S512x2000 : Shape := ⟨2, ![512, 2000]⟩
abbrev S512 : Shape := ⟨1, ![512]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S512x4 : Shape := ⟨2, ![512, 4]⟩
abbrev S512x32 : Shape := ⟨2, ![512, 32]⟩
abbrev S1x32 : Shape := ⟨2, ![1, 32]⟩
abbrev S512x16 : Shape := ⟨2, ![512, 16]⟩
abbrev S1x16 : Shape := ⟨2, ![1, 16]⟩
abbrev S512x2 : Shape := ⟨2, ![512, 2]⟩
abbrev S1x2 : Shape := ⟨2, ![1, 2]⟩
abbrev S2000x2 : Shape := ⟨2, ![2000, 2]⟩

abbrev nBuf : Space → Nat
  | .hbm => 186
  | .vmem => 21
  | .smem => 0
  | _ => 0

abbrev hbmTy0_0 (i : Nat) : BufTy := match i % 128 with
  | 0 => ⟨S100000x256, .f32⟩
  | 1 => ⟨S100000x256, .f32⟩
  | 2 => ⟨S4x32, .f32⟩
  | 3 => ⟨S32, .f32⟩
  | 4 => ⟨S32, .f32⟩
  | 5 => ⟨S32, .f32⟩
  | 6 => ⟨S32x16, .f32⟩
  | 7 => ⟨S16, .f32⟩
  | 8 => ⟨S16x2, .f32⟩
  | 9 => ⟨S2, .f32⟩
  | 10 => ⟨S2x3200000, .i32⟩
  | 11 => ⟨S100000, .i32⟩
  | 12 => ⟨S100000x1, .i32⟩
  | 13 => ⟨S512x1, .f32⟩
  | 14 => ⟨S512x256, .f32⟩
  | 15 => ⟨S512x256, .f32⟩
  | 16 => ⟨S512, .f32⟩
  | 17 => ⟨S512x1, .f32⟩
  | 18 => ⟨S512x256, .f32⟩
  | 19 => ⟨S512x256, .f32⟩
  | 20 => ⟨S512x1, .f32⟩
  | 21 => ⟨S512x256, .f32⟩
  | 22 => ⟨S512x256, .f32⟩
  | 23 => ⟨S1x3200000, .i32⟩
  | 24 => ⟨S3200000, .i32⟩
  | 25 => ⟨S_, .i32⟩
  | 26 => ⟨S3200000, .i32⟩
  | 27 => ⟨S3200000, .i1⟩
  | 28 => ⟨S_, .i32⟩
  | 29 => ⟨S3200000, .i32⟩
  | 30 => ⟨S3200000, .i32⟩
  | 31 => ⟨S3200000, .i32⟩
  | 32 => ⟨S3200000x1, .i32⟩
  | 33 => ⟨S3200000, .i32⟩
  | 34 => ⟨S1x3200000, .i32⟩
  | 35 => ⟨S3200000, .i32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000, .i32⟩
  | 45 => ⟨S3200000, .i1⟩
  | 46 => ⟨S3200000, .f32⟩
  | 47 => ⟨S_, .f32⟩
  | 48 => ⟨S512, .f32⟩
  | 49 => ⟨S3200000x1, .i32⟩
  | 50 => ⟨S512, .f32⟩
  | 51 => ⟨S_, .f32⟩
  | 52 => ⟨S512, .f32⟩
  | 53 => ⟨S512, .f32⟩
  | 54 => ⟨S512, .f32⟩
  | 55 => ⟨S_, .f32⟩
  | 56 => ⟨S512, .f32⟩
  | 57 => ⟨S512, .f32⟩
  | 58 => ⟨S_, .f32⟩
  | 59 => ⟨S512, .f32⟩
  | 60 => ⟨S512, .f32⟩
  | 61 => ⟨S512, .f32⟩
  | 62 => ⟨S_, .f32⟩
  | 63 => ⟨S512, .f32⟩
  | 64 => ⟨S512, .f32⟩
  | 65 => ⟨S512, .f32⟩
  | 66 => ⟨S_, .f32⟩
  | 67 => ⟨S512, .f32⟩
  | 68 => ⟨S512, .f32⟩
  | 69 => ⟨S512, .f32⟩
  | 70 => ⟨S_, .f32⟩
  | 71 => ⟨S512, .f32⟩
  | 72 => ⟨S512, .f32⟩
  | 73 => ⟨S_, .f32⟩
  | 74 => ⟨S512, .f32⟩
  | 75 => ⟨S512, .f32⟩
  | 76 => ⟨S512x256, .f32⟩
  | 77 => ⟨S_, .f32⟩
  | 78 => ⟨S512, .f32⟩
  | 79 => ⟨S512x256, .f32⟩
  | 80 => ⟨S_, .f32⟩
  | 81 => ⟨S512, .f32⟩
  | 82 => ⟨S512, .f32⟩
  | 83 => ⟨S_, .f32⟩
  | 84 => ⟨S512, .f32⟩
  | 85 => ⟨S512, .f32⟩
  | 86 => ⟨S512x256, .f32⟩
  | 87 => ⟨S_, .f32⟩
  | 88 => ⟨S512, .f32⟩
  | 89 => ⟨S512, .f32⟩
  | 90 => ⟨S_, .f32⟩
  | 91 => ⟨S512, .f32⟩
  | 92 => ⟨S512, .f32⟩
  | 93 => ⟨S512, .f32⟩
  | 94 => ⟨S512, .f32⟩
  | 95 => ⟨S_, .f32⟩
  | 96 => ⟨S512, .f32⟩
  | 97 => ⟨S512, .f32⟩
  | 98 => ⟨S_, .f32⟩
  | 99 => ⟨S512, .f32⟩
  | 100 => ⟨S512, .f32⟩
  | 101 => ⟨S512x1, .f32⟩
  | 102 => ⟨S512x1, .f32⟩
  | 103 => ⟨S512x1, .f32⟩
  | 104 => ⟨S512x1, .f32⟩
  | 105 => ⟨S512x4, .f32⟩
  | 106 => ⟨S512x32, .f32⟩
  | 107 => ⟨S1x32, .f32⟩
  | 108 => ⟨S512x32, .f32⟩
  | 109 => ⟨S512x32, .f32⟩
  | 110 => ⟨S_, .f32⟩
  | 111 => ⟨S512, .f32⟩
  | 112 => ⟨S512x1, .f32⟩
  | 113 => ⟨S_, .f32⟩
  | 114 => ⟨S512x1, .f32⟩
  | 115 => ⟨S512x1, .f32⟩
  | 116 => ⟨S_, .i32⟩
  | 117 => ⟨S_, .f32⟩
  | 118 => ⟨S512, .f32⟩
  | 119 => ⟨S512x1, .f32⟩
  | 120 => ⟨S_, .f32⟩
  | 121 => ⟨S512x1, .f32⟩
  | 122 => ⟨S512x1, .f32⟩
  | 123 => ⟨S512x32, .f32⟩
  | 124 => ⟨S512x32, .f32⟩
  | 125 => ⟨S512x32, .f32⟩
  | 126 => ⟨S_, .f32⟩
  | 127 => ⟨S_, .f32⟩
  | _ => ⟨S100000x256, .f32⟩

abbrev hbmTy0_1 (i : Nat) : BufTy := match i % 128 with
  | 0 => ⟨S_, .f32⟩
  | 1 => ⟨S_, .f32⟩
  | 2 => ⟨S512, .f32⟩
  | 3 => ⟨S512x1, .f32⟩
  | 4 => ⟨S512x1, .f32⟩
  | 5 => ⟨S512x1, .f32⟩
  | 6 => ⟨S_, .f32⟩
  | 7 => ⟨S_, .i1⟩
  | 8 => ⟨S_, .f32⟩
  | 9 => ⟨S_, .f32⟩
  | 10 => ⟨S512x1, .f32⟩
  | 11 => ⟨S512x1, .f32⟩
  | 12 => ⟨S512x32, .f32⟩
  | 13 => ⟨S512x32, .f32⟩
  | 14 => ⟨S_, .f32⟩
  | 15 => ⟨S512x1, .f32⟩
  | 16 => ⟨S512x1, .f32⟩
  | 17 => ⟨S512x1, .f32⟩
  | 18 => ⟨S512x32, .f32⟩
  | 19 => ⟨S512x32, .f32⟩
  | 20 => ⟨S1x32, .f32⟩
  | 21 => ⟨S512x32, .f32⟩
  | 22 => ⟨S512x32, .f32⟩
  | 23 => ⟨S1x32, .f32⟩
  | 24 => ⟨S512x32, .f32⟩
  | 25 => ⟨S512x32, .f32⟩
  | 26 => ⟨S_, .f32⟩
  | 27 => ⟨S512x32, .f32⟩
  | 28 => ⟨S512x32, .f32⟩
  | 29 => ⟨S512x16, .f32⟩
  | 30 => ⟨S1x16, .f32⟩
  | 31 => ⟨S512x16, .f32⟩
  | 32 => ⟨S512x16, .f32⟩
  | 33 => ⟨S_, .f32⟩
  | 34 => ⟨S512x16, .f32⟩
  | 35 => ⟨S512x16, .f32⟩
  | 36 => ⟨S512x2, .f32⟩
  | 37 => ⟨S1x2, .f32⟩
  | 38 => ⟨S512x2, .f32⟩
  | 39 => ⟨S512x2, .f32⟩
  | 40 => ⟨S_, .f32⟩
  | 41 => ⟨S512x2, .f32⟩
  | 42 => ⟨S512x2, .f32⟩
  | 43 => ⟨S_, .f32⟩
  | 44 => ⟨S512, .f32⟩
  | 45 => ⟨S_, .f32⟩
  | 46 => ⟨S512, .f32⟩
  | 47 => ⟨S512, .f32⟩
  | 48 => ⟨S512x1, .f32⟩
  | 49 => ⟨S512x2, .f32⟩
  | 50 => ⟨S512x2, .f32⟩
  | 51 => ⟨S512x2, .f32⟩
  | 52 => ⟨S_, .f32⟩
  | 53 => ⟨S512, .f32⟩
  | 54 => ⟨S512x1, .f32⟩
  | 55 => ⟨S512x2, .f32⟩
  | 56 => ⟨S512x2, .f32⟩
  | 57 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x1, .i32⟩
  | .local _ .vmem, ⟨5, _⟩ => ⟨S2000x1, .i32⟩
  | .local _ .vmem, ⟨6, _⟩ => ⟨S512x1, .f32⟩
  | .local _ .vmem, ⟨7, _⟩ => ⟨S512x256, .f32⟩
  | .local _ .vmem, ⟨8, _⟩ => ⟨S512x256, .f32⟩
  | .local _ .vmem, ⟨9, _⟩ => ⟨S512x1, .f32⟩
  | .local _ .vmem, ⟨10, _⟩ => ⟨S512x256, .f32⟩
  | .local _ .vmem, ⟨11, _⟩ => ⟨S512x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x1, .i32⟩
  | .local _ .vmem, ⟨17, _⟩ => ⟨S2000x1, .i32⟩
  | .local _ .vmem, ⟨18, _⟩ => ⟨S512x2, .f32⟩
  | .local _ .vmem, ⟨19, _⟩ => ⟨S2000x256, .f32⟩
  | .local _ .vmem, ⟨20, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_call0_v0 : Ref sig .tc := ⟨.hbm, 79, rfl⟩
abbrev main_call0_cst : Ref sig .tc := ⟨.hbm, 80, rfl⟩
abbrev main_call0_v1 : Ref sig .tc := ⟨.hbm, 81, rfl⟩
abbrev main_v52 : Ref sig .tc := ⟨.hbm, 82, rfl⟩
abbrev main_cst_11 : Ref sig .tc := ⟨.hbm, 83, rfl⟩
abbrev main_v53 : Ref sig .tc := ⟨.hbm, 84, rfl⟩
abbrev main_v54 : Ref sig .tc := ⟨.hbm, 85, rfl⟩
abbrev main_call1_v0 : Ref sig .tc := ⟨.hbm, 86, rfl⟩
abbrev main_call1_cst : Ref sig .tc := ⟨.hbm, 87, rfl⟩
abbrev main_call1_v1 : Ref sig .tc := ⟨.hbm, 88, rfl⟩
abbrev main_v55 : Ref sig .tc := ⟨.hbm, 89, rfl⟩
abbrev main_cst_12 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_13 : Ref sig .tc := ⟨.hbm, 95, rfl⟩
abbrev main_v60 : Ref sig .tc := ⟨.hbm, 96, rfl⟩
abbrev main_v61 : Ref sig .tc := ⟨.hbm, 97, rfl⟩
abbrev main_cst_14 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_15 : Ref sig .tc := ⟨.hbm, 110, rfl⟩
abbrev main_v73 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_c_17 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_cst_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_cst_1 : Ref sig .tc := ⟨.hbm, 127, rfl⟩
abbrev main_call2_v8 : Ref sig .tc := ⟨.hbm, 128, rfl⟩
abbrev main_call2_cst_2 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_v12 : Ref sig .tc := ⟨.hbm, 133, rfl⟩
abbrev main_call2_cst_3 : Ref sig .tc := ⟨.hbm, 134, rfl⟩
abbrev main_call2_v13 : Ref sig .tc := ⟨.hbm, 135, rfl⟩
abbrev main_call2_cst_4 : Ref sig .tc := ⟨.hbm, 136, rfl⟩
abbrev main_call2_call0_v0 : Ref sig .tc := ⟨.hbm, 137, rfl⟩
abbrev main_call2_call0_v1 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_18 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_call3_cst : Ref sig .tc := ⟨.hbm, 154, rfl⟩
abbrev main_call3_v0 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_call4_cst : Ref sig .tc := ⟨.hbm, 161, rfl⟩
abbrev main_call4_v0 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_cst_19 : Ref sig .tc := ⟨.hbm, 168, rfl⟩
abbrev main_v101 : Ref sig .tc := ⟨.hbm, 169, rfl⟩
abbrev main_v102 : Ref sig .tc := ⟨.hbm, 170, rfl⟩
abbrev main_cst_20 : Ref sig .tc := ⟨.hbm, 171, rfl⟩
abbrev main_v103 : Ref sig .tc := ⟨.hbm, 172, rfl⟩
abbrev main_cst_21 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_cst_22 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v35 : BitVec 1 := Scalar.cmpi .eq arg0 c49_i32
  let v36 : BitVec 32 := Scalar.extui v35
  let c0_i32_21 : BitVec 32 := 0#32
  let v37 : BitVec 1 := Scalar.cmpi .ne v36 c0_i32_21
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S100000_S100000x1 : S100000.ShapeCasts S100000x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  bitsLt_bf16_f32 : FTy.bits .bf16 < FTy.bits .f32
  transposes_S2000x512_p1_0_S512x2000 : S2000x512.Transposes [1, 0] S512x2000
  inb_S2000x256_S2000x256_0_0 : ∀ a, (![0, 0] : Fin 2 → Nat) a + S2000x256.size a ≤ S2000x256.size a
  h_S2000x256 : 0 < S2000x256.numel
  shapeCasts_S512x1_S512 : S512x1.ShapeCasts S512
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  bcast_S_S512 : S_.BroadcastsInDim S512 (![] : Fin 0 → Fin S512.rank)
  reducesTo_S512x256_S512_d1 : S512x256.ReducesTo [1] S512
  h_S_ : 0 < S_.numel
  concatenates_S512x1_S512x1_S512x1_S512x1_S512x4_d1 : Shape.Concatenates [S512x1, S512x1, S512x1, S512x1] S512x4 1
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  reducesTo_S512x32_S512_d1 : S512x32.ReducesTo [1] S512
  bcast_S_S512x1 : S_.BroadcastsInDim S512x1 (![] : Fin 0 → Fin S512x1.rank)
  bcast_S512x1_S512x32_0_1 : S512x1.BroadcastsInDim S512x32 (![0, 1] : Fin 2 → Fin S512x32.rank)
  bcast_S_S512x32 : S_.BroadcastsInDim S512x32 (![] : Fin 0 → Fin S512x32.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  bcast_S_S512x16 : S_.BroadcastsInDim S512x16 (![] : Fin 0 → Fin S512x16.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  bcast_S_S512x2 : S_.BroadcastsInDim S512x2 (![] : Fin 0 → Fin S512x2.rank)
  reducesTo_S512x2_S512_d1 : S512x2.ReducesTo [1] S512
  bcast_S512x1_S512x2_0_1 : S512x1.BroadcastsInDim S512x2 (![0, 1] : Fin 2 → Fin S512x2.rank)
  inb_S512x2_S512x2_0_0 : ∀ a, (![0, 0] : Fin 2 → Nat) a + S512x2.size a ≤ S512x2.size a
  h_S512x2 : 0 < S512x2.numel
  shapeCasts_S512x2_S512x2 : S512x2.ShapeCasts S512x2
  slices_S2000x2_o0_0_S2000x1 : S2000x2.Slices ![0, 0] S2000x1
  slices_S2000x2_o0_1_S2000x1 : S2000x2.Slices ![0, 1] S2000x1
  broadcasts_S2000x1_S2000x256 : S2000x1.Broadcasts S2000x256
  dot_S512x2000_S2000x256_S512x256_1_0_0_1_n_n_wf : DotDims.WF S512x2000 S2000x256 S512x256 [1] [0] [0] [1] [] []
  dot_S512x2000_S2000x1_S512x1_1_0_0_1_n_n_wf : DotDims.WF S512x2000 S2000x1 S512x1 [1] [0] [0] [1] [] []
  gather_S100000_S3200000x1_S3200000_n_0_n_n_0_1_1_wf : GatherDims.WF S100000 S3200000x1 S3200000 [] [0] [] [0] [] 1 ![1]
  scatter_S512_S3200000x1_S3200000_n_0_0_1_wf : ScatterDims.WF S512 S3200000x1 S3200000 [] [0] [0] 1
  dot_S512x4_S4x32_S512x32_1_0_0_1_n_n_wf : DotDims.WF S512x4 S4x32 S512x32 [1] [0] [0] [1] [] []
  dot_S512x32_S32x16_S512x16_1_0_0_1_n_n_wf : DotDims.WF S512x32 S32x16 S512x16 [1] [0] [0] [1] [] []
  dot_S512x16_S16x2_S512x2_1_0_0_1_n_n_wf : DotDims.WF S512x16 S16x2 S512x2 [1] [0] [0] [1] [] []
  dot_S2000x512_S512x2_S2000x2_1_0_0_1_n_n_wf : DotDims.WF S2000x512 S512x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .i32 = 32 ∨ (Rect.block (s := S100000x1) S2000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .i32 = 32 ∨ (Rect.block (s := S100000x1) S2000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x2.size a ≤ S512x2.size a
  hwx1_3 : ∀ i : grid1.Coords, EltTy.bits .f32 = 32 ∨ (Rect.block (s := S512x2) S512x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S100000x256.size a
  hwx1_4 : ∀ i : grid1.Coords, EltTy.bits .f32 = 32 ∨ (Rect.block (s := S100000x256) S2000x256.size (cc1_transform_4 i) (hinb1_4 i)).WholeWords (EltTy.packing .f32)

variable [Facts₀]

def dot_S512x2000_S2000x256_S512x256_1_0_0_1_n_n : DotDims S512x2000 S2000x256 S512x256 where
  lhsContracting := [1]
  rhsContracting := [0]
  lhsNonContracting := [0]
  rhsNonContracting := [1]
  lhsBatch := []
  rhsBatch := []
  wf := dot_S512x2000_S2000x256_S512x256_1_0_0_1_n_n_wf
def dot_S512x2000_S2000x1_S512x1_1_0_0_1_n_n : DotDims S512x2000 S2000x1 S512x1 where
  lhsContracting := [1]
  rhsContracting := [0]
  lhsNonContracting := [0]
  rhsNonContracting := [1]
  lhsBatch := []
  rhsBatch := []
  wf := dot_S512x2000_S2000x1_S512x1_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S512_S3200000x1_S3200000_n_0_0_1 : ScatterDims S512 S3200000x1 S3200000 where
  updateWindowDims := []
  insertedWindowDims := [0]
  scatterDimsToOperandDims := [0]
  indexVectorDim := 1
  wf := scatter_S512_S3200000x1_S3200000_n_0_0_1_wf
def dot_S512x4_S4x32_S512x32_1_0_0_1_n_n : DotDims S512x4 S4x32 S512x32 where
  lhsContracting := [1]
  rhsContracting := [0]
  lhsNonContracting := [0]
  rhsNonContracting := [1]
  lhsBatch := []
  rhsBatch := []
  wf := dot_S512x4_S4x32_S512x32_1_0_0_1_n_n_wf
def dot_S512x32_S32x16_S512x16_1_0_0_1_n_n : DotDims S512x32 S32x16 S512x16 where
  lhsContracting := [1]
  rhsContracting := [0]
  lhsNonContracting := [0]
  rhsNonContracting := [1]
  lhsBatch := []
  rhsBatch := []
  wf := dot_S512x32_S32x16_S512x16_1_0_0_1_n_n_wf
def dot_S512x16_S16x2_S512x2_1_0_0_1_n_n : DotDims S512x16 S16x2 S512x2 where
  lhsContracting := [1]
  rhsContracting := [0]
  lhsNonContracting := [0]
  rhsNonContracting := [1]
  lhsBatch := []
  rhsBatch := []
  wf := dot_S512x16_S16x2_S512x2_1_0_0_1_n_n_wf
def dot_S2000x512_S512x2_S2000x2_1_0_0_1_n_n : DotDims S2000x512 S512x2 S2000x2 where
  lhsContracting := [1]
  rhsContracting := [0]
  lhsNonContracting := [0]
  rhsNonContracting := [1]
  lhsBatch := []
  rhsBatch := []
  wf := dot_S2000x512_S512x2_S2000x2_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S512x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S512x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S512x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v113) S512x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v114) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S4x32 : Shape := ⟨2, ![4, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S2x3200000 : Shape := ⟨2, ![2, 3200000]⟩
abbrev S100000 : Shape := ⟨1, ![100000]⟩
abbrev S_ : Shape := ⟨0, ![]⟩
abbrev S512 : Shape := ⟨1, ![512]⟩
abbrev S100000x1 : Shape := ⟨2, ![100000, 1]⟩
abbrev S1x3200000 : Shape := ⟨2, ![1, 3200000]⟩
abbrev S3200000 : Shape := ⟨1, ![3200000]⟩
abbrev S3200000x1 : Shape := ⟨2, ![3200000, 1]⟩
abbrev S512x256 : Shape := ⟨2, ![512, 256]⟩
abbrev S512x1 : Shape := ⟨2, ![512, 1]⟩
abbrev S512x4 : Shape := ⟨2, ![512, 4]⟩
abbrev S512x32 : Shape := ⟨2, ![512, 32]⟩
abbrev S1x32 : Shape := ⟨2, ![1, 32]⟩
abbrev S512x16 : Shape := ⟨2, ![512, 16]⟩
abbrev S1x16 : Shape := ⟨2, ![1, 16]⟩
abbrev S512x2 : Shape := ⟨2, ![512, 2]⟩
abbrev S1x2 : Shape := ⟨2, ![1, 2]⟩
abbrev S100000x2 : Shape := ⟨2, ![100000, 2]⟩

abbrev nBuf : Space → Nat
  | .hbm => 229
  | .vmem => 0
  | .smem => 0
  | _ => 0

abbrev hbmTy0_0 (i : Nat) : BufTy := match i % 128 with
  | 0 => ⟨S100000x256, .f32⟩
  | 1 => ⟨S100000x256, .f32⟩
  | 2 => ⟨S4x32, .f32⟩
  | 3 => ⟨S32, .f32⟩
  | 4 => ⟨S32, .f32⟩
  | 5 => ⟨S32, .f32⟩
  | 6 => ⟨S32x16, .f32⟩
  | 7 => ⟨S16, .f32⟩
  | 8 => ⟨S16x2, .f32⟩
  | 9 => ⟨S2, .f32⟩
  | 10 => ⟨S2x3200000, .i32⟩
  | 11 => ⟨S100000, .i32⟩
  | 12 => ⟨S_, .f32⟩
  | 13 => ⟨S100000, .f32⟩
  | 14 => ⟨S_, .f32⟩
  | 15 => ⟨S512, .f32⟩
  | 16 => ⟨S100000x1, .i32⟩
  | 17 => ⟨S512, .f32⟩
  | 18 => ⟨S1x3200000, .i32⟩
  | 19 => ⟨S3200000, .i32⟩
  | 20 => ⟨S_, .i32⟩
  | 21 => ⟨S3200000, .i32⟩
  | 22 => ⟨S3200000, .i1⟩
  | 23 => ⟨S_, .i32⟩
  | 24 => ⟨S3200000, .i32⟩
  | 25 => ⟨S3200000, .i32⟩
  | 26 => ⟨S3200000, .i32⟩
  | 27 => ⟨S3200000x1, .i32⟩
  | 28 => ⟨S3200000, .i32⟩
  | 29 => ⟨S1x3200000, .i32⟩
  | 30 => ⟨S3200000, .i32⟩
  | 31 => ⟨S_, .i32⟩
  | 32 => ⟨S3200000, .i32⟩
  | 33 => ⟨S3200000, .i1⟩
  | 34 => ⟨S_, .i32⟩
  | 35 => ⟨S3200000, .i32⟩
  | 36 => ⟨S3200000, .i32⟩
  | 37 => ⟨S3200000, .i32⟩
  | 38 => ⟨S3200000x1, .i32⟩
  | 39 => ⟨S3200000, .i32⟩
  | 40 => ⟨S3200000, .i1⟩
  | 41 => ⟨S3200000, .f32⟩
  | 42 => ⟨S_, .f32⟩
  | 43 => ⟨S512, .f32⟩
  | 44 => ⟨S3200000x1, .i32⟩
  | 45 => ⟨S512, .f32⟩
  | 46 => ⟨S_, .f32⟩
  | 47 => ⟨S512, .f32⟩
  | 48 => ⟨S512, .f32⟩
  | 49 => ⟨S512, .f32⟩
  | 50 => ⟨S_, .f32⟩
  | 51 => ⟨S512, .f32⟩
  | 52 => ⟨S512, .f32⟩
  | 53 => ⟨S_, .f32⟩
  | 54 => ⟨S512, .f32⟩
  | 55 => ⟨S512, .f32⟩
  | 56 => ⟨S512, .f32⟩
  | 57 => ⟨S_, .f32⟩
  | 58 => ⟨S512, .f32⟩
  | 59 => ⟨S512, .f32⟩
  | 60 => ⟨S512, .f32⟩
  | 61 => ⟨S_, .f32⟩
  | 62 => ⟨S512, .f32⟩
  | 63 => ⟨S512, .f32⟩
  | 64 => ⟨S512, .f32⟩
  | 65 => ⟨S_, .f32⟩
  | 66 => ⟨S512, .f32⟩
  | 67 => ⟨S512, .f32⟩
  | 68 => ⟨S_, .f32⟩
  | 69 => ⟨S512, .f32⟩
  | 70 => ⟨S512, .f32⟩
  | 71 => ⟨S_, .f32⟩
  | 72 => ⟨S512x256, .f32⟩
  | 73 => ⟨S100000x1, .i32⟩
  | 74 => ⟨S512x256, .f32⟩
  | 75 => ⟨S512x1, .f32⟩
  | 76 => ⟨S512x256, .f32⟩
  | 77 => ⟨S512x256, .f32⟩
  | 78 => ⟨S_, .f32⟩
  | 79 => ⟨S512x256, .f32⟩
  | 80 => ⟨S100000x1, .i32⟩
  | 81 => ⟨S512x256, .f32⟩
  | 82 => ⟨S512x1, .f32⟩
  | 83 => ⟨S512x256, .f32⟩
  | 84 => ⟨S512x256, .f32⟩
  | 85 => ⟨S512x256, .f32⟩
  | 86 => ⟨S_, .f32⟩
  | 87 => ⟨S512, .f32⟩
  | 88 => ⟨S512x256, .f32⟩
  | 89 => ⟨S_, .f32⟩
  | 90 => ⟨S512, .f32⟩
  | 91 => ⟨S512, .f32⟩
  | 92 => ⟨S_, .f32⟩
  | 93 => ⟨S512, .f32⟩
  | 94 => ⟨S512, .f32⟩
  | 95 => ⟨S512x256, .f32⟩
  | 96 => ⟨S_, .f32⟩
  | 97 => ⟨S512, .f32⟩
  | 98 => ⟨S512, .f32⟩
  | 99 => ⟨S_, .f32⟩
  | 100 => ⟨S512, .f32⟩
  | 101 => ⟨S512, .f32⟩
  | 102 => ⟨S512, .f32⟩
  | 103 => ⟨S512, .f32⟩
  | 104 => ⟨S_, .f32⟩
  | 105 => ⟨S512, .f32⟩
  | 106 => ⟨S512, .f32⟩
  | 107 => ⟨S_, .f32⟩
  | 108 => ⟨S512, .f32⟩
  | 109 => ⟨S512, .f32⟩
  | 110 => ⟨S512x1, .f32⟩
  | 111 => ⟨S512x1, .f32⟩
  | 112 => ⟨S512x1, .f32⟩
  | 113 => ⟨S512x1, .f32⟩
  | 114 => ⟨S512x4, .f32⟩
  | 115 => ⟨S512x32, .f32⟩
  | 116 => ⟨S1x32, .f32⟩
  | 117 => ⟨S512x32, .f32⟩
  | 118 => ⟨S512x32, .f32⟩
  | 119 => ⟨S_, .f32⟩
  | 120 => ⟨S512, .f32⟩
  | 121 => ⟨S512x1, .f32⟩
  | 122 => ⟨S_, .f32⟩
  | 123 => ⟨S512x1, .f32⟩
  | 124 => ⟨S512x1, .f32⟩
  | 125 => ⟨S_, .i32⟩
  | 126 => ⟨S_, .f32⟩
  | 127 => ⟨S512, .f32⟩
  | _ => ⟨S100000x256, .f32⟩

abbrev hbmTy0_1 (i : Nat) : BufTy := match i % 128 with
  | 0 => ⟨S512x1, .f32⟩
  | 1 => ⟨S_, .f32⟩
  | 2 => ⟨S512x1, .f32⟩
  | 3 => ⟨S512x1, .f32⟩
  | 4 => ⟨S512x32, .f32⟩
  | 5 => ⟨S512x32, .f32⟩
  | 6 => ⟨S512x32, .f32⟩
  | 7 => ⟨S_, .f32⟩
  | 8 => ⟨S_, .f32⟩
  | 9 => ⟨S_, .f32⟩
  | 10 => ⟨S_, .f32⟩
  | 11 => ⟨S512, .f32⟩
  | 12 => ⟨S512x1, .f32⟩
  | 13 => ⟨S512x1, .f32⟩
  | 14 => ⟨S512x1, .f32⟩
  | 15 => ⟨S_, .f32⟩
  | 16 => ⟨S_, .i1⟩
  | 17 => ⟨S_, .f32⟩
  | 18 => ⟨S_, .f32⟩
  | 19 => ⟨S512x1, .f32⟩
  | 20 => ⟨S512x1, .f32⟩
  | 21 => ⟨S512x32, .f32⟩
  | 22 => ⟨S512x32, .f32⟩
  | 23 => ⟨S_, .f32⟩
  | 24 => ⟨S512x1, .f32⟩
  | 25 => ⟨S512x1, .f32⟩
  | 26 => ⟨S512x1, .f32⟩
  | 27 => ⟨S512x32, .f32⟩
  | 28 => ⟨S512x32, .f32⟩
  | 29 => ⟨S1x32, .f32⟩
  | 30 => ⟨S512x32, .f32⟩
  | 31 => ⟨S512x32, .f32⟩
  | 32 => ⟨S1x32, .f32⟩
  | 33 => ⟨S512x32, .f32⟩
  | 34 => ⟨S512x32, .f32⟩
  | 35 => ⟨S_, .f32⟩
  | 36 => ⟨S512x32, .f32⟩
  | 37 => ⟨S512x32, .f32⟩
  | 38 => ⟨S512x16, .f32⟩
  | 39 => ⟨S1x16, .f32⟩
  | 40 => ⟨S512x16, .f32⟩
  | 41 => ⟨S512x16, .f32⟩
  | 42 => ⟨S_, .f32⟩
  | 43 => ⟨S512x16, .f32⟩
  | 44 => ⟨S512x16, .f32⟩
  | 45 => ⟨S512x2, .f32⟩
  | 46 => ⟨S1x2, .f32⟩
  | 47 => ⟨S512x2, .f32⟩
  | 48 => ⟨S512x2, .f32⟩
  | 49 => ⟨S_, .f32⟩
  | 50 => ⟨S512x2, .f32⟩
  | 51 => ⟨S512x2, .f32⟩
  | 52 => ⟨S_, .f32⟩
  | 53 => ⟨S512, .f32⟩
  | 54 => ⟨S_, .f32⟩
  | 55 => ⟨S512, .f32⟩
  | 56 => ⟨S512, .f32⟩
  | 57 => ⟨S512x1, .f32⟩
  | 58 => ⟨S512x2, .f32⟩
  | 59 => ⟨S512x2, .f32⟩
  | 60 => ⟨S512x2, .f32⟩
  | 61 => ⟨S_, .f32⟩
  | 62 => ⟨S512, .f32⟩
  | 63 => ⟨S512x1, .f32⟩
  | 64 => ⟨S512x2, .f32⟩
  | 65 => ⟨S512x2, .f32⟩
  | 66 => ⟨S_, .i32⟩
  | 67 => ⟨S100000, .i32⟩
  | 68 => ⟨S100000, .i1⟩
  | 69 => ⟨S_, .i32⟩
  | 70 => ⟨S100000, .i32⟩
  | 71 => ⟨S100000, .i32⟩
  | 72 => ⟨S100000, .i32⟩
  | 73 => ⟨S_, .i32⟩
  | 74 => ⟨S100000, .i32⟩
  | 75 => ⟨S100000, .i32⟩
  | 76 => ⟨S100000x1, .i32⟩
  | 77 => ⟨S100000x1, .i32⟩
  | 78 => ⟨S100000x2, .i32⟩
  | 79 => ⟨S100000, .f32⟩
  | 80 => ⟨S100000x1, .f32⟩
  | 81 => ⟨S_, .i32⟩
  | 82 => ⟨S100000, .i32⟩
  | 83 => ⟨S100000, .i1⟩
  | 84 => ⟨S_, .i32⟩
  | 85 => ⟨S100000, .i32⟩
  | 86 => ⟨S100000, .i32⟩
  | 87 => ⟨S100000, .i32⟩
  | 88 => ⟨S_, .i32⟩
  | 89 => ⟨S100000, .i32⟩
  | 90 => ⟨S100000, .i32⟩
  | 91 => ⟨S100000x1, .i32⟩
  | 92 => ⟨S100000x1, .i32⟩
  | 93 => ⟨S100000x2, .i32⟩
  | 94 => ⟨S100000, .f32⟩
  | 95 => ⟨S100000x1, .f32⟩
  | 96 => ⟨S100000x256, .f32⟩
  | 97 => ⟨S100000x256, .f32⟩
  | 98 => ⟨S100000x256, .f32⟩
  | 99 => ⟨S100000x256, .f32⟩
  | 100 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_cst_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_13 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_v58 : Ref sig .tc := ⟨.hbm, 87, rfl⟩
abbrev main_call0_v0 : Ref sig .tc := ⟨.hbm, 88, rfl⟩
abbrev main_call0_cst : Ref sig .tc := ⟨.hbm, 89, rfl⟩
abbrev main_call0_v1 : Ref sig .tc := ⟨.hbm, 90, rfl⟩
abbrev main_v59 : Ref sig .tc := ⟨.hbm, 91, rfl⟩
abbrev main_cst_15 : Ref sig .tc := ⟨.hbm, 92, rfl⟩
abbrev main_v60 : Ref sig .tc := ⟨.hbm, 93, rfl⟩
abbrev main_v61 : Ref sig .tc := ⟨.hbm, 94, rfl⟩
abbrev main_call1_v0 : Ref sig .tc := ⟨.hbm, 95, rfl⟩
abbrev main_call1_cst : Ref sig .tc := ⟨.hbm, 96, rfl⟩
abbrev main_call1_v1 : Ref sig .tc := ⟨.hbm, 97, rfl⟩
abbrev main_v62 : Ref sig .tc := ⟨.hbm, 98, rfl⟩
abbrev main_cst_16 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_17 : Ref sig .tc := ⟨.hbm, 104, rfl⟩
abbrev main_v67 : Ref sig .tc := ⟨.hbm, 105, rfl⟩
abbrev main_v68 : Ref sig .tc := ⟨.hbm, 106, rfl⟩
abbrev main_cst_18 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_19 : Ref sig .tc := ⟨.hbm, 119, rfl⟩
abbrev main_v80 : Ref sig .tc := ⟨.hbm, 120, rfl⟩
abbrev main_v81 : Ref sig .tc := ⟨.hbm, 121, rfl⟩
abbrev main_cst_20 : Ref sig .tc := ⟨.hbm, 122, rfl⟩
abbrev main_v82 : Ref sig .tc := ⟨.hbm, 123, rfl⟩
abbrev main_v83 : Ref sig .tc := ⟨.hbm, 124, rfl⟩
abbrev main_c_21 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_cst_0 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_v5 : Ref sig .tc := ⟨.hbm, 133, rfl⟩
abbrev main_call2_v6 : Ref sig .tc := ⟨.hbm, 134, rfl⟩
abbrev main_call2_v7 : Ref sig .tc := ⟨.hbm, 135, rfl⟩
abbrev main_call2_cst_1 : Ref sig .tc := ⟨.hbm, 136, rfl⟩
abbrev main_call2_v8 : Ref sig .tc := ⟨.hbm, 137, rfl⟩
abbrev main_call2_cst_2 : Ref sig .tc := ⟨.hbm, 138, rfl⟩
abbrev main_call2_v9 : Ref sig .tc := ⟨.hbm, 139, rfl⟩
abbrev main_call2_v10 : Ref sig .tc := ⟨.hbm, 140, rfl⟩
abbrev main_call2_v11 : Ref sig .tc := ⟨.hbm, 141, rfl⟩
abbrev main_call2_v12 : Ref sig .tc := ⟨.hbm, 142, rfl⟩
abbrev main_call2_cst_3 : Ref sig .tc := ⟨.hbm, 143, rfl⟩
abbrev main_call2_v13 : Ref sig .tc := ⟨.hbm, 144, rfl⟩
abbrev main_call2_cst_4 : Ref sig .tc := ⟨.hbm, 145, rfl⟩
abbrev main_call2_call0_v0 : Ref sig .tc := ⟨.hbm, 146, rfl⟩
abbrev main_call2_call0_v1 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_cst_22 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_call3_cst : Ref sig .tc := ⟨.hbm, 163, rfl⟩
abbrev main_call3_v0 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_call4_cst : Ref sig .tc := ⟨.hbm, 170, rfl⟩
abbrev main_call4_v0 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_cst_23 : Ref sig .tc := ⟨.hbm, 177, rfl⟩
abbrev main_v108 : Ref sig .tc := ⟨.hbm, 178, rfl⟩
abbrev main_v109 : Ref sig .tc := ⟨.hbm, 179, rfl⟩
abbrev main_cst_24 : Ref sig .tc := ⟨.hbm, 180, rfl⟩
abbrev main_v110 : Ref sig .tc := ⟨.hbm, 181, rfl⟩
abbrev main_cst_25 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_cst_26 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_c_27 : Ref sig .tc := ⟨.hbm, 194, rfl⟩
abbrev main_v121 : Ref sig .tc := ⟨.hbm, 195, rfl⟩
abbrev main_v122 : Ref sig .tc := ⟨.hbm, 196, rfl⟩
abbrev main_c_28 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_c_29 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_c_30 : Ref sig .tc := ⟨.hbm, 209, rfl⟩
abbrev main_v133 : Ref sig .tc := ⟨.hbm, 210, rfl⟩
abbrev main_v134 : Ref sig .tc := ⟨.hbm, 211, rfl⟩
abbrev main_c_31 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_c_32 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S_S512 : S_.BroadcastsInDim S512 (![] : Fin 0 → Fin S512.rank)
  bcast_S100000_S100000x1_0 : S100000.BroadcastsInDim S100000x1 (![0] : Fin 1 → Fin S100000x1.rank)
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  bcast_S_S512x256 : S_.BroadcastsInDim S512x256 (![] : Fin 0 → Fin S512x256.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  reducesTo_S512x256_S512_d1 : S512x256.ReducesTo [1] S512
  h_S_ : 0 < S_.numel
  concatenates_S512x1_S512x1_S512x1_S512x1_S512x4_d1 : Shape.Concatenates [S512x1, S512x1, S512x1, S512x1] S512x4 1
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  reducesTo_S512x32_S512_d1 : S512x32.ReducesTo [1] S512
  bcast_S_S512x1 : S_.BroadcastsInDim S512x1 (![] : Fin 0 → Fin S512x1.rank)
  bcast_S512x1_S512x32_0_1 : S512x1.BroadcastsInDim S512x32 (![0, 1] : Fin 2 → Fin S512x32.rank)
  bcast_S_S512x32 : S_.BroadcastsInDim S512x32 (![] : Fin 0 → Fin S512x32.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  bcast_S_S512x16 : S_.BroadcastsInDim S512x16 (![] : Fin 0 → Fin S512x16.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  bcast_S_S512x2 : S_.BroadcastsInDim S512x2 (![] : Fin 0 → Fin S512x2.rank)
  reducesTo_S512x2_S512_d1 : S512x2.ReducesTo [1] S512
  bcast_S512x1_S512x2_0_1 : S512x1.BroadcastsInDim S512x2 (![0, 1] : Fin 2 → Fin S512x2.rank)
  concatenates_S100000x1_S100000x1_S100000x2_d1 : Shape.Concatenates [S100000x1, S100000x1] S100000x2 1
  bcast_S100000x1_S100000x256_0_1 : S100000x1.BroadcastsInDim S100000x256 (![0, 1] : Fin 2 → Fin S100000x256.rank)
  scatter_S512_S100000x1_S100000_n_0_0_1_wf : ScatterDims.WF S512 S100000x1 S100000 [] [0] [0] 1
  gather_S100000_S3200000x1_S3200000_n_0_n_n_0_1_1_wf : GatherDims.WF S100000 S3200000x1 S3200000 [] [0] [] [0] [] 1 ![1]
  scatter_S512_S3200000x1_S3200000_n_0_0_1_wf : ScatterDims.WF S512 S3200000x1 S3200000 [] [0] [0] 1
  scatter_S512x256_S100000x1_S100000x256_1_0_0_1_wf : ScatterDims.WF S512x256 S100000x1 S100000x256 [1] [0] [0] 1
  dot_S512x4_S4x32_S512x32_1_0_0_1_n_n_wf : DotDims.WF S512x4 S4x32 S512x32 [1] [0] [0] [1] [] []
  dot_S512x32_S32x16_S512x16_1_0_0_1_n_n_wf : DotDims.WF S512x32 S32x16 S512x16 [1] [0] [0] [1] [] []
  dot_S512x16_S16x2_S512x2_1_0_0_1_n_n_wf : DotDims.WF S512x16 S16x2 S512x2 [1] [0] [0] [1] [] []
  gather_S512x2_S100000x2_S100000_n_01_n_n_01_1_11_wf : GatherDims.WF S512x2 S100000x2 S100000 [] [0, 1] [] [0, 1] [] 1 ![1, 1]

variable [Facts₀]

def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S512_S3200000x1_S3200000_n_0_0_1 : ScatterDims S512 S3200000x1 S3200000 where
  updateWindowDims := []
  insertedWindowDims := [0]
  scatterDimsToOperandDims := [0]
  indexVectorDim := 1
  wf := scatter_S512_S3200000x1_S3200000_n_0_0_1_wf
def scatter_S512x256_S100000x1_S100000x256_1_0_0_1 : ScatterDims S512x256 S100000x1 S100000x256 where
  updateWindowDims := [1]
  insertedWindowDims := [0]
  scatterDimsToOperandDims := [0]
  indexVectorDim := 1
  wf := scatter_S512x256_S100000x1_S100000x256_1_0_0_1_wf
def dot_S512x4_S4x32_S512x32_1_0_0_1_n_n : DotDims S512x4 S4x32 S512x32 where
  lhsContracting := [1]
  rhsContracting := [0]
  lhsNonContracting := [0]
  rhsNonContracting := [1]
  lhsBatch := []
  rhsBatch := []
  wf := dot_S512x4_S4x32_S512x32_1_0_0_1_n_n_wf
def dot_S512x32_S32x16_S512x16_1_0_0_1_n_n : DotDims S512x32 S32x16 S512x16 where
  lhsContracting := [1]
  rhsContracting := [0]
  lhsNonContracting := [0]
  rhsNonContracting := [1]
  lhsBatch := []
  rhsBatch := []
  wf := dot_S512x32_S32x16_S512x16_1_0_0_1_n_n_wf
def dot_S512x16_S16x2_S512x2_1_0_0_1_n_n : DotDims S512x16 S16x2 S512x2 where
  lhsContracting := [1]
  rhsContracting := [0]
  lhsNonContracting := [0]
  rhsNonContracting := [1]
  lhsBatch := []
  rhsBatch := []
  wf := dot_S512x16_S16x2_S512x2_1_0_0_1_n_n_wf
def gather_S512x2_S100000x2_S100000_n_01_n_n_01_1_11 : GatherDims S512x2 S100000x2 S100000 where
  offsetDims := []
  collapsedSliceDims := [0, 1]
  operandBatchingDims := []
  startIndicesBatchingDims := []
  startIndexMap := [0, 1]
  indexVectorDim := 1
  sliceSizes := ![1, 1]
  wf := gather_S512x2_S100000x2_S100000_n_01_n_n_01_1_11_wf

class Facts : Prop extends Facts₀ where

variable [Facts]
-- ==== Proof.KI.Pool.Base.lean ====
import proofs.«412715_j18631568130347_1_alg».proof.Proof.Gen.KernelIdeal.Launch
import proofs.«412715_j18631568130347_1_alg».proof.Proof.Gen.KernelIdeal.Skeleton
import proofs.«412715_j18631568130347_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling region: what its three control cases share

The body tests the grid coordinate twice: "is this the first point" guards the zeroing of the accumulators, "is this
the last point" guards the copy of the accumulators to the output windows. On the 50-point grid each test holds at
exactly one point and the two never hold together. -/

/-- The test of the first conditional: the grid coordinate is 0. -/
abbrev condFirst (i : grid0.Coords) : Prop :=
  (Scalar.cmpi .ne (Scalar.extui (Scalar.cmpi .eq (BitVec.ofNat 32 (i 0).val) 0#32)) 0#32) = 1#1

/-- It holds at point 0 only. -/
theorem hcondFirst : ∀ t : Fin cfg0.N, condFirst (grid0.coords t) ↔ t.val = 0 :=
  (by decide +kernel : ∀ t : Fin grid0.N, condFirst (grid0.coords t) ↔ t.val = 0)

/-- The test of the second conditional: the grid coordinate is 49. -/
abbrev condLast (i : grid0.Coords) : Prop := k0_cond2 i = 1#1

/-- It holds at point 49 only. -/
theorem hcondLast : ∀ t : Fin cfg0.N, condLast (grid0.coords t) ↔ t.val = 49 :=
  (by decide +kernel : ∀ t : Fin grid0.N, condLast (grid0.coords t) ↔ t.val = 49)

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- Away from the last point the three outputs are idle and not written back. -/
theorem idleAt0_3 : ∀ t : Fin cfg0.N, ¬condLast (grid0.coords t) → cfg0.idle 3 (grid0.coords t) = true := by decide +kernel
theorem idleAt0_4 : ∀ t : Fin cfg0.N, ¬condLast (grid0.coords t) → cfg0.idle 4 (grid0.coords t) = true := by decide +kernel
theorem idleAt0_5 : ∀ t : Fin cfg0.N, ¬condLast (grid0.coords t) → cfg0.idle 5 (grid0.coords t) = true := by decide +kernel
theorem noFlush0_3 : ∀ t : Fin cfg0.N, ¬condLast (grid0.coords t) → (cfg0.win 3).flush t = false := by decide +kernel
theorem noFlush0_4 : ∀ t : Fin cfg0.N, ¬condLast (grid0.coords t) → (cfg0.win 4).flush t = false := by decide +kernel
theorem noFlush0_5 : ∀ t : Fin cfg0.N, ¬condLast (grid0.coords t) → (cfg0.win 5).flush t = false := by decide +kernel

/-- At the last point they are live. -/
theorem liveAt0_3 : ∀ t : Fin cfg0.N, condLast (grid0.coords t) → cfg0.idle 3 (grid0.coords t) = false := by decide +kernel
theorem liveAt0_4 : ∀ t : Fin cfg0.N, condLast (grid0.coords t) → cfg0.idle 4 (grid0.coords t) = false := by decide +kernel
theorem liveAt0_5 : ∀ t : Fin cfg0.N, condLast (grid0.coords t) → cfg0.idle 5 (grid0.coords t) = false := by decide +kernel

/-- The whole-buffer rectangle's offsets are zero. -/
theorem off0 : (![0, 0] : Fin 2 → ℕ) = fun _ => 0 := funext fun a => by fin_cases a <;> rfl

/-- The whole-buffer rectangle of the count accumulator's shape, and of the sum accumulators' shape. -/
abbrev rN : Rect S512x1 := Rect.unit (s := S512x1) ![0, 0] S512x1.size inb_S512x1_S512x1_0_0
abbrev rP : Rect S512x256 := Rect.unit (s := S512x256) ![0, 0] S512x256.size inb_S512x256_S512x256_0_0

/-- A store through the whole-buffer rectangle, last, covers every index whatever was stored before it. -/
theorem coverN (w : Vec F S512x1 .f32) (L : List (View.Piece (Elt F) S512x1 .f32)) (y : S512x1.Idx) :
    ∃ pc ∈ ((⟨rN, w⟩ : View.Piece (Elt F) S512x1 .f32) :: L), y ∈ pc.1.set :=
  ⟨_, List.mem_cons_self, View.mem_set_unit_zero off0 inb_S512x1_S512x1_0_0 y⟩
theorem coverP (w : Vec F S512x256 .f32) (L : List (View.Piece (Elt F) S512x256 .f32)) (y : S512x256.Idx) :
    ∃ pc ∈ ((⟨rP, w⟩ : View.Piece (Elt F) S512x256 .f32) :: L), y ∈ pc.1.set :=
  ⟨_, List.mem_cons_self, View.mem_set_unit_zero off0 inb_S512x256_S512x256_0_0 y⟩

end Cert.KernelIdeal.Hand

end
-- ==== Proof.KI.Pool.RunA.lean ====
import proofs.«412715_j18631568130347_1_alg».proof.Proof.KI.Pool.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling body at the first point

The first conditional is taken and the second is not: the body zeroes the three accumulators, reads the three input
blocks, adds the block's contribution into each accumulator and leaves the output windows untouched. -/

set_option maxHeartbeats 4000000 in
/-- The body at the first point, on whole memrefs: the inputs at `x0 x1 x2`, the output windows at `o3 o4 o5`
    (untouched), the accumulators at anything; it leaves the accumulators at the update of the zeros by the block. -/
theorem runA (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S2000x1 .i32) (harg3 : arg3.IsWhole) (arg4 : Memref sig .tc .vmem S512x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x1 .f32) (harg7 : arg7.IsWhole) (arg8 : Memref sig .tc .vmem S512x256 .f32) (harg8 : arg8.IsWhole) (arg9 : Memref sig .tc .vmem S512x256 .f32) (harg9 : arg9.IsWhole)
    (hc0 : condFirst i) (hc2 : ¬condLast i)
    (x0 x1 : Vec F S2000x256 .f32) (x2 : Vec F S2000x1 .i32)
    (o3 : Vec F S512x1 .f32) (o4 o5 : Vec F S512x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o3 ∗ owns (c : Thread nD τ) arg5 fullShare o4 ∗ owns (c : Thread nD τ) arg6 fullShare o5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare o3 ∗ owns (c : Thread nD τ) arg5 fullShare o4 ∗ owns (c : Thread nD τ) arg6 fullShare o5
            ∗ owns (c : Thread nD τ) arg7 fullShare (k0_pay1 (k0_pay8 x2 k0_pay2)) ∗ owns (c : Thread nD τ) arg8 fullShare (k0_pay6 x2 x0 k0_pay3) ∗ owns (c : Thread nD τ) arg9 fullShare (k0_pay7 x2 x1 k0_pay4)) -∗ K ⟨⟩))
      ⊢ wp frame (wpE (defs₀ (F := F)) Variants.none c none) E (cc0__pool_kernel i arg1 harg1 arg2 harg2 arg3 harg3 arg4 harg4 arg5 harg5 arg6 harg6 arg7 harg7 arg8 harg8 arg9 harg9) K := by
  simp only [cc0__pool_kernel_eq_skeleton]; unfold cc0__pool_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d0, %g0, -, HS0⟩, ⟨%d1, %g1, -, HS1⟩, ⟨%d2, %g2, -, HS2⟩, Hk⟩
  obtain rfl := harg1.eq_unread hf0; obtain rfl := harg2.eq_unread hf1; obtain rfl := harg3.eq_unread hf2
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [HS0]
  · iexists _; isplitr
    swap; · iexact HS0
    ipureintro
    rw [View.read_writes_eq_canon _ _ _ (coverN _ _), View.canon_cons_unit_zero (S := S512x1) off0]
    sl_unfold_words
    simp only [View.readAt_eq_ld, harg3.read_unread, View.readCov_unit_zero (S := S512x1) _ off0, View.ld_unit_zero (S := S2000x1) off0, View.ld_unit_zero (S := S2000x256) off0, View.ld_unit_zero (S := S512x1) off0, View.ld_unit_zero (S := S512x256) off0]
  isplitl [HS1]
  · iexists _; isplitr
    swap; · iexact HS1
    ipureintro
    rw [View.read_writes_eq_canon _ _ _ (coverP _ _), View.canon_cons_unit_zero (S := S512x256) off0]
    sl_unfold_words
    simp only [View.readAt_eq_ld, harg3.read_unread, harg1.read_unread, View.readCov_unit_zero (S := S512x256) _ off0, View.ld_unit_zero (S := S2000x1) off0, View.ld_unit_zero (S := S2000x256) off0, View.ld_unit_zero (S := S512x1) off0, View.ld_unit_zero (S := S512x256) off0]
  iexists _; isplitr
  swap; · iexact HS2
  ipureintro
  rw [View.read_writes_eq_canon _ _ _ (coverP _ _), View.canon_cons_unit_zero (S := S512x256) off0]
  sl_unfold_words
  simp only [View.readAt_eq_ld, harg3.read_unread, harg2.read_unread, View.readCov_unit_zero (S := S512x256) _ off0, View.ld_unit_zero (S := S2000x1) off0, View.ld_unit_zero (S := S2000x256) off0, View.ld_unit_zero (S := S512x1) off0, View.ld_unit_zero (S := S512x256) off0]

end Cert.KernelIdeal.Hand

end
-- ==== Proof.KI.Pool.RunB.lean ====
import proofs.«412715_j18631568130347_1_alg».proof.Proof.KI.Pool.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling body at a middle point

Neither conditional is taken: the body reads the three input blocks, adds the block's contribution into each of the
three accumulators and leaves the output windows untouched. -/

set_option maxHeartbeats 4000000 in
/-- The body at a point that is neither first nor last, on whole memrefs: the inputs at `x0 x1 x2`, the output
    windows at `o3 o4 o5` (untouched), the accumulators at `s0 s1 s2`; it leaves the accumulators at the update of
    `s0 s1 s2` by the block. -/
theorem runB (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S2000x1 .i32) (harg3 : arg3.IsWhole) (arg4 : Memref sig .tc .vmem S512x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x1 .f32) (harg7 : arg7.IsWhole) (arg8 : Memref sig .tc .vmem S512x256 .f32) (harg8 : arg8.IsWhole) (arg9 : Memref sig .tc .vmem S512x256 .f32) (harg9 : arg9.IsWhole)
    (hc0 : ¬condFirst i) (hc2 : ¬condLast i)
    (x0 x1 : Vec F S2000x256 .f32) (x2 : Vec F S2000x1 .i32)
    (o3 : Vec F S512x1 .f32) (o4 o5 : Vec F S512x256 .f32)
    (s0 : Vec F S512x1 .f32) (s1 s2 : Vec F S512x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o3 ∗ owns (c : Thread nD τ) arg5 fullShare o4 ∗ owns (c : Thread nD τ) arg6 fullShare o5
        ∗ owns (c : Thread nD τ) arg7 fullShare s0 ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2
            ∗ owns (c : Thread nD τ) arg4 fullShare o3 ∗ owns (c : Thread nD τ) arg5 fullShare o4 ∗ owns (c : Thread nD τ) arg6 fullShare o5
            ∗ owns (c : Thread nD τ) arg7 fullShare (k0_pay1 (k0_pay8 x2 s0)) ∗ owns (c : Thread nD τ) arg8 fullShare (k0_pay6 x2 x0 s1) ∗ owns (c : Thread nD τ) arg9 fullShare (k0_pay7 x2 x1 s2)) -∗ K ⟨⟩))
      ⊢ wp frame (wpE (defs₀ (F := F)) Variants.none c none) E (cc0__pool_kernel i arg1 harg1 arg2 harg2 arg3 harg3 arg4 harg4 arg5 harg5 arg6 harg6 arg7 harg7 arg8 harg8 arg9 harg9) K := by
  simp only [cc0__pool_kernel_eq_skeleton]; unfold cc0__pool_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, HS0⟩, ⟨%g1, %hg1, HS1⟩, ⟨%g2, %hg2, HS2⟩, Hk⟩
  obtain rfl := harg1.eq_unread hf0; obtain rfl := harg2.eq_unread hf1; obtain rfl := harg3.eq_unread hf2
  obtain rfl := harg7.eq_unread hg0; obtain rfl := harg8.eq_unread hg1; obtain rfl := harg9.eq_unread hg2
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [HS0]
  · iexists _; isplitr
    swap; · iexact HS0
    ipureintro
    rw [View.read_writes_eq_canon _ _ _ (coverN _ _), View.canon_unit_zero off0]
    simp only [View.readAt_eq_ld, harg3.read_unread, harg7.read_unread, View.ld_unit_zero (S := S2000x1) off0, View.ld_unit_zero (S := S2000x256) off0, View.ld_unit_zero (S := S512x1) off0, View.ld_unit_zero (S := S512x256) off0]
  isplitl [HS1]
  · iexists _; isplitr
    swap; · iexact HS1
    ipureintro
    rw [View.read_writes_eq_canon _ _ _ (coverP _ _), View.canon_unit_zero off0]
    simp only [View.readAt_eq_ld, harg3.read_unread, harg1.read_unread, harg8.read_unread, View.ld_unit_zero (S := S2000x1) off0, View.ld_unit_zero (S := S2000x256) off0, View.ld_unit_zero (S := S512x1) off0, View.ld_unit_zero (S := S512x256) off0]
  iexists _; isplitr
  swap; · iexact HS2
  ipureintro
  rw [View.read_writes_eq_canon _ _ _ (coverP _ _), View.canon_unit_zero off0]
  simp only [View.readAt_eq_ld, harg3.read_unread, harg2.read_unread, harg9.read_unread, View.ld_unit_zero (S := S2000x1) off0, View.ld_unit_zero (S := S2000x256) off0, View.ld_unit_zero (S := S512x1) off0, View.ld_unit_zero (S := S512x256) off0]

end Cert.KernelIdeal.Hand

end
-- ==== Proof.KI.Pool.RunC.lean ====
import proofs.«412715_j18631568130347_1_alg».proof.Proof.KI.Pool.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling body at the last point

The first conditional is not taken and the second is: the body reads the three input blocks, adds the block's
contribution into each accumulator and copies each accumulator to its output window. -/

set_option maxHeartbeats 4000000 in
/-- The body at the last point, on whole memrefs: the inputs at `x0 x1 x2`, the output windows at anything, the
    accumulators at `s0 s1 s2`; it leaves the accumulators, and the output windows, at the update of `s0 s1 s2` by
    the block. -/
theorem runC (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S2000x1 .i32) (harg3 : arg3.IsWhole) (arg4 : Memref sig .tc .vmem S512x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x1 .f32) (harg7 : arg7.IsWhole) (arg8 : Memref sig .tc .vmem S512x256 .f32) (harg8 : arg8.IsWhole) (arg9 : Memref sig .tc .vmem S512x256 .f32) (harg9 : arg9.IsWhole)
    (hc0 : ¬condFirst i) (hc2 : condLast i)
    (x0 x1 : Vec F S2000x256 .f32) (x2 : Vec F S2000x1 .i32)
    (s0 : Vec F S512x1 .f32) (s1 s2 : Vec F S512x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare s0 ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 (k0_pay8 x2 s0)) ∗ owns (c : Thread nD τ) arg5 fullShare (k0_pay6 x2 x0 s1) ∗ owns (c : Thread nD τ) arg6 fullShare (k0_pay7 x2 x1 s2)
            ∗ owns (c : Thread nD τ) arg7 fullShare (k0_pay1 (k0_pay8 x2 s0)) ∗ owns (c : Thread nD τ) arg8 fullShare (k0_pay6 x2 x0 s1) ∗ owns (c : Thread nD τ) arg9 fullShare (k0_pay7 x2 x1 s2)) -∗ K ⟨⟩))
      ⊢ wp frame (wpE (defs₀ (F := F)) Variants.none c none) E (cc0__pool_kernel i arg1 harg1 arg2 harg2 arg3 harg3 arg4 harg4 arg5 harg5 arg6 harg6 arg7 harg7 arg8 harg8 arg9 harg9) K := by
  simp only [cc0__pool_kernel_eq_skeleton]; unfold cc0__pool_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%g0, %hg0, HS0⟩, ⟨%g1, %hg1, HS1⟩, ⟨%g2, %hg2, HS2⟩, Hk⟩
  obtain rfl := harg1.eq_unread hf0; obtain rfl := harg2.eq_unread hf1; obtain rfl := harg3.eq_unread hf2
  obtain rfl := harg7.eq_unread hg0; obtain rfl := harg8.eq_unread hg1; obtain rfl := harg9.eq_unread hg2
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_eq_canon _ _ _ (coverN _ _), View.canon_unit_zero (S := S512x1) off0]
    sl_unfold_words
    simp only [View.readAt_eq_ld, harg3.read_unread, harg7.read_unread, View.readCov_unit_zero (S := S512x1) _ off0, View.ld_unit_zero (S := S2000x1) off0, View.ld_unit_zero (S := S2000x256) off0, View.ld_unit_zero (S := S512x1) off0, View.ld_unit_zero (S := S512x256) off0]
  isplitl [H4]
  · iexists _; isplitr
    swap; · iexact H4
    ipureintro
    rw [View.read_writes_eq_canon _ _ _ (coverP _ _), View.canon_unit_zero (S := S512x256) off0]
    sl_unfold_words
    simp only [View.readAt_eq_ld, harg3.read_unread, harg1.read_unread, harg8.read_unread, View.readCov_unit_zero (S := S512x256) _ off0, View.ld_unit_zero (S := S2000x1) off0, View.ld_unit_zero (S := S2000x256) off0, View.ld_unit_zero (S := S512x1) off0, View.ld_unit_zero (S := S512x256) off0]
  isplitl [H5]
  · iexists _; isplitr
    swap; · iexact H5
    ipureintro
    rw [View.read_writes_eq_canon _ _ _ (coverP _ _), View.canon_unit_zero (S := S512x256) off0]
    sl_unfold_words
    simp only [View.readAt_eq_ld, harg3.read_unread, harg2.read_unread, harg9.read_unread, View.readCov_unit_zero (S := S512x256) _ off0, View.ld_unit_zero (S := S2000x1) off0, View.ld_unit_zero (S := S2000x256) off0, View.ld_unit_zero (S := S512x1) off0, View.ld_unit_zero (S := S512x256) off0]
  isplitl [HS0]
  · iexists _; isplitr
    swap; · iexact HS0
    ipureintro
    sl_unfold_words
    rw [View.read_writes_eq_canon _ _ _ (coverN _ _), View.canon_unit_zero (S := S512x1) off0]
    simp only [View.readAt_eq_ld, harg3.read_unread, harg7.read_unread, View.ld_unit_zero (S := S2000x1) off0, View.ld_unit_zero (S := S2000x256) off0, View.ld_unit_zero (S := S512x1) off0, View.ld_unit_zero (S := S512x256) off0]
  isplitl [HS1]
  · iexists _; isplitr
    swap; · iexact HS1
    ipureintro
    sl_unfold_words
    rw [View.read_writes_eq_canon _ _ _ (coverP _ _), View.canon_unit_zero (S := S512x256) off0]
    simp only [View.readAt_eq_ld, harg3.read_unread, harg1.read_unread, harg8.read_unread, View.ld_unit_zero (S := S2000x1) off0, View.ld_unit_zero (S := S2000x256) off0, View.ld_unit_zero (S := S512x1) off0, View.ld_unit_zero (S := S512x256) off0]
  iexists _; isplitr
  swap; · iexact HS2
  ipureintro
  sl_unfold_words
  rw [View.read_writes_eq_canon _ _ _ (coverP _ _), View.canon_unit_zero (S := S512x256) off0]
  simp only [View.readAt_eq_ld, harg3.read_unread, harg2.read_unread, harg9.read_unread, View.ld_unit_zero (S := S2000x1) off0, View.ld_unit_zero (S := S2000x256) off0, View.ld_unit_zero (S := S512x1) off0, View.ld_unit_zero (S := S512x256) off0]

end Cert.KernelIdeal.Hand

end
-- ==== Proof.KI.Pool.lean ====
import proofs.«412715_j18631568130347_1_alg».proof.Proof.KI.Pool.RunA
import proofs.«412715_j18631568130347_1_alg».proof.Proof.KI.Pool.RunB
import proofs.«412715_j18631568130347_1_alg».proof.Proof.KI.Pool.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling region (custom call 0): what each grid point leaves, the proof data, the body obligation

The region runs 50 points; point `t` reads rows `2000 t .. 2000 t + 1999` of the two feature arrays and of the
column of graph ids, and adds into three accumulators kept in scratch memory: the per-graph node count, and the
per-graph sums of the two feature arrays. The first point zeroes the accumulators before adding; the last point
copies them into the three output windows, whose one block is the whole output array. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three accumulators: node counts, sums of the first feature array, sums of the second. -/
abbrev Acc (F : FTy → Type) [FloatOps F] : Type := FVec F S512x1 .f32 × FVec F S512x256 .f32 × FVec F S512x256 .f32

/-- The accumulators as the first point zeroes them. -/
def poolInit : Acc F := (k0_pay2, k0_pay3, k0_pay4)

/-- One point's update: the ids' block `b`, the two feature blocks `x1` `x2`, the accumulators before. -/
def poolStep (b : Vec F S2000x1 .i32) (x1 x2 : Vec F S2000x256 .f32) (s : Acc F) : Acc F :=
  (k0_pay1 (k0_pay8 b s.1), k0_pay6 b x1 s.2.1, k0_pay7 b x2 s.2.2)

/-- What the scratch accumulators hold after point `n`. -/
def scAt0 (c : Dev nD) : (n : ℕ) → n < cfg0.N → Acc F
  | 0, h => poolStep (iblk0 V c 2 ⟨0, h⟩) (iblk0 V c 0 ⟨0, h⟩) (iblk0 V c 1 ⟨0, h⟩) poolInit
  | n + 1, h => poolStep (iblk0 V c 2 ⟨n + 1, h⟩) (iblk0 V c 0 ⟨n + 1, h⟩) (iblk0 V c 1 ⟨n + 1, h⟩) (scAt0 c n (Nat.lt_of_succ_lt h))

/-- At the first point the accumulators are the update of the zeros. -/
theorem scAt0_first (c : Dev nD) (t : Fin cfg0.N) (hz : t.val = 0) :
    scAt0 V c t.val t.isLt = poolStep (iblk0 V c 2 t) (iblk0 V c 0 t) (iblk0 V c 1 t) poolInit := by
  obtain ⟨n, hn⟩ := t
  cases n with
  | zero => rfl
  | succ n => exact absurd hz (Nat.succ_ne_zero _)

/-- At a later point they are the update of what the point before left. -/
theorem scAt0_pos (c : Dev nD) (t : Fin cfg0.N) (hz : t.val ≠ 0) :
    scAt0 V c t.val t.isLt = poolStep (iblk0 V c 2 t) (iblk0 V c 0 t) (iblk0 V c 1 t)
      (scAt0 V c (t.val - 1) (Nat.lt_of_le_of_lt (Nat.sub_le _ _) t.isLt)) := by
  obtain ⟨n, hn⟩ := t
  cases n with
  | zero => exact absurd rfl hz
  | succ n => rfl

/-- What the body leaves in each window's staging buffer at each point: an input's block; for an output, the
    matching accumulator after the point (consulted at the last point only, where the body copies it there). -/
def after0 (c : Dev nD) (w : Fin cfg0.W) (t : Fin cfg0.N) : (cfg0.win w).block.Idx → Elt F (cfg0.win w).elt :=
  match w with
  | ⟨0, _⟩ => iblk0 V c 0 t
  | ⟨1, _⟩ => iblk0 V c 1 t
  | ⟨2, _⟩ => iblk0 V c 2 t
  | ⟨3, _⟩ => (scAt0 V c t.val t.isLt).1
  | ⟨4, _⟩ => (scAt0 V c t.val t.isLt).2.1
  | ⟨5, _⟩ => (scAt0 V c t.val t.isLt).2.2

/-- The three accumulators as memrefs: whole scoped buffers of the kernel's own. -/
abbrev scM0 : Memref sig .tc .vmem S512x1 .f32 := Memref.whole cc0_scratch0
abbrev scM1 : Memref sig .tc .vmem S512x256 .f32 := Memref.whole cc0_scratch1
abbrev scM2 : Memref sig .tc .vmem S512x256 .f32 := Memref.whole cc0_scratch2

/-- The core's other scoped buffers (the second region's staging buffers), each at some contents: the region
    never touches them. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant with the three accumulators as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ restB (F := F) c) ∗ (∃ r, prngReg c r)) := by
  unfold Pipeline.ΦA; rw [scopedRest0_eq]; simp only [scM0, scM1, scM2, owns_whole]; rfl

/-- The region invariant before position `n`: before the first point the class's (every scratch at anything);
    afterwards the accumulators at what the point before left, the other scoped buffers at anything, and the
    generator register at some state. -/
def PhiS (c : Dev nD) : (n : ℕ) → n ≤ cfg0.N → sProp 𝕄
  | 0, _ => Pipeline.ΦA spec0 c
  | n + 1, hn => iprop(iprop(owns (c : Thread nD τ) scM0 fullShare (scAt0 V c n hn).1
      ∗ owns (c : Thread nD τ) scM1 fullShare (scAt0 V c n hn).2.1
      ∗ owns (c : Thread nD τ) scM2 fullShare (scAt0 V c n hn).2.2 ∗ restB (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (scAt0 V c n hn).1
      ∗ owns (c : Thread nD τ) scM1 fullShare (scAt0 V c n hn).2.1
      ∗ owns (c : Thread nD τ) scM2 fullShare (scAt0 V c n hn).2.2 ∗ restB (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (scAt0 V c (n - 1) (by omega)).1
      ∗ owns (c : Thread nD τ) scM1 fullShare (scAt0 V c (n - 1) (by omega)).2.1
      ∗ owns (c : Thread nD τ) scM2 fullShare (scAt0 V c (n - 1) (by omega)).2.2 ∗ restB (F := F) c) ∗ (∃ r, prngReg c r)) := by
  cases n with
  | zero => exact absurd rfl hz
  | succ n => rfl

/-- The region invariant before each point: the scratch at anything before the first point, then at `scAt0`. -/
def Phi0 (c : Dev nD) : Fin (cfg0.N + 1) → sProp 𝕄 :=
  fun t => PhiS V c t.val (Nat.le_of_lt_succ t.isLt)

/-- The proof data of the pooling pipeline on core `c`. -/
def dat0 (c : Dev nD) : Dat τ (Elt F) Unit ℕ (UR sig nD τ) ℕ cfg0 c where
  A w := V c (Pipeline.arrRef spec0 w)
  after := after0 V c
  Φ := Phi0 V c
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0, Phi0]; simp only [Fin.coe_castSucc]

/-- What the body leaves, window by window. -/
theorem after0_0 (c : Dev nD) (t : Fin cfg0.N) : (dat0 V c).after 0 t = iblk0 V c 0 t := by dsimp only [dat0, after0]
theorem after0_1 (c : Dev nD) (t : Fin cfg0.N) : (dat0 V c).after 1 t = iblk0 V c 1 t := by dsimp only [dat0, after0]
theorem after0_2 (c : Dev nD) (t : Fin cfg0.N) : (dat0 V c).after 2 t = iblk0 V c 2 t := by dsimp only [dat0, after0]
theorem after0_3 (c : Dev nD) (t : Fin cfg0.N) : (dat0 V c).after 3 t = (scAt0 V c t.val t.isLt).1 := by dsimp only [dat0, after0]
theorem after0_4 (c : Dev nD) (t : Fin cfg0.N) : (dat0 V c).after 4 t = (scAt0 V c t.val t.isLt).2.1 := by dsimp only [dat0, after0]
theorem after0_5 (c : Dev nD) (t : Fin cfg0.N) : (dat0 V c).after 5 t = (scAt0 V c t.val t.isLt).2.2 := by dsimp only [dat0, after0]

/-- Each input's current staging buffer holds its block at every point: the window is fetched at every point,
    uncut and never idle. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation, at a generic point -/

/-- Each window's current staging memref at point `t`, as the pipeline passes it to the body. -/
abbrev ms0_0 (t : Fin cfg0.N) : Memref sig .tc .vmem S2000x256 .f32 := win0_0.stage (cfg0.slots t 0)
abbrev ms0_1 (t : Fin cfg0.N) : Memref sig .tc .vmem S2000x256 .f32 := win0_1.stage (cfg0.slots t 1)
abbrev ms0_2 (t : Fin cfg0.N) : Memref sig .tc .vmem S2000x1 .i32 := win0_2.stage (cfg0.slots t 2)
abbrev ms0_3 (t : Fin cfg0.N) : Memref sig .tc .vmem S512x1 .f32 := win0_3.stage (cfg0.slots t 3)
abbrev ms0_4 (t : Fin cfg0.N) : Memref sig .tc .vmem S512x256 .f32 := win0_4.stage (cfg0.slots t 4)
abbrev ms0_5 (t : Fin cfg0.N) : Memref sig .tc .vmem S512x256 .f32 := win0_5.stage (cfg0.slots t 5)

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4000000 in
/-- The body at any point. The inputs' memrefs hold their blocks; the point is the first, a middle one or the last,
    and that case's run applies: the invariant hands the body the accumulators at what the point before left (at
    anything at the first point) and takes them back at this point's update; away from the last point the output
    windows are idle and handed back untouched, at the last point they receive the accumulators. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 50 := lt_of_lt_of_eq t.isLt (show cfg0.N = 50 from N_0)
  by_cases hz : t.val = 0
  · have hc0 : condFirst (grid0.coords t) := (hcondFirst t).mpr hz
    have hc2 : ¬condLast (grid0.coords t) := fun h => by have := (hcondLast t).mp h; omega
    rw [Dat.leavesExact_idle (dat0 V c) 3 t (idleAt0_3 t hc2) (noFlush0_3 t hc2),
      Dat.leavesExact_idle (dat0 V c) 4 t (idleAt0_4 t hc2) (noFlush0_4 t hc2),
      Dat.leavesExact_idle (dat0 V c) 5 t (idleAt0_5 t hc2) (noFlush0_5 t hc2)]
    rw [scAt0_first V c t hz, PhiS_castSucc V c t, PhiS_zero V c _ _ hz, PhiA0_eq]
    dsimp only [poolStep, poolInit]
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ _ _ _ _ hc0 hc2 (iblk0 V c 0 t) (iblk0 V c 1 t) (iblk0 V c 2 t)
      ((dat0 V c).before 3 t d3) ((dat0 V c).before 4 t d4) ((dat0 V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 HR Hg]
    · isplitr [Hg]
      · isplitl [HS0]; · iexact HS0
        isplitl [HS1]; · iexact HS1
        isplitl [HS2]; · iexact HS2
        iexact HR
      iexact Hg
    isplitl [Ho]; · iexact Ho
    isplitl [H0]; · iexact H0
    isplitl [H1]; · iexact H1
    isplitl [H2]; · iexact H2
    isplitl [H3]; · iexists _; iexact H3
    isplitl [H4]; · iexists _; iexact H4
    iexists _; iexact H5
  · by_cases hl : t.val = 49
    · have hc0 : ¬condFirst (grid0.coords t) := fun h => hz ((hcondFirst t).mp h)
      have hc2 : condLast (grid0.coords t) := (hcondLast t).mpr hl
      rw [show (dat0 V c).leavesExact 3 t = owns (c : Thread nD τ) (ms0_3 t) fullShare ((dat0 V c).after 3 t) from by
        unfold Dat.leavesExact; rw [liveAt0_3 t hc2], after0_3]
      rw [show (dat0 V c).leavesExact 4 t = owns (c : Thread nD τ) (ms0_4 t) fullShare ((dat0 V c).after 4 t) from by
        unfold Dat.leavesExact; rw [liveAt0_4 t hc2], after0_4]
      rw [show (dat0 V c).leavesExact 5 t = owns (c : Thread nD τ) (ms0_5 t) fullShare ((dat0 V c).after 5 t) from by
        unfold Dat.leavesExact; rw [liveAt0_5 t hc2], after0_5]
      rw [scAt0_pos V c t hz, PhiS_castSucc V c t, PhiS_pos V c _ _ hz]
      dsimp only [poolStep]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ _ _ _ _ hc0 hc2 (iblk0 V c 0 t) (iblk0 V c 1 t) (iblk0 V c 2 t)
        (scAt0 V c (t.val - 1) (Nat.lt_of_le_of_lt (Nat.sub_le _ _) t.isLt)).1
        (scAt0 V c (t.val - 1) (Nat.lt_of_le_of_lt (Nat.sub_le _ _) t.isLt)).2.1
        (scAt0 V c (t.val - 1) (Nat.lt_of_le_of_lt (Nat.sub_le _ _) t.isLt)).2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc0 : ¬condFirst (grid0.coords t) := fun h => hz ((hcondFirst t).mp h)
      have hc2 : ¬condLast (grid0.coords t) := fun h => hl ((hcondLast t).mp h)
      rw [Dat.leavesExact_idle (dat0 V c) 3 t (idleAt0_3 t hc2) (noFlush0_3 t hc2),
        Dat.leavesExact_idle (dat0 V c) 4 t (idleAt0_4 t hc2) (noFlush0_4 t hc2),
        Dat.leavesExact_idle (dat0 V c) 5 t (idleAt0_5 t hc2) (noFlush0_5 t hc2)]
      rw [scAt0_pos V c t hz, PhiS_castSucc V c t, PhiS_pos V c _ _ hz]
      dsimp only [poolStep]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ _ _ _ _ hc0 hc2 (iblk0 V c 0 t) (iblk0 V c 1 t) (iblk0 V c 2 t)
        ((dat0 V c).before 3 t d3) ((dat0 V c).before 4 t d4) ((dat0 V c).before 5 t d5)
        (scAt0 V c (t.val - 1) (Nat.lt_of_le_of_lt (Nat.sub_le _ _) t.isLt)).1
        (scAt0 V c (t.val - 1) (Nat.lt_of_le_of_lt (Nat.sub_le _ _) t.isLt)).2.1
        (scAt0 V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HR⟩, Hg⟩
  isplitr [Hg]
  · isplitl [HS0]; · iexists _; iexact HS0
    isplitl [HS1]; · iexists _; iexact HS1
    isplitl [HS2]; · iexists _; iexact HS2
    iexact HR
  iexact Hg

/-- After the last point the invariant gives the scratch and the generator register back. -/
theorem hout0 (c : Dev nD) : (dat0 V c).Φ (Fin.last cfg0.N) ⊢ Pipeline.ΦA spec0 c :=
  Phi_out0 V c _ (by rw [Fin.val_last]; have : cfg0.N = 50 := N_0; omega)

/-- The last point of the grid. -/
abbrev tLast : Fin cfg0.N := ⟨49, by decide⟩

/-- The three output arrays after the region: what the last point's accumulators hold (the outputs' one block is
    written back after the last point only). -/
theorem arrAt0_3 (c : Dev nD) : (dat0 V c).arrAt 3 cfg0.N = (scAt0 V c 49 (by decide)).1 := by
  show (dat0 V c).arrAt 3 (tLast.val + 1) = _
  rw [(dat0 V c).arrAt_succ 3 tLast, if_pos ((flush0_3 tLast).mpr rfl)]
  have hz : (fun a => (win0_3.index tLast) a * main_v1_0.ty.shape.size a) = fun _ => 0 := funext fun a => by fin_cases a <;> decide
  exact (Memref.write_access_unit_zero_univ (Elt F) main_v1_0 hz _ _ _).trans (after0_3 V c tLast)
theorem arrAt0_4 (c : Dev nD) : (dat0 V c).arrAt 4 cfg0.N = (scAt0 V c 49 (by decide)).2.1 := by
  show (dat0 V c).arrAt 4 (tLast.val + 1) = _
  rw [(dat0 V c).arrAt_succ 4 tLast, if_pos ((flush0_4 tLast).mpr rfl)]
  have hz : (fun a => (win0_4.index tLast) a * main_v1_1.ty.shape.size a) = fun _ => 0 := funext fun a => by fin_cases a <;> decide
  exact (Memref.write_access_unit_zero_univ (Elt F) main_v1_1 hz _ _ _).trans (after0_4 V c tLast)
theorem arrAt0_5 (c : Dev nD) : (dat0 V c).arrAt 5 cfg0.N = (scAt0 V c 49 (by decide)).2.2 := by
  show (dat0 V c).arrAt 5 (tLast.val + 1) = _
  rw [(dat0 V c).arrAt_succ 5 tLast, if_pos ((flush0_5 tLast).mpr rfl)]
  have hz : (fun a => (win0_5.index tLast) a * main_v1_2.ty.shape.size a) = fun _ => 0 := funext fun a => by fin_cases a <;> decide
  exact (Memref.write_access_unit_zero_univ (Elt F) main_v1_2 hz _ _ _).trans (after0_5 V c tLast)

end Cert.KernelIdeal.Hand

end
-- ==== Proof.KI.Comb.lean ====
import proofs.«412715_j18631568130347_1_alg».proof.Proof.Gen.KernelIdeal.Launch
import proofs.«412715_j18631568130347_1_alg».proof.Proof.Gen.KernelIdeal.Skeleton
import proofs.«412715_j18631568130347_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combining region (custom call 1): what each grid point leaves, the proof data, the body obligation

Point `t` of 50 reads rows `2000 t ..` of the two feature arrays and of the ids' column, and the whole table of
gate weights; it writes the same rows of the result. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the result window's staging buffer at point `t`. -/
def out1 (c : Dev nD) (t : Fin cfg1.N) : FVec F S2000x256 .f32 :=
  k1_pay1 (iblk1 V c 2 t) (iblk1 V c 3 t) (iblk1 V c 0 t) (iblk1 V c 1 t)

/-- What the body leaves in each window's staging buffer at each point. -/
def after1 (c : Dev nD) : (w : Fin cfg1.W) → Fin cfg1.N → (cfg1.win w).block.Idx → Elt F (cfg1.win w).elt :=
  fun w t => match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t

/-- The proof data of the combining pipeline on core `c`. -/
def dat1 (c : Dev nD) : Dat τ (Elt F) Unit ℕ (UR sig nD τ) ℕ cfg1 c where
  A w := V c (Pipeline.arrRef spec1 w)
  after := after1 V c
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window: an input's buffer at its block, the result's at the combined rows. -/
theorem after1_0 (c : Dev nD) (t : Fin cfg1.N) : (dat1 V c).after 0 t = iblk1 V c 0 t := by dsimp only [dat1, after1]
theorem after1_1 (c : Dev nD) (t : Fin cfg1.N) : (dat1 V c).after 1 t = iblk1 V c 1 t := by dsimp only [dat1, after1]
theorem after1_2 (c : Dev nD) (t : Fin cfg1.N) : (dat1 V c).after 2 t = iblk1 V c 2 t := by dsimp only [dat1, after1]
theorem after1_3 (c : Dev nD) (t : Fin cfg1.N) : (dat1 V c).after 3 t = iblk1 V c 3 t := by dsimp only [dat1, after1]
theorem after1_4 (c : Dev nD) (t : Fin cfg1.N) : (dat1 V c).after 4 t = out1 V c t := by dsimp only [dat1, after1]

/-! ## What the body finds in each input window's buffer

An input window's buffer holds the window's block of the point whether or not the block was moved in at that point:
a window whose block index stands still (the table of gate weights, moved in once) still holds the block moved in
at the first point, which is the block of every point. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body's accesses: every load and the one store take a whole buffer -/

abbrev rIds : Rect S2000x1 := Rect.unit (s := S2000x1) ![0, 0] S2000x1.size inb_S2000x1_S2000x1_0_0
abbrev rTab : Rect S512x2 := Rect.unit (s := S512x2) ![0, 0] S512x2.size inb_S512x2_S512x2_0_0
abbrev rRows : Rect S2000x256 := Rect.unit (s := S2000x256) ![0, 0] S2000x256.size inb_S2000x256_S2000x256_0_0

theorem zeroOff : (![0, 0] : Fin 2 → Nat) = fun _ => 0 := funext fun a => by fin_cases a <;> rfl

/-- The result buffer after the body, from the contents of the four input buffers: its one store as a piece over
    what the loads read. -/
def stored1 (xi : Vec F S2000x1 .i32) (xw : Vec F S512x2 .f32) (x0 x1 : Vec F S2000x256 .f32) : Vec F S2000x256 .f32 :=
  View.canon [⟨rRows, k1_pay1 (View.ld xi rIds) (View.ld xw rTab) (View.ld x0 rRows) (View.ld x1 rRows)⟩]

/-- The store takes the whole buffer and each load reads a whole buffer: what is left is the combined rows of the
    buffers' contents. -/
theorem stored1_eq (xi : Vec F S2000x1 .i32) (xw : Vec F S512x2 .f32) (x0 x1 : Vec F S2000x256 .f32) :
    stored1 xi xw x0 x1 = k1_pay1 xi xw x0 x1 := by
  unfold stored1
  rw [View.canon_unit_zero zeroOff]
  simp only [View.ld_unit_zero (S := S2000x1) zeroOff, View.ld_unit_zero (S := S512x2) zeroOff,
    View.ld_unit_zero (S := S2000x256) zeroOff]

/-- The one store covers the result buffer. -/
theorem cover1_4 (p0 : Vec F S2000x256 .f32) (y : S2000x256.Idx) :
    ∃ pc ∈ ([⟨rRows, p0⟩] : List (View.Piece (Elt F) S2000x256 .f32)), y ∈ pc.1.set :=
  ⟨_, List.mem_singleton_self _, View.mem_set_unit_zero zeroOff inb_S2000x256_S2000x256_0_0 y⟩

/-! ## The body's triple -/

set_option maxHeartbeats 1000000 in
/-- The body on whole buffers — the four inputs' at read contents, the result's at anything — runs to the
    continuation holding the inputs' as they were and the result's at the combined rows of the inputs' contents.
    The body reads the result buffer once before storing into it; nothing is made of what it reads. -/
theorem sound_kernel1 (c : Dev nD) (E : Set ℕ) (i : grid1.Coords)
    (arg1 : Memref sig .tc .vmem S2000x256 .f32) (harg1 : arg1.IsWhole) (arg2 : Memref sig .tc .vmem S2000x256 .f32) (harg2 : arg2.IsWhole)
    (arg3 : Memref sig .tc .vmem S2000x1 .i32) (harg3 : arg3.IsWhole) (arg4 : Memref sig .tc .vmem S512x2 .f32) (harg4 : arg4.IsWhole)
    (arg5 : Memref sig .tc .vmem S2000x256 .f32) (harg5 : arg5.IsWhole)
    (x0 x1 : Vec F S2000x256 .f32) (xi : Vec F S2000x1 .i32) (xw : Vec F S512x2 .f32) (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare xw
        ∗ (∃ d, owns (c : Thread nD τ) arg5 fullShare d)
        ∗ (iprop(owns (c : Thread nD τ) arg1 fullShare x0 ∗ owns (c : Thread nD τ) arg2 fullShare x1
            ∗ owns (c : Thread nD τ) arg3 fullShare xi ∗ owns (c : Thread nD τ) arg4 fullShare xw
            ∗ owns (c : Thread nD τ) arg5 fullShare (stored1 xi xw x0 x1)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold out1
  rw [← stored1_eq]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Regs.lean ====
import proofs.«412715_j18631568130347_1_alg».proof.Proof.KI.Pool
import proofs.«412715_j18631568130347_1_alg».proof.Proof.KI.Comb
import proofs.«412715_j18631568130347_1_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the program: two kernel regions among stretches of host operations

The pooling region is entered from the launch memory after the first host stretch; it leaves its three output
arrays at what its last point writes back. The host stretches between the regions compute the gate weights from
them. The combining region is entered from those contents and leaves the result array. -/

/-! ## The buffer contents the regions are entered from and what they leave -/

/-- The pooling region's entry contents: the launch memory after the first host stretch. -/
abbrev Vin0 : (c : Dev nD) → (b : Ref sig .tc) → Buf (Elt F) ((c : Thread nD τ).loc b) := fun c b => V1 m c b

/-- What the pooling region leaves: its arrays at what the write-backs leave, every other buffer as entered. -/
def outsA : Outs (F := F) := fun _ r c =>
  (Pipeline.withArrays spec0 c (V1 m c) fun w => (dat0 (Vin0 m) c).arrAt w cfg0.N) r

theorem outsA_arr (J : ℕ) (c : Dev nD) (w : Fin cfg0.W) :
    outsA m J (Pipeline.arrRef spec0 w) c = (dat0 (Vin0 m) c).arrAt w cfg0.N := by
  unfold outsA; exact Pipeline.withArrays_arr spec0 launch0.win.arr_inj c _ _ w

theorem outsA_0 (c : Dev nD) : outsA m 2 main_v1_0 c = (dat0 (Vin0 m) c).arrAt 3 cfg0.N := outsA_arr m 2 c 3
theorem outsA_1 (c : Dev nD) : outsA m 2 main_v1_1 c = (dat0 (Vin0 m) c).arrAt 4 cfg0.N := outsA_arr m 2 c 4
theorem outsA_2 (c : Dev nD) : outsA m 2 main_v1_2 c = (dat0 (Vin0 m) c).arrAt 5 cfg0.N := outsA_arr m 2 c 5

/-- The combining region's entry contents: the host stretches between the regions run over what the pooling
    region leaves. -/
abbrev Vin1 : (c : Dev nD) → (b : Ref sig .tc) → Buf (Elt F) ((c : Thread nD τ).loc b) := fun c b => V13 m (outsA m) c b

/-- The result array after the combining region. -/
def kout (c : Dev nD) : Buf (Elt F) ((c : Thread nD τ).loc main_v114) := (dat1 (Vin1 m) c).arrAt 4 cfg1.N

/-- What both regions leave: the pooling region's arrays for the reads between the regions, the combining
    region's at the end. -/
def outs : Outs (F := F) := fun J r c =>
  if J = 14 then (Pipeline.withArrays spec1 c (V13 m (outsA m) c) fun w => (dat1 (Vin1 m) c).arrAt w cfg1.N) r
  else outsA m J r c

theorem outs_two (r : Ref sig .tc) (c : Dev nD) : outs m 2 r c = outsA m 2 r c := by
  unfold outs; exact if_neg (by decide)

theorem outs_arr (c : Dev nD) (w : Fin cfg1.W) :
    outs m 14 (Pipeline.arrRef spec1 w) c = (dat1 (Vin1 m) c).arrAt w cfg1.N := by
  unfold outs; rw [if_pos rfl]; exact Pipeline.withArrays_arr spec1 launch1.win.arr_inj c _ _ w

theorem outs_v114 (c : Dev nD) : outs m 14 main_v114 c = kout m c := outs_arr m c 4

/-! ## The valuations between the items at these contents -/

theorem V2_outs (c : Dev nD) : V2 m (outs m) c = V2 m (outsA m) c := by
  unfold V2; rw [outs_two, outs_two, outs_two]

theorem V13_outs (c : Dev nD) : V13 m (outs m) c = V13 m (outsA m) c :=
  congrArg (fun v => StableHlo.after hostOps1_10 (StableHlo.after hostOps1_9 (StableHlo.after hostOps1_8
    (StableHlo.after hostOps1_7 (StableHlo.after hostOps1_6 (StableHlo.after hostOps1_5 (StableHlo.after hostOps1_4
    (StableHlo.after hostOps1_3 (StableHlo.after hostOps1_2 (StableHlo.after hostOps1_1 (StableHlo.after hostOps1 v)))))))))))
    (V2_outs m c)

theorem V2_v1_0 (o : Outs (F := F)) (c : Dev nD) : V2 m o c main_v1_0 = o 2 main_v1_0 c := by
  unfold V2
  rw [Function.update_of_ne (StableHlo.devRef_ne_of_ne (by decide)), Function.update_of_ne (StableHlo.devRef_ne_of_ne (by decide)),
    Function.update_self]
theorem V2_v1_1 (o : Outs (F := F)) (c : Dev nD) : V2 m o c main_v1_1 = o 2 main_v1_1 c := by
  unfold V2
  rw [Function.update_of_ne (StableHlo.devRef_ne_of_ne (by decide)), Function.update_self]
theorem V2_v1_2 (o : Outs (F := F)) (c : Dev nD) : V2 m o c main_v1_2 = o 2 main_v1_2 c := by
  unfold V2
  rw [Function.update_self]
theorem V14_v114 (o : Outs (F := F)) (c : Dev nD) : V14 m o c main_v114 = o 14 main_v114 c := by
  unfold V14
  rw [Function.update_self]

/-- The pooling region's exit contents. -/
abbrev Vout0 : (c : Dev nD) → (b : Ref sig .tc) → Buf (Elt F) ((c : Thread nD τ).loc b) := fun c b => V2 m (outs m) c b
/-- The combining region's exit contents. -/
abbrev Vout1 : (c : Dev nD) → (b : Ref sig .tc) → Buf (Elt F) ((c : Thread nD τ).loc b) := fun c b => V14 m (outs m) c b

/-- At the pooling region's exit each of its arrays holds what the pipeline leaves: an input as entered, an output
    at its write-backs. -/
theorem hF0 (c : Dev nD) : ∀ w : Fin cfg0.W, (dat0 (Vin0 m) c).arrAt w cfg0.N = Vout0 m c (Pipeline.arrRef spec0 w)
  | 0 => (((dat0 (Vin0 m) c).arrAt_in 0 rfl _).trans (A_eq0 (Vin0 m) c 0)).trans (V2_of m (outs m) c main_arg0 (by decide)).symm
  | 1 => (((dat0 (Vin0 m) c).arrAt_in 1 rfl _).trans (A_eq0 (Vin0 m) c 1)).trans (V2_of m (outs m) c main_arg1 (by decide)).symm
  | 2 => (((dat0 (Vin0 m) c).arrAt_in 2 rfl _).trans (A_eq0 (Vin0 m) c 2)).trans (V2_of m (outs m) c main_v0 (by decide)).symm
  | 3 => ((V2_v1_0 m (outs m) c).trans ((outs_two m main_v1_0 c).trans (outsA_0 m c))).symm
  | 4 => ((V2_v1_1 m (outs m) c).trans ((outs_two m main_v1_1 c).trans (outsA_1 m c))).symm
  | 5 => ((V2_v1_2 m (outs m) c).trans ((outs_two m main_v1_2 c).trans (outsA_2 m c))).symm

/-- Every other buffer is as the region found it. -/
theorem hrest0 (c : Dev nD) : ∀ b, b ∉ Finset.univ.image (Pipeline.arrRef spec0) → Vout0 m c b = Vin0 m c b :=
  fun b hb => V2_of m (outs m) c b fun h => by
    rcases List.mem_cons.mp h with rfl | h
    · exact hb (Finset.mem_image.mpr ⟨3, Finset.mem_univ _, rfl⟩)
    rcases List.mem_cons.mp h with rfl | h
    · exact hb (Finset.mem_image.mpr ⟨4, Finset.mem_univ _, rfl⟩)
    rcases List.mem_cons.mp h with rfl | h
    · exact hb (Finset.mem_image.mpr ⟨5, Finset.mem_univ _, rfl⟩)
    exact absurd h (List.not_mem_nil)

/-- At the combining region's exit each of its arrays holds what the pipeline leaves. -/
theorem hF1 (c : Dev nD) : ∀ w : Fin cfg1.W, (dat1 (Vin1 m) c).arrAt w cfg1.N = Vout1 m c (Pipeline.arrRef spec1 w)
  | 0 => (((dat1 (Vin1 m) c).arrAt_in 0 rfl _).trans (A_eq1 (Vin1 m) c 0)).trans
      ((V14_of m (outs m) c main_arg0 (by decide)).trans (congrFun (V13_outs m c) _)).symm
  | 1 => (((dat1 (Vin1 m) c).arrAt_in 1 rfl _).trans (A_eq1 (Vin1 m) c 1)).trans
      ((V14_of m (outs m) c main_arg1 (by decide)).trans (congrFun (V13_outs m c) _)).symm
  | 2 => (((dat1 (Vin1 m) c).arrAt_in 2 rfl _).trans (A_eq1 (Vin1 m) c 2)).trans
      ((V14_of m (outs m) c main_v0 (by decide)).trans (congrFun (V13_outs m c) _)).symm
  | 3 => (((dat1 (Vin1 m) c).arrAt_in 3 rfl _).trans (A_eq1 (Vin1 m) c 3)).trans
      ((V14_of m (outs m) c main_v113 (by decide)).trans (congrFun (V13_outs m c) _)).symm
  | 4 => ((V14_v114 m (outs m) c).trans (outs_v114 m c)).symm

theorem hrest1 (c : Dev nD) : ∀ b, b ∉ Finset.univ.image (Pipeline.arrRef spec1) → Vout1 m c b = Vin1 m c b :=
  fun b hb => (V14_of m (outs m) c b fun h => by
    rcases List.mem_cons.mp h with rfl | h
    · exact hb (Finset.mem_image.mpr ⟨4, Finset.mem_univ _, rfl⟩)
    exact absurd h (List.not_mem_nil)).trans (congrFun (V13_outs m c) _)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- No core owes another anything: no level is assigned. -/
abbrev L₀ : GSem nD τ sig → Finset Unit := fun _ => ∅
abbrev lv₀ : GSem nD τ sig → Unit → ℕ := fun _ _ => 0

/-- What rides beside the buffers through every item: the core's generator register at some state and its dues,
    at nothing. -/
abbrev Rst (c : Dev nD) : sProp 𝕄 :=
  iprop((∃ r, prngReg c r) ∗ ∃ W, owes (c : Thread nD τ) (0 : CellTallies nD τ sig Unit) W)

/-! ## The regions as segments -/

set_option backward.isDefEq.respectTransparency.types false in
/-- The pooling region over the thread state: entered from every unscoped buffer at the contents after the first host
    stretch, left at those with its three outputs written back. Its arrays are split out of the unscoped buffers and put
    back at the exit contents; the generator register and the scratch accumulators go into the region invariant through
    the class invariant and come back the same way; nothing is owed; the kernel has no semaphore of its own. -/
def reg0 : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L₀ lv₀ 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m) c)
    unfold Pipeline.ΦA
    iintro ⟨Hp, -, Hr⟩
    isplitl [Hr]; · iexact Hr
    iexact Hp
  hout c := by
    rw [Pipeline.ownSems0_none]
    refine BIBase.Entails.trans (hout0 (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The combining region over the thread state: entered from every unscoped buffer at the contents after the last
    host stretch, left at those with the result array written back. -/
def reg1 : Pipeline.RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L₀ lv₀ 1 fun _ _ => rfl
  pre c := iprop(StableHlo.held (c : Thread nD τ) (Pipeline.ucRefs τ sig) (V13 m (outsA m) c) ∗ Rst c)
  post c := iprop(StableHlo.held (c : Thread nD τ) (Pipeline.ucRefs τ sig) (V14 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The combining region is entered from the thread state the last host stretch leaves. -/
theorem hpre1 (c : Dev nD) :
    iprop(StableHlo.held (c : Thread nD τ) (Pipeline.ucRefs τ sig) (V13 m (outs m) c) ∗ Rst c) ⊢ (reg1 m).pre c := by
  rw [V13_outs m c]; exact .rfl

/-! ## The launch -/

/-- The rest state between the items: the same at each of the three stages. -/
abbrev Est : Fin 3 → Dev nD → sProp 𝕄 := fun _ c => Rst c

set_option backward.isDefEq.respectTransparency.types false in
/-- THE RUN. From any memory with zero counters every weakly fair execution of the program terminates, and every
    final memory holds in the result array what the combining region leaves there, and each argument as launched. -/
theorem run : θ_run defs (onTc (τ := τ) (main (F := F))) ⟨m, fun _ => 0, ρ⟩ (fun r => ∀ c : Dev nD,
      r.2.mem ((c.tc : Thread nD τ).loc main_v114) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ Variants.none L₀ lv₀ m ρ main
    (segs m (outs m) Variants.none L₀ lv₀ (Est (F := F)) () (pdats m) (reg0 m) (reg1 m))
    (fun c Q => by
      rewrite [main_chain c, Pipeline.Seg.run_eq_chain,
        show (segs m (outs m) Variants.none L₀ lv₀ (Est (F := F)) () (pdats m) (reg0 m) (reg1 m) c).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V14 m (outs m) c))
    (hch := fun c => ⟨.rfl, .rfl, .rfl, .rfl, .rfl, .rfl, .rfl, .rfl, .rfl, .rfl, .rfl, .rfl, .rfl,
      hpre1 m c,
      sep_mono .rfl (by iintro ⟨-, H⟩; iexact H)⟩)
    (hinit := by
      refine Pipeline.initEach L₀ lv₀ fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v114) = kout m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11))
    (hfin := fun c s' => ?_) (hQ := fun _ h => h)
  -- the end: the result array and each argument read off the last valuation
  unfold StableHlo.held
  iintro ⟨Hh, HSI⟩
  ihave Hr := (pointsTo_read_all (Pipeline.ucRefs τ sig) (fun b => ((c : Thread nD τ).1, b)) (V14 m (outs m) c) s') $$ [Hh HSI]
  · isplitl [Hh] <;> iassumption
  icases Hr with ⟨%h, HSI⟩
  imodintro
  isplitr
  · ipureintro
    exact ⟨(h (Proc.devRef .tc main_v114) (Finset.mem_filter.mpr ⟨StableHlo.devRef_mem_tcRefs main_v114, by decide⟩)).trans
        ((V14_v114 m (outs m) c).trans (outs_v114 m c)),
      (h (Proc.devRef .tc main_arg0) (Finset.mem_filter.mpr ⟨StableHlo.devRef_mem_tcRefs main_arg0, by decide⟩)).trans (V14_main_arg0 m (outs m) c),
      (h (Proc.devRef .tc main_arg1) (Finset.mem_filter.mpr ⟨StableHlo.devRef_mem_tcRefs main_arg1, by decide⟩)).trans (V14_main_arg1 m (outs m) c),
      (h (Proc.devRef .tc main_arg2) (Finset.mem_filter.mpr ⟨StableHlo.devRef_mem_tcRefs main_arg2, by decide⟩)).trans (V14_main_arg2 m (outs m) c),
      (h (Proc.devRef .tc main_arg3) (Finset.mem_filter.mpr ⟨StableHlo.devRef_mem_tcRefs main_arg3, by decide⟩)).trans (V14_main_arg3 m (outs m) c),
      (h (Proc.devRef .tc main_arg4) (Finset.mem_filter.mpr ⟨StableHlo.devRef_mem_tcRefs main_arg4, by decide⟩)).trans (V14_main_arg4 m (outs m) c),
      (h (Proc.devRef .tc main_arg5) (Finset.mem_filter.mpr ⟨StableHlo.devRef_mem_tcRefs main_arg5, by decide⟩)).trans (V14_main_arg5 m (outs m) c),
      (h (Proc.devRef .tc main_arg6) (Finset.mem_filter.mpr ⟨StableHlo.devRef_mem_tcRefs main_arg6, by decide⟩)).trans (V14_main_arg6 m (outs m) c),
      (h (Proc.devRef .tc main_arg7) (Finset.mem_filter.mpr ⟨StableHlo.devRef_mem_tcRefs main_arg7, by decide⟩)).trans (V14_main_arg7 m (outs m) c),
      (h (Proc.devRef .tc main_arg8) (Finset.mem_filter.mpr ⟨StableHlo.devRef_mem_tcRefs main_arg8, by decide⟩)).trans (V14_main_arg8 m (outs m) c),
      (h (Proc.devRef .tc main_arg9) (Finset.mem_filter.mpr ⟨StableHlo.devRef_mem_tcRefs main_arg9, by decide⟩)).trans (V14_main_arg9 m (outs m) c),
      (h (Proc.devRef .tc main_arg10) (Finset.mem_filter.mpr ⟨StableHlo.devRef_mem_tcRefs main_arg10, by decide⟩)).trans (V14_main_arg10 m (outs m) c),
      (h (Proc.devRef .tc main_arg11) (Finset.mem_filter.mpr ⟨StableHlo.devRef_mem_tcRefs main_arg11, by decide⟩)).trans (V14_main_arg11 m (outs m) c)⟩
  · iexact HSI

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run m ρ)

end Cert.KernelIdeal.Hand

end
-- ==== Proof.K.Pool.Base.lean ====
import proofs.«412715_j18631568130347_1_alg».proof.Proof.KI.Pool.Base
import proofs.«412715_j18631568130347_1_alg».proof.Proof.Gen.Kernel.Launch
import proofs.«412715_j18631568130347_1_alg».proof.Proof.Gen.Kernel.Skeleton
import proofs.«412715_j18631568130347_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling region: what its three control cases share

The body tests the grid coordinate twice: "is this the first point" guards the zeroing of the accumulators, "is this
the last point" guards the copy of the accumulators to the output windows. On the 50-point grid each test holds at
exactly one point and the two never hold together. -/

/-- The test of the first conditional: the grid coordinate is 0. -/
abbrev condFirst (i : grid0.Coords) : Prop :=
  (Scalar.cmpi .ne (Scalar.extui (Scalar.cmpi .eq (BitVec.ofNat 32 (i 0).val) 0#32)) 0#32) = 1#1

/-- It holds at point 0 only. -/
theorem hcondFirst : ∀ t : Fin cfg0.N, condFirst (grid0.coords t) ↔ t.val = 0 :=
  (by decide +kernel : ∀ t : Fin grid0.N, condFirst (grid0.coords t) ↔ t.val = 0)

/-- The test of the second conditional: the grid coordinate is 49. -/
abbrev condLast (i : grid0.Coords) : Prop := k0_cond2 i = 1#1

/-- It holds at point 49 only. -/
theorem hcondLast : ∀ t : Fin cfg0.N, condLast (grid0.coords t) ↔ t.val = 49 :=
  (by decide +kernel : ∀ t : Fin grid0.N, condLast (grid0.coords t) ↔ t.val = 49)

/-- The three inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- Away from the last point the three outputs are idle and not written back. -/
theorem idleAt0_3 : ∀ t : Fin cfg0.N, ¬condLast (grid0.coords t) → cfg0.idle 3 (grid0.coords t) = true := by decide +kernel
theorem idleAt0_4 : ∀ t : Fin cfg0.N, ¬condLast (grid0.coords t) → cfg0.idle 4 (grid0.coords t) = true := by decide +kernel
theorem idleAt0_5 : ∀ t : Fin cfg0.N, ¬condLast (grid0.coords t) → cfg0.idle 5 (grid0.coords t) = true := by decide +kernel
theorem noFlush0_3 : ∀ t : Fin cfg0.N, ¬condLast (grid0.coords t) → (cfg0.win 3).flush t = false := by decide +kernel
theorem noFlush0_4 : ∀ t : Fin cfg0.N, ¬condLast (grid0.coords t) → (cfg0.win 4).flush t = false := by decide +kernel
theorem noFlush0_5 : ∀ t : Fin cfg0.N, ¬condLast (grid0.coords t) → (cfg0.win 5).flush t = false := by decide +kernel

/-- At the last point they are live. -/
theorem liveAt0_3 : ∀ t : Fin cfg0.N, condLast (grid0.coords t) → cfg0.idle 3 (grid0.coords t) = false := by decide +kernel
theorem liveAt0_4 : ∀ t : Fin cfg0.N, condLast (grid0.coords t) → cfg0.idle 4 (grid0.coords t) = false := by decide +kernel
theorem liveAt0_5 : ∀ t : Fin cfg0.N, condLast (grid0.coords t) → cfg0.idle 5 (grid0.coords t) = false := by decide +kernel

/-- The whole-buffer rectangle's offsets are zero. -/
theorem off0 : (![0, 0] : Fin 2 → ℕ) = fun _ => 0 := funext fun a => by fin_cases a <;> rfl

/-- The whole-buffer rectangle of the count accumulator's shape, and of the sum accumulators' shape. -/
abbrev rN : Rect S512x1 := Rect.unit (s := S512x1) ![0, 0] S512x1.size inb_S512x1_S512x1_0_0
abbrev rP : Rect S512x256 := Rect.unit (s := S512x256) ![0, 0] S512x256.size inb_S512x256_S512x256_0_0

/-- A store through the whole-buffer rectangle, last, covers every index whatever was stored before it. -/
theorem coverN (w : Vec F S512x1 .f32) (L : List (View.Piece (Elt F) S512x1 .f32)) (y : S512x1.Idx) :
    ∃ pc ∈ ((⟨rN, w⟩ : View.Piece (Elt F) S512x1 .f32) :: L), y ∈ pc.1.set :=
  ⟨_, List.mem_cons_self, View.mem_set_unit_zero off0 inb_S512x1_S512x1_0_0 y⟩
theorem coverP (w : Vec F S512x256 .f32) (L : List (View.Piece (Elt F) S512x256 .f32)) (y : S512x256.Idx) :
    ∃ pc ∈ ((⟨rP, w⟩ : View.Piece (Elt F) S512x256 .f32) :: L), y ∈ pc.1.set :=
  ⟨_, List.mem_cons_self, View.mem_set_unit_zero off0 inb_S512x256_S512x256_0_0 y⟩

end Cert.Kernel.Hand

end
-- ==== Proof.K.Pool.RunA.lean ====
import proofs.«412715_j18631568130347_1_alg».proof.Proof.KI.Pool.RunA
import proofs.«412715_j18631568130347_1_alg».proof.Proof.K.Pool.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling body at the first point

The first conditional is taken and the second is not: the body zeroes the three accumulators, reads the three input
blocks, adds the block's contribution into each accumulator and leaves the output windows untouched. -/

set_option maxHeartbeats 4000000 in
/-- The body at the first point, on whole memrefs: the inputs at `x0 x1 x2`, the output windows at `o3 o4 o5`
    (untouched), the accumulators at anything; it leaves the accumulators at the update of the zeros by the block. -/
theorem runA (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S2000x1 .i32) (harg3 : arg3.IsWhole) (arg4 : Memref sig .tc .vmem S512x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x1 .f32) (harg7 : arg7.IsWhole) (arg8 : Memref sig .tc .vmem S512x256 .f32) (harg8 : arg8.IsWhole) (arg9 : Memref sig .tc .vmem S512x256 .f32) (harg9 : arg9.IsWhole)
    (hc0 : condFirst i) (hc2 : ¬condLast i)
    (x0 x1 : Vec F S2000x256 .f32) (x2 : Vec F S2000x1 .i32)
    (o3 : Vec F S512x1 .f32) (o4 o5 : Vec F S512x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o3 ∗ owns (c : Thread nD τ) arg5 fullShare o4 ∗ owns (c : Thread nD τ) arg6 fullShare o5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare o3 ∗ owns (c : Thread nD τ) arg5 fullShare o4 ∗ owns (c : Thread nD τ) arg6 fullShare o5
            ∗ owns (c : Thread nD τ) arg7 fullShare (k0_pay1 (k0_pay8 x2 k0_pay2)) ∗ owns (c : Thread nD τ) arg8 fullShare (k0_pay6 x2 x0 k0_pay3) ∗ owns (c : Thread nD τ) arg9 fullShare (k0_pay7 x2 x1 k0_pay4)) -∗ K ⟨⟩))
      ⊢ wp frame (wpE (defs₀ (F := F)) Variants.none c none) E (cc0__pool_kernel i arg1 harg1 arg2 harg2 arg3 harg3 arg4 harg4 arg5 harg5 arg6 harg6 arg7 harg7 arg8 harg8 arg9 harg9) K := by
  simp only [cc0__pool_kernel_eq_skeleton]; unfold cc0__pool_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d0, %g0, -, HS0⟩, ⟨%d1, %g1, -, HS1⟩, ⟨%d2, %g2, -, HS2⟩, Hk⟩
  obtain rfl := harg1.eq_unread hf0; obtain rfl := harg2.eq_unread hf1; obtain rfl := harg3.eq_unread hf2
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [HS0]
  · iexists _; isplitr
    swap; · iexact HS0
    ipureintro
    rw [View.read_writes_eq_canon _ _ _ (coverN _ _), View.canon_cons_unit_zero (S := S512x1) off0]
    sl_unfold_words
    simp only [View.readAt_eq_ld, harg3.read_unread, View.readCov_unit_zero (S := S512x1) _ off0, View.ld_unit_zero (S := S2000x1) off0, View.ld_unit_zero (S := S2000x256) off0, View.ld_unit_zero (S := S512x1) off0, View.ld_unit_zero (S := S512x256) off0]
  isplitl [HS1]
  · iexists _; isplitr
    swap; · iexact HS1
    ipureintro
    rw [View.read_writes_eq_canon _ _ _ (coverP _ _), View.canon_cons_unit_zero (S := S512x256) off0]
    sl_unfold_words
    simp only [View.readAt_eq_ld, harg3.read_unread, harg1.read_unread, View.readCov_unit_zero (S := S512x256) _ off0, View.ld_unit_zero (S := S2000x1) off0, View.ld_unit_zero (S := S2000x256) off0, View.ld_unit_zero (S := S512x1) off0, View.ld_unit_zero (S := S512x256) off0]
  iexists _; isplitr
  swap; · iexact HS2
  ipureintro
  rw [View.read_writes_eq_canon _ _ _ (coverP _ _), View.canon_cons_unit_zero (S := S512x256) off0]
  sl_unfold_words
  simp only [View.readAt_eq_ld, harg3.read_unread, harg2.read_unread, View.readCov_unit_zero (S := S512x256) _ off0, View.ld_unit_zero (S := S2000x1) off0, View.ld_unit_zero (S := S2000x256) off0, View.ld_unit_zero (S := S512x1) off0, View.ld_unit_zero (S := S512x256) off0]

end Cert.Kernel.Hand

end
-- ==== Proof.K.Pool.RunB.lean ====
import proofs.«412715_j18631568130347_1_alg».proof.Proof.KI.Pool.RunB
import proofs.«412715_j18631568130347_1_alg».proof.Proof.K.Pool.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling body at a middle point

Neither conditional is taken: the body reads the three input blocks, adds the block's contribution into each of the
three accumulators and leaves the output windows untouched. -/

set_option maxHeartbeats 4000000 in
/-- The body at a point that is neither first nor last, on whole memrefs: the inputs at `x0 x1 x2`, the output
    windows at `o3 o4 o5` (untouched), the accumulators at `s0 s1 s2`; it leaves the accumulators at the update of
    `s0 s1 s2` by the block. -/
theorem runB (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S2000x1 .i32) (harg3 : arg3.IsWhole) (arg4 : Memref sig .tc .vmem S512x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x1 .f32) (harg7 : arg7.IsWhole) (arg8 : Memref sig .tc .vmem S512x256 .f32) (harg8 : arg8.IsWhole) (arg9 : Memref sig .tc .vmem S512x256 .f32) (harg9 : arg9.IsWhole)
    (hc0 : ¬condFirst i) (hc2 : ¬condLast i)
    (x0 x1 : Vec F S2000x256 .f32) (x2 : Vec F S2000x1 .i32)
    (o3 : Vec F S512x1 .f32) (o4 o5 : Vec F S512x256 .f32)
    (s0 : Vec F S512x1 .f32) (s1 s2 : Vec F S512x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare o3 ∗ owns (c : Thread nD τ) arg5 fullShare o4 ∗ owns (c : Thread nD τ) arg6 fullShare o5
        ∗ owns (c : Thread nD τ) arg7 fullShare s0 ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2
            ∗ owns (c : Thread nD τ) arg4 fullShare o3 ∗ owns (c : Thread nD τ) arg5 fullShare o4 ∗ owns (c : Thread nD τ) arg6 fullShare o5
            ∗ owns (c : Thread nD τ) arg7 fullShare (k0_pay1 (k0_pay8 x2 s0)) ∗ owns (c : Thread nD τ) arg8 fullShare (k0_pay6 x2 x0 s1) ∗ owns (c : Thread nD τ) arg9 fullShare (k0_pay7 x2 x1 s2)) -∗ K ⟨⟩))
      ⊢ wp frame (wpE (defs₀ (F := F)) Variants.none c none) E (cc0__pool_kernel i arg1 harg1 arg2 harg2 arg3 harg3 arg4 harg4 arg5 harg5 arg6 harg6 arg7 harg7 arg8 harg8 arg9 harg9) K := by
  simp only [cc0__pool_kernel_eq_skeleton]; unfold cc0__pool_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, HS0⟩, ⟨%g1, %hg1, HS1⟩, ⟨%g2, %hg2, HS2⟩, Hk⟩
  obtain rfl := harg1.eq_unread hf0; obtain rfl := harg2.eq_unread hf1; obtain rfl := harg3.eq_unread hf2
  obtain rfl := harg7.eq_unread hg0; obtain rfl := harg8.eq_unread hg1; obtain rfl := harg9.eq_unread hg2
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [HS0]
  · iexists _; isplitr
    swap; · iexact HS0
    ipureintro
    rw [View.read_writes_eq_canon _ _ _ (coverN _ _), View.canon_unit_zero off0]
    simp only [View.readAt_eq_ld, harg3.read_unread, harg7.read_unread, View.ld_unit_zero (S := S2000x1) off0, View.ld_unit_zero (S := S2000x256) off0, View.ld_unit_zero (S := S512x1) off0, View.ld_unit_zero (S := S512x256) off0]
  isplitl [HS1]
  · iexists _; isplitr
    swap; · iexact HS1
    ipureintro
    rw [View.read_writes_eq_canon _ _ _ (coverP _ _), View.canon_unit_zero off0]
    simp only [View.readAt_eq_ld, harg3.read_unread, harg1.read_unread, harg8.read_unread, View.ld_unit_zero (S := S2000x1) off0, View.ld_unit_zero (S := S2000x256) off0, View.ld_unit_zero (S := S512x1) off0, View.ld_unit_zero (S := S512x256) off0]
  iexists _; isplitr
  swap; · iexact HS2
  ipureintro
  rw [View.read_writes_eq_canon _ _ _ (coverP _ _), View.canon_unit_zero off0]
  simp only [View.readAt_eq_ld, harg3.read_unread, harg2.read_unread, harg9.read_unread, View.ld_unit_zero (S := S2000x1) off0, View.ld_unit_zero (S := S2000x256) off0, View.ld_unit_zero (S := S512x1) off0, View.ld_unit_zero (S := S512x256) off0]

end Cert.Kernel.Hand

end
-- ==== Proof.K.Pool.RunC.lean ====
import proofs.«412715_j18631568130347_1_alg».proof.Proof.KI.Pool.RunC
import proofs.«412715_j18631568130347_1_alg».proof.Proof.K.Pool.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling body at the last point

The first conditional is not taken and the second is: the body reads the three input blocks, adds the block's
contribution into each accumulator and copies each accumulator to its output window. -/

set_option maxHeartbeats 4000000 in
/-- The body at the last point, on whole memrefs: the inputs at `x0 x1 x2`, the output windows at anything, the
    accumulators at `s0 s1 s2`; it leaves the accumulators, and the output windows, at the update of `s0 s1 s2` by
    the block. -/
theorem runC (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S2000x1 .i32) (harg3 : arg3.IsWhole) (arg4 : Memref sig .tc .vmem S512x1 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x1 .f32) (harg7 : arg7.IsWhole) (arg8 : Memref sig .tc .vmem S512x256 .f32) (harg8 : arg8.IsWhole) (arg9 : Memref sig .tc .vmem S512x256 .f32) (harg9 : arg9.IsWhole)
    (hc0 : ¬condFirst i) (hc2 : condLast i)
    (x0 x1 : Vec F S2000x256 .f32) (x2 : Vec F S2000x1 .i32)
    (s0 : Vec F S512x1 .f32) (s1 s2 : Vec F S512x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare s0 ∗ owns (c : Thread nD τ) arg8 fullShare s1 ∗ owns (c : Thread nD τ) arg9 fullShare s2
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 (k0_pay8 x2 s0)) ∗ owns (c : Thread nD τ) arg5 fullShare (k0_pay6 x2 x0 s1) ∗ owns (c : Thread nD τ) arg6 fullShare (k0_pay7 x2 x1 s2)
            ∗ owns (c : Thread nD τ) arg7 fullShare (k0_pay1 (k0_pay8 x2 s0)) ∗ owns (c : Thread nD τ) arg8 fullShare (k0_pay6 x2 x0 s1) ∗ owns (c : Thread nD τ) arg9 fullShare (k0_pay7 x2 x1 s2)) -∗ K ⟨⟩))
      ⊢ wp frame (wpE (defs₀ (F := F)) Variants.none c none) E (cc0__pool_kernel i arg1 harg1 arg2 harg2 arg3 harg3 arg4 harg4 arg5 harg5 arg6 harg6 arg7 harg7 arg8 harg8 arg9 harg9) K := by
  simp only [cc0__pool_kernel_eq_skeleton]; unfold cc0__pool_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%g0, %hg0, HS0⟩, ⟨%g1, %hg1, HS1⟩, ⟨%g2, %hg2, HS2⟩, Hk⟩
  obtain rfl := harg1.eq_unread hf0; obtain rfl := harg2.eq_unread hf1; obtain rfl := harg3.eq_unread hf2
  obtain rfl := harg7.eq_unread hg0; obtain rfl := harg8.eq_unread hg1; obtain rfl := harg9.eq_unread hg2
  sl_exec (disch := first | exact hc0 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [View.read_writes_eq_canon _ _ _ (coverN _ _), View.canon_unit_zero (S := S512x1) off0]
    sl_unfold_words
    simp only [View.readAt_eq_ld, harg3.read_unread, harg7.read_unread, View.readCov_unit_zero (S := S512x1) _ off0, View.ld_unit_zero (S := S2000x1) off0, View.ld_unit_zero (S := S2000x256) off0, View.ld_unit_zero (S := S512x1) off0, View.ld_unit_zero (S := S512x256) off0]
  isplitl [H4]
  · iexists _; isplitr
    swap; · iexact H4
    ipureintro
    rw [View.read_writes_eq_canon _ _ _ (coverP _ _), View.canon_unit_zero (S := S512x256) off0]
    sl_unfold_words
    simp only [View.readAt_eq_ld, harg3.read_unread, harg1.read_unread, harg8.read_unread, View.readCov_unit_zero (S := S512x256) _ off0, View.ld_unit_zero (S := S2000x1) off0, View.ld_unit_zero (S := S2000x256) off0, View.ld_unit_zero (S := S512x1) off0, View.ld_unit_zero (S := S512x256) off0]
  isplitl [H5]
  · iexists _; isplitr
    swap; · iexact H5
    ipureintro
    rw [View.read_writes_eq_canon _ _ _ (coverP _ _), View.canon_unit_zero (S := S512x256) off0]
    sl_unfold_words
    simp only [View.readAt_eq_ld, harg3.read_unread, harg2.read_unread, harg9.read_unread, View.readCov_unit_zero (S := S512x256) _ off0, View.ld_unit_zero (S := S2000x1) off0, View.ld_unit_zero (S := S2000x256) off0, View.ld_unit_zero (S := S512x1) off0, View.ld_unit_zero (S := S512x256) off0]
  isplitl [HS0]
  · iexists _; isplitr
    swap; · iexact HS0
    ipureintro
    sl_unfold_words
    rw [View.read_writes_eq_canon _ _ _ (coverN _ _), View.canon_unit_zero (S := S512x1) off0]
    simp only [View.readAt_eq_ld, harg3.read_unread, harg7.read_unread, View.ld_unit_zero (S := S2000x1) off0, View.ld_unit_zero (S := S2000x256) off0, View.ld_unit_zero (S := S512x1) off0, View.ld_unit_zero (S := S512x256) off0]
  isplitl [HS1]
  · iexists _; isplitr
    swap; · iexact HS1
    ipureintro
    sl_unfold_words
    rw [View.read_writes_eq_canon _ _ _ (coverP _ _), View.canon_unit_zero (S := S512x256) off0]
    simp only [View.readAt_eq_ld, harg3.read_unread, harg1.read_unread, harg8.read_unread, View.ld_unit_zero (S := S2000x1) off0, View.ld_unit_zero (S := S2000x256) off0, View.ld_unit_zero (S := S512x1) off0, View.ld_unit_zero (S := S512x256) off0]
  iexists _; isplitr
  swap; · iexact HS2
  ipureintro
  sl_unfold_words
  rw [View.read_writes_eq_canon _ _ _ (coverP _ _), View.canon_unit_zero (S := S512x256) off0]
  simp only [View.readAt_eq_ld, harg3.read_unread, harg2.read_unread, harg9.read_unread, View.ld_unit_zero (S := S2000x1) off0, View.ld_unit_zero (S := S2000x256) off0, View.ld_unit_zero (S := S512x1) off0, View.ld_unit_zero (S := S512x256) off0]

end Cert.Kernel.Hand

end
-- ==== Proof.K.Pool.lean ====
import proofs.«412715_j18631568130347_1_alg».proof.Proof.KI.Pool
import proofs.«412715_j18631568130347_1_alg».proof.Proof.K.Pool.RunA
import proofs.«412715_j18631568130347_1_alg».proof.Proof.K.Pool.RunB
import proofs.«412715_j18631568130347_1_alg».proof.Proof.K.Pool.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling region (custom call 0): what each grid point leaves, the proof data, the body obligation

The region runs 50 points; point `t` reads rows `2000 t .. 2000 t + 1999` of the two feature arrays and of the
column of graph ids, and adds into three accumulators kept in scratch memory: the per-graph node count, and the
per-graph sums of the two feature arrays. The first point zeroes the accumulators before adding; the last point
copies them into the three output windows, whose one block is the whole output array. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three accumulators: node counts, sums of the first feature array, sums of the second. -/
abbrev Acc (F : FTy → Type) [FloatOps F] : Type := FVec F S512x1 .f32 × FVec F S512x256 .f32 × FVec F S512x256 .f32

/-- The accumulators as the first point zeroes them. -/
def poolInit : Acc F := (k0_pay2, k0_pay3, k0_pay4)

/-- One point's update: the ids' block `b`, the two feature blocks `x1` `x2`, the accumulators before. -/
def poolStep (b : Vec F S2000x1 .i32) (x1 x2 : Vec F S2000x256 .f32) (s : Acc F) : Acc F :=
  (k0_pay1 (k0_pay8 b s.1), k0_pay6 b x1 s.2.1, k0_pay7 b x2 s.2.2)

/-- What the scratch accumulators hold after point `n`. -/
def scAt0 (c : Dev nD) : (n : ℕ) → n < cfg0.N → Acc F
  | 0, h => poolStep (iblk0 V c 2 ⟨0, h⟩) (iblk0 V c 0 ⟨0, h⟩) (iblk0 V c 1 ⟨0, h⟩) poolInit
  | n + 1, h => poolStep (iblk0 V c 2 ⟨n + 1, h⟩) (iblk0 V c 0 ⟨n + 1, h⟩) (iblk0 V c 1 ⟨n + 1, h⟩) (scAt0 c n (Nat.lt_of_succ_lt h))

/-- At the first point the accumulators are the update of the zeros. -/
theorem scAt0_first (c : Dev nD) (t : Fin cfg0.N) (hz : t.val = 0) :
    scAt0 V c t.val t.isLt = poolStep (iblk0 V c 2 t) (iblk0 V c 0 t) (iblk0 V c 1 t) poolInit := by
  obtain ⟨n, hn⟩ := t
  cases n with
  | zero => rfl
  | succ n => exact absurd hz (Nat.succ_ne_zero _)

/-- At a later point they are the update of what the point before left. -/
theorem scAt0_pos (c : Dev nD) (t : Fin cfg0.N) (hz : t.val ≠ 0) :
    scAt0 V c t.val t.isLt = poolStep (iblk0 V c 2 t) (iblk0 V c 0 t) (iblk0 V c 1 t)
      (scAt0 V c (t.val - 1) (Nat.lt_of_le_of_lt (Nat.sub_le _ _) t.isLt)) := by
  obtain ⟨n, hn⟩ := t
  cases n with
  | zero => exact absurd rfl hz
  | succ n => rfl

/-- What the body leaves in each window's staging buffer at each point: an input's block; for an output, the
    matching accumulator after the point (consulted at the last point only, where the body copies it there). -/
def after0 (c : Dev nD) (w : Fin cfg0.W) (t : Fin cfg0.N) : (cfg0.win w).block.Idx → Elt F (cfg0.win w).elt :=
  match w with
  | ⟨0, _⟩ => iblk0 V c 0 t
  | ⟨1, _⟩ => iblk0 V c 1 t
  | ⟨2, _⟩ => iblk0 V c 2 t
  | ⟨3, _⟩ => (scAt0 V c t.val t.isLt).1
  | ⟨4, _⟩ => (scAt0 V c t.val t.isLt).2.1
  | ⟨5, _⟩ => (scAt0 V c t.val t.isLt).2.2

/-- The three accumulators as memrefs: whole scoped buffers of the kernel's own. -/
abbrev scM0 : Memref sig .tc .vmem S512x1 .f32 := Memref.whole cc0_scratch0
abbrev scM1 : Memref sig .tc .vmem S512x256 .f32 := Memref.whole cc0_scratch1
abbrev scM2 : Memref sig .tc .vmem S512x256 .f32 := Memref.whole cc0_scratch2

/-- The core's other scoped buffers (the second region's staging buffers), each at some contents: the region
    never touches them. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant with the three accumulators as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ restB (F := F) c) ∗ (∃ r, prngReg c r)) := by
  unfold Pipeline.ΦA; rw [scopedRest0_eq]; simp only [scM0, scM1, scM2, owns_whole]; rfl

/-- The region invariant before position `n`: before the first point the class's (every scratch at anything);
    afterwards the accumulators at what the point before left, the other scoped buffers at anything, and the
    generator register at some state. -/
def PhiS (c : Dev nD) : (n : ℕ) → n ≤ cfg0.N → sProp 𝕄
  | 0, _ => Pipeline.ΦA spec0 c
  | n + 1, hn => iprop(iprop(owns (c : Thread nD τ) scM0 fullShare (scAt0 V c n hn).1
      ∗ owns (c : Thread nD τ) scM1 fullShare (scAt0 V c n hn).2.1
      ∗ owns (c : Thread nD τ) scM2 fullShare (scAt0 V c n hn).2.2 ∗ restB (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (scAt0 V c n hn).1
      ∗ owns (c : Thread nD τ) scM1 fullShare (scAt0 V c n hn).2.1
      ∗ owns (c : Thread nD τ) scM2 fullShare (scAt0 V c n hn).2.2 ∗ restB (F := F) c) ∗ (∃ r, prngReg c r)) := rfl

theorem PhiS_pos (c : Dev nD) (n : ℕ) (h : n ≤ cfg0.N) (hz : n ≠ 0) :
    PhiS V c n h = iprop(iprop(owns (c : Thread nD τ) scM0 fullShare (scAt0 V c (n - 1) (by omega)).1
      ∗ owns (c : Thread nD τ) scM1 fullShare (scAt0 V c (n - 1) (by omega)).2.1
      ∗ owns (c : Thread nD τ) scM2 fullShare (scAt0 V c (n - 1) (by omega)).2.2 ∗ restB (F := F) c) ∗ (∃ r, prngReg c r)) := by
  cases n with
  | zero => exact absurd rfl hz
  | succ n => rfl

/-- The region invariant before each point: the scratch at anything before the first point, then at `scAt0`. -/
def Phi0 (c : Dev nD) : Fin (cfg0.N + 1) → sProp 𝕄 :=
  fun t => PhiS V c t.val (Nat.le_of_lt_succ t.isLt)

/-- The proof data of the pooling pipeline on core `c`. -/
def dat0 (c : Dev nD) : Dat τ (Elt F) Unit ℕ (UR sig nD τ) ℕ cfg0 c where
  A w := V c (Pipeline.arrRef spec0 w)
  after := after0 V c
  Φ := Phi0 V c
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0, Phi0]; simp only [Fin.coe_castSucc]

/-- What the body leaves, window by window. -/
theorem after0_0 (c : Dev nD) (t : Fin cfg0.N) : (dat0 V c).after 0 t = iblk0 V c 0 t := by dsimp only [dat0, after0]
theorem after0_1 (c : Dev nD) (t : Fin cfg0.N) : (dat0 V c).after 1 t = iblk0 V c 1 t := by dsimp only [dat0, after0]
theorem after0_2 (c : Dev nD) (t : Fin cfg0.N) : (dat0 V c).after 2 t = iblk0 V c 2 t := by dsimp only [dat0, after0]
theorem after0_3 (c : Dev nD) (t : Fin cfg0.N) : (dat0 V c).after 3 t = (scAt0 V c t.val t.isLt).1 := by dsimp only [dat0, after0]
theorem after0_4 (c : Dev nD) (t : Fin cfg0.N) : (dat0 V c).after 4 t = (scAt0 V c t.val t.isLt).2.1 := by dsimp only [dat0, after0]
theorem after0_5 (c : Dev nD) (t : Fin cfg0.N) : (dat0 V c).after 5 t = (scAt0 V c t.val t.isLt).2.2 := by dsimp only [dat0, after0]

/-- Each input's current staging buffer holds its block at every point: the window is fetched at every point,
    uncut and never idle. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation, at a generic point -/

/-- Each window's current staging memref at point `t`, as the pipeline passes it to the body. -/
abbrev ms0_0 (t : Fin cfg0.N) : Memref sig .tc .vmem S2000x256 .f32 := win0_0.stage (cfg0.slots t 0)
abbrev ms0_1 (t : Fin cfg0.N) : Memref sig .tc .vmem S2000x256 .f32 := win0_1.stage (cfg0.slots t 1)
abbrev ms0_2 (t : Fin cfg0.N) : Memref sig .tc .vmem S2000x1 .i32 := win0_2.stage (cfg0.slots t 2)
abbrev ms0_3 (t : Fin cfg0.N) : Memref sig .tc .vmem S512x1 .f32 := win0_3.stage (cfg0.slots t 3)
abbrev ms0_4 (t : Fin cfg0.N) : Memref sig .tc .vmem S512x256 .f32 := win0_4.stage (cfg0.slots t 4)
abbrev ms0_5 (t : Fin cfg0.N) : Memref sig .tc .vmem S512x256 .f32 := win0_5.stage (cfg0.slots t 5)

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4000000 in
/-- The body at any point. The inputs' memrefs hold their blocks; the point is the first, a middle one or the last,
    and that case's run applies: the invariant hands the body the accumulators at what the point before left (at
    anything at the first point) and takes them back at this point's update; away from the last point the output
    windows are idle and handed back untouched, at the last point they receive the accumulators. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 50 := lt_of_lt_of_eq t.isLt (show cfg0.N = 50 from N_0)
  by_cases hz : t.val = 0
  · have hc0 : condFirst (grid0.coords t) := (hcondFirst t).mpr hz
    have hc2 : ¬condLast (grid0.coords t) := fun h => by have := (hcondLast t).mp h; omega
    rw [Dat.leavesExact_idle (dat0 V c) 3 t (idleAt0_3 t hc2) (noFlush0_3 t hc2),
      Dat.leavesExact_idle (dat0 V c) 4 t (idleAt0_4 t hc2) (noFlush0_4 t hc2),
      Dat.leavesExact_idle (dat0 V c) 5 t (idleAt0_5 t hc2) (noFlush0_5 t hc2)]
    rw [scAt0_first V c t hz, PhiS_castSucc V c t, PhiS_zero V c _ _ hz, PhiA0_eq]
    dsimp only [poolStep, poolInit]
    iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ _ _ _ _ hc0 hc2 (iblk0 V c 0 t) (iblk0 V c 1 t) (iblk0 V c 2 t)
      ((dat0 V c).before 3 t d3) ((dat0 V c).before 4 t d4) ((dat0 V c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 HR Hg]
    · isplitr [Hg]
      · isplitl [HS0]; · iexact HS0
        isplitl [HS1]; · iexact HS1
        isplitl [HS2]; · iexact HS2
        iexact HR
      iexact Hg
    isplitl [Ho]; · iexact Ho
    isplitl [H0]; · iexact H0
    isplitl [H1]; · iexact H1
    isplitl [H2]; · iexact H2
    isplitl [H3]; · iexists _; iexact H3
    isplitl [H4]; · iexists _; iexact H4
    iexists _; iexact H5
  · by_cases hl : t.val = 49
    · have hc0 : ¬condFirst (grid0.coords t) := fun h => hz ((hcondFirst t).mp h)
      have hc2 : condLast (grid0.coords t) := (hcondLast t).mpr hl
      rw [show (dat0 V c).leavesExact 3 t = owns (c : Thread nD τ) (ms0_3 t) fullShare ((dat0 V c).after 3 t) from by
        unfold Dat.leavesExact; rw [liveAt0_3 t hc2], after0_3]
      rw [show (dat0 V c).leavesExact 4 t = owns (c : Thread nD τ) (ms0_4 t) fullShare ((dat0 V c).after 4 t) from by
        unfold Dat.leavesExact; rw [liveAt0_4 t hc2], after0_4]
      rw [show (dat0 V c).leavesExact 5 t = owns (c : Thread nD τ) (ms0_5 t) fullShare ((dat0 V c).after 5 t) from by
        unfold Dat.leavesExact; rw [liveAt0_5 t hc2], after0_5]
      rw [scAt0_pos V c t hz, PhiS_castSucc V c t, PhiS_pos V c _ _ hz]
      dsimp only [poolStep]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ _ _ _ _ hc0 hc2 (iblk0 V c 0 t) (iblk0 V c 1 t) (iblk0 V c 2 t)
        (scAt0 V c (t.val - 1) (Nat.lt_of_le_of_lt (Nat.sub_le _ _) t.isLt)).1
        (scAt0 V c (t.val - 1) (Nat.lt_of_le_of_lt (Nat.sub_le _ _) t.isLt)).2.1
        (scAt0 V c (t.val - 1) (Nat.lt_of_le_of_lt (Nat.sub_le _ _) t.isLt)).2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc0 : ¬condFirst (grid0.coords t) := fun h => hz ((hcondFirst t).mp h)
      have hc2 : ¬condLast (grid0.coords t) := fun h => hl ((hcondLast t).mp h)
      rw [Dat.leavesExact_idle (dat0 V c) 3 t (idleAt0_3 t hc2) (noFlush0_3 t hc2),
        Dat.leavesExact_idle (dat0 V c) 4 t (idleAt0_4 t hc2) (noFlush0_4 t hc2),
        Dat.leavesExact_idle (dat0 V c) 5 t (idleAt0_5 t hc2) (noFlush0_5 t hc2)]
      rw [scAt0_pos V c t hz, PhiS_castSucc V c t, PhiS_pos V c _ _ hz]
      dsimp only [poolStep]
      iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ _ _ _ _ hc0 hc2 (iblk0 V c 0 t) (iblk0 V c 1 t) (iblk0 V c 2 t)
        ((dat0 V c).before 3 t d3) ((dat0 V c).before 4 t d4) ((dat0 V c).before 5 t d5)
        (scAt0 V c (t.val - 1) (Nat.lt_of_le_of_lt (Nat.sub_le _ _) t.isLt)).1
        (scAt0 V c (t.val - 1) (Nat.lt_of_le_of_lt (Nat.sub_le _ _) t.isLt)).2.1
        (scAt0 V c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 HR Hg]
      · isplitr [Hg]
        · isplitl [HS0]; · iexact HS0
          isplitl [HS1]; · iexact HS1
          isplitl [HS2]; · iexact HS2
          iexact HR
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HR⟩, Hg⟩
  isplitr [Hg]
  · isplitl [HS0]; · iexists _; iexact HS0
    isplitl [HS1]; · iexists _; iexact HS1
    isplitl [HS2]; · iexists _; iexact HS2
    iexact HR
  iexact Hg

/-- After the last point the invariant gives the scratch and the generator register back. -/
theorem hout0 (c : Dev nD) : (dat0 V c).Φ (Fin.last cfg0.N) ⊢ Pipeline.ΦA spec0 c :=
  Phi_out0 V c _ (by rw [Fin.val_last]; have : cfg0.N = 50 := N_0; omega)

/-- The last point of the grid. -/
abbrev tLast : Fin cfg0.N := ⟨49, by decide⟩

/-- The three output arrays after the region: what the last point's accumulators hold (the outputs' one block is
    written back after the last point only). -/
theorem arrAt0_3 (c : Dev nD) : (dat0 V c).arrAt 3 cfg0.N = (scAt0 V c 49 (by decide)).1 := by
  show (dat0 V c).arrAt 3 (tLast.val + 1) = _
  rw [(dat0 V c).arrAt_succ 3 tLast, if_pos ((flush0_3 tLast).mpr rfl)]
  have hz : (fun a => (win0_3.index tLast) a * main_v1_0.ty.shape.size a) = fun _ => 0 := funext fun a => by fin_cases a <;> decide
  exact (Memref.write_access_unit_zero_univ (Elt F) main_v1_0 hz _ _ _).trans (after0_3 V c tLast)
theorem arrAt0_4 (c : Dev nD) : (dat0 V c).arrAt 4 cfg0.N = (scAt0 V c 49 (by decide)).2.1 := by
  show (dat0 V c).arrAt 4 (tLast.val + 1) = _
  rw [(dat0 V c).arrAt_succ 4 tLast, if_pos ((flush0_4 tLast).mpr rfl)]
  have hz : (fun a => (win0_4.index tLast) a * main_v1_1.ty.shape.size a) = fun _ => 0 := funext fun a => by fin_cases a <;> decide
  exact (Memref.write_access_unit_zero_univ (Elt F) main_v1_1 hz _ _ _).trans (after0_4 V c tLast)
theorem arrAt0_5 (c : Dev nD) : (dat0 V c).arrAt 5 cfg0.N = (scAt0 V c 49 (by decide)).2.2 := by
  show (dat0 V c).arrAt 5 (tLast.val + 1) = _
  rw [(dat0 V c).arrAt_succ 5 tLast, if_pos ((flush0_5 tLast).mpr rfl)]
  have hz : (fun a => (win0_5.index tLast) a * main_v1_2.ty.shape.size a) = fun _ => 0 := funext fun a => by fin_cases a <;> decide
  exact (Memref.write_access_unit_zero_univ (Elt F) main_v1_2 hz _ _ _).trans (after0_5 V c tLast)

end Cert.Kernel.Hand

end
-- ==== Proof.K.Comb.lean ====
import proofs.«412715_j18631568130347_1_alg».proof.Proof.KI.Comb
import proofs.«412715_j18631568130347_1_alg».proof.Proof.Gen.Kernel.Launch
import proofs.«412715_j18631568130347_1_alg».proof.Proof.Gen.Kernel.Skeleton
import proofs.«412715_j18631568130347_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The combining region (custom call 1): what each grid point leaves, the proof data, the body obligation

Point `t` of 50 reads rows `2000 t ..` of the two feature arrays and of the ids' column, and the whole table of
gate weights; it writes the same rows of the result. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the result window's staging buffer at point `t`. -/
def out1 (c : Dev nD) (t : Fin cfg1.N) : FVec F S2000x256 .f32 :=
  k1_pay1 (iblk1 V c 2 t) (iblk1 V c 3 t) (iblk1 V c 0 t) (iblk1 V c 1 t)

/-- What the body leaves in each window's staging buffer at each point. -/
def after1 (c : Dev nD) : (w : Fin cfg1.W) → Fin cfg1.N → (cfg1.win w).block.Idx → Elt F (cfg1.win w).elt :=
  fun w t => match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t

/-- The proof data of the combining pipeline on core `c`. -/
def dat1 (c : Dev nD) : Dat τ (Elt F) Unit ℕ (UR sig nD τ) ℕ cfg1 c where
  A w := V c (Pipeline.arrRef spec1 w)
  after := after1 V c
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window: an input's buffer at its block, the result's at the combined rows. -/
theorem after1_0 (c : Dev nD) (t : Fin cfg1.N) : (dat1 V c).after 0 t = iblk1 V c 0 t := by dsimp only [dat1, after1]
theorem after1_1 (c : Dev nD) (t : Fin cfg1.N) : (dat1 V c).after 1 t = iblk1 V c 1 t := by dsimp only [dat1, after1]
theorem after1_2 (c : Dev nD) (t : Fin cfg1.N) : (dat1 V c).after 2 t = iblk1 V c 2 t := by dsimp only [dat1, after1]
theorem after1_3 (c : Dev nD) (t : Fin cfg1.N) : (dat1 V c).after 3 t = iblk1 V c 3 t := by dsimp only [dat1, after1]
theorem after1_4 (c : Dev nD) (t : Fin cfg1.N) : (dat1 V c).after 4 t = out1 V c t := by dsimp only [dat1, after1]

/-! ## What the body finds in each input window's buffer

An input window's buffer holds the window's block of the point whether or not the block was moved in at that point:
a window whose block index stands still (the table of gate weights, moved in once) still holds the block moved in
at the first point, which is the block of every point. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body's accesses: every load and the one store take a whole buffer -/

abbrev rIds : Rect S2000x1 := Rect.unit (s := S2000x1) ![0, 0] S2000x1.size inb_S2000x1_S2000x1_0_0
abbrev rTab : Rect S512x2 := Rect.unit (s := S512x2) ![0, 0] S512x2.size inb_S512x2_S512x2_0_0
abbrev rRows : Rect S2000x256 := Rect.unit (s := S2000x256) ![0, 0] S2000x256.size inb_S2000x256_S2000x256_0_0

theorem zeroOff : (![0, 0] : Fin 2 → Nat) = fun _ => 0 := funext fun a => by fin_cases a <;> rfl

/-- The result buffer after the body, from the contents of the four input buffers: its one store as a piece over
    what the loads read. -/
def stored1 (xi : Vec F S2000x1 .i32) (xw : Vec F S512x2 .f32) (x0 x1 : Vec F S2000x256 .f32) : Vec F S2000x256 .f32 :=
  View.canon [⟨rRows, k1_pay1 (View.ld xi rIds) (View.ld xw rTab) (View.ld x0 rRows) (View.ld x1 rRows)⟩]

/-- The store takes the whole buffer and each load reads a whole buffer: what is left is the combined rows of the
    buffers' contents. -/
theorem stored1_eq (xi : Vec F S2000x1 .i32) (xw : Vec F S512x2 .f32) (x0 x1 : Vec F S2000x256 .f32) :
    stored1 xi xw x0 x1 = k1_pay1 xi xw x0 x1 := by
  unfold stored1
  rw [View.canon_unit_zero zeroOff]
  simp only [View.ld_unit_zero (S := S2000x1) zeroOff, View.ld_unit_zero (S := S512x2) zeroOff,
    View.ld_unit_zero (S := S2000x256) zeroOff]

/-- The one store covers the result buffer. -/
theorem cover1_4 (p0 : Vec F S2000x256 .f32) (y : S2000x256.Idx) :
    ∃ pc ∈ ([⟨rRows, p0⟩] : List (View.Piece (Elt F) S2000x256 .f32)), y ∈ pc.1.set :=
  ⟨_, List.mem_singleton_self _, View.mem_set_unit_zero zeroOff inb_S2000x256_S2000x256_0_0 y⟩

/-! ## The body's triple -/

set_option maxHeartbeats 1000000 in
/-- The body on whole buffers — the four inputs' at read contents, the result's at anything — runs to the
    continuation holding the inputs' as they were and the result's at the combined rows of the inputs' contents.
    The body reads the result buffer once before storing into it; nothing is made of what it reads. -/
theorem sound_kernel1 (c : Dev nD) (E : Set ℕ) (i : grid1.Coords)
    (arg1 : Memref sig .tc .vmem S2000x256 .f32) (harg1 : arg1.IsWhole) (arg2 : Memref sig .tc .vmem S2000x256 .f32) (harg2 : arg2.IsWhole)
    (arg3 : Memref sig .tc .vmem S2000x1 .i32) (harg3 : arg3.IsWhole) (arg4 : Memref sig .tc .vmem S512x2 .f32) (harg4 : arg4.IsWhole)
    (arg5 : Memref sig .tc .vmem S2000x256 .f32) (harg5 : arg5.IsWhole)
    (x0 x1 : Vec F S2000x256 .f32) (xi : Vec F S2000x1 .i32) (xw : Vec F S512x2 .f32) (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare xw
        ∗ (∃ d, owns (c : Thread nD τ) arg5 fullShare d)
        ∗ (iprop(owns (c : Thread nD τ) arg1 fullShare x0 ∗ owns (c : Thread nD τ) arg2 fullShare x1
            ∗ owns (c : Thread nD τ) arg3 fullShare xi ∗ owns (c : Thread nD τ) arg4 fullShare xw
            ∗ owns (c : Thread nD τ) arg5 fullShare (stored1 xi xw x0 x1)) -∗ K ⟨⟩))
      ⊢ wp frame (wpE (defs₀ (F := F)) Variants.none c none) E (cc1__combine_kernel i arg1 harg1 arg2 harg2 arg3 harg3 arg4 harg4 arg5 harg5) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold out1
  rw [← stored1_eq]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Regs.lean ====
import proofs.«412715_j18631568130347_1_alg».proof.Proof.KI.Regs
import proofs.«412715_j18631568130347_1_alg».proof.Proof.K.Pool
import proofs.«412715_j18631568130347_1_alg».proof.Proof.K.Comb
import proofs.«412715_j18631568130347_1_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the program: two kernel regions among stretches of host operations

The pooling region is entered from the launch memory after the first host stretch; it leaves its three output
arrays at what its last point writes back. The host stretches between the regions compute the gate weights from
them. The combining region is entered from those contents and leaves the result array. -/

/-! ## The buffer contents the regions are entered from and what they leave -/

/-- The pooling region's entry contents: the launch memory after the first host stretch. -/
abbrev Vin0 : (c : Dev nD) → (b : Ref sig .tc) → Buf (Elt F) ((c : Thread nD τ).loc b) := fun c b => V1 m c b

/-- What the pooling region leaves: its arrays at what the write-backs leave, every other buffer as entered. -/
def outsA : Outs (F := F) := fun _ r c =>
  (Pipeline.withArrays spec0 c (V1 m c) fun w => (dat0 (Vin0 m) c).arrAt w cfg0.N) r

theorem outsA_arr (J : ℕ) (c : Dev nD) (w : Fin cfg0.W) :
    outsA m J (Pipeline.arrRef spec0 w) c = (dat0 (Vin0 m) c).arrAt w cfg0.N := by
  unfold outsA; exact Pipeline.withArrays_arr spec0 launch0.win.arr_inj c _ _ w

theorem outsA_0 (c : Dev nD) : outsA m 2 main_v1_0 c = (dat0 (Vin0 m) c).arrAt 3 cfg0.N := outsA_arr m 2 c 3
theorem outsA_1 (c : Dev nD) : outsA m 2 main_v1_1 c = (dat0 (Vin0 m) c).arrAt 4 cfg0.N := outsA_arr m 2 c 4
theorem outsA_2 (c : Dev nD) : outsA m 2 main_v1_2 c = (dat0 (Vin0 m) c).arrAt 5 cfg0.N := outsA_arr m 2 c 5

/-- The combining region's entry contents: the host stretches between the regions run over what the pooling
    region leaves. -/
abbrev Vin1 : (c : Dev nD) → (b : Ref sig .tc) → Buf (Elt F) ((c : Thread nD τ).loc b) := fun c b => V13 m (outsA m) c b

/-- The result array after the combining region. -/
def kout (c : Dev nD) : Buf (Elt F) ((c : Thread nD τ).loc main_v114) := (dat1 (Vin1 m) c).arrAt 4 cfg1.N

/-- What both regions leave: the pooling region's arrays for the reads between the regions, the combining
    region's at the end. -/
def outs : Outs (F := F) := fun J r c =>
  if J = 14 then (Pipeline.withArrays spec1 c (V13 m (outsA m) c) fun w => (dat1 (Vin1 m) c).arrAt w cfg1.N) r
  else outsA m J r c

theorem outs_two (r : Ref sig .tc) (c : Dev nD) : outs m 2 r c = outsA m 2 r c := by
  unfold outs; exact if_neg (by decide)

theorem outs_arr (c : Dev nD) (w : Fin cfg1.W) :
    outs m 14 (Pipeline.arrRef spec1 w) c = (dat1 (Vin1 m) c).arrAt w cfg1.N := by
  unfold outs; rw [if_pos rfl]; exact Pipeline.withArrays_arr spec1 launch1.win.arr_inj c _ _ w

theorem outs_v114 (c : Dev nD) : outs m 14 main_v114 c = kout m c := outs_arr m c 4

/-! ## The valuations between the items at these contents -/

theorem V2_outs (c : Dev nD) : V2 m (outs m) c = V2 m (outsA m) c := by
  unfold V2; rw [outs_two, outs_two, outs_two]

theorem V13_outs (c : Dev nD) : V13 m (outs m) c = V13 m (outsA m) c :=
  congrArg (fun v => StableHlo.after hostOps1_10 (StableHlo.after hostOps1_9 (StableHlo.after hostOps1_8
    (StableHlo.after hostOps1_7 (StableHlo.after hostOps1_6 (StableHlo.after hostOps1_5 (StableHlo.after hostOps1_4
    (StableHlo.after hostOps1_3 (StableHlo.after hostOps1_2 (StableHlo.after hostOps1_1 (StableHlo.after hostOps1 v)))))))))))
    (V2_outs m c)

theorem V2_v1_0 (o : Outs (F := F)) (c : Dev nD) : V2 m o c main_v1_0 = o 2 main_v1_0 c := by
  unfold V2
  rw [Function.update_of_ne (StableHlo.devRef_ne_of_ne (by decide)), Function.update_of_ne (StableHlo.devRef_ne_of_ne (by decide)),
    Function.update_self]
theorem V2_v1_1 (o : Outs (F := F)) (c : Dev nD) : V2 m o c main_v1_1 = o 2 main_v1_1 c := by
  unfold V2
  rw [Function.update_of_ne (StableHlo.devRef_ne_of_ne (by decide)), Function.update_self]
theorem V2_v1_2 (o : Outs (F := F)) (c : Dev nD) : V2 m o c main_v1_2 = o 2 main_v1_2 c := by
  unfold V2
  rw [Function.update_self]
theorem V14_v114 (o : Outs (F := F)) (c : Dev nD) : V14 m o c main_v114 = o 14 main_v114 c := by
  unfold V14
  rw [Function.update_self]

/-- The pooling region's exit contents. -/
abbrev Vout0 : (c : Dev nD) → (b : Ref sig .tc) → Buf (Elt F) ((c : Thread nD τ).loc b) := fun c b => V2 m (outs m) c b
/-- The combining region's exit contents. -/
abbrev Vout1 : (c : Dev nD) → (b : Ref sig .tc) → Buf (Elt F) ((c : Thread nD τ).loc b) := fun c b => V14 m (outs m) c b

/-- At the pooling region's exit each of its arrays holds what the pipeline leaves: an input as entered, an output
    at its write-backs. -/
theorem hF0 (c : Dev nD) : ∀ w : Fin cfg0.W, (dat0 (Vin0 m) c).arrAt w cfg0.N = Vout0 m c (Pipeline.arrRef spec0 w)
  | 0 => (((dat0 (Vin0 m) c).arrAt_in 0 rfl _).trans (A_eq0 (Vin0 m) c 0)).trans (V2_of m (outs m) c main_arg0 (by decide)).symm
  | 1 => (((dat0 (Vin0 m) c).arrAt_in 1 rfl _).trans (A_eq0 (Vin0 m) c 1)).trans (V2_of m (outs m) c main_arg1 (by decide)).symm
  | 2 => (((dat0 (Vin0 m) c).arrAt_in 2 rfl _).trans (A_eq0 (Vin0 m) c 2)).trans (V2_of m (outs m) c main_v0 (by decide)).symm
  | 3 => ((V2_v1_0 m (outs m) c).trans ((outs_two m main_v1_0 c).trans (outsA_0 m c))).symm
  | 4 => ((V2_v1_1 m (outs m) c).trans ((outs_two m main_v1_1 c).trans (outsA_1 m c))).symm
  | 5 => ((V2_v1_2 m (outs m) c).trans ((outs_two m main_v1_2 c).trans (outsA_2 m c))).symm

/-- Every other buffer is as the region found it. -/
theorem hrest0 (c : Dev nD) : ∀ b, b ∉ Finset.univ.image (Pipeline.arrRef spec0) → Vout0 m c b = Vin0 m c b :=
  fun b hb => V2_of m (outs m) c b fun h => by
    rcases List.mem_cons.mp h with rfl | h
    · exact hb (Finset.mem_image.mpr ⟨3, Finset.mem_univ _, rfl⟩)
    rcases List.mem_cons.mp h with rfl | h
    · exact hb (Finset.mem_image.mpr ⟨4, Finset.mem_univ _, rfl⟩)
    rcases List.mem_cons.mp h with rfl | h
    · exact hb (Finset.mem_image.mpr ⟨5, Finset.mem_univ _, rfl⟩)
    exact absurd h (List.not_mem_nil)

/-- At the combining region's exit each of its arrays holds what the pipeline leaves. -/
theorem hF1 (c : Dev nD) : ∀ w : Fin cfg1.W, (dat1 (Vin1 m) c).arrAt w cfg1.N = Vout1 m c (Pipeline.arrRef spec1 w)
  | 0 => (((dat1 (Vin1 m) c).arrAt_in 0 rfl _).trans (A_eq1 (Vin1 m) c 0)).trans
      ((V14_of m (outs m) c main_arg0 (by decide)).trans (congrFun (V13_outs m c) _)).symm
  | 1 => (((dat1 (Vin1 m) c).arrAt_in 1 rfl _).trans (A_eq1 (Vin1 m) c 1)).trans
      ((V14_of m (outs m) c main_arg1 (by decide)).trans (congrFun (V13_outs m c) _)).symm
  | 2 => (((dat1 (Vin1 m) c).arrAt_in 2 rfl _).trans (A_eq1 (Vin1 m) c 2)).trans
      ((V14_of m (outs m) c main_v0 (by decide)).trans (congrFun (V13_outs m c) _)).symm
  | 3 => (((dat1 (Vin1 m) c).arrAt_in 3 rfl _).trans (A_eq1 (Vin1 m) c 3)).trans
      ((V14_of m (outs m) c main_v113 (by decide)).trans (congrFun (V13_outs m c) _)).symm
  | 4 => ((V14_v114 m (outs m) c).trans (outs_v114 m c)).symm

theorem hrest1 (c : Dev nD) : ∀ b, b ∉ Finset.univ.image (Pipeline.arrRef spec1) → Vout1 m c b = Vin1 m c b :=
  fun b hb => (V14_of m (outs m) c b fun h => by
    rcases List.mem_cons.mp h with rfl | h
    · exact hb (Finset.mem_image.mpr ⟨4, Finset.mem_univ _, rfl⟩)
    exact absurd h (List.not_mem_nil)).trans (congrFun (V13_outs m c) _)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- No core owes another anything: no level is assigned. -/
abbrev L₀ : GSem nD τ sig → Finset Unit := fun _ => ∅
abbrev lv₀ : GSem nD τ sig → Unit → ℕ := fun _ _ => 0

/-- What rides beside the buffers through every item: the core's generator register at some state and its dues,
    at nothing. -/
abbrev Rst (c : Dev nD) : sProp 𝕄 :=
  iprop((∃ r, prngReg c r) ∗ ∃ W, owes (c : Thread nD τ) (0 : CellTallies nD τ sig Unit) W)

/-! ## The regions as segments -/

set_option backward.isDefEq.respectTransparency.types false in
/-- The pooling region over the thread state: entered from every unscoped buffer at the contents after the first host
    stretch, left at those with its three outputs written back. Its arrays are split out of the unscoped buffers and put
    back at the exit contents; the generator register and the scratch accumulators go into the region invariant through
    the class invariant and come back the same way; nothing is owed; the kernel has no semaphore of its own. -/
def reg0 : Pipeline.RegionSeg (pcfgs (F := F)) adm (pdats m) () defs₀ Variants.none L₀ lv₀ 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L₀ lv₀ 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m) c)
    unfold Pipeline.ΦA
    iintro ⟨Hp, -, Hr⟩
    isplitl [Hr]; · iexact Hr
    iexact Hp
  hout c := by
    rw [Pipeline.ownSems0_none]
    refine BIBase.Entails.trans (hout0 (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The combining region over the thread state: entered from every unscoped buffer at the contents after the last
    host stretch, left at those with the result array written back. -/
def reg1 : Pipeline.RegionSeg (pcfgs (F := F)) adm (pdats m) () defs₀ Variants.none L₀ lv₀ 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ L₀ lv₀ 1 fun _ _ => rfl
  pre c := iprop(StableHlo.held (c : Thread nD τ) (Pipeline.ucRefs τ sig) (V13 m (outsA m) c) ∗ Rst c)
  post c := iprop(StableHlo.held (c : Thread nD τ) (Pipeline.ucRefs τ sig) (V14 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The combining region is entered from the thread state the last host stretch leaves. -/
theorem hpre1 (c : Dev nD) :
    iprop(StableHlo.held (c : Thread nD τ) (Pipeline.ucRefs τ sig) (V13 m (outs m) c) ∗ Rst c) ⊢ (reg1 m).pre c := by
  rw [V13_outs m c]; exact .rfl

/-! ## The launch -/

/-- The rest state between the items: the same at each of the three stages. -/
abbrev Est : Fin 3 → Dev nD → sProp 𝕄 := fun _ c => Rst c

set_option backward.isDefEq.respectTransparency.types false in
/-- THE RUN. From any memory with zero counters every weakly fair execution of the program terminates, and every
    final memory holds in the result array what the combining region leaves there, and each argument as launched. -/
theorem run : θ_run defs (onTc (τ := τ) (main (F := F))) ⟨m, fun _ => 0, ρ⟩ (fun r => ∀ c : Dev nD,
      r.2.mem ((c.tc : Thread nD τ).loc main_v114) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj emb₁ defs₀ Variants.none L₀ lv₀ m ρ main
    (segs m (outs m) Variants.none L₀ lv₀ (Est (F := F)) () (pdats m) (reg0 m) (reg1 m))
    (fun c Q => by
      rewrite [main_chain c, Pipeline.Seg.run_eq_chain,
        show (segs m (outs m) Variants.none L₀ lv₀ (Est (F := F)) () (pdats m) (reg0 m) (reg1 m) c).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V14 m (outs m) c))
    (hch := fun c => ⟨.rfl, .rfl, .rfl, .rfl, .rfl, .rfl, .rfl, .rfl, .rfl, .rfl, .rfl, .rfl, .rfl,
      hpre1 m c,
      sep_mono .rfl (by iintro ⟨-, H⟩; iexact H)⟩)
    (hinit := by
      refine Pipeline.initEach L₀ lv₀ fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v114) = kout m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11))
    (hfin := fun c s' => ?_) (hQ := fun _ h => h)
  -- the end: the result array and each argument read off the last valuation
  unfold StableHlo.held
  iintro ⟨Hh, HSI⟩
  ihave Hr := (pointsTo_read_all (Pipeline.ucRefs τ sig) (fun b => ((c : Thread nD τ).1, b)) (V14 m (outs m) c) s') $$ [Hh HSI]
  · isplitl [Hh] <;> iassumption
  icases Hr with ⟨%h, HSI⟩
  imodintro
  isplitr
  · ipureintro
    exact ⟨(h (Proc.devRef .tc main_v114) (Finset.mem_filter.mpr ⟨StableHlo.devRef_mem_tcRefs main_v114, by decide⟩)).trans
        ((V14_v114 m (outs m) c).trans (outs_v114 m c)),
      (h (Proc.devRef .tc main_arg0) (Finset.mem_filter.mpr ⟨StableHlo.devRef_mem_tcRefs main_arg0, by decide⟩)).trans (V14_main_arg0 m (outs m) c),
      (h (Proc.devRef .tc main_arg1) (Finset.mem_filter.mpr ⟨StableHlo.devRef_mem_tcRefs main_arg1, by decide⟩)).trans (V14_main_arg1 m (outs m) c),
      (h (Proc.devRef .tc main_arg2) (Finset.mem_filter.mpr ⟨StableHlo.devRef_mem_tcRefs main_arg2, by decide⟩)).trans (V14_main_arg2 m (outs m) c),
      (h (Proc.devRef .tc main_arg3) (Finset.mem_filter.mpr ⟨StableHlo.devRef_mem_tcRefs main_arg3, by decide⟩)).trans (V14_main_arg3 m (outs m) c),
      (h (Proc.devRef .tc main_arg4) (Finset.mem_filter.mpr ⟨StableHlo.devRef_mem_tcRefs main_arg4, by decide⟩)).trans (V14_main_arg4 m (outs m) c),
      (h (Proc.devRef .tc main_arg5) (Finset.mem_filter.mpr ⟨StableHlo.devRef_mem_tcRefs main_arg5, by decide⟩)).trans (V14_main_arg5 m (outs m) c),
      (h (Proc.devRef .tc main_arg6) (Finset.mem_filter.mpr ⟨StableHlo.devRef_mem_tcRefs main_arg6, by decide⟩)).trans (V14_main_arg6 m (outs m) c),
      (h (Proc.devRef .tc main_arg7) (Finset.mem_filter.mpr ⟨StableHlo.devRef_mem_tcRefs main_arg7, by decide⟩)).trans (V14_main_arg7 m (outs m) c),
      (h (Proc.devRef .tc main_arg8) (Finset.mem_filter.mpr ⟨StableHlo.devRef_mem_tcRefs main_arg8, by decide⟩)).trans (V14_main_arg8 m (outs m) c),
      (h (Proc.devRef .tc main_arg9) (Finset.mem_filter.mpr ⟨StableHlo.devRef_mem_tcRefs main_arg9, by decide⟩)).trans (V14_main_arg9 m (outs m) c),
      (h (Proc.devRef .tc main_arg10) (Finset.mem_filter.mpr ⟨StableHlo.devRef_mem_tcRefs main_arg10, by decide⟩)).trans (V14_main_arg10 m (outs m) c),
      (h (Proc.devRef .tc main_arg11) (Finset.mem_filter.mpr ⟨StableHlo.devRef_mem_tcRefs main_arg11, by decide⟩)).trans (V14_main_arg11 m (outs m) c)⟩
  · iexact HSI

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run m ρ)

end Cert.Kernel.Hand

end
-- ==== Proof.Spec.lean ====
/-
  The kernel's two regions as whole-array functions at the ideal instance, where a float is an extended real.

  A node `i` carries a graph id `b i` (a 32-bit word; the column of ids has shape [100000, 1]). The kernel never
  indexes by that id: it compares it with every graph number `g < 512` and multiplies by the resulting 0/1
  coefficient `hot b i g` on the matrix unit. So

  * the pooled count of graph `g` is the sum over all nodes of `hot b i g`,
  * the pooled feature sum of graph `g` in column `j` is the sum over all nodes of `hot b i g * x i j`,
  * the combined row of node `i` is `(Σ_g hot b i g * w g 0) * xg i j + (Σ_g hot b i g * w g 1) * xa i j`.

  A node whose id is no graph number has every coefficient zero: it is counted nowhere and its combined row is zero.
-/
import Idealize.ShloMosaic.Lib.ValueIdx
import Idealize.ShloMosaic.PureOps.Ideal

noncomputable section

namespace Cert.Spec

open Idealize.ShloMosaic Idealize.ShloMosaic.ValueIdx

/-- The column of graph ids, one per node. -/
abbrev SB : Shape := ⟨2, ![100000, 1]⟩
/-- The node features. -/
abbrev SX : Shape := ⟨2, ![100000, 256]⟩
/-- The per-graph counts, as a column. -/
abbrev SN : Shape := ⟨2, ![512, 1]⟩
/-- The per-graph feature sums. -/
abbrev SP : Shape := ⟨2, ![512, 256]⟩
/-- The per-graph pair of gate weights. -/
abbrev SW : Shape := ⟨2, ![512, 2]⟩

/-- The graph ids re-laid from a vector of 100000 words to a column. -/
def colOf (batch : (⟨1, ![100000]⟩ : Shape).Idx → BitVec 32) : SB.Idx → BitVec 32 := fun y => batch (ix1 (y 0))

/-- A column of 512 numbers re-laid as a vector. -/
def rowOf (n : SN.Idx → EReal) : (⟨1, ![512]⟩ : Shape).Idx → EReal := fun y => n (ix2 (y 0) 0)

/-- The 0/1 coefficient "node `i` carries graph number `g`". -/
def hot (b : SB.Idx → BitVec 32) (i : Fin 100000) (g : Fin 512) : EReal :=
  if b (ix2 i 0) = BitVec.ofNat 32 g.val then 1 else 0

/-- How many nodes carry each graph number. -/
def poolN (b : SB.Idx → BitVec 32) : SN.Idx → EReal :=
  fun y => ∑ i : Fin 100000, hot b i (y 0)

/-- The sum of the feature rows of the nodes that carry each graph number. -/
def poolS (b : SB.Idx → BitVec 32) (x : SX.Idx → EReal) : SP.Idx → EReal :=
  fun y => ∑ i : Fin 100000, hot b i (y 0) * x (ix2 i (y 1))

/-- Each node's two features rows weighted by its graph's pair of gate weights. -/
def combOut (b : SB.Idx → BitVec 32) (w : SW.Idx → EReal) (xg xa : SX.Idx → EReal) : SX.Idx → EReal :=
  fun y => (∑ g : Fin 512, hot b (y 0) g * w (ix2 g 0)) * xg y + (∑ g : Fin 512, hot b (y 0) g * w (ix2 g 1)) * xa y

end Cert.Spec

end
-- ==== Proof.KI.CombValue.lean ====
import proofs.«412715_j18631568130347_1_alg».proof.Proof.KI.Comb
import proofs.«412715_j18631568130347_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! # The combining region's value

Point `t` of 50 holds rows `2000 t .. 2000 t + 1999` of the ids' column and of the two feature arrays, and the whole
table of gate weights. Row `r` of its result is the first feature row scaled by the first gate weight of the row's graph
plus the second feature row scaled by the second one, the graph's weights being picked by a product with the row of 0/1
coefficients "this node's id is graph number `g`". -/

/-! ## The coefficient: a comparison's bit, widened and converted, is 1 or 0 -/

/-- The bit of "two words are equal", widened to 32 bits and read as a signed integer, is the real 1 or 0. -/
theorem sitofp_eq_bit (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have e : IntOp.cmpi .eq a b = 1#1 := by simp [IntOp.cmpi, h]
    rw [if_pos h, e]
    have : ((1#1 : BitVec 1).setWidth 32).toInt = 1 := by decide
    rw [this]; simp
  · have e : IntOp.cmpi .eq a b = 0#1 := by
      show BitVec.ofBool (a == b) = 0#1
      rw [beq_eq_false_iff_ne.mpr h]; rfl
    rw [if_neg h, e]
    have : ((0#1 : BitVec 1).setWidth 32).toInt = 0 := by decide
    rw [this]; simp

/-! ## The matrix product's operand indices, axis by axis -/

theorem lhs_mm_0 (i : S2000x2.Idx) (q : dot_S2000x512_S512x2_S2000x2_1_0_0_1_n_n.contr.Idx) :
    (dot_S2000x512_S512x2_S2000x2_1_0_0_1_n_n.lhsIdx i q 0).val = (i 0).val := by
  unfold DotDims.lhsIdx
  rw [dif_neg (show ¬(0 : Fin S2000x512.rank) ∈ dot_S2000x512_S512x2_S2000x2_1_0_0_1_n_n.lhsBatch by decide), dif_pos (show (0 : Fin S2000x512.rank) ∈ dot_S2000x512_S512x2_S2000x2_1_0_0_1_n_n.lhsNonContracting by decide)]
  rfl

theorem lhs_mm_1 (i : S2000x2.Idx) (q : dot_S2000x512_S512x2_S2000x2_1_0_0_1_n_n.contr.Idx) :
    (dot_S2000x512_S512x2_S2000x2_1_0_0_1_n_n.lhsIdx i q 1).val = (q ⟨0, by decide⟩).val :=
  dot_S2000x512_S512x2_S2000x2_1_0_0_1_n_n.lhsIdx_val_of_single rfl i q

theorem rhs_mm_0 (i : S2000x2.Idx) (q : dot_S2000x512_S512x2_S2000x2_1_0_0_1_n_n.contr.Idx) :
    (dot_S2000x512_S512x2_S2000x2_1_0_0_1_n_n.rhsIdx i q 0).val = (q ⟨0, by decide⟩).val :=
  dot_S2000x512_S512x2_S2000x2_1_0_0_1_n_n.rhsIdx_val_of_single rfl i q

theorem rhs_mm_1 (i : S2000x2.Idx) (q : dot_S2000x512_S512x2_S2000x2_1_0_0_1_n_n.contr.Idx) :
    (dot_S2000x512_S512x2_S2000x2_1_0_0_1_n_n.rhsIdx i q 1).val = (i 1).val := by
  unfold DotDims.rhsIdx
  rw [dif_neg (show ¬(1 : Fin S512x2.rank) ∈ dot_S2000x512_S512x2_S2000x2_1_0_0_1_n_n.rhsBatch by decide), dif_pos (show (1 : Fin S512x2.rank) ∈ dot_S2000x512_S512x2_S2000x2_1_0_0_1_n_n.rhsNonContracting by decide)]
  rfl

/-! ## The product with the gate table at an index -/

/-- Row `r`, column `c` of the product of the 0/1 coefficient rows with the gate table: the sum over graph numbers of
    the coefficient times the graph's weight `c`. The accumulator is the zero splat, the narrowing of both operands is the
    identity on extended reals, and the contraction runs over the one axis of extent 512. -/
theorem mm_apply (b : IVec S2000x1 32) (w : FVec Ideal S512x2 .f32) (r : Fin 2000) (c : Fin 2) :
    matmul dot_S2000x512_S512x2_S2000x2_1_0_0_1_n_n none
      (truncf .bf16 (sitofp (F := Ideal) .f32 (extui 32 (cmpi .eq (broadcastTo S2000x512 b broadcasts_S2000x1_S2000x512) (iota .tc S2000x512 32 [1] iota_S2000x512_d1_w32)) natLt_1_32)) bitsLt_bf16_f32)
      (truncf .bf16 w bitsLt_bf16_f32)
      (constant S2000x2 .f32 0x00000000#32) (ix2 r c)
    = ∑ g : Fin 512, (if b (ix2 r 0) = BitVec.ofNat 32 g.val then (1 : EReal) else 0) * w (ix2 g c) := by
  simp only [matmul]
  rw [Ideal.matmul_constant_zero_apply, ← Equiv.sum_comp (contrEquiv1 dot_S2000x512_S512x2_S2000x2_1_0_0_1_n_n 512 rfl rfl).symm]
  refine Finset.sum_congr rfl fun k _ => ?_
  have hk := contrEquiv1_symm_val dot_S2000x512_S512x2_S2000x2_1_0_0_1_n_n 512 rfl rfl k
  have el : dot_S2000x512_S512x2_S2000x2_1_0_0_1_n_n.lhsIdx (ix2 r c) ((contrEquiv1 dot_S2000x512_S512x2_S2000x2_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S2000x512_S512x2_S2000x2_1_0_0_1_n_n.rhsIdx (ix2 r c) ((contrEquiv1 dot_S2000x512_S512x2_S2000x2_1_0_0_1_n_n 512 rfl rfl).symm k) = ix2 k c := funext fun a => Fin.ext (by
    match a with
    | ⟨0, _⟩ => exact (rhs_mm_0 _ _).trans hk
    | ⟨1, _⟩ => exact rhs_mm_1 _ _)
  rw [el, er, truncf_apply, truncf_apply, sitofp_apply, extui_apply]
  show FloatOps.sitofp .f32 ((IntOp.cmpi .eq (broadcastTo S2000x512 b broadcasts_S2000x1_S2000x512 (ix2 r k)) (iota .tc S2000x512 32 [1] iota_S2000x512_d1_w32 (ix2 r k))).setWidth 32) * w (ix2 k c) = _
  rw [broadcastTo_apply b broadcasts_S2000x1_S2000x512 (ix2 r k) (ix2 r 0) (fun a => by match a with | ⟨0, _⟩ => rfl | ⟨1, _⟩ => rfl),
    iota_single_apply, sitofp_eq_bit]

/-! ## The body's result at an index -/

/-- Row `r`, column `j` of what the body stores, over any blocks of the literal types. -/
theorem pay1_apply (b : Vec Ideal S2000x1 .i32) (w : Vec Ideal S512x2 .f32) (x1 x2 : Vec Ideal S2000x256 .f32) (r : Fin 2000) (j : Fin 256) :
    k1_pay1 b w x1 x2 (ix2 r j)
      = (∑ g : Fin 512, (if b (ix2 r 0) = BitVec.ofNat 32 g.val then (1 : EReal) else 0) * w (ix2 g 0)) * x1 (ix2 r j)
        + (∑ g : Fin 512, (if b (ix2 r 0) = BitVec.ofNat 32 g.val then (1 : EReal) else 0) * w (ix2 g 1)) * x2 (ix2 r j) := by
  unfold k1_pay1
  dsimp only
  rw [addf_apply, mulf_apply, mulf_apply,
    broadcastTo_apply _ broadcasts_S2000x1_S2000x256 (ix2 r j) (ix2 r 0) (fun a => by match a with | ⟨0, _⟩ => rfl | ⟨1, _⟩ => rfl),
    broadcastTo_apply _ broadcasts_S2000x1_S2000x256 (ix2 r j) (ix2 r 0) (fun a => by match a with | ⟨0, _⟩ => rfl | ⟨1, _⟩ => rfl),
    extractStridedSlice_apply ![0, 0] _ slices_S2000x2_o0_0_S2000x1 (ix2 r 0) (ix2 r 0) (fun a => by match a with | ⟨0, _⟩ => exact (Nat.zero_add _).symm | ⟨1, _⟩ => rfl),
    extractStridedSlice_apply ![0, 1] _ slices_S2000x2_o0_1_S2000x1 (ix2 r 0) (ix2 r 1) (fun a => by match a with | ⟨0, _⟩ => exact (Nat.zero_add _).symm | ⟨1, _⟩ => rfl),
    shapeCast_self, shapeCast_self, mm_apply, mm_apply]

/-! ## The body's result over blocks that are rows of whole arrays -/

/-- If the ids' block holds the ids of the array row `i 0`, the table block is the whole table, and the two feature
    blocks hold the arrays' entries at `i`, the body's result at `y` is the specification's entry at `i`. -/
theorem pay1_eq_comb (b : Vec Ideal S2000x1 .i32) (w : Vec Ideal S512x2 .f32) (x1 x2 : Vec Ideal S2000x256 .f32)
    (B : Cert.Spec.SB.Idx → BitVec 32) (W : Cert.Spec.SW.Idx → EReal) (X1 X2 : Cert.Spec.SX.Idx → EReal)
    (y : S2000x256.Idx) (i : Cert.Spec.SX.Idx)
    (hb : b (ix2 (y 0) 0) = B (ix2 (i 0) 0))
    (hw : ∀ (g : Fin 512) (c : Fin 2), w (ix2 g c) = W (ix2 g c))
    (h1 : x1 y = X1 i) (h2 : x2 y = X2 i) :
    k1_pay1 b w x1 x2 y = Cert.Spec.combOut B W X1 X2 i := by
  obtain ⟨p, q, rfl⟩ : ∃ (p : Fin 2000) (q : Fin 256), y = ix2 p q := ⟨y 0, y 1, eq_ix2 y⟩
  have hb' : b (ix2 p 0) = B (ix2 (i 0) 0) := hb
  rw [pay1_apply, h1, h2]
  show _ = (∑ g : Fin 512, Cert.Spec.hot B (i 0) g * W (ix2 g 0)) * X1 i + (∑ g : Fin 512, Cert.Spec.hot B (i 0) g * W (ix2 g 1)) * X2 i
  simp only [hw, hb', Cert.Spec.hot]

/-! ## From blocks to the array -/

section Blocks

variable (V : (c : Dev nD) → (b : Ref sig .tc) → Buf (Elt Ideal) ((c : Thread nD τ).loc b))

/-- The printed index maps over the 50 points: the three row windows and the result move one block of 2000 rows per
    point; the table's window stays on its one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the specification's array. -/
theorem flushed1_eq (c : Dev nD) (t : Fin cfg1.N) :
    (dat1 (F := Ideal) V c).flushed 4 t = ((cfg1.win 4).blk t).view.read (Elt Ideal)
      (Cert.Spec.combOut (V c main_v0) (V c main_v113) (V c main_arg0) (V c main_arg1)) := by
  show (cfg1.win 4).cut (grid1.coords t) ((dat1 V c).after 4 t) = _
  rw [after1_4]
  obtain ⟨e00, e01, e10, e11, e20, e21, e30, e31, e40, e41⟩ := idx_facts1 t
  funext j
  show out1 V c t j = Cert.Spec.combOut (V c main_v0) (V c main_v113) (V c main_arg0) (V c main_arg1) (((cfg1.win 4).blk t).view.emb j)
  unfold out1
  refine pay1_eq_comb _ _ _ _ _ _ _ _ j _ ?_ ?_ ?_ ?_
  · show V c main_v0 (((cfg1.win 2).blk t).view.emb (ix2 (j 0) 0)) = V c main_v0 (ix2 ((((cfg1.win 4).blk t).view.emb j) 0) 0)
    refine congrArg (V c main_v0) (funext fun a => Fin.ext ?_)
    match a with
    | ⟨0, _⟩ => show win1_2.index t (0 : Fin 2) * 2000 + 1 * (j 0).val = win1_4.index t (0 : Fin 2) * 2000 + 1 * (j 0).val; omega
    | ⟨1, _⟩ => show win1_2.index t (1 : Fin 2) * 1 + 1 * 0 = 0; omega
  · intro g cc
    show V c main_v113 (((cfg1.win 3).blk t).view.emb (ix2 g cc)) = V c main_v113 (ix2 g cc)
    refine congrArg (V c main_v113) (funext fun a => Fin.ext ?_)
    match a with
    | ⟨0, _⟩ => show win1_3.index t (0 : Fin 2) * 512 + 1 * g.val = g.val; omega
    | ⟨1, _⟩ => show win1_3.index t (1 : Fin 2) * 2 + 1 * cc.val = cc.val; omega
  · show V c main_arg0 (((cfg1.win 0).blk t).view.emb j) = V c main_arg0 (((cfg1.win 4).blk t).view.emb j)
    refine congrArg (V c main_arg0) (funext fun a => Fin.ext ?_)
    match a with
    | ⟨0, _⟩ => show win1_0.index t (0 : Fin 2) * 2000 + 1 * (j 0).val = win1_4.index t (0 : Fin 2) * 2000 + 1 * (j 0).val; omega
    | ⟨1, _⟩ => show win1_0.index t (1 : Fin 2) * 256 + 1 * (j 1).val = win1_4.index t (1 : Fin 2) * 256 + 1 * (j 1).val; omega
  · show V c main_arg1 (((cfg1.win 1).blk t).view.emb j) = V c main_arg1 (((cfg1.win 4).blk t).view.emb j)
    refine congrArg (V c main_arg1) (funext fun a => Fin.ext ?_)
    match a with
    | ⟨0, _⟩ => show win1_1.index t (0 : Fin 2) * 2000 + 1 * (j 0).val = win1_4.index t (0 : Fin 2) * 2000 + 1 * (j 0).val; omega
    | ⟨1, _⟩ => show win1_1.index t (1 : Fin 2) * 256 + 1 * (j 1).val = win1_4.index t (1 : Fin 2) * 256 + 1 * (j 1).val; omega

/-- An index of the result array is in point `t`'s block iff each coordinate is in the block's range on its axis. -/
theorem mem_blk1 (t : Fin cfg1.N) (i : S100000x256.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v114).slice (win1_4.rect t)).set ↔ _
  rw [View.set_slice_whole, Rect.mem_set_unit]
  exact Iff.rfl

/-- Every row of the result is written by the point that holds its block of 2000 rows. -/
theorem cover1 (i : S100000x256.Idx) : ∃ t : Fin cfg1.N, (cfg1.win 4).flush t = true ∧ i ∈ ((cfg1.win 4).blk t).view.set := by
  have hi0 : (i 0).val < 100000 := (i 0).isLt
  have hi1 : (i 1).val < 256 := (i 1).isLt
  have hN : cfg1.N = 50 := rfl
  obtain ⟨t, ht⟩ : ∃ t : Fin cfg1.N, t.val = (i 0).val / 2000 := ⟨⟨(i 0).val / 2000, by omega⟩, rfl⟩
  obtain ⟨-, -, -, -, -, -, -, -, e40, e41⟩ := idx_facts1 t
  refine ⟨t, flush1_4 t, ?_⟩
  rw [mem_blk1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- After the 50 points the result array is the specification's: each node's two feature rows weighted by its graph's
    two gate weights. -/
theorem comb_out (c : Dev nD) :
    ((dat1 (F := Ideal) V c).arrAt 4 cfg1.N : Cert.Spec.SX.Idx → EReal)
      = Cert.Spec.combOut (V c main_v0) (V c main_v113) (V c main_arg0) (V c main_arg1) :=
  (dat1 V c).arrAt_eq_of_cover 4 _ (fun t _ => flushed1_eq V c t) cover1

end Blocks

end Cert.KernelIdeal.Hand

end
-- ==== Proof.KI.HostValue.Ids.lean ====
/-
  The values the kernel program's host operations leave around its two regions, at the ideal instance: the easy ones.

  * The first host operation re-lays the vector of graph ids as a column; read at an index, the column's entry
    `(i, 0)` is the vector's entry `i`.
  * No later host operation writes that column, nor the two feature arrays, so the second region finds them as
    the first one did (the features as launched).
  * The first operation after the first region re-lays the column of counts that region leaves as a vector;
    its entry `g` is the column's entry `(g, 0)`.
-/
import proofs.«412715_j18631568130347_1_alg».proof.Proof.Gen.KernelIdeal.Regions
import proofs.«412715_j18631568130347_1_alg».proof.Proof.Spec
import Idealize.ShloMosaic.Lib.Pipeline.Value
import Idealize.ShloMosaic.Lib.StableHlo.Run

set_option maxRecDepth 1340

noncomputable section

namespace Cert.KernelIdeal.Hand

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ) (outs : Outs (F := Ideal))

/-- A column of 512 numbers re-laid as a vector of 512: entry `g` is the column's entry `(g, 0)`, the two having
    the same row-major position `g * 1 + 0 = g`. -/
theorem shapeCast_col_row (x : Cert.Spec.SN.Idx → EReal) :
    (shapeCast S512 x shapeCasts_S512x1_S512 : (⟨1, ![512]⟩ : Shape).Idx → EReal) = Cert.Spec.rowOf x := by
  funext (y : (⟨1, ![512]⟩ : Shape).Idx)
  refine (shapeCast_apply _ _ y (ix2 (y 0) 0) ?_).trans rfl
  show ((⟨2, ![512, 1]⟩ : Shape).rowMajor (ix2 (y 0) 0)).val = ((⟨1, ![512]⟩ : Shape).rowMajor y).val
  rw [Shape.rowMajor_val_one, Shape.rowMajor_val_two]
  show (y 0).val * 1 + 0 = (y 0).val
  omega

/-- The column of graph ids the first region reads is the launch's vector of ids re-laid: entry `(i, 0)` is the
    vector's entry `i` (row-major position `i * 1 + 0 = i` on both sides). -/
theorem V1_ids (c : Dev nD) :
    (V1 m c main_v0 : Cert.Spec.SB.Idx → BitVec 32) = Cert.Spec.colOf (m ((c : Thread nD τ).loc main_arg11)) := by
  dsimp only [V1, hostOps0]
  after_results
  funext (y : Cert.Spec.SB.Idx)
  show shapeCast S100000x1 (m ((c : Thread nD τ).loc main_arg11)) shapeCasts_S100000_S100000x1 y = _
  refine (shapeCast_apply _ _ y (ix1 (y 0)) ?_).trans rfl
  show ((⟨1, ![100000]⟩ : Shape).rowMajor (ix1 (y 0))).val = ((⟨2, ![100000, 1]⟩ : Shape).rowMajor y).val
  rw [Shape.rowMajor_val_one, Shape.rowMajor_val_two]
  have h1 : (y 1).val < 1 := (y 1).isLt
  show (y 0).val = (y 0).val * 1 + (y 1).val
  omega

/-- No later host operation writes the column of ids, and the first region may not change it. -/
theorem V13_ids (c : Dev nD) : V13 m outs c main_v0 = V1 m c main_v0 :=
  (V13_of m outs c main_v0 (by decide)).trans <| (V12_of m outs c main_v0 (by decide)).trans <|
  (V11_of m outs c main_v0 (by decide)).trans <| (V10_of m outs c main_v0 (by decide)).trans <|
  (V9_of m outs c main_v0 (by decide)).trans <| (V8_of m outs c main_v0 (by decide)).trans <|
  (V7_of m outs c main_v0 (by decide)).trans <| (V6_of m outs c main_v0 (by decide)).trans <|
  (V5_of m outs c main_v0 (by decide)).trans <| (V4_of m outs c main_v0 (by decide)).trans <|
  (V3_of m outs c main_v0 (by decide)).trans <| V2_of m outs c main_v0 (by decide)

/-- A reference that no host operation writes and the first region may not change holds its launch contents when
    the second region starts. -/
theorem V13_arg (c : Dev nD) (r : Ref sig .tc)
    (h0 : r ∉ hostOps0_W) (h2 : r ∉ ([main_v1_0, main_v1_1, main_v1_2] : List (Ref sig .tc)))
    (h3 : r ∉ hostOps1_W) (h4 : r ∉ hostOps1_1_W) (h5 : r ∉ hostOps1_2_W) (h6 : r ∉ hostOps1_3_W)
    (h7 : r ∉ hostOps1_4_W) (h8 : r ∉ hostOps1_5_W) (h9 : r ∉ hostOps1_6_W) (h10 : r ∉ hostOps1_7_W)
    (h11 : r ∉ hostOps1_8_W) (h12 : r ∉ hostOps1_9_W) (h13 : r ∉ hostOps1_10_W) :
    V13 m outs c r = m ((c : Thread nD τ).loc r) :=
  (V13_of m outs c r h13).trans <| (V12_of m outs c r h12).trans <| (V11_of m outs c r h11).trans <|
  (V10_of m outs c r h10).trans <| (V9_of m outs c r h9).trans <| (V8_of m outs c r h8).trans <|
  (V7_of m outs c r h7).trans <| (V6_of m outs c r h6).trans <| (V5_of m outs c r h5).trans <|
  (V4_of m outs c r h4).trans <| (V3_of m outs c r h3).trans <| (V2_of m outs c r h2).trans <|
  V1_of m c r h0

/-- The first feature array reaches the second region as launched. -/
theorem V13_arg0 (c : Dev nD) : V13 m outs c main_arg0 = m ((c : Thread nD τ).loc main_arg0) :=
  V13_arg m outs c main_arg0 (by decide) (by decide) (by decide) (by decide) (by decide) (by decide) (by decide)
    (by decide) (by decide) (by decide) (by decide) (by decide) (by decide)

/-- The second feature array reaches the second region as launched. -/
theorem V13_arg1 (c : Dev nD) : V13 m outs c main_arg1 = m ((c : Thread nD τ).loc main_arg1) :=
  V13_arg m outs c main_arg1 (by decide) (by decide) (by decide) (by decide) (by decide) (by decide) (by decide)
    (by decide) (by decide) (by decide) (by decide) (by decide) (by decide)

/-- What the first region leaves in the column of counts is what the host operations after it find there. -/
theorem V2_cnt (c : Dev nD) : V2 m outs c main_v1_0 = outs 2 main_v1_0 c := by
  dsimp only [V2]
  rw [Function.update_of_ne (StableHlo.devRef_ne_of_ne (by decide)),
    Function.update_of_ne (StableHlo.devRef_ne_of_ne (by decide)), Function.update_self]

/-- What the first region leaves in the first array of sums is what the host operations after it find there. -/
theorem V2_sum1 (c : Dev nD) : V2 m outs c main_v1_1 = outs 2 main_v1_1 c := by
  dsimp only [V2]
  rw [Function.update_of_ne (StableHlo.devRef_ne_of_ne (by decide)), Function.update_self]

/-- What the first region leaves in the second array of sums is what the host operations after it find there. -/
theorem V2_sum2 (c : Dev nD) : V2 m outs c main_v1_2 = outs 2 main_v1_2 c := by
  dsimp only [V2]
  rw [Function.update_self]

/-- The vector of counts the host chain works with is the column the first region leaves, re-laid. -/
theorem V3_n (c : Dev nD) :
    (V3 m outs c main_v2 : (⟨1, ![512]⟩ : Shape).Idx → EReal) = Cert.Spec.rowOf (outs 2 main_v1_0 c) := by
  show StableHlo.after hostOps1 (V2 m outs c) (Proc.devRef .tc main_v2) = _
  have hW : V2 m outs c (Proc.devRef .tc main_v1_0) = outs 2 main_v1_0 c := V2_cnt m outs c
  generalize V2 m outs c = W at hW ⊢
  dsimp only [hostOps1]
  after_results_simp
  rw [hW]
  exact shapeCast_col_row (outs 2 main_v1_0 c)

end Cert.KernelIdeal.Hand

end
-- ==== Proof.KI.PoolValue.Pay.lean ====
import proofs.«412715_j18631568130347_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.KernelIdeal.Hand.PoolPay

open Cert.KernelIdeal Cert.KernelIdeal.Gen
open Idealize.ShloMosaic Idealize.ShloMosaic.ValueIdx

/-! # The pooling point's payloads read at an index, at the ideal instance

One point of the pooling region holds a block of 2000 graph ids and two blocks of 2000 feature rows. It forms the
0/1 matrix "row r of the block carries graph number g" (graphs along the rows, block rows along the columns) and
multiplies it on the matrix unit with each feature block and with a column of ones, adding the three products into the
three accumulators. Read at one accumulator entry, each update adds a sum over the 2000 rows of the block. -/

/-- The 0/1 coefficient "row r of the block of ids carries graph number g". -/
def hotB (b : Vec Ideal S2000x1 .i32) (r : Fin 2000) (g : Fin 512) : EReal :=
  if b (ix2 r 0) = BitVec.ofNat 32 g.val then 1 else 0

/-- The one-hot matrix at graph `g` and block row `r`. -/
theorem pay5_apply (b : Vec Ideal S2000x1 .i32) (g : Fin 512) (r : Fin 2000) :
    k0_pay5 (F := Ideal) b (ix2 g r) = hotB b r g := by
  unfold k0_pay5
  rw [transpose_apply [1, 0] _ transposes_S2000x512_p1_0_S512x2000 (ix2 g r) (ix2 r g)
    (fun a => match a with | ⟨0, _⟩ => rfl | ⟨1, _⟩ => rfl)]
  rw [truncf_apply, sitofp_apply, extui_apply]
  have h6 : broadcastTo S2000x512 (shapeCast S2000x1 b shapeCasts_S2000x1_S2000x1) broadcasts_S2000x1_S2000x512 (ix2 r g)
      = b (ix2 r 0) := by
    rw [shapeCast_self]
    exact broadcastTo_apply _ _ _ (ix2 r 0) (fun a => match a with | ⟨0, _⟩ => rfl | ⟨1, _⟩ => rfl)
  have h5 : iota .tc S2000x512 32 [1] iota_S2000x512_d1_w32 (ix2 r g) = BitVec.ofNat 32 g.val := by
    show BitVec.ofNat 32 (0 * 512 + g.val) = _
    rw [Nat.zero_mul, Nat.zero_add]
  show (((BitVec.setWidth 32 (IntOp.cmpi .eq
      (broadcastTo S2000x512 (shapeCast S2000x1 b shapeCasts_S2000x1_S2000x1) broadcasts_S2000x1_S2000x512 (ix2 r g))
      (iota .tc S2000x512 32 [1] iota_S2000x512_d1_w32 (ix2 r g)))).toInt : ℝ) : EReal) = _
  rw [h6, h5]
  unfold hotB
  by_cases h : b (ix2 r 0) = BitVec.ofNat 32 g.val
  · rw [if_pos h]
    simp [IntOp.cmpi, h]
  · rw [if_neg h]
    have hb : (b (ix2 r 0) == BitVec.ofNat 32 g.val) = false := beq_eq_false_iff_ne.mpr h
    simp [IntOp.cmpi, hb]

/-! ## The two matrix products' operand indices, axis by axis -/

theorem lhs_S512x256_0 (i : S512x256.Idx) (q : dot_S512x2000_S2000x256_S512x256_1_0_0_1_n_n.contr.Idx) :
    (dot_S512x2000_S2000x256_S512x256_1_0_0_1_n_n.lhsIdx i q 0).val = (i 0).val := by
  unfold DotDims.lhsIdx
  rw [dif_neg (show ¬(0 : Fin S512x2000.rank) ∈ dot_S512x2000_S2000x256_S512x256_1_0_0_1_n_n.lhsBatch by decide),
    dif_pos (show (0 : Fin S512x2000.rank) ∈ dot_S512x2000_S2000x256_S512x256_1_0_0_1_n_n.lhsNonContracting by decide)]
  rfl
theorem lhs_S512x256_1 (i : S512x256.Idx) (q : dot_S512x2000_S2000x256_S512x256_1_0_0_1_n_n.contr.Idx) :
    (dot_S512x2000_S2000x256_S512x256_1_0_0_1_n_n.lhsIdx i q 1).val = (q ⟨0, by decide⟩).val :=
  dot_S512x2000_S2000x256_S512x256_1_0_0_1_n_n.lhsIdx_val_of_single rfl i q
theorem rhs_S512x256_0 (i : S512x256.Idx) (q : dot_S512x2000_S2000x256_S512x256_1_0_0_1_n_n.contr.Idx) :
    (dot_S512x2000_S2000x256_S512x256_1_0_0_1_n_n.rhsIdx i q 0).val = (q ⟨0, by decide⟩).val :=
  dot_S512x2000_S2000x256_S512x256_1_0_0_1_n_n.rhsIdx_val_of_single rfl i q
theorem rhs_S512x256_1 (i : S512x256.Idx) (q : dot_S512x2000_S2000x256_S512x256_1_0_0_1_n_n.contr.Idx) :
    (dot_S512x2000_S2000x256_S512x256_1_0_0_1_n_n.rhsIdx i q 1).val = (i 1).val := by
  unfold DotDims.rhsIdx
  rw [dif_neg (show ¬(1 : Fin S2000x256.rank) ∈ dot_S512x2000_S2000x256_S512x256_1_0_0_1_n_n.rhsBatch by decide),
    dif_pos (show (1 : Fin S2000x256.rank) ∈ dot_S512x2000_S2000x256_S512x256_1_0_0_1_n_n.rhsNonContracting by decide)]
  rfl

theorem lhs_S512x1_0 (i : S512x1.Idx) (q : dot_S512x2000_S2000x1_S512x1_1_0_0_1_n_n.contr.Idx) :
    (dot_S512x2000_S2000x1_S512x1_1_0_0_1_n_n.lhsIdx i q 0).val = (i 0).val := by
  unfold DotDims.lhsIdx
  rw [dif_neg (show ¬(0 : Fin S512x2000.rank) ∈ dot_S512x2000_S2000x1_S512x1_1_0_0_1_n_n.lhsBatch by decide),
    dif_pos (show (0 : Fin S512x2000.rank) ∈ dot_S512x2000_S2000x1_S512x1_1_0_0_1_n_n.lhsNonContracting by decide)]
  rfl
theorem lhs_S512x1_1 (i : S512x1.Idx) (q : dot_S512x2000_S2000x1_S512x1_1_0_0_1_n_n.contr.Idx) :
    (dot_S512x2000_S2000x1_S512x1_1_0_0_1_n_n.lhsIdx i q 1).val = (q ⟨0, by decide⟩).val :=
  dot_S512x2000_S2000x1_S512x1_1_0_0_1_n_n.lhsIdx_val_of_single rfl i q
theorem rhs_S512x1_0 (i : S512x1.Idx) (q : dot_S512x2000_S2000x1_S512x1_1_0_0_1_n_n.contr.Idx) :
    (dot_S512x2000_S2000x1_S512x1_1_0_0_1_n_n.rhsIdx i q 0).val = (q ⟨0, by decide⟩).val :=
  dot_S512x2000_S2000x1_S512x1_1_0_0_1_n_n.rhsIdx_val_of_single rfl i q
theorem rhs_S512x1_1 (i : S512x1.Idx) (q : dot_S512x2000_S2000x1_S512x1_1_0_0_1_n_n.contr.Idx) :
    (dot_S512x2000_S2000x1_S512x1_1_0_0_1_n_n.rhsIdx i q 1).val = (i 1).val := by
  unfold DotDims.rhsIdx
  rw [dif_neg (show ¬(1 : Fin S2000x1.rank) ∈ dot_S512x2000_S2000x1_S512x1_1_0_0_1_n_n.rhsBatch by decide),
    dif_pos (show (1 : Fin S2000x1.rank) ∈ dot_S512x2000_S2000x1_S512x1_1_0_0_1_n_n.rhsNonContracting by decide)]
  rfl

/-- The [512,2000] × [2000,256] product into a zero accumulator, read at (g, j): the sum over the 2000 block rows. -/
theorem matmul256_apply (L : FVec Ideal S512x2000 .bf16) (R : FVec Ideal S2000x256 .bf16) (g : Fin 512) (j : Fin 256) :
    matmul dot_S512x2000_S2000x256_S512x256_1_0_0_1_n_n none L R (constant (F := Ideal) S512x256 .f32 0x00000000#32) (ix2 g j)
      = ∑ r : Fin 2000, L (ix2 g r) * R (ix2 r j) := by
  simp only [matmul]
  rw [Ideal.matmul_constant_zero_apply,
    ← Equiv.sum_comp (contrEquiv1 dot_S512x2000_S2000x256_S512x256_1_0_0_1_n_n 2000 rfl rfl).symm]
  refine Finset.sum_congr rfl fun k _ => ?_
  have hk := contrEquiv1_symm_val dot_S512x2000_S2000x256_S512x256_1_0_0_1_n_n 2000 rfl rfl k
  have el : dot_S512x2000_S2000x256_S512x256_1_0_0_1_n_n.lhsIdx (ix2 g j)
      ((contrEquiv1 dot_S512x2000_S2000x256_S512x256_1_0_0_1_n_n 2000 rfl rfl).symm k) = ix2 g k :=
    funext fun a => Fin.ext (by
      match a with
      | ⟨0, _⟩ => exact lhs_S512x256_0 _ _
      | ⟨1, _⟩ => exact (lhs_S512x256_1 _ _).trans hk)
  have er : dot_S512x2000_S2000x256_S512x256_1_0_0_1_n_n.rhsIdx (ix2 g j)
      ((contrEquiv1 dot_S512x2000_S2000x256_S512x256_1_0_0_1_n_n 2000 rfl rfl).symm k) = ix2 k j :=
    funext fun a => Fin.ext (by
      match a with
      | ⟨0, _⟩ => exact (rhs_S512x256_0 _ _).trans hk
      | ⟨1, _⟩ => exact rhs_S512x256_1 _ _)
  rw [el, er]

/-- The [512,2000] × [2000,1] product into a zero accumulator, read at (g, 0). -/
theorem matmul1_apply (L : FVec Ideal S512x2000 .bf16) (R : FVec Ideal S2000x1 .bf16) (g : Fin 512) (j : Fin 1) :
    matmul dot_S512x2000_S2000x1_S512x1_1_0_0_1_n_n none L R (constant (F := Ideal) S512x1 .f32 0x00000000#32) (ix2 g j)
      = ∑ r : Fin 2000, L (ix2 g r) * R (ix2 r j) := by
  simp only [matmul]
  rw [Ideal.matmul_constant_zero_apply,
    ← Equiv.sum_comp (contrEquiv1 dot_S512x2000_S2000x1_S512x1_1_0_0_1_n_n 2000 rfl rfl).symm]
  refine Finset.sum_congr rfl fun k _ => ?_
  have hk := contrEquiv1_symm_val dot_S512x2000_S2000x1_S512x1_1_0_0_1_n_n 2000 rfl rfl k
  have el : dot_S512x2000_S2000x1_S512x1_1_0_0_1_n_n.lhsIdx (ix2 g j)
      ((contrEquiv1 dot_S512x2000_S2000x1_S512x1_1_0_0_1_n_n 2000 rfl rfl).symm k) = ix2 g k :=
    funext fun a => Fin.ext (by
      match a with
      | ⟨0, _⟩ => exact lhs_S512x1_0 _ _
      | ⟨1, _⟩ => exact (lhs_S512x1_1 _ _).trans hk)
  have er : dot_S512x2000_S2000x1_S512x1_1_0_0_1_n_n.rhsIdx (ix2 g j)
      ((contrEquiv1 dot_S512x2000_S2000x1_S512x1_1_0_0_1_n_n 2000 rfl rfl).symm k) = ix2 k j :=
    funext fun a => Fin.ext (by
      match a with
      | ⟨0, _⟩ => exact (rhs_S512x1_0 _ _).trans hk
      | ⟨1, _⟩ => exact rhs_S512x1_1 _ _)
  rw [el, er]

/-! ## The accumulator updates and the zeroed accumulators at an index -/

/-- A feature accumulator's update at (g, j) adds the one-hot weighted sum of column `j` over the block's rows. -/
theorem pay6_apply (b : Vec Ideal S2000x1 .i32) (x : Vec Ideal S2000x256 .f32) (acc : Vec Ideal S512x256 .f32)
    (g : Fin 512) (j : Fin 256) :
    k0_pay6 (F := Ideal) b x acc (ix2 g j) = acc (ix2 g j) + ∑ r : Fin 2000, hotB b r g * x (ix2 r j) := by
  unfold k0_pay6
  rw [shapeCast_self, addf_apply, matmul256_apply]
  refine congrArg (acc (ix2 g j) + ·) (Finset.sum_congr rfl fun r _ => ?_)
  rw [pay5_apply, truncf_apply]

/-- The second feature accumulator's update is the same text. -/
theorem pay7_apply (b : Vec Ideal S2000x1 .i32) (x : Vec Ideal S2000x256 .f32) (acc : Vec Ideal S512x256 .f32)
    (g : Fin 512) (j : Fin 256) :
    k0_pay7 (F := Ideal) b x acc (ix2 g j) = acc (ix2 g j) + ∑ r : Fin 2000, hotB b r g * x (ix2 r j) := by
  unfold k0_pay7
  rw [shapeCast_self, addf_apply, matmul256_apply]
  refine congrArg (acc (ix2 g j) + ·) (Finset.sum_congr rfl fun r _ => ?_)
  rw [pay5_apply, truncf_apply]

/-- The count accumulator's update at (g, 0) adds the number of block rows that carry graph `g`. -/
theorem pay1_pay8_apply (b : Vec Ideal S2000x1 .i32) (acc : Vec Ideal S512x1 .f32) (g : Fin 512) (j : Fin 1) :
    k0_pay1 (k0_pay8 (F := Ideal) b acc) (ix2 g j) = acc (ix2 g j) + ∑ r : Fin 2000, hotB b r g := by
  unfold k0_pay1 k0_pay8
  rw [shapeCast_self, addf_apply, matmul1_apply]
  refine congrArg (acc (ix2 g j) + ·) (Finset.sum_congr rfl fun r _ => ?_)
  rw [pay5_apply, broadcast_apply]
  show hotB b r g * Ideal.ofBits .bf16 0x3F80#16 = _
  rw [Ideal.ofBits_one_bf16, mul_one]

/-- The zeroed accumulators are zero everywhere. -/
theorem pay2_apply (i : S512x1.Idx) : k0_pay2 (F := Ideal) i = 0 := by
  unfold k0_pay2
  rw [shapeCast_self, broadcast_apply]
  exact Ideal.ofBits_zero_f32
theorem pay3_apply (i : S512x256.Idx) : k0_pay3 (F := Ideal) i = 0 := by
  unfold k0_pay3
  rw [shapeCast_self, broadcast_apply]
  exact Ideal.ofBits_zero_f32
theorem pay4_apply (i : S512x256.Idx) : k0_pay4 (F := Ideal) i = 0 := by
  unfold k0_pay4
  rw [shapeCast_self, broadcast_apply]
  exact Ideal.ofBits_zero_f32

end Cert.KernelIdeal.Hand.PoolPay

end
-- ==== Proof.KI.PoolValue.Sum.lean ====
import Idealize.ShloMosaic.Lib.ValueIdx
import Mathlib.Algebra.BigOperators.Fin
import Mathlib.Data.Fintype.BigOperators

noncomputable section

namespace Cert.KernelIdeal.Hand.PoolSum

open scoped BigOperators

/-! # Fifty blocks of 2000 rows are the 100000 nodes

The pooling region visits the nodes in 50 blocks of 2000. An accumulator that starts at zero and at each point adds
that point's term holds, after point `n`, the sum of the terms of the points up to `n`; and a sum over the points of
a sum over the block rows is the sum over all nodes. Only `0 + x = x` and the commutative-monoid laws of `+` are used. -/

/-- Row `r` of point `s`'s block is node `2000 s + r`. -/
def nodeOf (s : Fin 50) (r : Fin 2000) : Fin 100000 :=
  ⟨2000 * s.val + r.val, by have := s.isLt; have := r.isLt; omega⟩

theorem nodeOf_val (s : Fin 50) (r : Fin 2000) : (nodeOf s r).val = 2000 * s.val + r.val := rfl

/-- The nodes are the pairs (point, block row). -/
def nodeEquiv : Fin 50 × Fin 2000 ≃ Fin 100000 where
  toFun p := nodeOf p.1 p.2
  invFun i := (⟨i.val / 2000, by have := i.isLt; omega⟩, ⟨i.val % 2000, Nat.mod_lt _ (by decide)⟩)
  left_inv := fun ⟨s, r⟩ => by
    have hs := s.isLt
    have hr := r.isLt
    refine Prod.ext (Fin.ext ?_) (Fin.ext ?_)
    · show (2000 * s.val + r.val) / 2000 = s.val
      omega
    · show (2000 * s.val + r.val) % 2000 = r.val
      omega
  right_inv i := Fin.ext (by
    show 2000 * (i.val / 2000) + i.val % 2000 = i.val
    omega)

/-- A sum over the points of a sum over the block rows is the sum over the nodes. -/
theorem sum_nodes {M : Type*} [AddCommMonoid M] (f : Fin 100000 → M) :
    ∑ s : Fin 50, ∑ r : Fin 2000, f (nodeOf s r) = ∑ i : Fin 100000, f i := by
  rw [← Equiv.sum_comp nodeEquiv f, Fintype.sum_prod_type]
  rfl

/-- An accumulator that is zero plus the first point's term after the first point, and the previous value plus the
    point's term after each later one, is after point `n` the sum of the terms up to `n`. -/
theorem acc_closed {M : Type*} [AddCommMonoid M] (P a : (n : ℕ) → n < 50 → M)
    (h0 : ∀ h, a 0 h = 0 + P 0 h)
    (hs : ∀ n (h : n + 1 < 50), a (n + 1) h = a n (Nat.lt_of_succ_lt h) + P (n + 1) h) :
    ∀ n (h : n < 50), a n h = ∑ s : Fin (n + 1), P s.val (lt_of_le_of_lt (Nat.le_of_lt_succ s.isLt) h) := by
  intro n
  induction n with
  | zero =>
    intro h
    rw [h0, zero_add, Fin.sum_univ_one]
    rfl
  | succ n ih =>
    intro h
    rw [hs, ih]
    exact (Fin.sum_univ_castSucc
      (fun s : Fin (n + 1 + 1) => P s.val (lt_of_le_of_lt (Nat.le_of_lt_succ s.isLt) h))).symm

/-- After the last point the accumulator is the sum over all nodes. -/
theorem acc_last {M : Type*} [AddCommMonoid M] (f : Fin 100000 → M) (a : (n : ℕ) → n < 50 → M)
    (h0 : ∀ h, a 0 h = 0 + ∑ r : Fin 2000, f (nodeOf ⟨0, h⟩ r))
    (hs : ∀ n (h : n + 1 < 50), a (n + 1) h = a n (Nat.lt_of_succ_lt h) + ∑ r : Fin 2000, f (nodeOf ⟨n + 1, h⟩ r)) :
    a 49 (by decide) = ∑ i : Fin 100000, f i := by
  rw [acc_closed (fun n h => ∑ r : Fin 2000, f (nodeOf ⟨n, h⟩ r)) a h0 hs 49 (by decide), ← sum_nodes]

end Cert.KernelIdeal.Hand.PoolSum

end
-- ==== Proof.KI.PoolValue.lean ====
import proofs.«412715_j18631568130347_1_alg».proof.Proof.KI.Pool
import proofs.«412715_j18631568130347_1_alg».proof.Proof.KI.PoolValue.Pay
import proofs.«412715_j18631568130347_1_alg».proof.Proof.KI.PoolValue.Sum
import proofs.«412715_j18631568130347_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.KernelIdeal.Hand.PoolPay Cert.KernelIdeal.Hand.PoolSum

/-! # The value of the pooling region at the ideal instance

After its 50 points the region's three outputs are the per-graph node counts and the per-graph sums of the two feature
arrays: point `t` reads rows `2000 t .. 2000 t + 1999`, each accumulator entry grows at each point by the one-hot weighted
sum over the block's rows, and the 50 blocks of 2000 rows are the 100000 nodes. -/

variable (V : (c : Dev nD) → (b : Ref sig .tc) → Buf (Elt Ideal) ((c : Thread nD τ).loc b))

/-! ## The blocks are rows of the arrays -/

/-- The three input windows' block index at point `t` is `t` along the rows and `0` along the columns. -/
theorem pool_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0))

/-- Row `r` of the ids' block at point `t` is the id of node `2000 t + r`. -/
theorem iblk0_ids (c : Dev nD) (t : Fin cfg0.N) (r : Fin 2000) (j : Fin 1) (k : Cert.Spec.SB.Idx)
    (hk0 : (k 0).val = 2000 * t.val + r.val) :
    (iblk0 (F := Ideal) V c 2 t : Vec Ideal S2000x1 .i32) (ix2 r j) = (V c main_v0 : Cert.Spec.SB.Idx → BitVec 32) k := by
  have hi := (pool_index t).2.2
  unfold iblk0
  rw [View.read_apply]
  show V c main_v0 _ = V c main_v0 _
  congr 1
  funext a
  apply Fin.ext
  match a with
  | ⟨0, _⟩ => show win0_2.index t 0 * 2000 + 1 * r.val = (k 0).val; rw [hi.1, hk0]; omega
  | ⟨1, _⟩ =>
    show win0_2.index t 1 * 1 + 1 * j.val = (k 1).val
    have h1 : (k 1).val < 1 := (k 1).isLt
    have h2 : j.val < 1 := j.isLt
    rw [hi.2]; omega

/-- Row `r` of the first feature block at point `t` is row `2000 t + r` of the first feature array. -/
theorem iblk0_x0 (c : Dev nD) (t : Fin cfg0.N) (r : Fin 2000) (j : Fin 256) (k : Cert.Spec.SX.Idx)
    (hk0 : (k 0).val = 2000 * t.val + r.val) (hk1 : (k 1).val = j.val) :
    (iblk0 (F := Ideal) V c 0 t : Vec Ideal S2000x256 .f32) (ix2 r j) = (V c main_arg0 : Cert.Spec.SX.Idx → EReal) k := by
  have hi := (pool_index t).1
  unfold iblk0
  rw [View.read_apply]
  show V c main_arg0 _ = V c main_arg0 _
  congr 1
  funext a
  apply Fin.ext
  match a with
  | ⟨0, _⟩ => show win0_0.index t 0 * 2000 + 1 * r.val = (k 0).val; rw [hi.1, hk0]; omega
  | ⟨1, _⟩ => show win0_0.index t 1 * 256 + 1 * j.val = (k 1).val; rw [hi.2, hk1]; omega

/-- Row `r` of the second feature block at point `t` is row `2000 t + r` of the second feature array. -/
theorem iblk0_x1 (c : Dev nD) (t : Fin cfg0.N) (r : Fin 2000) (j : Fin 256) (k : Cert.Spec.SX.Idx)
    (hk0 : (k 0).val = 2000 * t.val + r.val) (hk1 : (k 1).val = j.val) :
    (iblk0 (F := Ideal) V c 1 t : Vec Ideal S2000x256 .f32) (ix2 r j) = (V c main_arg1 : Cert.Spec.SX.Idx → EReal) k := by
  have hi := (pool_index t).2.1
  unfold iblk0
  rw [View.read_apply]
  show V c main_arg1 _ = V c main_arg1 _
  congr 1
  funext a
  apply Fin.ext
  match a with
  | ⟨0, _⟩ => show win0_1.index t 0 * 2000 + 1 * r.val = (k 0).val; rw [hi.1, hk0]; omega
  | ⟨1, _⟩ => show win0_1.index t 1 * 256 + 1 * j.val = (k 1).val; rw [hi.2, hk1]; omega

/-- The block's 0/1 coefficient at row `r` is the array's at node `2000 t + r`. -/
theorem hotB_iblk0 (c : Dev nD) (t : Fin cfg0.N) (r : Fin 2000) (g : Fin 512) :
    hotB (iblk0 (F := Ideal) V c 2 t) r g = Cert.Spec.hot (V c main_v0) (nodeOf t r) g := by
  unfold hotB Cert.Spec.hot
  rw [iblk0_ids V c t r 0 (ix2 (nodeOf t r) 0) rfl]

/-! ## One point's update of an accumulator entry, over the arrays -/

/-- The count of graph `g` grows by the number of the block's nodes that carry `g`. -/
theorem step_n (c : Dev nD) (t : Fin cfg0.N) (s : Acc Ideal) (g : Fin 512) (j : Fin 1) :
    (poolStep (iblk0 V c 2 t) (iblk0 V c 0 t) (iblk0 V c 1 t) s).1 (ix2 g j)
      = s.1 (ix2 g j) + ∑ r : Fin 2000, Cert.Spec.hot (V c main_v0) (nodeOf t r) g := by
  show k0_pay1 (k0_pay8 (F := Ideal) (iblk0 V c 2 t) s.1) (ix2 g j) = _
  rw [pay1_pay8_apply]
  exact congrArg (s.1 (ix2 g j) + ·) (Finset.sum_congr rfl fun r _ => hotB_iblk0 V c t r g)

/-- The first feature sum of graph `g` in column `j` grows by the block's nodes' weighted entries. -/
theorem step_s0 (c : Dev nD) (t : Fin cfg0.N) (s : Acc Ideal) (g : Fin 512) (j : Fin 256) :
    (poolStep (iblk0 V c 2 t) (iblk0 V c 0 t) (iblk0 V c 1 t) s).2.1 (ix2 g j)
      = s.2.1 (ix2 g j) + ∑ r : Fin 2000, Cert.Spec.hot (V c main_v0) (nodeOf t r) g
          * (V c main_arg0 : Cert.Spec.SX.Idx → EReal) (ix2 (nodeOf t r) j) := by
  show k0_pay6 (F := Ideal) (iblk0 V c 2 t) (iblk0 V c 0 t) s.2.1 (ix2 g j) = _
  rw [pay6_apply]
  refine congrArg (s.2.1 (ix2 g j) + ·) (Finset.sum_congr rfl fun r _ => ?_)
  rw [hotB_iblk0, iblk0_x0 V c t r j (ix2 (nodeOf t r) j) rfl rfl]

/-- The second feature sum likewise. -/
theorem step_s1 (c : Dev nD) (t : Fin cfg0.N) (s : Acc Ideal) (g : Fin 512) (j : Fin 256) :
    (poolStep (iblk0 V c 2 t) (iblk0 V c 0 t) (iblk0 V c 1 t) s).2.2 (ix2 g j)
      = s.2.2 (ix2 g j) + ∑ r : Fin 2000, Cert.Spec.hot (V c main_v0) (nodeOf t r) g
          * (V c main_arg1 : Cert.Spec.SX.Idx → EReal) (ix2 (nodeOf t r) j) := by
  show k0_pay7 (F := Ideal) (iblk0 V c 2 t) (iblk0 V c 1 t) s.2.2 (ix2 g j) = _
  rw [pay7_apply]
  refine congrArg (s.2.2 (ix2 g j) + ·) (Finset.sum_congr rfl fun r _ => ?_)
  rw [hotB_iblk0, iblk0_x1 V c t r j (ix2 (nodeOf t r) j) rfl rfl]

/-! ## The three outputs after the region -/

/-- The first output: how many nodes carry each graph number. -/
theorem pool_n (c : Dev nD) :
    ((dat0 (F := Ideal) V c).arrAt 3 cfg0.N : Cert.Spec.SN.Idx → EReal) = Cert.Spec.poolN (V c main_v0) := by
  rw [arrAt0_3]
  funext y
  obtain ⟨g, j, rfl⟩ : ∃ (g : Fin 512) (j : Fin 1), y = ix2 g j := ⟨y 0, y 1, eq_ix2 y⟩
  show (scAt0 V c 49 _).1 (ix2 g j) = ∑ i : Fin 100000, Cert.Spec.hot (V c main_v0) i g
  refine acc_last (fun i => Cert.Spec.hot (V c main_v0) i g) (fun n h => (scAt0 V c n h).1 (ix2 g j))
    (fun h => ?_) (fun n h => ?_)
  · show (poolStep (iblk0 V c 2 ⟨0, h⟩) (iblk0 V c 0 ⟨0, h⟩) (iblk0 V c 1 ⟨0, h⟩) poolInit).1 (ix2 g j) = _
    rw [step_n]
    show k0_pay2 (F := Ideal) (ix2 g j) + _ = 0 + _
    rw [pay2_apply]
    rfl
  · show (poolStep (iblk0 V c 2 ⟨n + 1, h⟩) (iblk0 V c 0 ⟨n + 1, h⟩) (iblk0 V c 1 ⟨n + 1, h⟩)
      (scAt0 V c n (Nat.lt_of_succ_lt h))).1 (ix2 g j) = _
    exact step_n V c ⟨n + 1, h⟩ _ g j

/-- The second output: the per-graph sums of the first feature array. -/
theorem pool_s0 (c : Dev nD) :
    ((dat0 (F := Ideal) V c).arrAt 4 cfg0.N : Cert.Spec.SP.Idx → EReal)
      = Cert.Spec.poolS (V c main_v0) (V c main_arg0) := by
  rw [arrAt0_4]
  funext y
  obtain ⟨g, j, rfl⟩ : ∃ (g : Fin 512) (j : Fin 256), y = ix2 g j := ⟨y 0, y 1, eq_ix2 y⟩
  show (scAt0 V c 49 _).2.1 (ix2 g j)
    = ∑ i : Fin 100000, Cert.Spec.hot (V c main_v0) i g * (V c main_arg0 : Cert.Spec.SX.Idx → EReal) (ix2 i j)
  refine acc_last (fun i => Cert.Spec.hot (V c main_v0) i g * (V c main_arg0 : Cert.Spec.SX.Idx → EReal) (ix2 i j))
    (fun n h => (scAt0 V c n h).2.1 (ix2 g j)) (fun h => ?_) (fun n h => ?_)
  · show (poolStep (iblk0 V c 2 ⟨0, h⟩) (iblk0 V c 0 ⟨0, h⟩) (iblk0 V c 1 ⟨0, h⟩) poolInit).2.1 (ix2 g j) = _
    rw [step_s0]
    show k0_pay3 (F := Ideal) (ix2 g j) + _ = 0 + _
    rw [pay3_apply]
    rfl
  · show (poolStep (iblk0 V c 2 ⟨n + 1, h⟩) (iblk0 V c 0 ⟨n + 1, h⟩) (iblk0 V c 1 ⟨n + 1, h⟩)
      (scAt0 V c n (Nat.lt_of_succ_lt h))).2.1 (ix2 g j) = _
    exact step_s0 V c ⟨n + 1, h⟩ _ g j

/-- The third output: the per-graph sums of the second feature array. -/
theorem pool_s1 (c : Dev nD) :
    ((dat0 (F := Ideal) V c).arrAt 5 cfg0.N : Cert.Spec.SP.Idx → EReal)
      = Cert.Spec.poolS (V c main_v0) (V c main_arg1) := by
  rw [arrAt0_5]
  funext y
  obtain ⟨g, j, rfl⟩ : ∃ (g : Fin 512) (j : Fin 256), y = ix2 g j := ⟨y 0, y 1, eq_ix2 y⟩
  show (scAt0 V c 49 _).2.2 (ix2 g j)
    = ∑ i : Fin 100000, Cert.Spec.hot (V c main_v0) i g * (V c main_arg1 : Cert.Spec.SX.Idx → EReal) (ix2 i j)
  refine acc_last (fun i => Cert.Spec.hot (V c main_v0) i g * (V c main_arg1 : Cert.Spec.SX.Idx → EReal) (ix2 i j))
    (fun n h => (scAt0 V c n h).2.2 (ix2 g j)) (fun h => ?_) (fun n h => ?_)
  · show (poolStep (iblk0 V c 2 ⟨0, h⟩) (iblk0 V c 0 ⟨0, h⟩) (iblk0 V c 1 ⟨0, h⟩) poolInit).2.2 (ix2 g j) = _
    rw [step_s1]
    show k0_pay4 (F := Ideal) (ix2 g j) + _ = 0 + _
    rw [pay4_apply]
    rfl
  · show (poolStep (iblk0 V c 2 ⟨n + 1, h⟩) (iblk0 V c 0 ⟨n + 1, h⟩) (iblk0 V c 1 ⟨n + 1, h⟩)
      (scAt0 V c n (Nat.lt_of_succ_lt h))).2.2 (ix2 g j) = _
    exact step_s1 V c ⟨n + 1, h⟩ _ g j

end Cert.KernelIdeal.Hand

end
-- ==== Proof.KI.Chain.lean ====
/-
  The kernel program's result as one function of its argument arrays, at the ideal instance.

  Region 1 leaves the specification's combination of what it finds in its four input arrays; the host operations
  before it leave the id column and the two feature arrays as launched (the ids re-laid as a column), and the table of gate
  weights at the shared gate function of what region 0 left; region 0 leaves the specification's counts and feature sums of
  the id column and the feature arrays.
-/
import proofs.«412715_j18631568130347_1_alg».proof.Proof.KI.CombValue
import proofs.«412715_j18631568130347_1_alg».proof.Proof.KI.HostValue.Ids
import proofs.«412715_j18631568130347_1_alg».proof.Proof.KI.PoolValue

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal))

/-- Region 1's result, entered from the contents the host operations leave before it. -/
theorem comb_at (c : Dev nD) :
    ((dat1 (F := Ideal) (fun c b => V13 m outs c b) c).arrAt 4 cfg1.N : Cert.Spec.SX.Idx → EReal)
      = Cert.Spec.combOut (Cert.Spec.colOf (m ((c : Thread nD τ).loc main_arg11))) (V13 m outs c main_v113)
          (m ((c : Thread nD τ).loc main_arg0)) (m ((c : Thread nD τ).loc main_arg1)) := by
  rw [comb_out]
  dsimp only
  rw [V13_ids, V1_ids, V13_arg0, V13_arg1]

/-- The first host operation writes only the id column: an argument array is as launched when region 0 is entered. -/
theorem V1_arg0 (c : Dev nD) : V1 m c main_arg0 = m ((c : Thread nD τ).loc main_arg0) := V1_of m c main_arg0 (by decide)
theorem V1_arg1 (c : Dev nD) : V1 m c main_arg1 = m ((c : Thread nD τ).loc main_arg1) := V1_of m c main_arg1 (by decide)

/-- Region 0's three results, entered from the contents the first host operation leaves. -/
theorem pool_at_n (c : Dev nD) :
    ((dat0 (F := Ideal) (fun c b => V1 m c b) c).arrAt 3 cfg0.N : Cert.Spec.SN.Idx → EReal)
      = Cert.Spec.poolN (Cert.Spec.colOf (m ((c : Thread nD τ).loc main_arg11))) := by
  rw [pool_n]
  dsimp only
  rw [V1_ids]

theorem pool_at_s0 (c : Dev nD) :
    ((dat0 (F := Ideal) (fun c b => V1 m c b) c).arrAt 4 cfg0.N : Cert.Spec.SP.Idx → EReal)
      = Cert.Spec.poolS (Cert.Spec.colOf (m ((c : Thread nD τ).loc main_arg11))) (m ((c : Thread nD τ).loc main_arg0)) := by
  rw [pool_s0]
  dsimp only
  rw [V1_ids, V1_arg0]

theorem pool_at_s1 (c : Dev nD) :
    ((dat0 (F := Ideal) (fun c b => V1 m c b) c).arrAt 5 cfg0.N : Cert.Spec.SP.Idx → EReal)
      = Cert.Spec.poolS (Cert.Spec.colOf (m ((c : Thread nD τ).loc main_arg11))) (m ((c : Thread nD τ).loc main_arg1)) := by
  rw [pool_s1]
  dsimp only
  rw [V1_ids, V1_arg1]

end Cert.KernelIdeal.Hand

end
-- ==== Proof.LibRowTake.lean ====
/-
  Rows of a matrix taken and put back through a column of signed row numbers, read at an entry.

  `x[idx]` of a matrix `x : [N, C]` at a column `idx : [R, 1]` of row numbers is the gather whose result row `e` is
  the row of `x` that `idx[e, 0]` names, the number read as a signed integer and CLAMPED into `[0, N − 1]`. The
  accumulating scatter of update rows `u : [R, C]` into `x` through such a column adds to entry `(n, c)` every
  `u[e, c]` whose row number `idx[e, 0]`, read signed and NOT clamped, is exactly `n`; a row number outside
  `[0, N)` names no row, and its update row is dropped. On the extended reals that accumulation is a finite sum, so
  it does not depend on the order in which the update rows arrive.
-/
import Idealize.ShloMosaic.Lib.ValueIdx

noncomputable section

open scoped BigOperators

namespace Idealize.ShloMosaic.RowTake

open Idealize.ShloMosaic Idealize.ShloMosaic.ValueIdx

/-! ## The gather of rows -/

section Gather
variable {α : Type}

/-- The dimension numbers of a gather of whole rows: operand `[N, C]`, start indices `[R, 1]`, result `[R, C]`; the
    row axis collapsed and named by the start index, the column axis an offset axis, slices `1 × C`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result entry `(e, c)` starts, on the row axis, at the row number `idx[e, 0]` read signed and clamped. -/
theorem rowGather_start_row {N R C w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowGatherDims N R C wf).start (ix2 e c) idx 0 = min (idx (ix2 e 0)).toInt.toNat (N - 1) := by
  unfold GatherDims.start
  rw [dif_pos (show (0 : Fin 2) ∈ ([0] : List (Fin 2)) from List.mem_singleton.mpr rfl)]
  have hsi : (rowGatherDims N R C wf).siIdx (ix2 e c) ⟨List.idxOf (0 : Fin 2) (rowGatherDims N R C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … and, on the column axis, at `0`: the start index names no column. -/
theorem rowGather_start_col {N R C w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowGatherDims N R C wf).start (ix2 e c) idx 1 = 0 := by
  unfold GatherDims.start
  rw [dif_neg (show (1 : Fin 2) ∉ ([0] : List (Fin 2)) from by decide)]

/-- Its offset coordinate is `0` on the collapsed row axis … -/
theorem rowGather_off_row {N R C : Nat}
    (wf : GatherDims.WF ⟨2, ![N, C]⟩ ⟨2, ![R, 1]⟩ ⟨2, ![R, C]⟩ [1] [0] [] [0] [] 1 ![1, C]) (e : Fin R) (c : Fin C) :
    (rowGatherDims N R C wf).offCoord (ix2 e c) 0 = 0 :=
  GatherDims.offCoord_eq_zero _ _ _ (fun h => ((GatherDims.mem_sKept _ _).mp h).1 (List.mem_singleton.mpr rfl))

/-- … and its own column on the column axis. -/
theorem rowGather_off_col {N R C : Nat}
    (wf : GatherDims.WF ⟨2, ![N, C]⟩ ⟨2, ![R, 1]⟩ ⟨2, ![R, C]⟩ [1] [0] [] [0] [] 1 ![1, C]) (e : Fin R) (c : Fin C) :
    (rowGatherDims N R C wf).offCoord (ix2 e c) 1 = c.val := by
  unfold GatherDims.offCoord
  rw [dif_pos ((GatherDims.mem_sKept _ _).mpr
    ⟨show (1 : Fin 2) ∉ ([0] : List (Fin 2)) from by decide, List.not_mem_nil⟩)]
  rfl

/-- The gathered entry `(e, c)` is the operand's entry in column `c` of the row `idx[e, 0]` names, that number read
    signed and clamped into `[0, N − 1]`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  show (rowGatherDims N R C wf).start (ix2 e c) idx a + (rowGatherDims N R C wf).batchCoord (ix2 e c) a
    + (rowGatherDims N R C wf).offCoord (ix2 e c) a = _
  rw [GatherDims.batchCoord_eq_zero _ _ _ List.not_mem_nil, Nat.add_zero]
  match a with
  | ⟨0, _⟩ =>
    exact (show (rowGatherDims N R C wf).start (ix2 e c) idx 0 + (rowGatherDims N R C wf).offCoord (ix2 e c) 0
        = min (idx (ix2 e 0)).toInt.toNat (N - 1) by rw [rowGather_start_row, rowGather_off_row, Nat.add_zero])
  | ⟨1, _⟩ =>
    exact (show (rowGatherDims N R C wf).start (ix2 e c) idx 1 + (rowGatherDims N R C wf).offCoord (ix2 e c) 1
        = c.val by rw [rowGather_start_col, rowGather_off_col, Nat.zero_add])

end Gather

/-! ## The accumulating scatter of rows -/

section Scatter

/-- The dimension numbers of a scatter of whole rows: operand `[N, C]`, scatter indices `[R, 1]`, updates `[R, C]`;
    the row axis inserted and named by the scatter index, the column axis the update's window axis. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- Update entry `(e, c)` starts, on the row axis, at the signed row number `idx[e, 0]`. -/
theorem rowScatter_start_row (idx : IVec ⟨2, ![R, 1]⟩ w) (e : Fin R) (c : Fin C) :
    (rowScatterDims N R C wf).start (ix2 e c) idx 0 = (idx (ix2 e 0)).toInt := by
  unfold ScatterDims.start
  rw [dif_pos (show (0 : Fin 2) ∈ ([0] : List (Fin 2)) from List.mem_singleton.mpr rfl)]
  have hsi : (rowScatterDims N R C wf).siIdx (ix2 e c) ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, on the column axis, at `0`. -/
theorem rowScatter_start_col (idx : IVec ⟨2, ![R, 1]⟩ w) (e : Fin R) (c : Fin C) :
    (rowScatterDims N R C wf).start (ix2 e c) idx 1 = 0 := by
  unfold ScatterDims.start
  rw [dif_neg (show (1 : Fin 2) ∉ ([0] : List (Fin 2)) from by decide)]

/-- The operand's axes that are not inserted: the column axis alone. -/
theorem rowScatter_mem_sKept (a : Fin 2) : a ∈ (rowScatterDims N R C wf).sKept ↔ a ∉ ([0] : List (Fin 2)) := by
  simp [ScatterDims.sKept, Shape.kept, List.mem_filter, List.mem_finRange]

/-- Its window coordinate is `0` on the row axis … -/
theorem rowScatter_window_row (e : Fin R) (c : Fin C) : (rowScatterDims N R C wf).window (ix2 e c) 0 = 0 := by
  unfold ScatterDims.window
  rw [dif_neg (fun h => ((rowScatter_mem_sKept wf 0).mp h) (List.mem_singleton.mpr rfl))]

/-- … and its own column on the column axis. -/
theorem rowScatter_window_col (e : Fin R) (c : Fin C) : (rowScatterDims N R C wf).window (ix2 e c) 1 = c.val := by
  unfold ScatterDims.window
  rw [dif_pos ((rowScatter_mem_sKept wf 1).mpr (by decide))]
  rfl

/-- WHERE AN UPDATE ENTRY LANDS: entry `(e, c)` lands on `(n, c')` exactly when its row number, read signed, is `n`
    and `c = c'`. -/
theorem rowScatter_lands (idx : IVec ⟨2, ![R, 1]⟩ w) (e : Fin R) (c : Fin C) (n : Fin N) (c' : Fin C) :
    (rowScatterDims N R C wf).resultIdx? (ix2 e c) idx = some (ix2 n c')
      ↔ (idx (ix2 e 0)).toInt = (n.val : Int) ∧ c = c' := by
  -- start plus window coordinate, axis by axis: the signed row number on the row axis, the column on the column axis
  have h0 : (rowScatterDims N R C wf).start (ix2 e c) idx 0 + ((rowScatterDims N R C wf).window (ix2 e c) 0 : Nat)
      = (idx (ix2 e 0)).toInt := by
    rw [rowScatter_start_row, rowScatter_window_row, Nat.cast_zero, Int.add_zero]
  have h1 : (rowScatterDims N R C wf).start (ix2 e c) idx 1 + ((rowScatterDims N R C wf).window (ix2 e c) 1 : Nat)
      = (c.val : Int) := by
    rw [rowScatter_start_col, rowScatter_window_col, Int.zero_add]
  have hN : (⟨2, ![N, C]⟩ : Shape).size 0 = N := rfl
  have hC : (⟨2, ![N, C]⟩ : Shape).size 1 = C := rfl
  unfold ScatterDims.resultIdx?
  constructor
  · intro h
    by_cases hall : ∀ a, 0 ≤ (rowScatterDims N R C wf).start (ix2 e c) idx a + ((rowScatterDims N R C wf).window (ix2 e c) a : Nat)
        ∧ (rowScatterDims N R C wf).start (ix2 e c) idx a + ((rowScatterDims N R C wf).window (ix2 e c) a : Nat)
          < ((⟨2, ![N, C]⟩ : Shape).size a : Nat)
    · rw [dif_pos hall] at h
      have heq := Option.some.inj h
      -- the landed index read on each axis
      have e0 : ((rowScatterDims N R C wf).start (ix2 e c) idx 0
          + ((rowScatterDims N R C wf).window (ix2 e c) 0 : Nat)).toNat = n.val :=
        congrArg (fun f => (f 0).val) heq
      have e1 : ((rowScatterDims N R C wf).start (ix2 e c) idx 1
          + ((rowScatterDims N R C wf).window (ix2 e c) 1 : Nat)).toNat = c'.val :=
        congrArg (fun f => (f 1).val) heq
      have p0 := (hall 0).1
      rw [h0] at e0 p0
      rw [h1] at e1
      refine ⟨by omega, Fin.ext (by omega)⟩
    · rw [dif_neg hall] at h
      exact absurd h (by simp)
  · rintro ⟨hi, rfl⟩
    have hall : ∀ a, 0 ≤ (rowScatterDims N R C wf).start (ix2 e c) idx a + ((rowScatterDims N R C wf).window (ix2 e c) a : Nat)
        ∧ (rowScatterDims N R C wf).start (ix2 e c) idx a + ((rowScatterDims N R C wf).window (ix2 e c) a : Nat)
          < ((⟨2, ![N, C]⟩ : Shape).size a : Nat) := by
      rw [Fin.forall_fin_two, h0, h1, hN, hC, hi]
      have := n.isLt
      have := c.isLt
      omega
    rw [dif_pos hall]
    congr 1
    funext a
    refine Fin.ext ?_
    match a with
    | ⟨0, _⟩ =>
      exact (show ((rowScatterDims N R C wf).start (ix2 e c) idx 0
          + ((rowScatterDims N R C wf).window (ix2 e c) 0 : Nat)).toNat = n.val by rw [h0, hi]; exact Int.toNat_natCast _)
    | ⟨1, _⟩ =>
      exact (show ((rowScatterDims N R C wf).start (ix2 e c) idx 1
          + ((rowScatterDims N R C wf).window (ix2 e c) 1 : Nat)).toNat = c.val by rw [h1]; exact Int.toNat_natCast _)

/-- THE SCATTER READ AT `(n, c)`, on the extended reals: the operand's entry plus the sum, over the update rows whose
    row number is `n`, of their entries in column `c`. -/
theorem rowScatterAdd_apply (x : (⟨2, ![N, C]⟩ : Shape).Idx → EReal) (idx : IVec ⟨2, ![R, 1]⟩ w)
    (upd : (⟨2, ![R, C]⟩ : Shape).Idx → EReal) (n : Fin N) (c : Fin C) :
    Ideal.hostScatterAdd (rowScatterDims N R C wf) x idx upd (ix2 n c)
      = x (ix2 n c) + ∑ e : Fin R, if (idx (ix2 e 0)).toInt = (n.val : Int) then upd (ix2 e c) else 0 := by
  unfold Ideal.hostScatterAdd
  congr 1
  -- the filtered sum as a sum of conditionals, over the update's two coordinates
  rw [Finset.sum_filter, sum_idx2]
  refine Finset.sum_congr rfl (fun e _ => ?_)
  -- in update row `e` only column `c` can land on `(n, c)`
  rw [Finset.sum_eq_single c]
  · by_cases hi : (idx (ix2 e 0)).toInt = (n.val : Int)
    · rw [if_pos ((rowScatter_lands wf idx e c n c).mpr ⟨hi, rfl⟩), if_pos hi]
    · rw [if_neg (fun h => hi ((rowScatter_lands wf idx e c n c).mp h).1), if_neg hi]
  · intro b _ hb
    exact if_neg (fun h => hb ((rowScatter_lands wf idx e b n c).mp h).2)
  · intro h
    exact absurd (Finset.mem_univ c) h

end Scatter

end Idealize.ShloMosaic.RowTake

end
-- ==== Proof.Ref.Spec.lean ====
/-
  The reference program's value, as pure functions of its arguments' contents, in six stages.

  Each stage is the chain of the reference's own operations, one `have` per tensor value of @main (the callees'
  values inlined through `norm`, `whereSel`, `variance`, `relu32`, `relu16`), applied to the same operands with the
  same shape evidence, so that the contents the run leaves in a buffer and the stage's value are the same term.

  * `Ncnt batch`              — how many nodes carry each graph id (a scatter-add of ones): the value of %3.
  * `Efun edge batch`         — how many edges have both ends in the graph of their source (%4 … %26).
  * `Psum batch x`            — the per-graph sums of the rows of `x` (%47, and %53 at the second feature array).
  * `Pmean n s`               — the sums divided by the counts, broadcast along the feature axis (%50, %56).
  * `Gate n e pg pa W1 … b3`  — the four per-graph statistics, the three-layer gate network with its layer
                                 normalisation, and the softmax over its two outputs (%27 … %44, %57 … %120).
  * `Comb w batch xg xa`      — each node's two feature rows weighted by its graph's two gate weights, the weights
                                 fetched by a gather at (wrapped id, 0) and (wrapped id, 1) (%121 … %149).
  * `Out`                     — their composition: the value of %149.
-/
import proofs.«412715_j18631568130347_1_alg».proof.ReferenceIdeal

noncomputable section

namespace Cert.ReferenceIdeal.Hand

open Cert.ReferenceIdeal Idealize.ShloMosaic

variable {F : FTy → Type} [FloatOps F] [Facts]
open Facts₀ Facts

/-- The value of %3: the number of nodes carrying each graph id, as a scatter-add of ones into zeros. -/
def Ncnt (batch : IVec S100000 32) : FVec F S512 .f32 :=
  have cst : FVec F S_ .f32 := constant S_ .f32 0x3F800000#32
  have v0 : FVec F S100000 .f32 := broadcastInDim S100000 ![] bcast_S_S100000 cst
  have cst_0 : FVec F S_ .f32 := constant S_ .f32 0x00000000#32
  have v1 : FVec F S512 .f32 := broadcastInDim S512 ![] bcast_S_S512 cst_0
  have v2 : IVec S100000x1 32 := broadcastInDim S100000x1 ![0] bcast_S100000_S100000x1_0 batch
  Host.scatterAdd scatter_S512_S100000x1_S100000_n_0_0_1 v1 v2 v0

/-- The value of %26: per graph id, the number of edges whose two end nodes carry the same id, counted at the
    id of the first end (each end's node index wrapped once if negative, then looked up in `batch`). -/
def Efun (edge : IVec S2x3200000 32) (batch : IVec S100000 32) : FVec F S512 .f32 :=
  have v4 : IVec S1x3200000 32 := extractStridedSlice S1x3200000 ![0, 0] edge slices_S2x3200000_S1x3200000_0_0
  have v5 : IVec S3200000 32 := shapeCast S3200000 v4 shapeCasts_S1x3200000_S3200000
  have c : IVec S_ 32 := constantI S_ 32 0#32
  have v6 : IVec S3200000 32 := broadcastInDim S3200000 ![] bcast_S_S3200000 c
  have v7 : IVec S3200000 1 := cmpi .slt v5 v6
  have c_1 : IVec S_ 32 := constantI S_ 32 100000#32
  have v8 : IVec S3200000 32 := broadcastInDim S3200000 ![] bcast_S_S3200000 c_1
  have v9 : IVec S3200000 32 := addi v5 v8
  have v10 : IVec S3200000 32 := select v7 v9 v5
  have v11 : IVec S3200000x1 32 := broadcastInDim S3200000x1 ![0] bcast_S3200000_S3200000x1_0 v10
  have v12 : IVec S3200000 32 := Host.gather gather_S100000_S3200000x1_S3200000_n_0_n_n_0_1_1 batch v11
  have v13 : IVec S1x3200000 32 := extractStridedSlice S1x3200000 ![1, 0] edge slices_S2x3200000_S1x3200000_1_0
  have v14 : IVec S3200000 32 := shapeCast S3200000 v13 shapeCasts_S1x3200000_S3200000
  have c_2 : IVec S_ 32 := constantI S_ 32 0#32
  have v15 : IVec S3200000 32 := broadcastInDim S3200000 ![] bcast_S_S3200000 c_2
  have v16 : IVec S3200000 1 := cmpi .slt v14 v15
  have c_3 : IVec S_ 32 := constantI S_ 32 100000#32
  have v17 : IVec S3200000 32 := broadcastInDim S3200000 ![] bcast_S_S3200000 c_3
  have v18 : IVec S3200000 32 := addi v14 v17
  have v19 : IVec S3200000 32 := select v16 v18 v14
  have v20 : IVec S3200000x1 32 := broadcastInDim S3200000x1 ![0] bcast_S3200000_S3200000x1_0 v19
  have v21 : IVec S3200000 32 := Host.gather gather_S100000_S3200000x1_S3200000_n_0_n_n_0_1_1 batch v20
  have v22 : IVec S3200000 1 := cmpi .eq v12 v21
  have v23 : FVec F S3200000 .f32 := uitofp .f32 v22
  have cst_4 : FVec F S_ .f32 := constant S_ .f32 0x00000000#32
  have v24 : FVec F S512 .f32 := broadcastInDim S512 ![] bcast_S_S512 cst_4
  have v25 : IVec S3200000x1 32 := broadcastInDim S3200000x1 ![0] bcast_S3200000_S3200000x1_0 v12
  Host.scatterAdd scatter_S512_S3200000x1_S3200000_n_0_0_1 v24 v25 v23

/-- The value of %47 (and of %53 at the second feature array): per graph id, the sum of the rows of `x` at the
    nodes carrying it, as a scatter-add of the rows into zeros. -/
def Psum (batch : IVec S100000 32) (x : FVec F S100000x256 .f32) : FVec F S512x256 .f32 :=
  have cst_12 : FVec F S_ .f32 := constant S_ .f32 0x00000000#32
  have v45 : FVec F S512x256 .f32 := broadcastInDim S512x256 ![] bcast_S_S512x256 cst_12
  have v46 : IVec S100000x1 32 := broadcastInDim S100000x1 ![0] bcast_S100000_S100000x1_0 batch
  Host.scatterAdd scatter_S512x256_S100000x1_S100000x256_1_0_0_1 v45 v46 x

/-- The value of %50 from %3 and %47 (of %56 from %3 and %53): the sums over the counts, the counts broadcast
    to a column and then along the feature axis. -/
def Pmean (n : FVec F S512 .f32) (s : FVec F S512x256 .f32) : FVec F S512x256 .f32 :=
  have v48 : FVec F S512x1 .f32 := broadcastInDim S512x1 ![0] bcast_S512_S512x1_0 n
  have v49 : FVec F S512x256 .f32 := broadcastInDim S512x256 ![0, 1] bcast_S512x1_S512x256_0_1 v48
  Host.divf s v49

/-- @norm: the Euclidean norm of each row. -/
def norm (x : FVec F S512x256 .f32) : FVec F S512 .f32 :=
  have v0 : FVec F S512x256 .f32 := mulf x x
  have cst : FVec F S_ .f32 := constant S_ .f32 0x00000000#32
  have v1 : FVec F S512 .f32 := Host.reduceAdd v0 cst reducesTo_S512x256_S512_d1 h_S_
  Host.sqrt v1

/-- @_where: `a` where the scalar condition holds, else the scalar `c`, both broadcast to a column. -/
def whereSel (p : IVec S_ 1) (a : FVec F S512x1 .f32) (c : FVec F S_ .f32) : FVec F S512x1 .f32 :=
  have v0 : FVec F S_ .f32 := id c
  have v1 : FVec F S512x1 .f32 := broadcastInDim S512x1 ![] bcast_S_S512x1 v0
  select (broadcastInDim S512x1 ![] bcast_S_S512x1 p) a v1

/-- @_var: each row's variance with `ddof` degrees of freedom taken off (the mean over the 32 entries, the sum
    of squared deviations over `32 - ddof`, not-a-number unless that divisor is positive). -/
def variance (x : FVec F S512x32 .f32) (ddof : IVec S_ 32) : FVec F S512x1 .f32 :=
  have cst : FVec F S_ .f32 := constant S_ .f32 0x00000000#32
  have v0 : FVec F S512 .f32 := Host.reduceAdd x cst reducesTo_S512x32_S512_d1 h_S_
  have v1 : FVec F S512x1 .f32 := broadcastInDim S512x1 ![0] bcast_S512_S512x1_0 v0
  have cst_0 : FVec F S_ .f32 := constant S_ .f32 0x42000000#32
  have v2 : FVec F S512x1 .f32 := broadcastInDim S512x1 ![] bcast_S_S512x1 cst_0
  have v3 : FVec F S512x1 .f32 := Host.divf v1 v2
  have v4 : FVec F S512x32 .f32 := broadcastInDim S512x32 ![0, 1] bcast_S512x1_S512x32_0_1 v3
  have v5 : FVec F S512x32 .f32 := subf x v4
  have v6 : FVec F S512x32 .f32 := mulf v5 v5
  have v7 : FVec F S_ .f32 := sitofp .f32 ddof
  have cst_1 : FVec F S_ .f32 := constant S_ .f32 0x42000000#32
  have v8 : FVec F S_ .f32 := subf cst_1 v7
  have cst_2 : FVec F S_ .f32 := constant S_ .f32 0x00000000#32
  have v9 : FVec F S512 .f32 := Host.reduceAdd v6 cst_2 reducesTo_S512x32_S512_d1 h_S_
  have v10 : FVec F S512x1 .f32 := broadcastInDim S512x1 ![0] bcast_S512_S512x1_0 v9
  have v11 : FVec F S512x1 .f32 := broadcastInDim S512x1 ![] bcast_S_S512x1 v8
  have v12 : FVec F S512x1 .f32 := Host.divf v10 v11
  have cst_3 : FVec F S_ .f32 := constant S_ .f32 0x00000000#32
  have v13 : IVec S_ 1 := cmpf .ogt v8 cst_3
  have cst_4 : FVec F S_ .f32 := constant S_ .f32 0x7FC00000#32
  whereSel v13 v12 cst_4

/-- @relu at 32 columns: the maximum with zero. -/
def relu32 (x : FVec F S512x32 .f32) : FVec F S512x32 .f32 :=
  have cst : FVec F S_ .f32 := constant S_ .f32 0x00000000#32
  have v0 : FVec F S512x32 .f32 := broadcastInDim S512x32 ![] bcast_S_S512x32 cst
  maximumf x v0

/-- @relu_0 at 16 columns: the maximum with zero. -/
def relu16 (x : FVec F S512x16 .f32) : FVec F S512x16 .f32 :=
  have cst : FVec F S_ .f32 := constant S_ .f32 0x00000000#32
  have v0 : FVec F S512x16 .f32 := broadcastInDim S512x16 ![] bcast_S_S512x16 cst
  maximumf x v0

/-- The value of %120 from %3 (`n`), %26 (`e`), %50 (`pg`) and %56 (`pa`): the four statistics per graph —
    `log (n + 1) / log 500`-scaled size, edge density `e / (n (n - 1) + ε)`, mean degree `e / (n + ε) / 10` capped
    at one, and half of one minus the cosine similarity of the two pooled means —, side by side as a 512×4 matrix,
    through the linear layer `W1, b1`, the layer normalisation `lng, lnb`, a rectifier, the layer `W2, b2`, a
    rectifier, the layer `W3, b3`, the division by the temperature one half, and the softmax over the two columns. -/
def Gate (n e : FVec F S512 .f32) (pg pa : FVec F S512x256 .f32) (W1 : FVec F S4x32 .f32)
    (b1 lng lnb : FVec F S32 .f32) (W2 : FVec F S32x16 .f32) (b2 : FVec F S16 .f32) (W3 : FVec F S16x2 .f32)
    (b3 : FVec F S2 .f32) : FVec F S512x2 .f32 :=
  have cst_5 : FVec F S_ .f32 := constant S_ .f32 0x3F800000#32
  have v27 : FVec F S512 .f32 := broadcastInDim S512 ![] bcast_S_S512 cst_5
  have v28 : FVec F S512 .f32 := addf n v27
  have v29 : FVec F S512 .f32 := Host.log v28
  have cst_6 : FVec F S_ .f32 := constant S_ .f32 0x40C6EE70#32
  have v30 : FVec F S512 .f32 := broadcastInDim S512 ![] bcast_S_S512 cst_6
  have v31 : FVec F S512 .f32 := Host.divf v29 v30
  have cst_7 : FVec F S_ .f32 := constant S_ .f32 0x3F800000#32
  have v32 : FVec F S512 .f32 := broadcastInDim S512 ![] bcast_S_S512 cst_7
  have v33 : FVec F S512 .f32 := subf n v32
  have v34 : FVec F S512 .f32 := mulf n v33
  have cst_8 : FVec F S_ .f32 := constant S_ .f32 0x322BCC77#32
  have v35 : FVec F S512 .f32 := broadcastInDim S512 ![] bcast_S_S512 cst_8
  have v36 : FVec F S512 .f32 := addf v34 v35
  have v37 : FVec F S512 .f32 := Host.divf e v36
  have cst_9 : FVec F S_ .f32 := constant S_ .f32 0x322BCC77#32
  have v38 : FVec F S512 .f32 := broadcastInDim S512 ![] bcast_S_S512 cst_9
  have v39 : FVec F S512 .f32 := addf n v38
  have v40 : FVec F S512 .f32 := Host.divf e v39
  have cst_10 : FVec F S_ .f32 := constant S_ .f32 0x41200000#32
  have v41 : FVec F S512 .f32 := broadcastInDim S512 ![] bcast_S_S512 cst_10
  have v42 : FVec F S512 .f32 := Host.divf v40 v41
  have cst_11 : FVec F S_ .f32 := constant S_ .f32 0x3F800000#32
  have v43 : FVec F S512 .f32 := broadcastInDim S512 ![] bcast_S_S512 cst_11
  have v44 : FVec F S512 .f32 := minimumf v42 v43
  have v57 : FVec F S512x256 .f32 := mulf pg pa
  have cst_14 : FVec F S_ .f32 := constant S_ .f32 0x00000000#32
  have v58 : FVec F S512 .f32 := Host.reduceAdd v57 cst_14 reducesTo_S512x256_S512_d1 h_S_
  have v59 : FVec F S512 .f32 := norm pg
  have cst_15 : FVec F S_ .f32 := constant S_ .f32 0x322BCC77#32
  have v60 : FVec F S512 .f32 := broadcastInDim S512 ![] bcast_S_S512 cst_15
  have v61 : FVec F S512 .f32 := maximumf v59 v60
  have v62 : FVec F S512 .f32 := norm pa
  have cst_16 : FVec F S_ .f32 := constant S_ .f32 0x322BCC77#32
  have v63 : FVec F S512 .f32 := broadcastInDim S512 ![] bcast_S_S512 cst_16
  have v64 : FVec F S512 .f32 := maximumf v62 v63
  have v65 : FVec F S512 .f32 := mulf v61 v64
  have v66 : FVec F S512 .f32 := Host.divf v58 v65
  have cst_17 : FVec F S_ .f32 := constant S_ .f32 0x3F800000#32
  have v67 : FVec F S512 .f32 := broadcastInDim S512 ![] bcast_S_S512 cst_17
  have v68 : FVec F S512 .f32 := subf v67 v66
  have cst_18 : FVec F S_ .f32 := constant S_ .f32 0x40000000#32
  have v69 : FVec F S512 .f32 := broadcastInDim S512 ![] bcast_S_S512 cst_18
  have v70 : FVec F S512 .f32 := Host.divf v68 v69
  have v71 : FVec F S512x1 .f32 := broadcastInDim S512x1 ![0] bcast_S512_S512x1_0 v31
  have v72 : FVec F S512x1 .f32 := broadcastInDim S512x1 ![0] bcast_S512_S512x1_0 v37
  have v73 : FVec F S512x1 .f32 := broadcastInDim S512x1 ![0] bcast_S512_S512x1_0 v44
  have v74 : FVec F S512x1 .f32 := broadcastInDim S512x1 ![0] bcast_S512_S512x1_0 v70
  have v75 : FVec F S512x4 .f32 :=
    concatenate S512x4 1 [⟨S512x1, v71⟩, ⟨S512x1, v72⟩, ⟨S512x1, v73⟩, ⟨S512x1, v74⟩]
      concatenates_S512x1_S512x1_S512x1_S512x1_S512x4_d1
  have v76 : FVec F S512x32 .f32 := Host.dotGeneral dot_S512x4_S4x32_S512x32_1_0_0_1_n_n none v75 W1
  have v77 : FVec F S1x32 .f32 := broadcastInDim S1x32 ![1] bcast_S32_S1x32_1 b1
  have v78 : FVec F S512x32 .f32 := broadcastInDim S512x32 ![0, 1] bcast_S1x32_S512x32_0_1 v77
  have v79 : FVec F S512x32 .f32 := addf v76 v78
  have cst_19 : FVec F S_ .f32 := constant S_ .f32 0x00000000#32
  have v80 : FVec F S512 .f32 := Host.reduceAdd v79 cst_19 reducesTo_S512x32_S512_d1 h_S_
  have v81 : FVec F S512x1 .f32 := broadcastInDim S512x1 ![0] bcast_S512_S512x1_0 v80
  have cst_20 : FVec F S_ .f32 := constant S_ .f32 0x42000000#32
  have v82 : FVec F S512x1 .f32 := broadcastInDim S512x1 ![] bcast_S_S512x1 cst_20
  have v83 : FVec F S512x1 .f32 := Host.divf v81 v82
  have c_21 : IVec S_ 32 := constantI S_ 32 0#32
  have v84 : FVec F S512x1 .f32 := variance v79 c_21
  have v85 : FVec F S512x32 .f32 := broadcastInDim S512x32 ![0, 1] bcast_S512x1_S512x32_0_1 v83
  have v86 : FVec F S512x32 .f32 := subf v79 v85
  have cst_22 : FVec F S_ .f32 := constant S_ .f32 0x3727C5AC#32
  have v87 : FVec F S512x1 .f32 := broadcastInDim S512x1 ![] bcast_S_S512x1 cst_22
  have v88 : FVec F S512x1 .f32 := addf v84 v87
  have v89 : FVec F S512x1 .f32 := Host.rsqrt v88
  have v90 : FVec F S512x32 .f32 := broadcastInDim S512x32 ![0, 1] bcast_S512x1_S512x32_0_1 v89
  have v91 : FVec F S512x32 .f32 := mulf v86 v90
  have v92 : FVec F S1x32 .f32 := broadcastInDim S1x32 ![1] bcast_S32_S1x32_1 lng
  have v93 : FVec F S512x32 .f32 := broadcastInDim S512x32 ![0, 1] bcast_S1x32_S512x32_0_1 v92
  have v94 : FVec F S512x32 .f32 := mulf v91 v93
  have v95 : FVec F S1x32 .f32 := broadcastInDim S1x32 ![1] bcast_S32_S1x32_1 lnb
  have v96 : FVec F S512x32 .f32 := broadcastInDim S512x32 ![0, 1] bcast_S1x32_S512x32_0_1 v95
  have v97 : FVec F S512x32 .f32 := addf v94 v96
  have v98 : FVec F S512x32 .f32 := relu32 v97
  have v99 : FVec F S512x16 .f32 := Host.dotGeneral dot_S512x32_S32x16_S512x16_1_0_0_1_n_n none v98 W2
  have v100 : FVec F S1x16 .f32 := broadcastInDim S1x16 ![1] bcast_S16_S1x16_1 b2
  have v101 : FVec F S512x16 .f32 := broadcastInDim S512x16 ![0, 1] bcast_S1x16_S512x16_0_1 v100
  have v102 : FVec F S512x16 .f32 := addf v99 v101
  have v103 : FVec F S512x16 .f32 := relu16 v102
  have v104 : FVec F S512x2 .f32 := Host.dotGeneral dot_S512x16_S16x2_S512x2_1_0_0_1_n_n none v103 W3
  have v105 : FVec F S1x2 .f32 := broadcastInDim S1x2 ![1] bcast_S2_S1x2_1 b3
  have v106 : FVec F S512x2 .f32 := broadcastInDim S512x2 ![0, 1] bcast_S1x2_S512x2_0_1 v105
  have v107 : FVec F S512x2 .f32 := addf v104 v106
  have cst_23 : FVec F S_ .f32 := constant S_ .f32 0x3F000000#32
  have v108 : FVec F S512x2 .f32 := broadcastInDim S512x2 ![] bcast_S_S512x2 cst_23
  have v109 : FVec F S512x2 .f32 := Host.divf v107 v108
  have cst_24 : FVec F S_ .f32 := constant S_ .f32 0xFF800000#32
  have v110 : FVec F S512 .f32 := Host.reduce FloatOps.maximumf v109 cst_24 reducesTo_S512x2_S512_d1 h_S_
  have cst_25 : FVec F S_ .f32 := constant S_ .f32 0xFF800000#32
  have v111 : FVec F S512 .f32 := broadcastInDim S512 ![] bcast_S_S512 cst_25
  have v112 : FVec F S512 .f32 := maximumf v111 v110
  have v113 : FVec F S512x1 .f32 := broadcastInDim S512x1 ![0] bcast_S512_S512x1_0 v112
  have v114 : FVec F S512x2 .f32 := broadcastInDim S512x2 ![0, 1] bcast_S512x1_S512x2_0_1 v113
  have v115 : FVec F S512x2 .f32 := subf v109 v114
  have v116 : FVec F S512x2 .f32 := Host.exp v115
  have cst_26 : FVec F S_ .f32 := constant S_ .f32 0x00000000#32
  have v117 : FVec F S512 .f32 := Host.reduceAdd v116 cst_26 reducesTo_S512x2_S512_d1 h_S_
  have v118 : FVec F S512x1 .f32 := broadcastInDim S512x1 ![0] bcast_S512_S512x1_0 v117
  have v119 : FVec F S512x2 .f32 := broadcastInDim S512x2 ![0, 1] bcast_S512x1_S512x2_0_1 v118
  Host.divf v116 v119

/-- The value of %149 from %120 (`w`): each node's id wrapped once if negative, paired with column 0 and with
    column 1, the two gate weights gathered at those pairs, each broadcast along the feature axis and multiplied
    into the node's row of `xg` and of `xa`, the two products added. -/
def Comb (w : FVec F S512x2 .f32) (batch : IVec S100000 32) (xg xa : FVec F S100000x256 .f32) :
    FVec F S100000x256 .f32 :=
  have c_27 : IVec S_ 32 := constantI S_ 32 0#32
  have v121 : IVec S100000 32 := broadcastInDim S100000 ![] bcast_S_S100000 c_27
  have v122 : IVec S100000 1 := cmpi .slt batch v121
  have c_28 : IVec S_ 32 := constantI S_ 32 512#32
  have v123 : IVec S100000 32 := broadcastInDim S100000 ![] bcast_S_S100000 c_28
  have v124 : IVec S100000 32 := addi batch v123
  have v125 : IVec S100000 32 := select v122 v124 batch
  have c_29 : IVec S_ 32 := constantI S_ 32 0#32
  have v126 : IVec S100000 32 := broadcastInDim S100000 ![] bcast_S_S100000 c_29
  have v127 : IVec S100000 32 := id v126
  have v128 : IVec S100000x1 32 := broadcastInDim S100000x1 ![0] bcast_S100000_S100000x1_0 v125
  have v129 : IVec S100000x1 32 := broadcastInDim S100000x1 ![0] bcast_S100000_S100000x1_0 v127
  have v130 : IVec S100000x2 32 :=
    concatenate S100000x2 1 [⟨S100000x1, v128⟩, ⟨S100000x1, v129⟩] concatenates_S100000x1_S100000x1_S100000x2_d1
  have v131 : FVec F S100000 .f32 := Host.gather gather_S512x2_S100000x2_S100000_n_01_n_n_01_1_11 w v130
  have v132 : FVec F S100000x1 .f32 := broadcastInDim S100000x1 ![0] bcast_S100000_S100000x1_0 v131
  have c_30 : IVec S_ 32 := constantI S_ 32 0#32
  have v133 : IVec S100000 32 := broadcastInDim S100000 ![] bcast_S_S100000 c_30
  have v134 : IVec S100000 1 := cmpi .slt batch v133
  have c_31 : IVec S_ 32 := constantI S_ 32 512#32
  have v135 : IVec S100000 32 := broadcastInDim S100000 ![] bcast_S_S100000 c_31
  have v136 : IVec S100000 32 := addi batch v135
  have v137 : IVec S100000 32 := select v134 v136 batch
  have c_32 : IVec S_ 32 := constantI S_ 32 1#32
  have v138 : IVec S100000 32 := broadcastInDim S100000 ![] bcast_S_S100000 c_32
  have v139 : IVec S100000 32 := id v138
  have v140 : IVec S100000x1 32 := broadcastInDim S100000x1 ![0] bcast_S100000_S100000x1_0 v137
  have v141 : IVec S100000x1 32 := broadcastInDim S100000x1 ![0] bcast_S100000_S100000x1_0 v139
  have v142 : IVec S100000x2 32 :=
    concatenate S100000x2 1 [⟨S100000x1, v140⟩, ⟨S100000x1, v141⟩] concatenates_S100000x1_S100000x1_S100000x2_d1
  have v143 : FVec F S100000 .f32 := Host.gather gather_S512x2_S100000x2_S100000_n_01_n_n_01_1_11 w v142
  have v144 : FVec F S100000x1 .f32 := broadcastInDim S100000x1 ![0] bcast_S100000_S100000x1_0 v143
  have v145 : FVec F S100000x256 .f32 := broadcastInDim S100000x256 ![0, 1] bcast_S100000x1_S100000x256_0_1 v132
  have v146 : FVec F S100000x256 .f32 := mulf v145 xg
  have v147 : FVec F S100000x256 .f32 := broadcastInDim S100000x256 ![0, 1] bcast_S100000x1_S100000x256_0_1 v144
  have v148 : FVec F S100000x256 .f32 := mulf v147 xa
  addf v146 v148

/-- The reference's result, the value of %149, from the contents of @main's twelve arguments in their order. -/
def Out (xg xa : FVec F S100000x256 .f32) (W1 : FVec F S4x32 .f32) (b1 lng lnb : FVec F S32 .f32)
    (W2 : FVec F S32x16 .f32) (b2 : FVec F S16 .f32) (W3 : FVec F S16x2 .f32) (b3 : FVec F S2 .f32)
    (edge : IVec S2x3200000 32) (batch : IVec S100000 32) : FVec F S100000x256 .f32 :=
  Comb (Gate (Ncnt batch) (Efun edge batch) (Pmean (Ncnt batch) (Psum batch xg)) (Pmean (Ncnt batch) (Psum batch xa))
    W1 b1 lng lnb W2 b2 W3 b3) batch xg xa

end Cert.ReferenceIdeal.Hand

end
-- ==== Proof.Ref.Sums.lean ====
/-
  The reference's accumulating scatters and its gathers, read as plain sums and reads on the extended reals.

  The reference pools per graph with two scatters through the column of graph ids: the node count of graph `g` adds a
  one for every node whose id, read as a signed integer, is `g`, and the feature sums add that node's whole feature
  row. An id that is no graph number lands nowhere. Since a graph number is below 2^31, "the id read signed is `g`"
  says the id IS the word of `g`: the sums are the sums of the 0/1 coefficients `hot`, with no condition on the ids.

  Its last step reads each node's pair of gate weights out of the [512, 2] table at the index pair (id, 0) and
  (id, 1), an id below zero first moved up by 512 and the pair then clamped into the table. For an id that is a
  graph number neither the move nor the clamp does anything, and the read is the one term of `Σ_g hot · w g` whose
  coefficient is one.
-/
import proofs.«412715_j18631568130347_1_alg».proof.ReferenceIdeal
import proofs.«412715_j18631568130347_1_alg».proof.Proof.Spec
import proofs.«412715_j18631568130347_1_alg».proof.Proof.LibRowTake
import proofs.«412715_j18631568130347_1_alg».proof.Proof.Ref.Spec
import Idealize.ShloMosaic.Lib.ValueIdx
import Idealize.ShloMosaic.Lib.IdealHost
import Idealize.ShloMosaic.Lib.Pipeline.Value
import Idealize.ShloMosaic.Lib.StableHlo.Predicate
import Idealize.ShloMosaic.PureOps.Ideal.Laws

noncomputable section

open scoped BigOperators

namespace Cert.ReferenceIdeal.Hand

open Cert.ReferenceIdeal Idealize.ShloMosaic Idealize.ShloMosaic.ValueIdx

/-! ## Indices of a vector, and the broadcasts to and from a column -/

/-- An index of a vector is its one coordinate. -/
def idxEquiv1 {n : Nat} : (⟨1, ![n]⟩ : Shape).Idx ≃ Fin n where
  toFun i := i 0
  invFun p := ix1 p
  left_inv i := (eq_ix1 i).symm
  right_inv _ := rfl

/-- … so a sum over a vector's indices is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A vector laid out as a column reads, in row `p`, the vector at `p`. -/
theorem bcast_col_apply {α : Type} {n : Nat} (h : (⟨1, ![n]⟩ : Shape).BroadcastsInDim ⟨2, ![n, 1]⟩ ![0])
    (v : (⟨1, ![n]⟩ : Shape).Idx → α) (y : (⟨2, ![n, 1]⟩ : Shape).Idx) :
    broadcastInDim ⟨2, ![n, 1]⟩ ![0] h v y = v (ix1 (y 0)) := by
  simp only [broadcastInDim]
  congr 1
  funext a
  have ha : a = 0 := Subsingleton.elim _ _
  subst ha
  apply Fin.ext
  have hp := idx2_lt0 y
  split
  · next h1 => change n = 1 at h1; show (0 : Nat) = (y 0).val; omega
  · rfl

/-- A column stretched along the rows of a rectangle reads, at `(p, q)`, the column in row `p`. -/
theorem bcast_of_col_apply {α : Type} {n m : Nat} (h : (⟨2, ![n, 1]⟩ : Shape).BroadcastsInDim ⟨2, ![n, m]⟩ ![0, 1])
    (v : (⟨2, ![n, 1]⟩ : Shape).Idx → α) (y : (⟨2, ![n, m]⟩ : Shape).Idx) :
    broadcastInDim ⟨2, ![n, m]⟩ ![0, 1] h v y = v (ix2 (y 0) 0) := by
  simp only [broadcastInDim]
  congr 1
  funext a
  match a with
  | ⟨0, _⟩ =>
    apply Fin.ext
    have hp := idx2_lt0 y
    split
    · next h1 => change n = 1 at h1; show (0 : Nat) = (y 0).val; omega
    · rfl
  | ⟨1, _⟩ =>
    apply Fin.ext
    split
    · rfl
    · next h => exact absurd rfl h

/-- A 32-bit word read signed is the number `g < 2^31` exactly when it is the word of `g`. -/
theorem toInt_eq_iff (b : BitVec 32) (g : Nat) (hg : g < 2 ^ 31) : b.toInt = (g : Int) ↔ b = BitVec.ofNat 32 g := by
  constructor
  · intro h
    apply BitVec.eq_of_toInt_eq
    rw [h, StableHlo.Predicate.toInt_ofNat_small g hg]
  · rintro rfl
    exact StableHlo.Predicate.toInt_ofNat_small g hg

/-! ## The accumulating scatter of numbers into a vector through a column of signed positions -/

section Count

/-- The dimension numbers of a scatter of numbers: operand `[N]`, scatter indices `[R, 1]`, updates `[R]`; the one
    operand axis inserted and named by the scatter index, no window axes. -/
abbrev cntScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat} (wf : ScatterDims.WF ⟨1, ![N]⟩ ⟨2, ![R, 1]⟩ ⟨1, ![R]⟩ [] [0] [0] 1)

/-- Update `e` starts at the signed position `idx[e, 0]`. -/
theorem cnt_start (idx : IVec ⟨2, ![R, 1]⟩ w) (e : Fin R) :
    (cntScatterDims N R wf).start (ix1 e) idx 0 = (idx (ix2 e 0)).toInt := by
  unfold ScatterDims.start
  rw [dif_pos (show (0 : Fin 1) ∈ ([0] : List (Fin 1)) from List.mem_singleton.mpr rfl)]
  have hsi : (cntScatterDims N R wf).siIdx (ix1 e) ⟨List.idxOf (0 : Fin 1) (cntScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- Its window coordinate is `0`: the one operand axis is inserted. -/
theorem cnt_window (e : Fin R) : (cntScatterDims N R wf).window (ix1 e) 0 = 0 := by
  unfold ScatterDims.window
  rw [dif_neg (by simp [ScatterDims.sKept, Shape.kept, List.mem_filter, List.mem_finRange])]

/-- WHERE AN UPDATE LANDS: update `e` lands on position `n` exactly when its position, read signed, is `n`. -/
theorem cnt_lands (idx : IVec ⟨2, ![R, 1]⟩ w) (e : Fin R) (n : Fin N) :
    (cntScatterDims N R wf).resultIdx? (ix1 e) idx = some (ix1 n) ↔ (idx (ix2 e 0)).toInt = (n.val : Int) := by
  have h0 : (cntScatterDims N R wf).start (ix1 e) idx 0 + ((cntScatterDims N R wf).window (ix1 e) 0 : Nat)
      = (idx (ix2 e 0)).toInt := by
    rw [cnt_start, cnt_window, Nat.cast_zero, Int.add_zero]
  have hN : (⟨1, ![N]⟩ : Shape).size 0 = N := rfl
  unfold ScatterDims.resultIdx?
  constructor
  · intro h
    by_cases hall : ∀ a, 0 ≤ (cntScatterDims N R wf).start (ix1 e) idx a + ((cntScatterDims N R wf).window (ix1 e) a : Nat)
        ∧ (cntScatterDims N R wf).start (ix1 e) idx a + ((cntScatterDims N R wf).window (ix1 e) a : Nat)
          < ((⟨1, ![N]⟩ : Shape).size a : Nat)
    · rw [dif_pos hall] at h
      have heq := Option.some.inj h
      have e0 : ((cntScatterDims N R wf).start (ix1 e) idx 0
          + ((cntScatterDims N R wf).window (ix1 e) 0 : Nat)).toNat = n.val :=
        congrArg (fun f => (f 0).val) heq
      have p0 := (hall 0).1
      rw [h0] at e0 p0
      omega
    · rw [dif_neg hall] at h
      exact absurd h (by simp)
  · intro hi
    have hall : ∀ a, 0 ≤ (cntScatterDims N R wf).start (ix1 e) idx a + ((cntScatterDims N R wf).window (ix1 e) a : Nat)
        ∧ (cntScatterDims N R wf).start (ix1 e) idx a + ((cntScatterDims N R wf).window (ix1 e) a : Nat)
          < ((⟨1, ![N]⟩ : Shape).size a : Nat) := by
      intro a
      obtain rfl : a = 0 := Subsingleton.elim _ _
      rw [h0, hN, hi]
      have := n.isLt
      omega
    rw [dif_pos hall]
    congr 1
    funext a
    obtain rfl : a = 0 := Subsingleton.elim _ _
    refine Fin.ext ?_
    show ((cntScatterDims N R wf).start (ix1 e) idx 0
        + ((cntScatterDims N R wf).window (ix1 e) 0 : Nat)).toNat = n.val
    rw [h0, hi]
    exact Int.toNat_natCast _

/-- THE SCATTER READ AT `n`, on the extended reals: the operand's entry plus the sum of the updates whose position
    is `n`. -/
theorem cntScatterAdd_apply (x : (⟨1, ![N]⟩ : Shape).Idx → EReal) (idx : IVec ⟨2, ![R, 1]⟩ w)
    (upd : (⟨1, ![R]⟩ : Shape).Idx → EReal) (n : Fin N) :
    Ideal.hostScatterAdd (cntScatterDims N R wf) x idx upd (ix1 n)
      = x (ix1 n) + ∑ e : Fin R, if (idx (ix2 e 0)).toInt = (n.val : Int) then upd (ix1 e) else 0 := by
  unfold Ideal.hostScatterAdd
  congr 1
  rw [Finset.sum_filter, sum_idx1]
  refine Finset.sum_congr rfl (fun e _ => ?_)
  by_cases hi : (idx (ix2 e 0)).toInt = (n.val : Int)
  · rw [if_pos ((cnt_lands wf idx e n).mpr hi), if_pos hi]
  · rw [if_neg (fun h => hi ((cnt_lands wf idx e n).mp h)), if_neg hi]

end Count

/-! ## The gather of single entries of a matrix through pairs of signed positions -/

section PairGather
variable {α : Type}

/-- The dimension numbers of a gather of single entries: operand `[N, C]`, start indices `[R, 2]`, result `[R]`;
    both operand axes collapsed and named by the two components of the start index, slices `1 × 1`. -/
abbrev pairGatherDims (N C R : Nat)
    (wf : GatherDims.WF ⟨2, ![N, C]⟩ ⟨2, ![R, 2]⟩ ⟨1, ![R]⟩ [] [0, 1] [] [0, 1] [] 1 ![1, 1]) :
    GatherDims ⟨2, ![N, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

variable {N C R w : Nat}
  (wf : GatherDims.WF ⟨2, ![N, C]⟩ ⟨2, ![R, 2]⟩ ⟨1, ![R]⟩ [] [0, 1] [] [0, 1] [] 1 ![1, 1])

/-- Result entry `e` starts, on the row axis, at `idx[e, 0]` read signed and clamped … -/
theorem pairGather_start_row (idx : IVec ⟨2, ![R, 2]⟩ w) (e : Fin R) :
    (pairGatherDims N C R wf).start (ix1 e) idx 0 = min (idx (ix2 e 0)).toInt.toNat (N - 1) := by
  unfold GatherDims.start
  rw [dif_pos (show (0 : Fin 2) ∈ ([0, 1] : List (Fin 2)) from by decide)]
  have hsi : (pairGatherDims N C R wf).siIdx (ix1 e) ⟨List.idxOf (0 : Fin 2) (pairGatherDims N C R wf).startIndexMap,
      List.idxOf_lt_length_iff.2 (show (0 : Fin 2) ∈ ([0, 1] : List (Fin 2)) from by decide)⟩ = ix2 e 0 := by
    funext b; refine Fin.ext ?_
    match b with
    | ⟨0, _⟩ => rfl
    | ⟨1, _⟩ => rfl
  rw [hsi]
  rfl

/-- … and, on the column axis, at `idx[e, 1]` read signed and clamped. -/
theorem pairGather_start_col (idx : IVec ⟨2, ![R, 2]⟩ w) (e : Fin R) :
    (pairGatherDims N C R wf).start (ix1 e) idx 1 = min (idx (ix2 e 1)).toInt.toNat (C - 1) := by
  unfold GatherDims.start
  rw [dif_pos (show (1 : Fin 2) ∈ ([0, 1] : List (Fin 2)) from by decide)]
  have hsi : (pairGatherDims N C R wf).siIdx (ix1 e) ⟨List.idxOf (1 : Fin 2) (pairGatherDims N C R wf).startIndexMap,
      List.idxOf_lt_length_iff.2 (show (1 : Fin 2) ∈ ([0, 1] : List (Fin 2)) from by decide)⟩ = ix2 e 1 := by
    funext b; refine Fin.ext ?_
    match b with
    | ⟨0, _⟩ => rfl
    | ⟨1, _⟩ => rfl
  rw [hsi]
  rfl

/-- THE GATHER READ AT `e`: the operand's entry at the pair `(idx[e, 0], idx[e, 1])`, each number read signed and
    clamped into its axis. -/
theorem pairGather_apply (hN : 0 < N) (hC : 0 < C) (x : (⟨2, ![N, C]⟩ : Shape).Idx → α) (idx : IVec ⟨2, ![R, 2]⟩ w)
    (e : Fin R) :
    Host.gather (pairGatherDims N C R wf) x idx (ix1 e)
      = x (ix2 ⟨min (idx (ix2 e 0)).toInt.toNat (N - 1), by omega⟩ ⟨min (idx (ix2 e 1)).toInt.toNat (C - 1), by omega⟩) := by
  unfold Host.gather
  congr 1
  funext a
  refine Fin.ext ?_
  show (pairGatherDims N C R wf).start (ix1 e) idx a + (pairGatherDims N C R wf).batchCoord (ix1 e) a
    + (pairGatherDims N C R wf).offCoord (ix1 e) a = _
  rw [GatherDims.batchCoord_eq_zero _ _ _ List.not_mem_nil, Nat.add_zero]
  match a with
  | ⟨0, _⟩ =>
    exact (show (pairGatherDims N C R wf).start (ix1 e) idx 0 + (pairGatherDims N C R wf).offCoord (ix1 e) 0
        = min (idx (ix2 e 0)).toInt.toNat (N - 1) by
      rw [pairGather_start_row, GatherDims.offCoord_eq_zero _ _ _
        (fun h => ((GatherDims.mem_sKept _ _).mp h).1 (show (0 : Fin 2) ∈ ([0, 1] : List (Fin 2)) from by decide)),
        Nat.add_zero])
  | ⟨1, _⟩ =>
    exact (show (pairGatherDims N C R wf).start (ix1 e) idx 1 + (pairGatherDims N C R wf).offCoord (ix1 e) 1
        = min (idx (ix2 e 1)).toInt.toNat (C - 1) by
      rw [pairGather_start_col, GatherDims.offCoord_eq_zero _ _ _
        (fun h => ((GatherDims.mem_sKept _ _).mp h).1 (show (1 : Fin 2) ∈ ([0, 1] : List (Fin 2)) from by decide)),
        Nat.add_zero])

end PairGather

/-! ## The reference's two pooling scatters -/

section Pool
variable [Facts₀]
open Facts₀

/-- A float zero broadcast from a scalar is the extended real `0` everywhere. -/
theorem zeros_apply {t : Shape} (h : S_.BroadcastsInDim t (![] : Fin 0 → Fin t.rank)) (j : t.Idx) :
    broadcastInDim t ![] h (constant (F := Ideal) S_ .f32 0x00000000#32) j = (0 : EReal) :=
  Ideal.ofBits_zero_f32

/-- A float one broadcast from a scalar is the extended real `1` everywhere. -/
theorem ones_apply {t : Shape} (h : S_.BroadcastsInDim t (![] : Fin 0 → Fin t.rank)) (j : t.Idx) :
    broadcastInDim t ![] h (constant (F := Ideal) S_ .f32 0x3F800000#32) j = (1 : EReal) :=
  Ideal.ofBits_one_f32

/-- The graph ids laid out as a column, as the reference prints it, is the specification's column. -/
theorem batch_col (batch : (⟨S100000, .i32⟩ : BufTy).Contents (Elt Ideal)) :
    broadcastInDim S100000x1 ![0] bcast_S100000_S100000x1_0 batch = Spec.colOf batch := by
  funext y
  exact bcast_col_apply _ batch y

/-- (1) THE NODE COUNTS: a one scattered to every node's graph id, over zeros, is the count of the nodes that carry
    each graph number. No condition on the ids: an id that is no graph number lands nowhere and is counted nowhere. -/
theorem count_eq (batch : (⟨S100000, .i32⟩ : BufTy).Contents (Elt Ideal)) :
    Host.scatterAdd (F := Ideal) scatter_S512_S100000x1_S100000_n_0_0_1
        (broadcastInDim S512 ![] bcast_S_S512 (constant S_ .f32 0x00000000#32))
        (broadcastInDim S100000x1 ![0] bcast_S100000_S100000x1_0 batch)
        (broadcastInDim S100000 ![] bcast_S_S100000 (constant S_ .f32 0x3F800000#32))
      = Spec.rowOf (Spec.poolN (Spec.colOf batch)) := by
  funext y
  obtain ⟨g, rfl⟩ : ∃ g, y = ix1 g := ⟨y 0, eq_ix1 y⟩
  rw [batch_col]
  show Ideal.hostScatterAdd (cntScatterDims 512 100000 scatter_S512_S100000x1_S100000_n_0_0_1_wf) _ _ _ (ix1 g)
    = ∑ i : Fin 100000, Spec.hot (Spec.colOf batch) i g
  rw [cntScatterAdd_apply, zeros_apply, zero_add]
  refine Finset.sum_congr rfl (fun e _ => ?_)
  rw [ones_apply]
  exact if_congr (toInt_eq_iff _ _ (by have := g.isLt; omega)) rfl rfl

/-- (2) THE FEATURE SUMS: every node's feature row scattered to its graph id, over zeros, is the sum of the rows of
    the nodes that carry each graph number. No condition on the ids. -/
theorem sums_eq (batch : (⟨S100000, .i32⟩ : BufTy).Contents (Elt Ideal))
    (x : (⟨S100000x256, .f32⟩ : BufTy).Contents (Elt Ideal)) :
    Host.scatterAdd (F := Ideal) scatter_S512x256_S100000x1_S100000x256_1_0_0_1
        (broadcastInDim S512x256 ![] bcast_S_S512x256 (constant S_ .f32 0x00000000#32))
        (broadcastInDim S100000x1 ![0] bcast_S100000_S100000x1_0 batch) x
      = Spec.poolS (Spec.colOf batch) x := by
  funext y
  obtain ⟨g, c, rfl⟩ : ∃ g c, y = ix2 g c := ⟨y 0, y 1, eq_ix2 y⟩
  rw [batch_col]
  show Ideal.hostScatterAdd (RowTake.rowScatterDims 512 100000 256 scatter_S512x256_S100000x1_S100000x256_1_0_0_1_wf)
      _ _ _ (ix2 g c)
    = ∑ i : Fin 100000, Spec.hot (Spec.colOf batch) i g * x (ix2 i c)
  rw [RowTake.rowScatterAdd_apply, zeros_apply, zero_add]
  refine Finset.sum_congr rfl (fun e _ => ?_)
  unfold Spec.hot
  rw [ite_mul, one_mul, zero_mul]
  exact if_congr (toInt_eq_iff _ _ (by have := g.isLt; omega)) rfl rfl

end Pool

/-! ## The reference's gate-weight gathers and the combination -/

section Combine
variable [Facts₀]
open Facts₀

/-- The index pairs the reference builds for reading column `k` of the gate weights at every node's graph id: the
    first component the id, moved up by 512 where it is below zero; the second the constant `k`. -/
abbrev idxPair (batch : (⟨S100000, .i32⟩ : BufTy).Contents (Elt Ideal)) (k : BitVec 32) :
    (⟨S100000x2, .i32⟩ : BufTy).Contents (Elt Ideal) :=
  concatenate S100000x2 1
    [⟨S100000x1, broadcastInDim S100000x1 ![0] bcast_S100000_S100000x1_0
        (select (cmpi .slt batch (broadcastInDim S100000 ![] bcast_S_S100000 (constantI S_ 32 0#32)))
          (addi batch (broadcastInDim S100000 ![] bcast_S_S100000 (constantI S_ 32 512#32))) batch)⟩,
     ⟨S100000x1, broadcastInDim S100000x1 ![0] bcast_S100000_S100000x1_0
        (id (broadcastInDim S100000 ![] bcast_S_S100000 (constantI S_ 32 k)))⟩]
    concatenates_S100000x1_S100000x1_S100000x2_d1

/-- The first component of node `i`'s pair is its id when that is not below zero. -/
theorem idxPair_row (batch : (⟨S100000, .i32⟩ : BufTy).Contents (Elt Ideal)) (k : BitVec 32) (i : Fin 100000)
    (h0 : 0 ≤ (batch (ix1 i)).toInt) : idxPair batch k (ix2 i 0) = batch (ix1 i) := by
  refine (concatenate_pair_apply_left (t := S100000x2) (s₁ := S100000x1) (s₂ := S100000x1) 1 _ _
    concatenates_S100000x1_S100000x1_S100000x2_d1 (ix2 i 0) rfl (ix2 i 0)
    (fun b => by match b with | ⟨0, _⟩ => rfl | ⟨1, _⟩ => rfl)).trans ?_
  rw [bcast_col_apply]
  show Scalar.select (IntOp.cmpi .slt (batch (ix1 i)) 0#32) _ (batch (ix1 i)) = batch (ix1 i)
  have hs : (batch (ix1 i)).slt 0#32 = false := by
    rw [BitVec.slt]
    exact decide_eq_false (by simpa using h0)
  unfold IntOp.cmpi
  simp only [hs]
  exact select_zero _ _

/-- The second component is the constant. -/
theorem idxPair_col (batch : (⟨S100000, .i32⟩ : BufTy).Contents (Elt Ideal)) (k : BitVec 32) (i : Fin 100000) :
    idxPair batch k (ix2 i 1) = k := by
  refine (concatenate_pair_apply_right (t := S100000x2) (s₁ := S100000x1) (s₂ := S100000x1) 1 _ _
    concatenates_S100000x1_S100000x1_S100000x2_d1 (ix2 i 1) rfl rfl (ix2 i 0)
    (fun b hb => by match b with | ⟨0, _⟩ => rfl | ⟨1, _⟩ => exact absurd rfl hb) rfl).trans ?_
  rw [bcast_col_apply]
  rfl

/-- THE GATE WEIGHT OF A NODE: for a node whose id is a graph number, the entry the reference reads out of the
    weight table in column `col` is the one term of the sum over the graph numbers whose coefficient is one. -/
theorem gate_read (w : (⟨S512x2, .f32⟩ : BufTy).Contents (Elt Ideal))
    (batch : (⟨S100000, .i32⟩ : BufTy).Contents (Elt Ideal)) (k : BitVec 32) (col : Fin 2)
    (hk : min k.toInt.toNat (2 - 1) = col.val) (i : Fin 100000)
    (hbi : 0 ≤ (batch (ix1 i)).toInt ∧ (batch (ix1 i)).toInt < 512) :
    Host.gather gather_S512x2_S100000x2_S100000_n_01_n_n_01_1_11 w (idxPair batch k) (ix1 i)
      = ∑ g : Fin 512, Spec.hot (Spec.colOf batch) i g * w (ix2 g col) := by
  obtain ⟨h0, h1⟩ := hbi
  show Host.gather (pairGatherDims 512 2 100000 gather_S512x2_S100000x2_S100000_n_01_n_n_01_1_11_wf) w (idxPair batch k) (ix1 i) = _
  rw [pairGather_apply _ (by decide) (by decide)]
  -- the graph number the id names
  obtain ⟨r, hr⟩ : ∃ r : Fin 512, (batch (ix1 i)).toInt = (r.val : Int) :=
    ⟨⟨(batch (ix1 i)).toInt.toNat, by omega⟩, (Int.toNat_of_nonneg h0).symm⟩
  have hrow : min (idxPair batch k (ix2 i 0)).toInt.toNat (512 - 1) = r.val := by
    rw [idxPair_row batch k i h0]
    have := r.isLt
    omega
  have hcol : min (idxPair batch k (ix2 i 1)).toInt.toNat (2 - 1) = col.val := by
    rw [idxPair_col]
    exact hk
  have hread : ∀ (A B : Nat) (pa : A < 512) (pb : B < 2), A = r.val → B = col.val →
      w (ix2 ⟨A, pa⟩ ⟨B, pb⟩) = w (ix2 r col) := by
    intro A B pa pb hA hB
    subst hA hB
    rfl
  rw [hread _ _ _ _ hrow hcol, Finset.sum_eq_single r]
  · have h1 : Spec.hot (Spec.colOf batch) i r = 1 := if_pos ((toInt_eq_iff _ _ (by have := r.isLt; omega)).mp hr)
    rw [h1, one_mul]
  · intro g _ hg
    have h0' : Spec.hot (Spec.colOf batch) i g = 0 :=
      if_neg (fun h => hg (Fin.ext (by
        have hg' : (batch (ix1 i)).toInt = (g.val : Int) := (toInt_eq_iff _ _ (by have := g.isLt; omega)).mpr h
        omega)))
    rw [h0', zero_mul]
  · intro h
    exact absurd (Finset.mem_univ r) h

/-- (3) THE COMBINATION: with every id a graph number, each node's two feature rows weighted by the two gate weights
    the reference reads at its id are the rows weighted by the sums of the coefficients times the weights. -/
theorem comb_eq (w : (⟨S512x2, .f32⟩ : BufTy).Contents (Elt Ideal))
    (batch : (⟨S100000, .i32⟩ : BufTy).Contents (Elt Ideal))
    (xg xa : (⟨S100000x256, .f32⟩ : BufTy).Contents (Elt Ideal))
    (hb : ∀ i : Fin 100000, 0 ≤ (batch (ix1 i)).toInt ∧ (batch (ix1 i)).toInt < 512) :
    addf (F := Ideal) (φ := .f32) (mulf (broadcastInDim S100000x256 ![0, 1] bcast_S100000x1_S100000x256_0_1
            (broadcastInDim S100000x1 ![0] bcast_S100000_S100000x1_0
              (Host.gather gather_S512x2_S100000x2_S100000_n_01_n_n_01_1_11 w (idxPair batch 0#32)))) xg)
         (mulf (broadcastInDim S100000x256 ![0, 1] bcast_S100000x1_S100000x256_0_1
            (broadcastInDim S100000x1 ![0] bcast_S100000_S100000x1_0
              (Host.gather gather_S512x2_S100000x2_S100000_n_01_n_n_01_1_11 w (idxPair batch 1#32)))) xa)
      = Spec.combOut (Spec.colOf batch) w xg xa := by
  funext y
  obtain ⟨i, c, rfl⟩ : ∃ (i : Fin 100000) (c : Fin 256), y = ix2 i c := ⟨y 0, y 1, eq_ix2 y⟩
  rw [addf_apply, mulf_apply, mulf_apply, bcast_of_col_apply, bcast_col_apply, bcast_of_col_apply, bcast_col_apply]
  show Host.gather _ w (idxPair batch 0#32) (ix1 i) * _ + Host.gather _ w (idxPair batch 1#32) (ix1 i) * _ = _
  rw [gate_read w batch 0#32 0 (by decide) i (hb i), gate_read w batch 1#32 1 (by decide) i (hb i)]
  rfl

end Combine

/-! ## The three facts over the reference's stages -/

section Stages
variable [Facts]

/-- The reference's node counts are the specification's, re-laid as a vector. -/
theorem Ncnt_eq (batch : IVec S100000 32) :
    Ncnt (F := Ideal) batch = Spec.rowOf (Spec.poolN (Spec.colOf batch)) :=
  count_eq batch

/-- The reference's per-graph feature sums are the specification's. -/
theorem Psum_eq (batch : IVec S100000 32) (x : FVec Ideal S100000x256 .f32) :
    Psum (F := Ideal) batch x = Spec.poolS (Spec.colOf batch) x :=
  sums_eq batch x

/-- With every id a graph number, the reference's combination is the specification's. -/
theorem Comb_eq (w : FVec Ideal S512x2 .f32) (batch : IVec S100000 32) (xg xa : FVec Ideal S100000x256 .f32)
    (hb : ∀ i : Fin 100000, 0 ≤ (batch (ix1 i)).toInt ∧ (batch (ix1 i)).toInt < 512) :
    Comb (F := Ideal) w batch xg xa = Spec.combOut (Spec.colOf batch) w xg xa :=
  comb_eq w batch xg xa hb

end Stages

end Cert.ReferenceIdeal.Hand

end
-- ==== Proof.OutEq.lean ====
/-
  The last algebraic step. Written over the graph-id column `b`, the kernel's result is the specification's combination of
  the gate weights, themselves the shared gate function of the specification's counts and feature sums; the reference's result
  is the same gate function of its scatter-added counts and sums, combined through its gather. The scatter-adds ARE the
  specification's sums, and where every id is a graph number the gather IS the specification's combination, so the two
  results are one array.
-/
import proofs.«412715_j18631568130347_1_alg».proof.Proof.Ref.Sums

noncomputable section

namespace Cert.ReferenceIdeal.Hand

open Cert.ReferenceIdeal Idealize.ShloMosaic Idealize.ShloMosaic.ValueIdx

variable [Facts]

/-- The specification's result, over the reference's own argument arrays, is the reference's result. -/
theorem spec_out_eq (xg xa : FVec Ideal S100000x256 .f32) (W1 : FVec Ideal S4x32 .f32) (b1 lng lnb : FVec Ideal S32 .f32)
    (W2 : FVec Ideal S32x16 .f32) (b2 : FVec Ideal S16 .f32) (W3 : FVec Ideal S16x2 .f32) (b3 : FVec Ideal S2 .f32)
    (edge : IVec S2x3200000 32) (batch : IVec S100000 32)
    (hb : ∀ i : Fin 100000, 0 ≤ (batch (ix1 i)).toInt ∧ (batch (ix1 i)).toInt < 512) :
    Spec.combOut (Spec.colOf batch)
      (Gate (F := Ideal) (Spec.rowOf (Spec.poolN (Spec.colOf batch))) (Efun edge batch)
        (Pmean (Spec.rowOf (Spec.poolN (Spec.colOf batch))) (Spec.poolS (Spec.colOf batch) xg))
        (Pmean (Spec.rowOf (Spec.poolN (Spec.colOf batch))) (Spec.poolS (Spec.colOf batch) xa))
        W1 b1 lng lnb W2 b2 W3 b3) xg xa
      = Out (F := Ideal) xg xa W1 b1 lng lnb W2 b2 W3 b3 edge batch := by
  unfold Out
  rw [Ncnt_eq, Psum_eq, Psum_eq, Comb_eq _ _ _ _ hb]

end Cert.ReferenceIdeal.Hand

end
-- ==== Proof.KI.HostValue.Gate.lean ====
/-
  The gate weights the second region reads, at the ideal instance.

  Between its two regions the kernel program runs, on the host, the same chain of array operations as the reference:
  the counts re-laid as a vector `n`; the two arrays of sums divided by the counts (the pooled means `pg`, `pa`); the
  per-graph edge count `e` (both end nodes of an edge looked up in the vector of ids, compared, and the matches added
  up at the first end's id); four per-graph statistics of `n`, `e`, `pg`, `pa`, set side by side as a 512×4 matrix;
  a three-layer network with a layer normalisation on that matrix; and a softmax over its two outputs.

  Reading the valuation after the last host stretch at the weights' buffer, operation by operation from the last one
  back to the buffers the first region leaves and to the launch's argument arrays, gives a term in those contents; the
  reference's chain `Gate` (with `Efun` for the edge count and `Pmean` for each pooled mean) is the same term, the two
  programs' shape names and shape evidence agreeing by unfolding and by proof irrelevance.
-/
import proofs.«412715_j18631568130347_1_alg».proof.Proof.KI.HostValue.Ids
import proofs.«412715_j18631568130347_1_alg».proof.Proof.Ref.Spec

set_option maxRecDepth 1340

noncomputable section

namespace Cert.KernelIdeal.Hand

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ) (outs : Outs (F := Ideal))

/-- Four columns of 512 numbers side by side as a 512×4 matrix. -/
def cat4 (x0 x1 x2 x3 : FVec Ideal S512x1 .f32) : FVec Ideal S512x4 .f32 :=
  concatenate S512x4 1 [⟨S512x1, x0⟩, ⟨S512x1, x1⟩, ⟨S512x1, x2⟩, ⟨S512x1, x3⟩]
    concatenates_S512x1_S512x1_S512x1_S512x1_S512x4_d1

/-- What the concatenation of the four statistics leaves in its result buffer: the four operands' contents, each at
    its own buffer, side by side. (As a function of four separate columns, so that each column's contents can be
    read further back on its own; the list of operands cannot be rewritten in place, the concatenation's shape
    evidence being stated over it.) -/
theorem cat_result' (hxs hy) (V : Valuation τ sig (Elt Ideal)) :
    (StableHlo.nary (τ := τ) ![main_v64, main_v65, main_v66, main_v67] main_v68
        (fun u => concatenate S512x4 1 [⟨S512x1, u 0⟩, ⟨S512x1, u 1⟩, ⟨S512x1, u 2⟩, ⟨S512x1, u 3⟩]
          concatenates_S512x1_S512x1_S512x1_S512x1_S512x4_d1) hxs hy).result V (no_index (Proc.devRef .tc main_v68))
      = cat4 (V (Proc.devRef .tc main_v64)) (V (Proc.devRef .tc main_v65)) (V (Proc.devRef .tc main_v66))
          (V (Proc.devRef .tc main_v67)) := by
  rw [nary4_result]; rfl

/-- A reference the first host operation does not write and the first region may not change holds its launch
    contents when the host chain between the regions starts. -/
theorem V2_arg (c : Dev nD) (r : Ref sig .tc) (h0 : r ∉ hostOps0_W)
    (h2 : r ∉ ([main_v1_0, main_v1_1, main_v1_2] : List (Ref sig .tc))) :
    V2 m outs c r = m ((c : Thread nD τ).loc r) :=
  (V2_of m outs c r h2).trans (V1_of m c r h0)

set_option maxHeartbeats 4000000 in
/-- The gate weights the second region reads are the reference's gate function of the counts the first region
    leaves (as a vector), the edge count of the launch's edge list and ids, the two pooled means (the sums the first
    region leaves over those counts), and the launch's eight weight arrays. -/
theorem V13_w [Cert.ReferenceIdeal.Facts] (c : Dev nD) :
    (V13 m outs c main_v113 : Cert.Spec.SW.Idx → EReal)
      = Cert.ReferenceIdeal.Hand.Gate (F := Ideal) (Cert.Spec.rowOf (outs 2 main_v1_0 c))
          (Cert.ReferenceIdeal.Hand.Efun (m ((c : Thread nD τ).loc main_arg10)) (m ((c : Thread nD τ).loc main_arg11)))
          (Cert.ReferenceIdeal.Hand.Pmean (Cert.Spec.rowOf (outs 2 main_v1_0 c)) (outs 2 main_v1_1 c))
          (Cert.ReferenceIdeal.Hand.Pmean (Cert.Spec.rowOf (outs 2 main_v1_0 c)) (outs 2 main_v1_2 c))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) := by
  -- what the chain's first valuation holds at the buffers the chain reads and does not write
  have h0 : V2 m outs c (Proc.devRef .tc main_v1_0) = outs 2 main_v1_0 c := V2_cnt m outs c
  have h1 : V2 m outs c (Proc.devRef .tc main_v1_1) = outs 2 main_v1_1 c := V2_sum1 m outs c
  have h2 : V2 m outs c (Proc.devRef .tc main_v1_2) = outs 2 main_v1_2 c := V2_sum2 m outs c
  have a2 : V2 m outs c (Proc.devRef .tc main_arg2) = m ((c : Thread nD τ).loc main_arg2) := V2_arg m outs c _ (by decide) (by decide)
  have a3 : V2 m outs c (Proc.devRef .tc main_arg3) = m ((c : Thread nD τ).loc main_arg3) := V2_arg m outs c _ (by decide) (by decide)
  have a4 : V2 m outs c (Proc.devRef .tc main_arg4) = m ((c : Thread nD τ).loc main_arg4) := V2_arg m outs c _ (by decide) (by decide)
  have a5 : V2 m outs c (Proc.devRef .tc main_arg5) = m ((c : Thread nD τ).loc main_arg5) := V2_arg m outs c _ (by decide) (by decide)
  have a6 : V2 m outs c (Proc.devRef .tc main_arg6) = m ((c : Thread nD τ).loc main_arg6) := V2_arg m outs c _ (by decide) (by decide)
  have a7 : V2 m outs c (Proc.devRef .tc main_arg7) = m ((c : Thread nD τ).loc main_arg7) := V2_arg m outs c _ (by decide) (by decide)
  have a8 : V2 m outs c (Proc.devRef .tc main_arg8) = m ((c : Thread nD τ).loc main_arg8) := V2_arg m outs c _ (by decide) (by decide)
  have a9 : V2 m outs c (Proc.devRef .tc main_arg9) = m ((c : Thread nD τ).loc main_arg9) := V2_arg m outs c _ (by decide) (by decide)
  have a10 : V2 m outs c (Proc.devRef .tc main_arg10) = m ((c : Thread nD τ).loc main_arg10) := V2_arg m outs c _ (by decide) (by decide)
  have a11 : V2 m outs c (Proc.devRef .tc main_arg11) = m ((c : Thread nD τ).loc main_arg11) := V2_arg m outs c _ (by decide) (by decide)
  -- the eleven stretches as one fold of operations over that valuation, kept as a variable
  dsimp only [V13, V12, V11, V10, V9, V8, V7, V6, V5, V4, V3]
  generalize V2 m outs c = W at h0 h1 h2 a2 a3 a4 a5 a6 a7 a8 a9 a10 a11 ⊢
  dsimp only [hostOps1_10, hostOps1_9, hostOps1_8, hostOps1_7, hostOps1_6, hostOps1_5, hostOps1_4, hostOps1_3,
    hostOps1_2, hostOps1_1, hostOps1]
  -- each operation's result at its own buffer is its function of its operands' contents; elsewhere it changes nothing
  simp (disch := decide) only [after_cons, after_nil,
      nullary_result', unary_result', binary_result', ternary_result', quaternary_result', reshape_result', cat_result',
      unaryIndexed_result', binaryIndexed_result',
      nullary_result_ne', unary_result_ne', binary_result_ne', ternary_result_ne', quaternary_result_ne', reshape_result_ne',
      nary_result_ne', unaryIndexed_result_ne', binaryIndexed_result_ne']
  -- the inlined callees' typed buffers are the buffers themselves
  simp only [TRef.ofBuf, TRef.toBuf, cast_eq]
  simp only [h0, h1, h2, a2, a3, a4, a5, a6, a7, a8, a9, a10, a11]
  -- both sides as one function of the contents read
  rw [← shapeCast_col_row (outs 2 main_v1_0 c)]
  generalize outs 2 main_v1_0 c = cnt
  generalize outs 2 main_v1_1 c = s1
  generalize outs 2 main_v1_2 c = s2
  generalize m ((c : Thread nD τ).loc main_arg2) = W1
  generalize m ((c : Thread nD τ).loc main_arg3) = b1
  generalize m ((c : Thread nD τ).loc main_arg4) = lng
  generalize m ((c : Thread nD τ).loc main_arg5) = lnb
  generalize m ((c : Thread nD τ).loc main_arg6) = W2
  generalize m ((c : Thread nD τ).loc main_arg7) = b2
  generalize m ((c : Thread nD τ).loc main_arg8) = W3
  generalize m ((c : Thread nD τ).loc main_arg9) = b3
  generalize m ((c : Thread nD τ).loc main_arg10) = edge
  generalize m ((c : Thread nD τ).loc main_arg11) = batch
  clear h0 h1 h2 a2 a3 a4 a5 a6 a7 a8 a9 a10 a11
  rfl

end Cert.KernelIdeal.Hand

end
-- ==== Proof.KI.HostValue.lean ====
/-
  The values the kernel program's host operations compute between and around its two regions, at the ideal instance:
  the column of graph ids the regions read, the feature arrays as launched, the vector of counts, and the gate weights
  as the reference's gate function of what the first region leaves.
-/
import proofs.«412715_j18631568130347_1_alg».proof.Proof.KI.HostValue.Ids
import proofs.«412715_j18631568130347_1_alg».proof.Proof.KI.HostValue.Gate
-- ==== Proof.KI.Result.lean ====
/-
  The kernel program's result array as one function of its argument arrays, at the ideal instance: the specification's
  combination, by the id column, of the two feature arrays with the gate weights — the shared gate function of the
  specification's per-graph counts and feature sums, of the edge count, and of the weight arguments.
-/
import proofs.«412715_j18631568130347_1_alg».proof.Proof.KI.Regs
import proofs.«412715_j18631568130347_1_alg».proof.Proof.KI.Chain
import proofs.«412715_j18631568130347_1_alg».proof.Proof.OutEq
import proofs.«412715_j18631568130347_1_alg».proof.Proof.KI.HostValue

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

/-- The result is the combination of what the host operations leave as the gate table. -/
theorem kout_comb (c : Dev nD) :
    (kout (F := Ideal) m c : Cert.Spec.SX.Idx → EReal)
      = Cert.Spec.combOut (Cert.Spec.colOf (m ((c : Thread nD τ).loc main_arg11))) (V13 m (outsA m) c main_v113)
          (m ((c : Thread nD τ).loc main_arg0)) (m ((c : Thread nD τ).loc main_arg1)) :=
  comb_at m (outsA m) c

/-- What the pooling region leaves, as the specification's counts and sums of the argument arrays. -/
theorem outsA_n (c : Dev nD) :
    (outsA (F := Ideal) m 2 main_v1_0 c : Cert.Spec.SN.Idx → EReal)
      = Cert.Spec.poolN (Cert.Spec.colOf (m ((c : Thread nD τ).loc main_arg11))) :=
  (outsA_0 m c).trans (pool_at_n m c)

theorem outsA_s0 (c : Dev nD) :
    (outsA (F := Ideal) m 2 main_v1_1 c : Cert.Spec.SP.Idx → EReal)
      = Cert.Spec.poolS (Cert.Spec.colOf (m ((c : Thread nD τ).loc main_arg11))) (m ((c : Thread nD τ).loc main_arg0)) :=
  (outsA_1 m c).trans (pool_at_s0 m c)

theorem outsA_s1 (c : Dev nD) :
    (outsA (F := Ideal) m 2 main_v1_2 c : Cert.Spec.SP.Idx → EReal)
      = Cert.Spec.poolS (Cert.Spec.colOf (m ((c : Thread nD τ).loc main_arg11))) (m ((c : Thread nD τ).loc main_arg1)) :=
  (outsA_2 m c).trans (pool_at_s1 m c)

/-- THE KERNEL'S RESULT IS THE REFERENCE'S FUNCTION of the argument arrays, where every graph id is a graph number. -/
theorem kout_eq [Cert.ReferenceIdeal.Facts] (c : Dev nD)
    (hb : ∀ i : Fin 100000, 0 ≤ ((m ((c.tc : Thread nD τ).loc main_arg11) : (⟨1, ![100000]⟩ : Shape).Idx → BitVec 32) (ix1 i)).toInt
      ∧ ((m ((c.tc : Thread nD τ).loc main_arg11) : (⟨1, ![100000]⟩ : Shape).Idx → BitVec 32) (ix1 i)).toInt < 512) :
    kout (F := Ideal) m c
      = Cert.ReferenceIdeal.Hand.Out (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) := by
  refine (kout_comb m c).trans ?_
  rw [V13_w m (outsA m) c, outsA_n, outsA_s0, outsA_s1]
  exact Cert.ReferenceIdeal.Hand.spec_out_eq _ _ _ _ _ _ _ _ _ _ _ _ hb

end Cert.KernelIdeal.Hand

end
-- ==== Proof.Ref.Ops.lean ====
/-
  The reference's @main as a list of host operations.

  The program is a straight line of 180 operations of its own and 37 more of the functions it calls (@norm twice,
  @_var with @_where inside it, @relu, @relu_0), whose bodies run at the call sites over the call's own buffers.
  The line is cut into nine stretches, each ending where a stage of the computation ends (the node counts, the edge
  statistic, the three count statistics, the pooled means, the cosine statistic and the four columns, the normalised
  first layer, the gate weights, the two gathered weight columns, the combination), the cuts falling before each
  concatenation of computed columns. Per stretch: the list, that every operation stays within the TensorCore's
  buffers, and the list of buffers it writes — a buffer not in that list keeps its contents through the stretch.
  Each of @main's four printed windows is the sequence of its stretches, and @main the sequence of the windows.
-/
import proofs.«412715_j18631568130347_1_alg».proof.ReferenceIdeal
import Idealize.ShloMosaic.Lib.StableHlo.Run
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- %cst … %3: ones and zeros, the ids as a column, the scatter-add of the ones (the node counts). -/
abbrev o0a : List (HloOp τ sig (Elt F)) :=
  [ StableHlo.nullary main_cst (constant S_ .f32 0x3F800000#32),
    StableHlo.unary main_cst main_v0 (broadcastInDim S100000 ![] bcast_S_S100000 : (⟨S_, .f32⟩ : BufTy).Contents (Elt F) → (⟨S100000, .f32⟩ : BufTy).Contents (Elt F)),
    StableHlo.nullary main_cst_0 (constant S_ .f32 0x00000000#32),
    StableHlo.unary main_cst_0 main_v1 (broadcastInDim S512 ![] bcast_S_S512 : (⟨S_, .f32⟩ : BufTy).Contents (Elt F) → (⟨S512, .f32⟩ : BufTy).Contents (Elt F)),
    StableHlo.unary main_arg11 main_v2 (broadcastInDim S100000x1 ![0] bcast_S100000_S100000x1_0 : (⟨S100000, .i32⟩ : BufTy).Contents (Elt F) → (⟨S100000x1, .i32⟩ : BufTy).Contents (Elt F)),
    StableHlo.ternary main_v1 main_v2 main_v0 main_v3 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)) ]

theorem o0a_sub : (o0a : List (HloOp τ sig (Elt F))).Forall fun op => op.bufs ⊆ tcRefs τ sig :=
  ⟨nullary_bufs_sub .., unary_bufs_sub .., nullary_bufs_sub .., unary_bufs_sub .., unary_bufs_sub ..,
    ternary_bufs_sub ..⟩

/-- The buffers that stretch writes. -/
abbrev o0a_W : List (Ref sig .tc) :=
  [main_cst, main_v0, main_cst_0, main_v1, main_v2, main_v3]

theorem o0a_writes : (o0a : List (HloOp τ sig (Elt F))).Forall fun op =>
    op.writes ⊆ (o0a_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer that stretch does not write keeps its contents through it. -/
theorem o0a_keep (V : Valuation τ sig (Elt F)) (r : Ref sig .tc) (h : r ∉ o0a_W) :
    after o0a V (no_index (Proc.devRef .tc r)) = V (Proc.devRef .tc r) :=
  after_of_writes_sub o0a V o0a_writes h

/-- %4 … %26: the two rows of the edge list, each end wrapped and looked up in the ids, the comparison as a float, its scatter-add at the first end's id. -/
abbrev o0b : List (HloOp τ sig (Elt F)) :=
  [ StableHlo.unary main_arg10 main_v4 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v4 main_v5 rfl shapeCasts_S1x3200000_S3200000,
    StableHlo.nullary main_c (constantI S_ 32 0#32),
    StableHlo.unary main_c main_v6 (broadcastInDim S3200000 ![] bcast_S_S3200000 : (⟨S_, .i32⟩ : BufTy).Contents (Elt F) → (⟨S3200000, .i32⟩ : BufTy).Contents (Elt F)),
    StableHlo.binary main_v5 main_v6 main_v7 (cmpi .slt : (⟨S3200000, .i32⟩ : BufTy).Contents (Elt F) → (⟨S3200000, .i32⟩ : BufTy).Contents (Elt F) → (⟨S3200000, .i1⟩ : BufTy).Contents (Elt F)),
    StableHlo.nullary main_c_1 (constantI S_ 32 100000#32),
    StableHlo.unary main_c_1 main_v8 (broadcastInDim S3200000 ![] bcast_S_S3200000 : (⟨S_, .i32⟩ : BufTy).Contents (Elt F) → (⟨S3200000, .i32⟩ : BufTy).Contents (Elt F)),
    StableHlo.binary main_v5 main_v8 main_v9 (addi : (⟨S3200000, .i32⟩ : BufTy).Contents (Elt F) → (⟨S3200000, .i32⟩ : BufTy).Contents (Elt F) → (⟨S3200000, .i32⟩ : BufTy).Contents (Elt F)),
    StableHlo.ternary main_v7 main_v9 main_v5 main_v10 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v10 main_v11 (broadcastInDim S3200000x1 ![0] bcast_S3200000_S3200000x1_0 : (⟨S3200000, .i32⟩ : BufTy).Contents (Elt F) → (⟨S3200000x1, .i32⟩ : BufTy).Contents (Elt F)),
    StableHlo.binary main_arg11 main_v11 main_v12 ((fun x i => Host.gather gather_S100000_S3200000x1_S3200000_n_0_n_n_0_1_1 x i) : (⟨S100000, .i32⟩ : BufTy).Contents (Elt F) → (⟨S3200000x1, .i32⟩ : BufTy).Contents (Elt F) → (⟨S3200000, .i32⟩ : BufTy).Contents (Elt F)),
    StableHlo.unary main_arg10 main_v13 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v13 main_v14 rfl shapeCasts_S1x3200000_S3200000,
    StableHlo.nullary main_c_2 (constantI S_ 32 0#32),
    StableHlo.unary main_c_2 main_v15 (broadcastInDim S3200000 ![] bcast_S_S3200000 : (⟨S_, .i32⟩ : BufTy).Contents (Elt F) → (⟨S3200000, .i32⟩ : BufTy).Contents (Elt F)),
    StableHlo.binary main_v14 main_v15 main_v16 (cmpi .slt : (⟨S3200000, .i32⟩ : BufTy).Contents (Elt F) → (⟨S3200000, .i32⟩ : BufTy).Contents (Elt F) → (⟨S3200000, .i1⟩ : BufTy).Contents (Elt F)),
    StableHlo.nullary main_c_3 (constantI S_ 32 100000#32),
    StableHlo.unary main_c_3 main_v17 (broadcastInDim S3200000 ![] bcast_S_S3200000 : (⟨S_, .i32⟩ : BufTy).Contents (Elt F) → (⟨S3200000, .i32⟩ : BufTy).Contents (Elt F)),
    StableHlo.binary main_v14 main_v17 main_v18 (addi : (⟨S3200000, .i32⟩ : BufTy).Contents (Elt F) → (⟨S3200000, .i32⟩ : BufTy).Contents (Elt F) → (⟨S3200000, .i32⟩ : BufTy).Contents (Elt F)),
    StableHlo.ternary main_v16 main_v18 main_v14 main_v19 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v19 main_v20 (broadcastInDim S3200000x1 ![0] bcast_S3200000_S3200000x1_0 : (⟨S3200000, .i32⟩ : BufTy).Contents (Elt F) → (⟨S3200000x1, .i32⟩ : BufTy).Contents (Elt F)),
    StableHlo.binary main_arg11 main_v20 main_v21 ((fun x i => Host.gather gather_S100000_S3200000x1_S3200000_n_0_n_n_0_1_1 x i) : (⟨S100000, .i32⟩ : BufTy).Contents (Elt F) → (⟨S3200000x1, .i32⟩ : BufTy).Contents (Elt F) → (⟨S3200000, .i32⟩ : BufTy).Contents (Elt F)),
    StableHlo.binary main_v12 main_v21 main_v22 (cmpi .eq : (⟨S3200000, .i32⟩ : BufTy).Contents (Elt F) → (⟨S3200000, .i32⟩ : BufTy).Contents (Elt F) → (⟨S3200000, .i1⟩ : BufTy).Contents (Elt F)),
    StableHlo.unary main_v22 main_v23 (uitofp .f32 : (⟨S3200000, .i1⟩ : BufTy).Contents (Elt F) → (⟨S3200000, .f32⟩ : BufTy).Contents (Elt F)),
    StableHlo.nullary main_cst_4 (constant S_ .f32 0x00000000#32),
    StableHlo.unary main_cst_4 main_v24 (broadcastInDim S512 ![] bcast_S_S512 : (⟨S_, .f32⟩ : BufTy).Contents (Elt F) → (⟨S512, .f32⟩ : BufTy).Contents (Elt F)),
    StableHlo.unary main_v12 main_v25 (broadcastInDim S3200000x1 ![0] bcast_S3200000_S3200000x1_0 : (⟨S3200000, .i32⟩ : BufTy).Contents (Elt F) → (⟨S3200000x1, .i32⟩ : BufTy).Contents (Elt F)),
    StableHlo.ternary main_v24 main_v25 main_v23 main_v26 ((fun x i u => Host.scatterAdd scatter_S512_S3200000x1_S3200000_n_0_0_1 x i u) : (⟨S512, .f32⟩ : BufTy).Contents (Elt F) → (⟨S3200000x1, .i32⟩ : BufTy).Contents (Elt F) → (⟨S3200000, .f32⟩ : BufTy).Contents (Elt F) → (⟨S512, .f32⟩ : BufTy).Contents (Elt F)) ]

theorem o0b_sub : (o0b : List (HloOp τ sig (Elt F))).Forall fun op => op.bufs ⊆ tcRefs τ sig :=
  ⟨unary_bufs_sub .., reshape_bufs_sub .., nullary_bufs_sub .., unary_bufs_sub .., binary_bufs_sub ..,
    nullary_bufs_sub .., unary_bufs_sub .., binary_bufs_sub .., ternary_bufs_sub .., unary_bufs_sub ..,
    binary_bufs_sub .., unary_bufs_sub .., reshape_bufs_sub .., nullary_bufs_sub .., unary_bufs_sub ..,
    binary_bufs_sub .., nullary_bufs_sub .., unary_bufs_sub .., binary_bufs_sub .., ternary_bufs_sub ..,
    unary_bufs_sub .., binary_bufs_sub .., binary_bufs_sub .., unary_bufs_sub .., nullary_bufs_sub ..,
    unary_bufs_sub .., unary_bufs_sub .., ternary_bufs_sub ..⟩

/-- The buffers that stretch writes. -/
abbrev o0b_W : List (Ref sig .tc) :=
  [main_v4, main_v5, main_c, main_v6, main_v7, main_c_1, main_v8, main_v9, main_v10, main_v11, main_v12, main_v13,
    main_v14, main_c_2, main_v15, main_v16, main_c_3, main_v17, main_v18, main_v19, main_v20, main_v21, main_v22,
    main_v23, main_cst_4, main_v24, main_v25, main_v26]

theorem o0b_writes : (o0b : List (HloOp τ sig (Elt F))).Forall fun op =>
    op.writes ⊆ (o0b_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer that stretch does not write keeps its contents through it. -/
theorem o0b_keep (V : Valuation τ sig (Elt F)) (r : Ref sig .tc) (h : r ∉ o0b_W) :
    after o0b V (no_index (Proc.devRef .tc r)) = V (Proc.devRef .tc r) :=
  after_of_writes_sub o0b V o0b_writes h

/-- %cst_5 … %cst_12: the three statistics of the counts (%31, %37, %44) and the zero the pooled sums start from. -/
abbrev o0c : List (HloOp τ sig (Elt F)) :=
  [ StableHlo.nullary main_cst_5 (constant S_ .f32 0x3F800000#32),
    StableHlo.unary main_cst_5 main_v27 (broadcastInDim S512 ![] bcast_S_S512 : (⟨S_, .f32⟩ : BufTy).Contents (Elt F) → (⟨S512, .f32⟩ : BufTy).Contents (Elt F)),
    StableHlo.binary main_v3 main_v27 main_v28 (addf : (⟨S512, .f32⟩ : BufTy).Contents (Elt F) → (⟨S512, .f32⟩ : BufTy).Contents (Elt F) → (⟨S512, .f32⟩ : BufTy).Contents (Elt F)),
    StableHlo.unary main_v28 main_v29 (Host.log : (⟨S512, .f32⟩ : BufTy).Contents (Elt F) → (⟨S512, .f32⟩ : BufTy).Contents (Elt F)),
    StableHlo.nullary main_cst_6 (constant S_ .f32 0x40C6EE70#32),
    StableHlo.unary main_cst_6 main_v30 (broadcastInDim S512 ![] bcast_S_S512 : (⟨S_, .f32⟩ : BufTy).Contents (Elt F) → (⟨S512, .f32⟩ : BufTy).Contents (Elt F)),
    StableHlo.binary main_v29 main_v30 main_v31 (Host.divf : (⟨S512, .f32⟩ : BufTy).Contents (Elt F) → (⟨S512, .f32⟩ : BufTy).Contents (Elt F) → (⟨S512, .f32⟩ : BufTy).Contents (Elt F)),
    StableHlo.nullary main_cst_7 (constant S_ .f32 0x3F800000#32),
    StableHlo.unary main_cst_7 main_v32 (broadcastInDim S512 ![] bcast_S_S512 : (⟨S_, .f32⟩ : BufTy).Contents (Elt F) → (⟨S512, .f32⟩ : BufTy).Contents (Elt F)),
    StableHlo.binary main_v3 main_v32 main_v33 (subf : (⟨S512, .f32⟩ : BufTy).Contents (Elt F) → (⟨S512, .f32⟩ : BufTy).Contents (Elt F) → (⟨S512, .f32⟩ : BufTy).Contents (Elt F)),
    StableHlo.binary main_v3 main_v33 main_v34 (mulf : (⟨S512, .f32⟩ : BufTy).Contents (Elt F) → (⟨S512, .f32⟩ : BufTy).Contents (Elt F) → (⟨S512, .f32⟩ : BufTy).Contents (Elt F)),
    StableHlo.nullary main_cst_8 (constant S_ .f32 0x322BCC77#32),
    StableHlo.unary main_cst_8 main_v35 (broadcastInDim S512 ![] bcast_S_S512 : (⟨S_, .f32⟩ : BufTy).Contents (Elt F) → (⟨S512, .f32⟩ : BufTy).Contents (Elt F)),
    StableHlo.binary main_v34 main_v35 main_v36 (addf : (⟨S512, .f32⟩ : BufTy).Contents (Elt F) → (⟨S512, .f32⟩ : BufTy).Contents (Elt F) → (⟨S512, .f32⟩ : BufTy).Contents (Elt F)),
    StableHlo.binary main_v26 main_v36 main_v37 (Host.divf : (⟨S512, .f32⟩ : BufTy).Contents (Elt F) → (⟨S512, .f32⟩ : BufTy).Contents (Elt F) → (⟨S512, .f32⟩ : BufTy).Contents (Elt F)),
    StableHlo.nullary main_cst_9 (constant S_ .f32 0x322BCC77#32),
    StableHlo.unary main_cst_9 main_v38 (broadcastInDim S512 ![] bcast_S_S512 : (⟨S_, .f32⟩ : BufTy).Contents (Elt F) → (⟨S512, .f32⟩ : BufTy).Contents (Elt F)),
    StableHlo.binary main_v3 main_v38 main_v39 (addf : (⟨S512, .f32⟩ : BufTy).Contents (Elt F) → (⟨S512, .f32⟩ : BufTy).Contents (Elt F) → (⟨S512, .f32⟩ : BufTy).Contents (Elt F)),
    StableHlo.binary main_v26 main_v39 main_v40 (Host.divf : (⟨S512, .f32⟩ : BufTy).Contents (Elt F) → (⟨S512, .f32⟩ : BufTy).Contents (Elt F) → (⟨S512, .f32⟩ : BufTy).Contents (Elt F)),
    StableHlo.nullary main_cst_10 (constant S_ .f32 0x41200000#32),
    StableHlo.unary main_cst_10 main_v41 (broadcastInDim S512 ![] bcast_S_S512 : (⟨S_, .f32⟩ : BufTy).Contents (Elt F) → (⟨S512, .f32⟩ : BufTy).Contents (Elt F)),
    StableHlo.binary main_v40 main_v41 main_v42 (Host.divf : (⟨S512, .f32⟩ : BufTy).Contents (Elt F) → (⟨S512, .f32⟩ : BufTy).Contents (Elt F) → (⟨S512, .f32⟩ : BufTy).Contents (Elt F)),
    StableHlo.nullary main_cst_11 (constant S_ .f32 0x3F800000#32),
    StableHlo.unary main_cst_11 main_v43 (broadcastInDim S512 ![] bcast_S_S512 : (⟨S_, .f32⟩ : BufTy).Contents (Elt F) → (⟨S512, .f32⟩ : BufTy).Contents (Elt F)),
    StableHlo.binary main_v42 main_v43 main_v44 (minimumf : (⟨S512, .f32⟩ : BufTy).Contents (Elt F) → (⟨S512, .f32⟩ : BufTy).Contents (Elt F) → (⟨S512, .f32⟩ : BufTy).Contents (Elt F)),
    StableHlo.nullary main_cst_12 (constant S_ .f32 0x00000000#32) ]

theorem o0c_sub : (o0c : List (HloOp τ sig (Elt F))).Forall fun op => op.bufs ⊆ tcRefs τ sig :=
  ⟨nullary_bufs_sub .., unary_bufs_sub .., binary_bufs_sub .., unary_bufs_sub .., nullary_bufs_sub ..,
    unary_bufs_sub .., binary_bufs_sub .., nullary_bufs_sub .., unary_bufs_sub .., binary_bufs_sub ..,
    binary_bufs_sub .., nullary_bufs_sub .., unary_bufs_sub .., binary_bufs_sub .., binary_bufs_sub ..,
    nullary_bufs_sub .., unary_bufs_sub .., binary_bufs_sub .., binary_bufs_sub .., nullary_bufs_sub ..,
    unary_bufs_sub .., binary_bufs_sub .., nullary_bufs_sub .., unary_bufs_sub .., binary_bufs_sub ..,
    nullary_bufs_sub ..⟩

/-- The buffers that stretch writes. -/
abbrev o0c_W : List (Ref sig .tc) :=
  [main_cst_5, main_v27, main_v28, main_v29, main_cst_6, main_v30, main_v31, main_cst_7, main_v32, main_v33,
    main_v34, main_cst_8, main_v35, main_v36, main_v37, main_cst_9, main_v38, main_v39, main_v40, main_cst_10,
    main_v41, main_v42, main_cst_11, main_v43, main_v44, main_cst_12]

theorem o0c_writes : (o0c : List (HloOp τ sig (Elt F))).Forall fun op =>
    op.writes ⊆ (o0c_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer that stretch does not write keeps its contents through it. -/
theorem o0c_keep (V : Valuation τ sig (Elt F)) (r : Ref sig .tc) (h : r ∉ o0c_W) :
    after o0c V (no_index (Proc.devRef .tc r)) = V (Proc.devRef .tc r) :=
  after_of_writes_sub o0c V o0c_writes h

/-- %45 … %56: the two pooled sums (scatter-adds of the feature rows) and their division by the counts. -/
abbrev o1a : List (HloOp τ sig (Elt F)) :=
  [ StableHlo.unary main_cst_12 main_v45 (broadcastInDim S512x256 ![] bcast_S_S512x256 : (⟨S_, .f32⟩ : BufTy).Contents (Elt F) → (⟨S512x256, .f32⟩ : BufTy).Contents (Elt F)),
    StableHlo.unary main_arg11 main_v46 (broadcastInDim S100000x1 ![0] bcast_S100000_S100000x1_0 : (⟨S100000, .i32⟩ : BufTy).Contents (Elt F) → (⟨S100000x1, .i32⟩ : BufTy).Contents (Elt F)),
    StableHlo.ternary main_v45 main_v46 main_arg0 main_v47 ((fun x i u => Host.scatterAdd scatter_S512x256_S100000x1_S100000x256_1_0_0_1 x i u) : (⟨S512x256, .f32⟩ : BufTy).Contents (Elt F) → (⟨S100000x1, .i32⟩ : BufTy).Contents (Elt F) → (⟨S100000x256, .f32⟩ : BufTy).Contents (Elt F) → (⟨S512x256, .f32⟩ : BufTy).Contents (Elt F)),
    StableHlo.unary main_v3 main_v48 (broadcastInDim S512x1 ![0] bcast_S512_S512x1_0 : (⟨S512, .f32⟩ : BufTy).Contents (Elt F) → (⟨S512x1, .f32⟩ : BufTy).Contents (Elt F)),
    StableHlo.unary main_v48 main_v49 (broadcastInDim S512x256 ![0, 1] bcast_S512x1_S512x256_0_1 : (⟨S512x1, .f32⟩ : BufTy).Contents (Elt F) → (⟨S512x256, .f32⟩ : BufTy).Contents (Elt F)),
    StableHlo.binary main_v47 main_v49 main_v50 (Host.divf : (⟨S512x256, .f32⟩ : BufTy).Contents (Elt F) → (⟨S512x256, .f32⟩ : BufTy).Contents (Elt F) → (⟨S512x256, .f32⟩ : BufTy).Contents (Elt F)),
    StableHlo.nullary main_cst_13 (constant S_ .f32 0x00000000#32),
    StableHlo.unary main_cst_13 main_v51 (broadcastInDim S512x256 ![] bcast_S_S512x256 : (⟨S_, .f32⟩ : BufTy).Contents (Elt F) → (⟨S512x256, .f32⟩ : BufTy).Contents (Elt F)),
    StableHlo.unary main_arg11 main_v52 (broadcastInDim S100000x1 ![0] bcast_S100000_S100000x1_0 : (⟨S100000, .i32⟩ : BufTy).Contents (Elt F) → (⟨S100000x1, .i32⟩ : BufTy).Contents (Elt F)),
    StableHlo.ternary main_v51 main_v52 main_arg1 main_v53 ((fun x i u => Host.scatterAdd scatter_S512x256_S100000x1_S100000x256_1_0_0_1 x i u) : (⟨S512x256, .f32⟩ : BufTy).Contents (Elt F) → (⟨S100000x1, .i32⟩ : BufTy).Contents (Elt F) → (⟨S100000x256, .f32⟩ : BufTy).Contents (Elt F) → (⟨S512x256, .f32⟩ : BufTy).Contents (Elt F)),
    StableHlo.unary main_v3 main_v54 (broadcastInDim S512x1 ![0] bcast_S512_S512x1_0 : (⟨S512, .f32⟩ : BufTy).Contents (Elt F) → (⟨S512x1, .f32⟩ : BufTy).Contents (Elt F)),
    StableHlo.unary main_v54 main_v55 (broadcastInDim S512x256 ![0, 1] bcast_S512x1_S512x256_0_1 : (⟨S512x1, .f32⟩ : BufTy).Contents (Elt F) → (⟨S512x256, .f32⟩ : BufTy).Contents (Elt F)),
    StableHlo.binary main_v53 main_v55 main_v56 (Host.divf : (⟨S512x256, .f32⟩ : BufTy).Contents (Elt F) → (⟨S512x256, .f32⟩ : BufTy).Contents (Elt F) → (⟨S512x256, .f32⟩ : BufTy).Contents (Elt F)) ]

theorem o1a_sub : (o1a : List (HloOp τ sig (Elt F))).Forall fun op => op.bufs ⊆ tcRefs τ sig :=
  ⟨unary_bufs_sub .., unary_bufs_sub .., ternary_bufs_sub .., unary_bufs_sub .., unary_bufs_sub ..,
    binary_bufs_sub .., nullary_bufs_sub .., unary_bufs_sub .., unary_bufs_sub .., ternary_bufs_sub ..,
    unary_bufs_sub .., unary_bufs_sub .., binary_bufs_sub ..⟩

/-- The buffers that stretch writes. -/
abbrev o1a_W : List (Ref sig .tc) :=
  [main_v45, main_v46, main_v47, main_v48, main_v49, main_v50, main_cst_13, main_v51, main_v52, main_v53, main_v54,
    main_v55, main_v56]

theorem o1a_writes : (o1a : List (HloOp τ sig (Elt F))).Forall fun op =>
    op.writes ⊆ (o1a_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer that stretch does not write keeps its contents through it. -/
theorem o1a_keep (V : Valuation τ sig (Elt F)) (r : Ref sig .tc) (h : r ∉ o1a_W) :
    after o1a V (no_index (Proc.devRef .tc r)) = V (Proc.devRef .tc r) :=
  after_of_writes_sub o1a V o1a_writes h

/-- %57 … %74: the cosine statistic (%70; @norm's four operations inlined at each of its two calls) and the four statistics as columns. -/
abbrev o1b : List (HloOp τ sig (Elt F)) :=
  [ StableHlo.binary main_v50 main_v56 main_v57 (mulf : (⟨S512x256, .f32⟩ : BufTy).Contents (Elt F) → (⟨S512x256, .f32⟩ : BufTy).Contents (Elt F) → (⟨S512x256, .f32⟩ : BufTy).Contents (Elt F)),
    StableHlo.nullary main_cst_14 (constant S_ .f32 0x00000000#32),
    StableHlo.binary main_v57 main_cst_14 main_v58 ((fun x v => Host.reduceAdd x v reducesTo_S512x256_S512_d1 h_S_) : (⟨S512x256, .f32⟩ : BufTy).Contents (Elt F) → (⟨S_, .f32⟩ : BufTy).Contents (Elt F) → (⟨S512, .f32⟩ : BufTy).Contents (Elt F)),
    TRef.binary (.of main_v50) (.of main_v50) main_call0.v0 mulf,
    TRef.nullary main_call0.cst (constant S_ .f32 0x00000000#32),
    TRef.binary main_call0.v0 main_call0.cst main_call0.v1 (fun x v => Host.reduceAdd x v reducesTo_S512x256_S512_d1 h_S_),
    TRef.unary main_call0.v1 main_call0.v2 Host.sqrt,
    StableHlo.nullary main_cst_15 (constant S_ .f32 0x322BCC77#32),
    StableHlo.unary main_cst_15 main_v60 (broadcastInDim S512 ![] bcast_S_S512 : (⟨S_, .f32⟩ : BufTy).Contents (Elt F) → (⟨S512, .f32⟩ : BufTy).Contents (Elt F)),
    StableHlo.binary main_v59 main_v60 main_v61 (maximumf : (⟨S512, .f32⟩ : BufTy).Contents (Elt F) → (⟨S512, .f32⟩ : BufTy).Contents (Elt F) → (⟨S512, .f32⟩ : BufTy).Contents (Elt F)),
    TRef.binary (.of main_v56) (.of main_v56) main_call1.v0 mulf,
    TRef.nullary main_call1.cst (constant S_ .f32 0x00000000#32),
    TRef.binary main_call1.v0 main_call1.cst main_call1.v1 (fun x v => Host.reduceAdd x v reducesTo_S512x256_S512_d1 h_S_),
    TRef.unary main_call1.v1 main_call1.v2 Host.sqrt,
    StableHlo.nullary main_cst_16 (constant S_ .f32 0x322BCC77#32),
    StableHlo.unary main_cst_16 main_v63 (broadcastInDim S512 ![] bcast_S_S512 : (⟨S_, .f32⟩ : BufTy).Contents (Elt F) → (⟨S512, .f32⟩ : BufTy).Contents (Elt F)),
    StableHlo.binary main_v62 main_v63 main_v64 (maximumf : (⟨S512, .f32⟩ : BufTy).Contents (Elt F) → (⟨S512, .f32⟩ : BufTy).Contents (Elt F) → (⟨S512, .f32⟩ : BufTy).Contents (Elt F)),
    StableHlo.binary main_v61 main_v64 main_v65 (mulf : (⟨S512, .f32⟩ : BufTy).Contents (Elt F) → (⟨S512, .f32⟩ : BufTy).Contents (Elt F) → (⟨S512, .f32⟩ : BufTy).Contents (Elt F)),
    StableHlo.binary main_v58 main_v65 main_v66 (Host.divf : (⟨S512, .f32⟩ : BufTy).Contents (Elt F) → (⟨S512, .f32⟩ : BufTy).Contents (Elt F) → (⟨S512, .f32⟩ : BufTy).Contents (Elt F)),
    StableHlo.nullary main_cst_17 (constant S_ .f32 0x3F800000#32),
    StableHlo.unary main_cst_17 main_v67 (broadcastInDim S512 ![] bcast_S_S512 : (⟨S_, .f32⟩ : BufTy).Contents (Elt F) → (⟨S512, .f32⟩ : BufTy).Contents (Elt F)),
    StableHlo.binary main_v67 main_v66 main_v68 (subf : (⟨S512, .f32⟩ : BufTy).Contents (Elt F) → (⟨S512, .f32⟩ : BufTy).Contents (Elt F) → (⟨S512, .f32⟩ : BufTy).Contents (Elt F)),
    StableHlo.nullary main_cst_18 (constant S_ .f32 0x40000000#32),
    StableHlo.unary main_cst_18 main_v69 (broadcastInDim S512 ![] bcast_S_S512 : (⟨S_, .f32⟩ : BufTy).Contents (Elt F) → (⟨S512, .f32⟩ : BufTy).Contents (Elt F)),
    StableHlo.binary main_v68 main_v69 main_v70 (Host.divf : (⟨S512, .f32⟩ : BufTy).Contents (Elt F) → (⟨S512, .f32⟩ : BufTy).Contents (Elt F) → (⟨S512, .f32⟩ : BufTy).Contents (Elt F)),
    StableHlo.unary main_v31 main_v71 (broadcastInDim S512x1 ![0] bcast_S512_S512x1_0 : (⟨S512, .f32⟩ : BufTy).Contents (Elt F) → (⟨S512x1, .f32⟩ : BufTy).Contents (Elt F)),
    StableHlo.unary main_v37 main_v72 (broadcastInDim S512x1 ![0] bcast_S512_S512x1_0 : (⟨S512, .f32⟩ : BufTy).Contents (Elt F) → (⟨S512x1, .f32⟩ : BufTy).Contents (Elt F)),
    StableHlo.unary main_v44 main_v73 (broadcastInDim S512x1 ![0] bcast_S512_S512x1_0 : (⟨S512, .f32⟩ : BufTy).Contents (Elt F) → (⟨S512x1, .f32⟩ : BufTy).Contents (Elt F)),
    StableHlo.unary main_v70 main_v74 (broadcastInDim S512x1 ![0] bcast_S512_S512x1_0 : (⟨S512, .f32⟩ : BufTy).Contents (Elt F) → (⟨S512x1, .f32⟩ : BufTy).Contents (Elt F)) ]

theorem o1b_sub : (o1b : List (HloOp τ sig (Elt F))).Forall fun op => op.bufs ⊆ tcRefs τ sig :=
  ⟨binary_bufs_sub .., nullary_bufs_sub .., binary_bufs_sub .., binary_bufs_sub .., nullary_bufs_sub ..,
    binary_bufs_sub .., unary_bufs_sub .., nullary_bufs_sub .., unary_bufs_sub .., binary_bufs_sub ..,
    binary_bufs_sub .., nullary_bufs_sub .., binary_bufs_sub .., unary_bufs_sub .., nullary_bufs_sub ..,
    unary_bufs_sub .., binary_bufs_sub .., binary_bufs_sub .., binary_bufs_sub .., nullary_bufs_sub ..,
    unary_bufs_sub .., binary_bufs_sub .., nullary_bufs_sub .., unary_bufs_sub .., binary_bufs_sub ..,
    unary_bufs_sub .., unary_bufs_sub .., unary_bufs_sub .., unary_bufs_sub ..⟩

/-- The buffers that stretch writes. -/
abbrev o1b_W : List (Ref sig .tc) :=
  [main_v57, main_cst_14, main_v58, main_call0_v0, main_call0_cst, main_call0_v1, main_v59, main_cst_15, main_v60,
    main_v61, main_call1_v0, main_call1_cst, main_call1_v1, main_v62, main_cst_16, main_v63, main_v64, main_v65,
    main_v66, main_cst_17, main_v67, main_v68, main_cst_18, main_v69, main_v70, main_v71, main_v72, main_v73,
    main_v74]

theorem o1b_writes : (o1b : List (HloOp τ sig (Elt F))).Forall fun op =>
    op.writes ⊆ (o1b_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer that stretch does not write keeps its contents through it. -/
theorem o1b_keep (V : Valuation τ sig (Elt F)) (r : Ref sig .tc) (h : r ∉ o1b_W) :
    after o1b V (no_index (Proc.devRef .tc r)) = V (Proc.devRef .tc r) :=
  after_of_writes_sub o1b V o1b_writes h

/-- %75 … %94: the columns side by side, the first layer, the layer normalisation (@_var's twenty operations and @_where's three inlined) and its scale. -/
abbrev o1c : List (HloOp τ sig (Elt F)) :=
  [ StableHlo.nary ![main_v71, main_v72, main_v73, main_v74] main_v75 (fun u => concatenate S512x4 1 [⟨S512x1, u 0⟩, ⟨S512x1, u 1⟩, ⟨S512x1, u 2⟩, ⟨S512x1, u 3⟩] concatenates_S512x1_S512x1_S512x1_S512x1_S512x4_d1),
    StableHlo.binary main_v75 main_arg2 main_v76 ((fun l r => Host.dotGeneral dot_S512x4_S4x32_S512x32_1_0_0_1_n_n none l r) : (⟨S512x4, .f32⟩ : BufTy).Contents (Elt F) → (⟨S4x32, .f32⟩ : BufTy).Contents (Elt F) → (⟨S512x32, .f32⟩ : BufTy).Contents (Elt F)),
    StableHlo.unary main_arg3 main_v77 (broadcastInDim S1x32 ![1] bcast_S32_S1x32_1 : (⟨S32, .f32⟩ : BufTy).Contents (Elt F) → (⟨S1x32, .f32⟩ : BufTy).Contents (Elt F)),
    StableHlo.unary main_v77 main_v78 (broadcastInDim S512x32 ![0, 1] bcast_S1x32_S512x32_0_1 : (⟨S1x32, .f32⟩ : BufTy).Contents (Elt F) → (⟨S512x32, .f32⟩ : BufTy).Contents (Elt F)),
    StableHlo.binary main_v76 main_v78 main_v79 (addf : (⟨S512x32, .f32⟩ : BufTy).Contents (Elt F) → (⟨S512x32, .f32⟩ : BufTy).Contents (Elt F) → (⟨S512x32, .f32⟩ : BufTy).Contents (Elt F)),
    StableHlo.nullary main_cst_19 (constant S_ .f32 0x00000000#32),
    StableHlo.binary main_v79 main_cst_19 main_v80 ((fun x v => Host.reduceAdd x v reducesTo_S512x32_S512_d1 h_S_) : (⟨S512x32, .f32⟩ : BufTy).Contents (Elt F) → (⟨S_, .f32⟩ : BufTy).Contents (Elt F) → (⟨S512, .f32⟩ : BufTy).Contents (Elt F)),
    StableHlo.unary main_v80 main_v81 (broadcastInDim S512x1 ![0] bcast_S512_S512x1_0 : (⟨S512, .f32⟩ : BufTy).Contents (Elt F) → (⟨S512x1, .f32⟩ : BufTy).Contents (Elt F)),
    StableHlo.nullary main_cst_20 (constant S_ .f32 0x42000000#32),
    StableHlo.unary main_cst_20 main_v82 (broadcastInDim S512x1 ![] bcast_S_S512x1 : (⟨S_, .f32⟩ : BufTy).Contents (Elt F) → (⟨S512x1, .f32⟩ : BufTy).Contents (Elt F)),
    StableHlo.binary main_v81 main_v82 main_v83 (Host.divf : (⟨S512x1, .f32⟩ : BufTy).Contents (Elt F) → (⟨S512x1, .f32⟩ : BufTy).Contents (Elt F) → (⟨S512x1, .f32⟩ : BufTy).Contents (Elt F)),
    StableHlo.nullary main_c_21 (constantI S_ 32 0#32),
    TRef.nullary main_call2.cst (constant S_ .f32 0x00000000#32),
    TRef.binary (.of main_v79) main_call2.cst main_call2.v0 (fun x v => Host.reduceAdd x v reducesTo_S512x32_S512_d1 h_S_),
    TRef.unary main_call2.v0 main_call2.v1 (broadcastInDim S512x1 ![0] bcast_S512_S512x1_0),
    TRef.nullary main_call2.cst_0 (constant S_ .f32 0x42000000#32),
    TRef.unary main_call2.cst_0 main_call2.v2 (broadcastInDim S512x1 ![] bcast_S_S512x1),
    TRef.binary main_call2.v1 main_call2.v2 main_call2.v3 Host.divf,
    TRef.unary main_call2.v3 main_call2.v4 (broadcastInDim S512x32 ![0, 1] bcast_S512x1_S512x32_0_1),
    TRef.binary (.of main_v79) main_call2.v4 main_call2.v5 subf,
    TRef.binary main_call2.v5 main_call2.v5 main_call2.v6 mulf,
    TRef.unary (.of main_c_21) main_call2.v7 (sitofp .f32),
    TRef.nullary main_call2.cst_1 (constant S_ .f32 0x42000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S512x32_S512_d1 h_S_),
    TRef.unary main_call2.v9 main_call2.v10 (broadcastInDim S512x1 ![0] bcast_S512_S512x1_0),
    TRef.unary main_call2.v8 main_call2.v11 (broadcastInDim S512x1 ![] bcast_S_S512x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S512x1 ![] bcast_S_S512x1),
    TRef.ternary main_call2.v13 main_call2.v12 main_call2.call0.v1 main_call2.call0.v2 (fun p a b => select (broadcastInDim S512x1 ![] bcast_S_S512x1 p) a b),
    StableHlo.unary main_v83 main_v85 (broadcastInDim S512x32 ![0, 1] bcast_S512x1_S512x32_0_1 : (⟨S512x1, .f32⟩ : BufTy).Contents (Elt F) → (⟨S512x32, .f32⟩ : BufTy).Contents (Elt F)),
    StableHlo.binary main_v79 main_v85 main_v86 (subf : (⟨S512x32, .f32⟩ : BufTy).Contents (Elt F) → (⟨S512x32, .f32⟩ : BufTy).Contents (Elt F) → (⟨S512x32, .f32⟩ : BufTy).Contents (Elt F)),
    StableHlo.nullary main_cst_22 (constant S_ .f32 0x3727C5AC#32),
    StableHlo.unary main_cst_22 main_v87 (broadcastInDim S512x1 ![] bcast_S_S512x1 : (⟨S_, .f32⟩ : BufTy).Contents (Elt F) → (⟨S512x1, .f32⟩ : BufTy).Contents (Elt F)),
    StableHlo.binary main_v84 main_v87 main_v88 (addf : (⟨S512x1, .f32⟩ : BufTy).Contents (Elt F) → (⟨S512x1, .f32⟩ : BufTy).Contents (Elt F) → (⟨S512x1, .f32⟩ : BufTy).Contents (Elt F)),
    StableHlo.unary main_v88 main_v89 (Host.rsqrt : (⟨S512x1, .f32⟩ : BufTy).Contents (Elt F) → (⟨S512x1, .f32⟩ : BufTy).Contents (Elt F)),
    StableHlo.unary main_v89 main_v90 (broadcastInDim S512x32 ![0, 1] bcast_S512x1_S512x32_0_1 : (⟨S512x1, .f32⟩ : BufTy).Contents (Elt F) → (⟨S512x32, .f32⟩ : BufTy).Contents (Elt F)),
    StableHlo.binary main_v86 main_v90 main_v91 (mulf : (⟨S512x32, .f32⟩ : BufTy).Contents (Elt F) → (⟨S512x32, .f32⟩ : BufTy).Contents (Elt F) → (⟨S512x32, .f32⟩ : BufTy).Contents (Elt F)),
    StableHlo.unary main_arg4 main_v92 (broadcastInDim S1x32 ![1] bcast_S32_S1x32_1 : (⟨S32, .f32⟩ : BufTy).Contents (Elt F) → (⟨S1x32, .f32⟩ : BufTy).Contents (Elt F)),
    StableHlo.unary main_v92 main_v93 (broadcastInDim S512x32 ![0, 1] bcast_S1x32_S512x32_0_1 : (⟨S1x32, .f32⟩ : BufTy).Contents (Elt F) → (⟨S512x32, .f32⟩ : BufTy).Contents (Elt F)),
    StableHlo.binary main_v91 main_v93 main_v94 (mulf : (⟨S512x32, .f32⟩ : BufTy).Contents (Elt F) → (⟨S512x32, .f32⟩ : BufTy).Contents (Elt F) → (⟨S512x32, .f32⟩ : BufTy).Contents (Elt F)) ]

theorem o1c_sub : (o1c : List (HloOp τ sig (Elt F))).Forall fun op => op.bufs ⊆ tcRefs τ sig :=
  ⟨nary_bufs_sub .., binary_bufs_sub .., unary_bufs_sub .., unary_bufs_sub .., binary_bufs_sub ..,
    nullary_bufs_sub .., binary_bufs_sub .., unary_bufs_sub .., nullary_bufs_sub .., unary_bufs_sub ..,
    binary_bufs_sub .., nullary_bufs_sub .., nullary_bufs_sub .., binary_bufs_sub .., unary_bufs_sub ..,
    nullary_bufs_sub .., unary_bufs_sub .., binary_bufs_sub .., unary_bufs_sub .., binary_bufs_sub ..,
    binary_bufs_sub .., unary_bufs_sub .., nullary_bufs_sub .., binary_bufs_sub .., nullary_bufs_sub ..,
    binary_bufs_sub .., unary_bufs_sub .., unary_bufs_sub .., binary_bufs_sub .., nullary_bufs_sub ..,
    binary_bufs_sub .., nullary_bufs_sub .., unary_bufs_sub .., unary_bufs_sub .., ternary_bufs_sub ..,
    unary_bufs_sub .., binary_bufs_sub .., nullary_bufs_sub .., unary_bufs_sub .., binary_bufs_sub ..,
    unary_bufs_sub .., unary_bufs_sub .., binary_bufs_sub .., unary_bufs_sub .., unary_bufs_sub ..,
    binary_bufs_sub ..⟩

/-- The buffers that stretch writes. -/
abbrev o1c_W : List (Ref sig .tc) :=
  [main_v75, main_v76, main_v77, main_v78, main_v79, main_cst_19, main_v80, main_v81, main_cst_20, main_v82,
    main_v83, main_c_21, main_call2_cst, main_call2_v0, main_call2_v1, main_call2_cst_0, main_call2_v2,
    main_call2_v3, main_call2_v4, main_call2_v5, main_call2_v6, main_call2_v7, main_call2_cst_1, main_call2_v8,
    main_call2_cst_2, main_call2_v9, main_call2_v10, main_call2_v11, main_call2_v12, main_call2_cst_3,
    main_call2_v13, main_call2_cst_4, main_call2_call0_v0, main_call2_call0_v1, main_v84, main_v85, main_v86,
    main_cst_22, main_v87, main_v88, main_v89, main_v90, main_v91, main_v92, main_v93, main_v94]

theorem o1c_writes : (o1c : List (HloOp τ sig (Elt F))).Forall fun op =>
    op.writes ⊆ (o1c_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer that stretch does not write keeps its contents through it. -/
theorem o1c_keep (V : Valuation τ sig (Elt F)) (r : Ref sig .tc) (h : r ∉ o1c_W) :
    after o1c V (no_index (Proc.devRef .tc r)) = V (Proc.devRef .tc r) :=
  after_of_writes_sub o1c V o1c_writes h

/-- %95 … %120: the normalisation's shift, the two rectified layers (@relu and @relu_0 inlined), the last layer, the temperature and the softmax. -/
abbrev o2a : List (HloOp τ sig (Elt F)) :=
  [ StableHlo.unary main_arg5 main_v95 (broadcastInDim S1x32 ![1] bcast_S32_S1x32_1 : (⟨S32, .f32⟩ : BufTy).Contents (Elt F) → (⟨S1x32, .f32⟩ : BufTy).Contents (Elt F)),
    StableHlo.unary main_v95 main_v96 (broadcastInDim S512x32 ![0, 1] bcast_S1x32_S512x32_0_1 : (⟨S1x32, .f32⟩ : BufTy).Contents (Elt F) → (⟨S512x32, .f32⟩ : BufTy).Contents (Elt F)),
    StableHlo.binary main_v94 main_v96 main_v97 (addf : (⟨S512x32, .f32⟩ : BufTy).Contents (Elt F) → (⟨S512x32, .f32⟩ : BufTy).Contents (Elt F) → (⟨S512x32, .f32⟩ : BufTy).Contents (Elt F)),
    TRef.nullary main_call3.cst (constant S_ .f32 0x00000000#32),
    TRef.unary main_call3.cst main_call3.v0 (broadcastInDim S512x32 ![] bcast_S_S512x32),
    TRef.binary (.of main_v97) main_call3.v0 main_call3.v1 maximumf,
    StableHlo.binary main_v98 main_arg6 main_v99 ((fun l r => Host.dotGeneral dot_S512x32_S32x16_S512x16_1_0_0_1_n_n none l r) : (⟨S512x32, .f32⟩ : BufTy).Contents (Elt F) → (⟨S32x16, .f32⟩ : BufTy).Contents (Elt F) → (⟨S512x16, .f32⟩ : BufTy).Contents (Elt F)),
    StableHlo.unary main_arg7 main_v100 (broadcastInDim S1x16 ![1] bcast_S16_S1x16_1 : (⟨S16, .f32⟩ : BufTy).Contents (Elt F) → (⟨S1x16, .f32⟩ : BufTy).Contents (Elt F)),
    StableHlo.unary main_v100 main_v101 (broadcastInDim S512x16 ![0, 1] bcast_S1x16_S512x16_0_1 : (⟨S1x16, .f32⟩ : BufTy).Contents (Elt F) → (⟨S512x16, .f32⟩ : BufTy).Contents (Elt F)),
    StableHlo.binary main_v99 main_v101 main_v102 (addf : (⟨S512x16, .f32⟩ : BufTy).Contents (Elt F) → (⟨S512x16, .f32⟩ : BufTy).Contents (Elt F) → (⟨S512x16, .f32⟩ : BufTy).Contents (Elt F)),
    TRef.nullary main_call4.cst (constant S_ .f32 0x00000000#32),
    TRef.unary main_call4.cst main_call4.v0 (broadcastInDim S512x16 ![] bcast_S_S512x16),
    TRef.binary (.of main_v102) main_call4.v0 main_call4.v1 maximumf,
    StableHlo.binary main_v103 main_arg8 main_v104 ((fun l r => Host.dotGeneral dot_S512x16_S16x2_S512x2_1_0_0_1_n_n none l r) : (⟨S512x16, .f32⟩ : BufTy).Contents (Elt F) → (⟨S16x2, .f32⟩ : BufTy).Contents (Elt F) → (⟨S512x2, .f32⟩ : BufTy).Contents (Elt F)),
    StableHlo.unary main_arg9 main_v105 (broadcastInDim S1x2 ![1] bcast_S2_S1x2_1 : (⟨S2, .f32⟩ : BufTy).Contents (Elt F) → (⟨S1x2, .f32⟩ : BufTy).Contents (Elt F)),
    StableHlo.unary main_v105 main_v106 (broadcastInDim S512x2 ![0, 1] bcast_S1x2_S512x2_0_1 : (⟨S1x2, .f32⟩ : BufTy).Contents (Elt F) → (⟨S512x2, .f32⟩ : BufTy).Contents (Elt F)),
    StableHlo.binary main_v104 main_v106 main_v107 (addf : (⟨S512x2, .f32⟩ : BufTy).Contents (Elt F) → (⟨S512x2, .f32⟩ : BufTy).Contents (Elt F) → (⟨S512x2, .f32⟩ : BufTy).Contents (Elt F)),
    StableHlo.nullary main_cst_23 (constant S_ .f32 0x3F000000#32),
    StableHlo.unary main_cst_23 main_v108 (broadcastInDim S512x2 ![] bcast_S_S512x2 : (⟨S_, .f32⟩ : BufTy).Contents (Elt F) → (⟨S512x2, .f32⟩ : BufTy).Contents (Elt F)),
    StableHlo.binary main_v107 main_v108 main_v109 (Host.divf : (⟨S512x2, .f32⟩ : BufTy).Contents (Elt F) → (⟨S512x2, .f32⟩ : BufTy).Contents (Elt F) → (⟨S512x2, .f32⟩ : BufTy).Contents (Elt F)),
    StableHlo.nullary main_cst_24 (constant S_ .f32 0xFF800000#32),
    StableHlo.binary main_v109 main_cst_24 main_v110 ((fun x v => Host.reduce FloatOps.maximumf x v reducesTo_S512x2_S512_d1 h_S_) : (⟨S512x2, .f32⟩ : BufTy).Contents (Elt F) → (⟨S_, .f32⟩ : BufTy).Contents (Elt F) → (⟨S512, .f32⟩ : BufTy).Contents (Elt F)),
    StableHlo.nullary main_cst_25 (constant S_ .f32 0xFF800000#32),
    StableHlo.unary main_cst_25 main_v111 (broadcastInDim S512 ![] bcast_S_S512 : (⟨S_, .f32⟩ : BufTy).Contents (Elt F) → (⟨S512, .f32⟩ : BufTy).Contents (Elt F)),
    StableHlo.binary main_v111 main_v110 main_v112 (maximumf : (⟨S512, .f32⟩ : BufTy).Contents (Elt F) → (⟨S512, .f32⟩ : BufTy).Contents (Elt F) → (⟨S512, .f32⟩ : BufTy).Contents (Elt F)),
    StableHlo.unary main_v112 main_v113 (broadcastInDim S512x1 ![0] bcast_S512_S512x1_0 : (⟨S512, .f32⟩ : BufTy).Contents (Elt F) → (⟨S512x1, .f32⟩ : BufTy).Contents (Elt F)),
    StableHlo.unary main_v113 main_v114 (broadcastInDim S512x2 ![0, 1] bcast_S512x1_S512x2_0_1 : (⟨S512x1, .f32⟩ : BufTy).Contents (Elt F) → (⟨S512x2, .f32⟩ : BufTy).Contents (Elt F)),
    StableHlo.binary main_v109 main_v114 main_v115 (subf : (⟨S512x2, .f32⟩ : BufTy).Contents (Elt F) → (⟨S512x2, .f32⟩ : BufTy).Contents (Elt F) → (⟨S512x2, .f32⟩ : BufTy).Contents (Elt F)),
    StableHlo.unary main_v115 main_v116 (Host.exp : (⟨S512x2, .f32⟩ : BufTy).Contents (Elt F) → (⟨S512x2, .f32⟩ : BufTy).Contents (Elt F)),
    StableHlo.nullary main_cst_26 (constant S_ .f32 0x00000000#32),
    StableHlo.binary main_v116 main_cst_26 main_v117 ((fun x v => Host.reduceAdd x v reducesTo_S512x2_S512_d1 h_S_) : (⟨S512x2, .f32⟩ : BufTy).Contents (Elt F) → (⟨S_, .f32⟩ : BufTy).Contents (Elt F) → (⟨S512, .f32⟩ : BufTy).Contents (Elt F)),
    StableHlo.unary main_v117 main_v118 (broadcastInDim S512x1 ![0] bcast_S512_S512x1_0 : (⟨S512, .f32⟩ : BufTy).Contents (Elt F) → (⟨S512x1, .f32⟩ : BufTy).Contents (Elt F)),
    StableHlo.unary main_v118 main_v119 (broadcastInDim S512x2 ![0, 1] bcast_S512x1_S512x2_0_1 : (⟨S512x1, .f32⟩ : BufTy).Contents (Elt F) → (⟨S512x2, .f32⟩ : BufTy).Contents (Elt F)),
    StableHlo.binary main_v116 main_v119 main_v120 (Host.divf : (⟨S512x2, .f32⟩ : BufTy).Contents (Elt F) → (⟨S512x2, .f32⟩ : BufTy).Contents (Elt F) → (⟨S512x2, .f32⟩ : BufTy).Contents (Elt F)) ]

theorem o2a_sub : (o2a : List (HloOp τ sig (Elt F))).Forall fun op => op.bufs ⊆ tcRefs τ sig :=
  ⟨unary_bufs_sub .., unary_bufs_sub .., binary_bufs_sub .., nullary_bufs_sub .., unary_bufs_sub ..,
    binary_bufs_sub .., binary_bufs_sub .., unary_bufs_sub .., unary_bufs_sub .., binary_bufs_sub ..,
    nullary_bufs_sub .., unary_bufs_sub .., binary_bufs_sub .., binary_bufs_sub .., unary_bufs_sub ..,
    unary_bufs_sub .., binary_bufs_sub .., nullary_bufs_sub .., unary_bufs_sub .., binary_bufs_sub ..,
    nullary_bufs_sub .., binary_bufs_sub .., nullary_bufs_sub .., unary_bufs_sub .., binary_bufs_sub ..,
    unary_bufs_sub .., unary_bufs_sub .., binary_bufs_sub .., unary_bufs_sub .., nullary_bufs_sub ..,
    binary_bufs_sub .., unary_bufs_sub .., unary_bufs_sub .., binary_bufs_sub ..⟩

/-- The buffers that stretch writes. -/
abbrev o2a_W : List (Ref sig .tc) :=
  [main_v95, main_v96, main_v97, main_call3_cst, main_call3_v0, main_v98, main_v99, main_v100, main_v101, main_v102,
    main_call4_cst, main_call4_v0, main_v103, main_v104, main_v105, main_v106, main_v107, main_cst_23, main_v108,
    main_v109, main_cst_24, main_v110, main_cst_25, main_v111, main_v112, main_v113, main_v114, main_v115, main_v116,
    main_cst_26, main_v117, main_v118, main_v119, main_v120]

theorem o2a_writes : (o2a : List (HloOp τ sig (Elt F))).Forall fun op =>
    op.writes ⊆ (o2a_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer that stretch does not write keeps its contents through it. -/
theorem o2a_keep (V : Valuation τ sig (Elt F)) (r : Ref sig .tc) (h : r ∉ o2a_W) :
    after o2a V (no_index (Proc.devRef .tc r)) = V (Proc.devRef .tc r) :=
  after_of_writes_sub o2a V o2a_writes h

/-- %c_27 … %144: the ids wrapped, paired with column 0 and with column 1, the two gathers from the gate weights, each as a column. -/
abbrev o2b : List (HloOp τ sig (Elt F)) :=
  [ StableHlo.nullary main_c_27 (constantI S_ 32 0#32),
    StableHlo.unary main_c_27 main_v121 (broadcastInDim S100000 ![] bcast_S_S100000 : (⟨S_, .i32⟩ : BufTy).Contents (Elt F) → (⟨S100000, .i32⟩ : BufTy).Contents (Elt F)),
    StableHlo.binary main_arg11 main_v121 main_v122 (cmpi .slt : (⟨S100000, .i32⟩ : BufTy).Contents (Elt F) → (⟨S100000, .i32⟩ : BufTy).Contents (Elt F) → (⟨S100000, .i1⟩ : BufTy).Contents (Elt F)),
    StableHlo.nullary main_c_28 (constantI S_ 32 512#32),
    StableHlo.unary main_c_28 main_v123 (broadcastInDim S100000 ![] bcast_S_S100000 : (⟨S_, .i32⟩ : BufTy).Contents (Elt F) → (⟨S100000, .i32⟩ : BufTy).Contents (Elt F)),
    StableHlo.binary main_arg11 main_v123 main_v124 (addi : (⟨S100000, .i32⟩ : BufTy).Contents (Elt F) → (⟨S100000, .i32⟩ : BufTy).Contents (Elt F) → (⟨S100000, .i32⟩ : BufTy).Contents (Elt F)),
    StableHlo.ternary main_v122 main_v124 main_arg11 main_v125 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_29 (constantI S_ 32 0#32),
    StableHlo.unary main_c_29 main_v126 (broadcastInDim S100000 ![] bcast_S_S100000 : (⟨S_, .i32⟩ : BufTy).Contents (Elt F) → (⟨S100000, .i32⟩ : BufTy).Contents (Elt F)),
    StableHlo.unary main_v126 main_v127 (id : (⟨S100000, .i32⟩ : BufTy).Contents (Elt F) → (⟨S100000, .i32⟩ : BufTy).Contents (Elt F)),
    StableHlo.unary main_v125 main_v128 (broadcastInDim S100000x1 ![0] bcast_S100000_S100000x1_0 : (⟨S100000, .i32⟩ : BufTy).Contents (Elt F) → (⟨S100000x1, .i32⟩ : BufTy).Contents (Elt F)),
    StableHlo.unary main_v127 main_v129 (broadcastInDim S100000x1 ![0] bcast_S100000_S100000x1_0 : (⟨S100000, .i32⟩ : BufTy).Contents (Elt F) → (⟨S100000x1, .i32⟩ : BufTy).Contents (Elt F)),
    StableHlo.binary main_v128 main_v129 main_v130 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    StableHlo.binary main_v120 main_v130 main_v131 ((fun x i => Host.gather gather_S512x2_S100000x2_S100000_n_01_n_n_01_1_11 x i) : (⟨S512x2, .f32⟩ : BufTy).Contents (Elt F) → (⟨S100000x2, .i32⟩ : BufTy).Contents (Elt F) → (⟨S100000, .f32⟩ : BufTy).Contents (Elt F)),
    StableHlo.unary main_v131 main_v132 (broadcastInDim S100000x1 ![0] bcast_S100000_S100000x1_0 : (⟨S100000, .f32⟩ : BufTy).Contents (Elt F) → (⟨S100000x1, .f32⟩ : BufTy).Contents (Elt F)),
    StableHlo.nullary main_c_30 (constantI S_ 32 0#32),
    StableHlo.unary main_c_30 main_v133 (broadcastInDim S100000 ![] bcast_S_S100000 : (⟨S_, .i32⟩ : BufTy).Contents (Elt F) → (⟨S100000, .i32⟩ : BufTy).Contents (Elt F)),
    StableHlo.binary main_arg11 main_v133 main_v134 (cmpi .slt : (⟨S100000, .i32⟩ : BufTy).Contents (Elt F) → (⟨S100000, .i32⟩ : BufTy).Contents (Elt F) → (⟨S100000, .i1⟩ : BufTy).Contents (Elt F)),
    StableHlo.nullary main_c_31 (constantI S_ 32 512#32),
    StableHlo.unary main_c_31 main_v135 (broadcastInDim S100000 ![] bcast_S_S100000 : (⟨S_, .i32⟩ : BufTy).Contents (Elt F) → (⟨S100000, .i32⟩ : BufTy).Contents (Elt F)),
    StableHlo.binary main_arg11 main_v135 main_v136 (addi : (⟨S100000, .i32⟩ : BufTy).Contents (Elt F) → (⟨S100000, .i32⟩ : BufTy).Contents (Elt F) → (⟨S100000, .i32⟩ : BufTy).Contents (Elt F)),
    StableHlo.ternary main_v134 main_v136 main_arg11 main_v137 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.nullary main_c_32 (constantI S_ 32 1#32),
    StableHlo.unary main_c_32 main_v138 (broadcastInDim S100000 ![] bcast_S_S100000 : (⟨S_, .i32⟩ : BufTy).Contents (Elt F) → (⟨S100000, .i32⟩ : BufTy).Contents (Elt F)),
    StableHlo.unary main_v138 main_v139 (id : (⟨S100000, .i32⟩ : BufTy).Contents (Elt F) → (⟨S100000, .i32⟩ : BufTy).Contents (Elt F)),
    StableHlo.unary main_v137 main_v140 (broadcastInDim S100000x1 ![0] bcast_S100000_S100000x1_0 : (⟨S100000, .i32⟩ : BufTy).Contents (Elt F) → (⟨S100000x1, .i32⟩ : BufTy).Contents (Elt F)),
    StableHlo.unary main_v139 main_v141 (broadcastInDim S100000x1 ![0] bcast_S100000_S100000x1_0 : (⟨S100000, .i32⟩ : BufTy).Contents (Elt F) → (⟨S100000x1, .i32⟩ : BufTy).Contents (Elt F)),
    StableHlo.binary main_v140 main_v141 main_v142 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    StableHlo.binary main_v120 main_v142 main_v143 ((fun x i => Host.gather gather_S512x2_S100000x2_S100000_n_01_n_n_01_1_11 x i) : (⟨S512x2, .f32⟩ : BufTy).Contents (Elt F) → (⟨S100000x2, .i32⟩ : BufTy).Contents (Elt F) → (⟨S100000, .f32⟩ : BufTy).Contents (Elt F)),
    StableHlo.unary main_v143 main_v144 (broadcastInDim S100000x1 ![0] bcast_S100000_S100000x1_0 : (⟨S100000, .f32⟩ : BufTy).Contents (Elt F) → (⟨S100000x1, .f32⟩ : BufTy).Contents (Elt F)) ]

theorem o2b_sub : (o2b : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., nullary_bufs_sub .., unary_bufs_sub .., unary_bufs_sub ..,
    unary_bufs_sub .., unary_bufs_sub .., binary_bufs_sub .., binary_bufs_sub .., unary_bufs_sub ..,
    nullary_bufs_sub .., unary_bufs_sub .., binary_bufs_sub .., nullary_bufs_sub .., unary_bufs_sub ..,
    binary_bufs_sub .., ternary_bufs_sub .., nullary_bufs_sub .., unary_bufs_sub .., unary_bufs_sub ..,
    unary_bufs_sub .., unary_bufs_sub .., binary_bufs_sub .., binary_bufs_sub .., unary_bufs_sub ..⟩

/-- The buffers that stretch writes. -/
abbrev o2b_W : List (Ref sig .tc) :=
  [main_c_27, main_v121, main_v122, main_c_28, main_v123, main_v124, main_v125, main_c_29, main_v126, main_v127,
    main_v128, main_v129, main_v130, main_v131, main_v132, main_c_30, main_v133, main_v134, main_c_31, main_v135,
    main_v136, main_v137, main_c_32, main_v138, main_v139, main_v140, main_v141, main_v142, main_v143, main_v144]

theorem o2b_writes : (o2b : List (HloOp τ sig (Elt F))).Forall fun op =>
    op.writes ⊆ (o2b_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer that stretch does not write keeps its contents through it. -/
theorem o2b_keep (V : Valuation τ sig (Elt F)) (r : Ref sig .tc) (h : r ∉ o2b_W) :
    after o2b V (no_index (Proc.devRef .tc r)) = V (Proc.devRef .tc r) :=
  after_of_writes_sub o2b V o2b_writes h

/-- %145 … %149: the two columns along the feature axis, times the feature rows, added. -/
abbrev o3 : List (HloOp τ sig (Elt F)) :=
  [ StableHlo.unary main_v132 main_v145 (broadcastInDim S100000x256 ![0, 1] bcast_S100000x1_S100000x256_0_1 : (⟨S100000x1, .f32⟩ : BufTy).Contents (Elt F) → (⟨S100000x256, .f32⟩ : BufTy).Contents (Elt F)),
    StableHlo.binary main_v145 main_arg0 main_v146 (mulf : (⟨S100000x256, .f32⟩ : BufTy).Contents (Elt F) → (⟨S100000x256, .f32⟩ : BufTy).Contents (Elt F) → (⟨S100000x256, .f32⟩ : BufTy).Contents (Elt F)),
    StableHlo.unary main_v144 main_v147 (broadcastInDim S100000x256 ![0, 1] bcast_S100000x1_S100000x256_0_1 : (⟨S100000x1, .f32⟩ : BufTy).Contents (Elt F) → (⟨S100000x256, .f32⟩ : BufTy).Contents (Elt F)),
    StableHlo.binary main_v147 main_arg1 main_v148 (mulf : (⟨S100000x256, .f32⟩ : BufTy).Contents (Elt F) → (⟨S100000x256, .f32⟩ : BufTy).Contents (Elt F) → (⟨S100000x256, .f32⟩ : BufTy).Contents (Elt F)),
    StableHlo.binary main_v146 main_v148 main_v149 (addf : (⟨S100000x256, .f32⟩ : BufTy).Contents (Elt F) → (⟨S100000x256, .f32⟩ : BufTy).Contents (Elt F) → (⟨S100000x256, .f32⟩ : BufTy).Contents (Elt F)) ]

theorem o3_sub : (o3 : List (HloOp τ sig (Elt F))).Forall fun op => op.bufs ⊆ tcRefs τ sig :=
  ⟨unary_bufs_sub .., binary_bufs_sub .., unary_bufs_sub .., binary_bufs_sub .., binary_bufs_sub ..⟩

/-- The buffers that stretch writes. -/
abbrev o3_W : List (Ref sig .tc) :=
  [main_v145, main_v146, main_v147, main_v148, main_v149]

theorem o3_writes : (o3 : List (HloOp τ sig (Elt F))).Forall fun op =>
    op.writes ⊆ (o3_W.map (Proc.devRef (τ := τ) .tc)).toFinset := by
  simp only [List.Forall]
  repeat' apply And.intro
  all_goals
    simp only [nullary_writes, unary_writes, binary_writes, ternary_writes, reshape_writes, nary_writes,
      Finset.singleton_subset_iff, List.mem_toFinset]
    exact List.mem_map_of_mem (by decide)

/-- A buffer that stretch does not write keeps its contents through it. -/
theorem o3_keep (V : Valuation τ sig (Elt F)) (r : Ref sig .tc) (h : r ∉ o3_W) :
    after o3 V (no_index (Proc.devRef .tc r)) = V (Proc.devRef .tc r) :=
  after_of_writes_sub o3 V o3_writes h

/-! ## The windows and @main -/

/-- The operations of @main's first window. -/
def ops_part0 : List (HloOp τ sig (Elt F)) := o0a ++ (o0b ++ o0c)
/-- The operations of @main's second window. -/
def ops_part1 : List (HloOp τ sig (Elt F)) := o1a ++ (o1b ++ o1c)
/-- The operations of @main's third window. -/
def ops_part2 : List (HloOp τ sig (Elt F)) := o2a ++ o2b
/-- The operations of @main's last window. -/
def ops_part3 : List (HloOp τ sig (Elt F)) := o3
/-- @main's operations, in order. -/
def ops : List (HloOp τ sig (Elt F)) := ops_part0 ++ (ops_part1 ++ (ops_part2 ++ ops_part3))

set_option maxRecDepth 8192 in
theorem main_part0_eq (c : Dev nD) : main_part0 (F := F) c = seq ops_part0 := rfl

set_option maxRecDepth 8192 in
/-- The second window with @norm's, @_var's and @_where's bodies unfolded at their calls and the sequencing
    reassociated is the straight line of the window's three stretches. -/
theorem main_part1_eq (c : Dev nD) : main_part1 (F := F) c = seq ops_part1 := by
  simp only [main_part1, ops_part1, fn_norm.body, fn_var.body, fn_where.body, seq_append, seq, bind_assoc, pure_bind]
  rfl

set_option maxRecDepth 8192 in
/-- The third window with @relu's and @relu_0's bodies unfolded at their calls. -/
theorem main_part2_eq (c : Dev nD) : main_part2 (F := F) c = seq ops_part2 := by
  simp only [main_part2, ops_part2, fn_relu.body, fn_relu_0.body, seq_append, seq, bind_assoc, pure_bind]
  rfl

set_option maxRecDepth 8192 in
theorem main_part3_eq (c : Dev nD) : main_part3 (F := F) c = seq ops_part3 := rfl

theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem forall_append {p : HloOp τ sig (Elt F) → Prop} {l₁ l₂ : List (HloOp τ sig (Elt F))}
    (h₁ : l₁.Forall p) (h₂ : l₂.Forall p) : (l₁ ++ l₂).Forall p :=
  List.forall_iff_forall_mem.mpr fun op h => (List.mem_append.mp h).elim
    (List.forall_iff_forall_mem.mp h₁ op) (List.forall_iff_forall_mem.mp h₂ op)

theorem ops_sub : (ops : List (HloOp τ sig (Elt F))).Forall fun op => op.bufs ⊆ tcRefs τ sig :=
  forall_append (forall_append o0a_sub (forall_append o0b_sub o0c_sub))
    (forall_append (forall_append o1a_sub (forall_append o1b_sub o1c_sub))
      (forall_append (forall_append o2a_sub o2b_sub) o3_sub))

/-- No operation of the line leaves its result to the machine's choice. -/
theorem ops_fresh : ∀ op ∈ (ops : List (HloOp τ sig (Elt F))), op.fresh = ∅ := by
  have h : (ops : List (HloOp τ sig (Elt F))).Forall fun op => op.fresh = ∅ :=
    forall_append (forall_append (l₁ := o0a) (by simp only [List.Forall]; (repeat' apply And.intro) <;> rfl)
        (forall_append (l₁ := o0b) (l₂ := o0c) (by simp only [List.Forall]; (repeat' apply And.intro) <;> rfl)
          (by simp only [List.Forall]; (repeat' apply And.intro) <;> rfl)))
      (forall_append (forall_append (l₁ := o1a) (by simp only [List.Forall]; (repeat' apply And.intro) <;> rfl)
          (forall_append (l₁ := o1b) (l₂ := o1c) (by simp only [List.Forall]; (repeat' apply And.intro) <;> rfl)
            (by simp only [List.Forall]; (repeat' apply And.intro) <;> rfl)))
        (forall_append (forall_append (l₁ := o2a) (l₂ := o2b) (by simp only [List.Forall]; (repeat' apply And.intro) <;> rfl)
            (by simp only [List.Forall]; (repeat' apply And.intro) <;> rfl))
          (show (o3 : List (HloOp τ sig (Elt F))).Forall _ by simp only [List.Forall]; (repeat' apply And.intro) <;> rfl)))
  exact List.forall_iff_forall_mem.mp h

/-- The contents after the whole line are the stretches' results composed, first stretch innermost. -/
theorem after_ops (V : Valuation τ sig (Elt F)) :
    after ops V = after o3 (after o2b (after o2a (after o1c (after o1b (after o1a (after o0c (after o0b (after o0a V)))))))) := by
  simp only [ops, ops_part0, ops_part1, ops_part2, ops_part3, after_append]

end Cert.ReferenceIdeal.Hand

end
-- ==== Proof.Ref.Stages.lean ====
/-
  The reference's value cut where its program's stretches end.

  `Gate` and `Comb` are long chains; the program computes them across several stretches of operations. The
  pieces here are those chains cut at the stretches' ends — the four per-graph statistics, the normalised first
  layer from the statistics' columns, the gate weights from that layer; the two gathered weight columns and the
  combination from them — each piece the same operations as the part of the chain it replaces, so that the chain
  equals the pieces composed by unfolding alone.
-/
import proofs.«412715_j18631568130347_1_alg».proof.Proof.Ref.Spec

noncomputable section

namespace Cert.ReferenceIdeal.Hand

open Cert.ReferenceIdeal Idealize.ShloMosaic

variable {F : FTy → Type} [FloatOps F] [Facts]
open Facts₀ Facts

/-- The first statistic (%31): the logarithm of the count plus one over the logarithm of the size bound. -/
def Gs31 (n : FVec F S512 .f32) : FVec F S512 .f32 :=
  have cst_5 : FVec F S_ .f32 := constant S_ .f32 0x3F800000#32
  have v27 : FVec F S512 .f32 := broadcastInDim S512 ![] bcast_S_S512 cst_5
  have v28 : FVec F S512 .f32 := addf n v27
  have v29 : FVec F S512 .f32 := Host.log v28
  have cst_6 : FVec F S_ .f32 := constant S_ .f32 0x40C6EE70#32
  have v30 : FVec F S512 .f32 := broadcastInDim S512 ![] bcast_S_S512 cst_6
  Host.divf v29 v30

/-- The second statistic (%37): the same-graph edge count over `n (n - 1)` plus a small constant. -/
def Gs37 (n e : FVec F S512 .f32) : FVec F S512 .f32 :=
  have cst_7 : FVec F S_ .f32 := constant S_ .f32 0x3F800000#32
  have v32 : FVec F S512 .f32 := broadcastInDim S512 ![] bcast_S_S512 cst_7
  have v33 : FVec F S512 .f32 := subf n v32
  have v34 : FVec F S512 .f32 := mulf n v33
  have cst_8 : FVec F S_ .f32 := constant S_ .f32 0x322BCC77#32
  have v35 : FVec F S512 .f32 := broadcastInDim S512 ![] bcast_S_S512 cst_8
  have v36 : FVec F S512 .f32 := addf v34 v35
  Host.divf e v36

/-- The third statistic (%44): the same-graph edge count over the count plus a small constant, over ten, capped at one. -/
def Gs44 (n e : FVec F S512 .f32) : FVec F S512 .f32 :=
  have cst_9 : FVec F S_ .f32 := constant S_ .f32 0x322BCC77#32
  have v38 : FVec F S512 .f32 := broadcastInDim S512 ![] bcast_S_S512 cst_9
  have v39 : FVec F S512 .f32 := addf n v38
  have v40 : FVec F S512 .f32 := Host.divf e v39
  have cst_10 : FVec F S_ .f32 := constant S_ .f32 0x41200000#32
  have v41 : FVec F S512 .f32 := broadcastInDim S512 ![] bcast_S_S512 cst_10
  have v42 : FVec F S512 .f32 := Host.divf v40 v41
  have cst_11 : FVec F S_ .f32 := constant S_ .f32 0x3F800000#32
  have v43 : FVec F S512 .f32 := broadcastInDim S512 ![] bcast_S_S512 cst_11
  minimumf v42 v43

/-- The fourth statistic (%70): half of one minus the cosine similarity of the two pooled means. -/
def Gs70 (pg pa : FVec F S512x256 .f32) : FVec F S512 .f32 :=
  have v57 : FVec F S512x256 .f32 := mulf pg pa
  have cst_14 : FVec F S_ .f32 := constant S_ .f32 0x00000000#32
  have v58 : FVec F S512 .f32 := Host.reduceAdd v57 cst_14 reducesTo_S512x256_S512_d1 h_S_
  have v59 : FVec F S512 .f32 := norm pg
  have cst_15 : FVec F S_ .f32 := constant S_ .f32 0x322BCC77#32
  have v60 : FVec F S512 .f32 := broadcastInDim S512 ![] bcast_S_S512 cst_15
  have v61 : FVec F S512 .f32 := maximumf v59 v60
  have v62 : FVec F S512 .f32 := norm pa
  have cst_16 : FVec F S_ .f32 := constant S_ .f32 0x322BCC77#32
  have v63 : FVec F S512 .f32 := broadcastInDim S512 ![] bcast_S_S512 cst_16
  have v64 : FVec F S512 .f32 := maximumf v62 v63
  have v65 : FVec F S512 .f32 := mulf v61 v64
  have v66 : FVec F S512 .f32 := Host.divf v58 v65
  have cst_17 : FVec F S_ .f32 := constant S_ .f32 0x3F800000#32
  have v67 : FVec F S512 .f32 := broadcastInDim S512 ![] bcast_S_S512 cst_17
  have v68 : FVec F S512 .f32 := subf v67 v66
  have cst_18 : FVec F S_ .f32 := constant S_ .f32 0x40000000#32
  have v69 : FVec F S512 .f32 := broadcastInDim S512 ![] bcast_S_S512 cst_18
  Host.divf v68 v69

/-- A per-graph vector as a column (%71 … %74). -/
def col (v : FVec F S512 .f32) : FVec F S512x1 .f32 := broadcastInDim S512x1 ![0] bcast_S512_S512x1_0 v

/-- The normalised, scaled first layer (%94) from the four statistics' columns: their concatenation through
    `W1, b1`, each row centred by its mean and divided by the root of its variance plus a small constant,
    times `lng`. -/
def G94 (v71 v72 v73 v74 : FVec F S512x1 .f32) (W1 : FVec F S4x32 .f32) (b1 lng : FVec F S32 .f32) : FVec F S512x32 .f32 :=
  have v75 : FVec F S512x4 .f32 :=
    concatenate S512x4 1 [⟨S512x1, v71⟩, ⟨S512x1, v72⟩, ⟨S512x1, v73⟩, ⟨S512x1, v74⟩]
      concatenates_S512x1_S512x1_S512x1_S512x1_S512x4_d1
  have v76 : FVec F S512x32 .f32 := Host.dotGeneral dot_S512x4_S4x32_S512x32_1_0_0_1_n_n none v75 W1
  have v77 : FVec F S1x32 .f32 := broadcastInDim S1x32 ![1] bcast_S32_S1x32_1 b1
  have v78 : FVec F S512x32 .f32 := broadcastInDim S512x32 ![0, 1] bcast_S1x32_S512x32_0_1 v77
  have v79 : FVec F S512x32 .f32 := addf v76 v78
  have cst_19 : FVec F S_ .f32 := constant S_ .f32 0x00000000#32
  have v80 : FVec F S512 .f32 := Host.reduceAdd v79 cst_19 reducesTo_S512x32_S512_d1 h_S_
  have v81 : FVec F S512x1 .f32 := broadcastInDim S512x1 ![0] bcast_S512_S512x1_0 v80
  have cst_20 : FVec F S_ .f32 := constant S_ .f32 0x42000000#32
  have v82 : FVec F S512x1 .f32 := broadcastInDim S512x1 ![] bcast_S_S512x1 cst_20
  have v83 : FVec F S512x1 .f32 := Host.divf v81 v82
  have c_21 : IVec S_ 32 := constantI S_ 32 0#32
  have v84 : FVec F S512x1 .f32 := variance v79 c_21
  have v85 : FVec F S512x32 .f32 := broadcastInDim S512x32 ![0, 1] bcast_S512x1_S512x32_0_1 v83
  have v86 : FVec F S512x32 .f32 := subf v79 v85
  have cst_22 : FVec F S_ .f32 := constant S_ .f32 0x3727C5AC#32
  have v87 : FVec F S512x1 .f32 := broadcastInDim S512x1 ![] bcast_S_S512x1 cst_22
  have v88 : FVec F S512x1 .f32 := addf v84 v87
  have v89 : FVec F S512x1 .f32 := Host.rsqrt v88
  have v90 : FVec F S512x32 .f32 := broadcastInDim S512x32 ![0, 1] bcast_S512x1_S512x32_0_1 v89
  have v91 : FVec F S512x32 .f32 := mulf v86 v90
  have v92 : FVec F S1x32 .f32 := broadcastInDim S1x32 ![1] bcast_S32_S1x32_1 lng
  have v93 : FVec F S512x32 .f32 := broadcastInDim S512x32 ![0, 1] bcast_S1x32_S512x32_0_1 v92
  mulf v91 v93

/-- The gate weights (%120) from %94: the shift `lnb`, a rectifier, `W2, b2`, a rectifier, `W3, b3`, the
    temperature, the softmax over the two columns. -/
def G120 (v94 : FVec F S512x32 .f32) (lnb : FVec F S32 .f32) (W2 : FVec F S32x16 .f32) (b2 : FVec F S16 .f32)
    (W3 : FVec F S16x2 .f32) (b3 : FVec F S2 .f32) : FVec F S512x2 .f32 :=
  have v95 : FVec F S1x32 .f32 := broadcastInDim S1x32 ![1] bcast_S32_S1x32_1 lnb
  have v96 : FVec F S512x32 .f32 := broadcastInDim S512x32 ![0, 1] bcast_S1x32_S512x32_0_1 v95
  have v97 : FVec F S512x32 .f32 := addf v94 v96
  have v98 : FVec F S512x32 .f32 := relu32 v97
  have v99 : FVec F S512x16 .f32 := Host.dotGeneral dot_S512x32_S32x16_S512x16_1_0_0_1_n_n none v98 W2
  have v100 : FVec F S1x16 .f32 := broadcastInDim S1x16 ![1] bcast_S16_S1x16_1 b2
  have v101 : FVec F S512x16 .f32 := broadcastInDim S512x16 ![0, 1] bcast_S1x16_S512x16_0_1 v100
  have v102 : FVec F S512x16 .f32 := addf v99 v101
  have v103 : FVec F S512x16 .f32 := relu16 v102
  have v104 : FVec F S512x2 .f32 := Host.dotGeneral dot_S512x16_S16x2_S512x2_1_0_0_1_n_n none v103 W3
  have v105 : FVec F S1x2 .f32 := broadcastInDim S1x2 ![1] bcast_S2_S1x2_1 b3
  have v106 : FVec F S512x2 .f32 := broadcastInDim S512x2 ![0, 1] bcast_S1x2_S512x2_0_1 v105
  have v107 : FVec F S512x2 .f32 := addf v104 v106
  have cst_23 : FVec F S_ .f32 := constant S_ .f32 0x3F000000#32
  have v108 : FVec F S512x2 .f32 := broadcastInDim S512x2 ![] bcast_S_S512x2 cst_23
  have v109 : FVec F S512x2 .f32 := Host.divf v107 v108
  have cst_24 : FVec F S_ .f32 := constant S_ .f32 0xFF800000#32
  have v110 : FVec F S512 .f32 := Host.reduce FloatOps.maximumf v109 cst_24 reducesTo_S512x2_S512_d1 h_S_
  have cst_25 : FVec F S_ .f32 := constant S_ .f32 0xFF800000#32
  have v111 : FVec F S512 .f32 := broadcastInDim S512 ![] bcast_S_S512 cst_25
  have v112 : FVec F S512 .f32 := maximumf v111 v110
  have v113 : FVec F S512x1 .f32 := broadcastInDim S512x1 ![0] bcast_S512_S512x1_0 v112
  have v114 : FVec F S512x2 .f32 := broadcastInDim S512x2 ![0, 1] bcast_S512x1_S512x2_0_1 v113
  have v115 : FVec F S512x2 .f32 := subf v109 v114
  have v116 : FVec F S512x2 .f32 := Host.exp v115
  have cst_26 : FVec F S_ .f32 := constant S_ .f32 0x00000000#32
  have v117 : FVec F S512 .f32 := Host.reduceAdd v116 cst_26 reducesTo_S512x2_S512_d1 h_S_
  have v118 : FVec F S512x1 .f32 := broadcastInDim S512x1 ![0] bcast_S512_S512x1_0 v117
  have v119 : FVec F S512x2 .f32 := broadcastInDim S512x2 ![0, 1] bcast_S512x1_S512x2_0_1 v118
  Host.divf v116 v119

/-- Each node's first gate weight as a column (%132). -/
def C132 (w : FVec F S512x2 .f32) (batch : IVec S100000 32) : FVec F S100000x1 .f32 :=
  have c_27 : IVec S_ 32 := constantI S_ 32 0#32
  have v121 : IVec S100000 32 := broadcastInDim S100000 ![] bcast_S_S100000 c_27
  have v122 : IVec S100000 1 := cmpi .slt batch v121
  have c_28 : IVec S_ 32 := constantI S_ 32 512#32
  have v123 : IVec S100000 32 := broadcastInDim S100000 ![] bcast_S_S100000 c_28
  have v124 : IVec S100000 32 := addi batch v123
  have v125 : IVec S100000 32 := select v122 v124 batch
  have c_29 : IVec S_ 32 := constantI S_ 32 0#32
  have v126 : IVec S100000 32 := broadcastInDim S100000 ![] bcast_S_S100000 c_29
  have v127 : IVec S100000 32 := id v126
  have v128 : IVec S100000x1 32 := broadcastInDim S100000x1 ![0] bcast_S100000_S100000x1_0 v125
  have v129 : IVec S100000x1 32 := broadcastInDim S100000x1 ![0] bcast_S100000_S100000x1_0 v127
  have v130 : IVec S100000x2 32 :=
    concatenate S100000x2 1 [⟨S100000x1, v128⟩, ⟨S100000x1, v129⟩] concatenates_S100000x1_S100000x1_S100000x2_d1
  have v131 : FVec F S100000 .f32 := Host.gather gather_S512x2_S100000x2_S100000_n_01_n_n_01_1_11 w v130
  broadcastInDim S100000x1 ![0] bcast_S100000_S100000x1_0 v131

/-- Each node's second gate weight as a column (%144). -/
def C144 (w : FVec F S512x2 .f32) (batch : IVec S100000 32) : FVec F S100000x1 .f32 :=
  have c_30 : IVec S_ 32 := constantI S_ 32 0#32
  have v133 : IVec S100000 32 := broadcastInDim S100000 ![] bcast_S_S100000 c_30
  have v134 : IVec S100000 1 := cmpi .slt batch v133
  have c_31 : IVec S_ 32 := constantI S_ 32 512#32
  have v135 : IVec S100000 32 := broadcastInDim S100000 ![] bcast_S_S100000 c_31
  have v136 : IVec S100000 32 := addi batch v135
  have v137 : IVec S100000 32 := select v134 v136 batch
  have c_32 : IVec S_ 32 := constantI S_ 32 1#32
  have v138 : IVec S100000 32 := broadcastInDim S100000 ![] bcast_S_S100000 c_32
  have v139 : IVec S100000 32 := id v138
  have v140 : IVec S100000x1 32 := broadcastInDim S100000x1 ![0] bcast_S100000_S100000x1_0 v137
  have v141 : IVec S100000x1 32 := broadcastInDim S100000x1 ![0] bcast_S100000_S100000x1_0 v139
  have v142 : IVec S100000x2 32 :=
    concatenate S100000x2 1 [⟨S100000x1, v140⟩, ⟨S100000x1, v141⟩] concatenates_S100000x1_S100000x1_S100000x2_d1
  have v143 : FVec F S100000 .f32 := Host.gather gather_S512x2_S100000x2_S100000_n_01_n_n_01_1_11 w v142
  broadcastInDim S100000x1 ![0] bcast_S100000_S100000x1_0 v143

/-- The combination (%149) from the two weight columns. -/
def C149 (v132 v144 : FVec F S100000x1 .f32) (xg xa : FVec F S100000x256 .f32) : FVec F S100000x256 .f32 :=
  have v145 : FVec F S100000x256 .f32 := broadcastInDim S100000x256 ![0, 1] bcast_S100000x1_S100000x256_0_1 v132
  have v146 : FVec F S100000x256 .f32 := mulf v145 xg
  have v147 : FVec F S100000x256 .f32 := broadcastInDim S100000x256 ![0, 1] bcast_S100000x1_S100000x256_0_1 v144
  have v148 : FVec F S100000x256 .f32 := mulf v147 xa
  addf v146 v148

theorem Gate_eq (n e : FVec F S512 .f32) (pg pa : FVec F S512x256 .f32) (W1 : FVec F S4x32 .f32)
    (b1 lng lnb : FVec F S32 .f32) (W2 : FVec F S32x16 .f32) (b2 : FVec F S16 .f32) (W3 : FVec F S16x2 .f32)
    (b3 : FVec F S2 .f32) :
    Gate n e pg pa W1 b1 lng lnb W2 b2 W3 b3
      = G120 (G94 (col (Gs31 n)) (col (Gs37 n e)) (col (Gs44 n e)) (col (Gs70 pg pa)) W1 b1 lng) lnb W2 b2 W3 b3 := rfl

theorem Comb_stage (w : FVec F S512x2 .f32) (batch : IVec S100000 32) (xg xa : FVec F S100000x256 .f32) :
    Comb w batch xg xa = C149 (C132 w batch) (C144 w batch) xg xa := rfl

end Cert.ReferenceIdeal.Hand

end
-- ==== Proof.Ref.Run.lean ====
/-
  The reference's run.

  Stretch by stretch, the buffer each stage of the computation ends in holds that stage's value of the contents the
  stretch started from: unfolding the stretch's operations in order, each writes its function's value of the buffers
  it reads and leaves every other buffer alone, and what results is the stage's chain of the same functions. Composed
  along the nine stretches, with the buffers a stretch does not write carried through it unchanged, the result
  buffer ends at `Out` of the twelve arguments' launch contents and the arguments end as they started.
-/
import proofs.«412715_j18631568130347_1_alg».proof.Proof.Ref.Ops
import proofs.«412715_j18631568130347_1_alg».proof.Proof.Ref.Stages

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]
open Facts₀ Facts

/-- The pooled sums from a given scalar to start from: the first feature array's scatter-add starts from the zero
    written at the end of the stretch before. -/
def PsumFrom (z : FVec F S_ .f32) (batch : IVec S100000 32) (x : FVec F S100000x256 .f32) : FVec F S512x256 .f32 :=
  Host.scatterAdd scatter_S512x256_S100000x1_S100000x256_1_0_0_1 (broadcastInDim S512x256 ![] bcast_S_S512x256 z)
    (broadcastInDim S100000x1 ![0] bcast_S100000_S100000x1_0 batch) x

theorem Psum_stage (batch : IVec S100000 32) (x : FVec F S100000x256 .f32) :
    Psum batch x = PsumFrom (constant S_ .f32 0x00000000#32) batch x := rfl

/-! ## The stretches' values -/

set_option maxRecDepth 8192

/-- After the first stretch the counts' buffer holds the node counts of the ids. -/
theorem o0a_v3 (V : Valuation τ sig (Elt F)) :
    after o0a V (no_index (Proc.devRef .tc main_v3)) = Ncnt (V (Proc.devRef .tc main_arg11)) := by
  after_results_simp
  rfl

theorem o0b_v26 (V : Valuation τ sig (Elt F)) :
    after o0b V (no_index (Proc.devRef .tc main_v26)) = Efun (V (Proc.devRef .tc main_arg10)) (V (Proc.devRef .tc main_arg11)) := by
  after_results_simp
  rfl

theorem o0c_v31 (V : Valuation τ sig (Elt F)) :
    after o0c V (no_index (Proc.devRef .tc main_v31)) = Gs31 (V (Proc.devRef .tc main_v3)) := by
  after_results_simp
  rfl

theorem o0c_v37 (V : Valuation τ sig (Elt F)) :
    after o0c V (no_index (Proc.devRef .tc main_v37)) = Gs37 (V (Proc.devRef .tc main_v3)) (V (Proc.devRef .tc main_v26)) := by
  after_results_simp
  rfl

theorem o0c_v44 (V : Valuation τ sig (Elt F)) :
    after o0c V (no_index (Proc.devRef .tc main_v44)) = Gs44 (V (Proc.devRef .tc main_v3)) (V (Proc.devRef .tc main_v26)) := by
  after_results_simp
  rfl

theorem o0c_cst_12 (V : Valuation τ sig (Elt F)) :
    after o0c V (no_index (Proc.devRef .tc main_cst_12)) = constant S_ .f32 0x00000000#32 := by
  after_results_simp

theorem o1a_v50 (V : Valuation τ sig (Elt F)) :
    after o1a V (no_index (Proc.devRef .tc main_v50)) = Pmean (V (Proc.devRef .tc main_v3)) (PsumFrom (V (Proc.devRef .tc main_cst_12)) (V (Proc.devRef .tc main_arg11)) (V (Proc.devRef .tc main_arg0))) := by
  after_results_simp
  rfl

theorem o1a_v56 (V : Valuation τ sig (Elt F)) :
    after o1a V (no_index (Proc.devRef .tc main_v56)) = Pmean (V (Proc.devRef .tc main_v3)) (Psum (V (Proc.devRef .tc main_arg11)) (V (Proc.devRef .tc main_arg1))) := by
  after_results_simp
  rfl

theorem o1b_v71 (V : Valuation τ sig (Elt F)) :
    after o1b V (no_index (Proc.devRef .tc main_v71)) = col (V (Proc.devRef .tc main_v31)) := by
  after_results_simp
  try simp only [TRef.ofBuf, TRef.toBuf, cast_eq]
  rfl

theorem o1b_v72 (V : Valuation τ sig (Elt F)) :
    after o1b V (no_index (Proc.devRef .tc main_v72)) = col (V (Proc.devRef .tc main_v37)) := by
  after_results_simp
  try simp only [TRef.ofBuf, TRef.toBuf, cast_eq]
  rfl

theorem o1b_v73 (V : Valuation τ sig (Elt F)) :
    after o1b V (no_index (Proc.devRef .tc main_v73)) = col (V (Proc.devRef .tc main_v44)) := by
  after_results_simp
  try simp only [TRef.ofBuf, TRef.toBuf, cast_eq]
  rfl

theorem o1b_v74 (V : Valuation τ sig (Elt F)) :
    after o1b V (no_index (Proc.devRef .tc main_v74)) = col (Gs70 (V (Proc.devRef .tc main_v50)) (V (Proc.devRef .tc main_v56))) := by
  after_results_simp
  try simp only [TRef.ofBuf, TRef.toBuf, cast_eq]
  rfl

theorem o1c_v94 (V : Valuation τ sig (Elt F)) :
    after o1c V (no_index (Proc.devRef .tc main_v94)) = G94 (V (Proc.devRef .tc main_v71)) (V (Proc.devRef .tc main_v72)) (V (Proc.devRef .tc main_v73)) (V (Proc.devRef .tc main_v74)) (V (Proc.devRef .tc main_arg2)) (V (Proc.devRef .tc main_arg3)) (V (Proc.devRef .tc main_arg4)) := by
  after_results_simp
  try simp only [TRef.ofBuf, TRef.toBuf, cast_eq]
  rfl

theorem o2a_v120 (V : Valuation τ sig (Elt F)) :
    after o2a V (no_index (Proc.devRef .tc main_v120)) = G120 (V (Proc.devRef .tc main_v94)) (V (Proc.devRef .tc main_arg5)) (V (Proc.devRef .tc main_arg6)) (V (Proc.devRef .tc main_arg7)) (V (Proc.devRef .tc main_arg8)) (V (Proc.devRef .tc main_arg9)) := by
  after_results_simp
  try simp only [TRef.ofBuf, TRef.toBuf, cast_eq]
  rfl

theorem o2b_v132 (V : Valuation τ sig (Elt F)) :
    after o2b V (no_index (Proc.devRef .tc main_v132)) = C132 (V (Proc.devRef .tc main_v120)) (V (Proc.devRef .tc main_arg11)) := by
  after_results_simp
  rfl

theorem o2b_v144 (V : Valuation τ sig (Elt F)) :
    after o2b V (no_index (Proc.devRef .tc main_v144)) = C144 (V (Proc.devRef .tc main_v120)) (V (Proc.devRef .tc main_arg11)) := by
  after_results_simp
  rfl

theorem o3_v149 (V : Valuation τ sig (Elt F)) :
    after o3 V (no_index (Proc.devRef .tc main_v149)) = C149 (V (Proc.devRef .tc main_v132)) (V (Proc.devRef .tc main_v144)) (V (Proc.devRef .tc main_arg0)) (V (Proc.devRef .tc main_arg1)) := by
  after_results_simp
  rfl

/-! ## The whole line -/

/-- After @main's operations the result buffer holds `Out` of the arguments' contents. -/
theorem after_out (V : Valuation τ sig (Elt F)) :
    after ops V (Proc.devRef .tc main_v149)
      = Out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops]
  simp (disch := decide) only [o3_v149, o2b_v132, o2b_v144, o2a_v120, o1c_v94, o1b_v71, o1b_v72, o1b_v73, o1b_v74,
    o1a_v50, o1a_v56, o0c_v31, o0c_v37, o0c_v44, o0c_cst_12, o0b_v26, o0a_v3,
    o3_keep, o2b_keep, o2a_keep, o1c_keep, o1b_keep, o1a_keep, o0c_keep, o0b_keep, o0a_keep]
  rw [Out, Gate_eq, Comb_stage]
  simp only [Psum_stage]

theorem after_arg0 (V : Valuation τ sig (Elt F)) : after ops V (Proc.devRef .tc main_arg0) = V (Proc.devRef .tc main_arg0) := by
  rw [after_ops]
  simp (disch := decide) only [o3_keep, o2b_keep, o2a_keep, o1c_keep, o1b_keep, o1a_keep, o0c_keep, o0b_keep, o0a_keep]

theorem after_arg1 (V : Valuation τ sig (Elt F)) : after ops V (Proc.devRef .tc main_arg1) = V (Proc.devRef .tc main_arg1) := by
  rw [after_ops]
  simp (disch := decide) only [o3_keep, o2b_keep, o2a_keep, o1c_keep, o1b_keep, o1a_keep, o0c_keep, o0b_keep, o0a_keep]

theorem after_arg2 (V : Valuation τ sig (Elt F)) : after ops V (Proc.devRef .tc main_arg2) = V (Proc.devRef .tc main_arg2) := by
  rw [after_ops]
  simp (disch := decide) only [o3_keep, o2b_keep, o2a_keep, o1c_keep, o1b_keep, o1a_keep, o0c_keep, o0b_keep, o0a_keep]

theorem after_arg3 (V : Valuation τ sig (Elt F)) : after ops V (Proc.devRef .tc main_arg3) = V (Proc.devRef .tc main_arg3) := by
  rw [after_ops]
  simp (disch := decide) only [o3_keep, o2b_keep, o2a_keep, o1c_keep, o1b_keep, o1a_keep, o0c_keep, o0b_keep, o0a_keep]

theorem after_arg4 (V : Valuation τ sig (Elt F)) : after ops V (Proc.devRef .tc main_arg4) = V (Proc.devRef .tc main_arg4) := by
  rw [after_ops]
  simp (disch := decide) only [o3_keep, o2b_keep, o2a_keep, o1c_keep, o1b_keep, o1a_keep, o0c_keep, o0b_keep, o0a_keep]

theorem after_arg5 (V : Valuation τ sig (Elt F)) : after ops V (Proc.devRef .tc main_arg5) = V (Proc.devRef .tc main_arg5) := by
  rw [after_ops]
  simp (disch := decide) only [o3_keep, o2b_keep, o2a_keep, o1c_keep, o1b_keep, o1a_keep, o0c_keep, o0b_keep, o0a_keep]

theorem after_arg6 (V : Valuation τ sig (Elt F)) : after ops V (Proc.devRef .tc main_arg6) = V (Proc.devRef .tc main_arg6) := by
  rw [after_ops]
  simp (disch := decide) only [o3_keep, o2b_keep, o2a_keep, o1c_keep, o1b_keep, o1a_keep, o0c_keep, o0b_keep, o0a_keep]

theorem after_arg7 (V : Valuation τ sig (Elt F)) : after ops V (Proc.devRef .tc main_arg7) = V (Proc.devRef .tc main_arg7) := by
  rw [after_ops]
  simp (disch := decide) only [o3_keep, o2b_keep, o2a_keep, o1c_keep, o1b_keep, o1a_keep, o0c_keep, o0b_keep, o0a_keep]

theorem after_arg8 (V : Valuation τ sig (Elt F)) : after ops V (Proc.devRef .tc main_arg8) = V (Proc.devRef .tc main_arg8) := by
  rw [after_ops]
  simp (disch := decide) only [o3_keep, o2b_keep, o2a_keep, o1c_keep, o1b_keep, o1a_keep, o0c_keep, o0b_keep, o0a_keep]

theorem after_arg9 (V : Valuation τ sig (Elt F)) : after ops V (Proc.devRef .tc main_arg9) = V (Proc.devRef .tc main_arg9) := by
  rw [after_ops]
  simp (disch := decide) only [o3_keep, o2b_keep, o2a_keep, o1c_keep, o1b_keep, o1a_keep, o0c_keep, o0b_keep, o0a_keep]

theorem after_arg10 (V : Valuation τ sig (Elt F)) : after ops V (Proc.devRef .tc main_arg10) = V (Proc.devRef .tc main_arg10) := by
  rw [after_ops]
  simp (disch := decide) only [o3_keep, o2b_keep, o2a_keep, o1c_keep, o1b_keep, o1a_keep, o0c_keep, o0b_keep, o0a_keep]

theorem after_arg11 (V : Valuation τ sig (Elt F)) : after ops V (Proc.devRef .tc main_arg11) = V (Proc.devRef .tc main_arg11) := by
  rw [after_ops]
  simp (disch := decide) only [o3_keep, o2b_keep, o2a_keep, o1c_keep, o1b_keep, o1a_keep, o0c_keep, o0b_keep, o0a_keep]

/-- On every device, for any float values, from any memory with zero counters: every weakly fair execution of @main
    terminates with the result buffer at `Out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v149)
        = Out (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v149).trans (after_out (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c)),
      (h c main_arg7).trans (after_arg7 (launchContents m c)),
      (h c main_arg8).trans (after_arg8 (launchContents m c)),
      (h c main_arg9).trans (after_arg9 (launchContents m c)),
      (h c main_arg10).trans (after_arg10 (launchContents m c)),
      (h c main_arg11).trans (after_arg11 (launchContents m c))⟩)
    (run_seq scopedRefs_eq scopedSems_eq defs main (fun _ => ops) main_eq (fun _ => ops_sub) m ρ (fun _ => ops_fresh))

end Cert.ReferenceIdeal.Hand

end
-- ==== Proof.Pre.lean ====
/-
  The precondition read back at the graph-id array.

  The precondition is a conjunction of whole-array tests, each an "all" over one argument: the ten float arguments are
  tested finite, and the array of graph ids is tested twice, every word at least 0 and every word below 512, both as
  signed 32-bit integers. The conjunction is one bit; the claim assumes that bit is 1. A conjunction that is 1 has both
  sides 1; an "all" that is 1 saw a 1 at every position; a signed comparison that is 1 says its order of the two words
  read as integers; and the word compared against is a constant spread over the array, so at every position it is that
  constant. Only the last two conjuncts are kept: every graph id, read as a signed integer, lies in [0, 512).

  The function is printed as a chain of three parts, each ending in the call of the next; the two tests of the ids sit at
  the end of the second part (the test against 0) and in the third (the test against 512), so the reading goes part by part
  from the end, and the earlier parts pass the ids through untouched.
-/
import proofs.«412715_j18631568130347_1_alg».proof.Defs
import Idealize.ShloMosaic.Lib.ValueIdx
import Idealize.ShloMosaic.Lib.ReduceAll

noncomputable section

namespace Cert.Proof.PreFacts

open Idealize.ShloMosaic Idealize.ShloMosaic.ValueIdx Idealize.SL.Sem
open Cert.Pre_finite_inputs

/-- A shape of rank 0 has one index. -/
instance : Subsingleton S_.Idx := ⟨fun a b => funext fun d => d.elim0⟩

variable [Facts]

/-- The third part: if its bit is 1 then the mask handed to it (the test against 0) is 1 everywhere, and every id is
    below 512 as a signed integer. -/
theorem part3_one {F : FTy → Type} [FloatOps F] (ids : IVec S100000 32) (acc : IVec S_ 1) (ge0 : IVec S100000 1)
    (j : S_.Idx) (h : fn_part3 (F := F) ids acc ge0 j = 1#1) :
    (∀ i, ge0 i = 1#1) ∧ ∀ i, (ids i).toInt < 512 := by
  dsimp only [fn_part3, andi] at h
  rw [IntOp.andi_eq_one, IntOp.andi_eq_one] at h
  obtain ⟨⟨-, hge⟩, hlt⟩ := h
  refine ⟨fun i => Host.reduce_andi_all _ _ _ _ j hge i, fun i => ?_⟩
  have e := Host.reduce_andi_all _ _ _ _ j hlt i
  dsimp only [cmpi, broadcastInDim, constantI] at e
  have e' := IntOp.cmpi_slt.1 e
  rwa [show (512#32 : BitVec 32).toInt = 512 from by decide] at e'

/-- The second part: if its bit is 1 then every id lies in [0, 512) as a signed integer. -/
theorem part2_one {F : FTy → Type} [FloatOps F] (a7 : FVec F S16 .f32) (a8 : FVec F S16x2 .f32) (a9 : FVec F S2 .f32)
    (ids : IVec S100000 32) (acc : IVec S_ 1) (j : S_.Idx) (h : fn_part2 (F := F) a7 a8 a9 ids acc j = 1#1) (i : S100000.Idx) :
    0 ≤ (ids i).toInt ∧ (ids i).toInt < 512 := by
  dsimp only [fn_part2] at h
  obtain ⟨hge, hlt⟩ := part3_one (F := F) ids _ _ j h
  refine ⟨?_, hlt i⟩
  have e := hge i
  dsimp only [cmpi, broadcastInDim, constantI] at e
  have e' := IntOp.cmpi_sge.1 e
  rwa [show (0#32 : BitVec 32).toInt = 0 from by decide] at e'

/-- The first part passes the ids to the second. -/
theorem part1_one {F : FTy → Type} [FloatOps F] (a4 a5 : FVec F S32 .f32) (a6 : FVec F S32x16 .f32) (a7 : FVec F S16 .f32)
    (a8 : FVec F S16x2 .f32) (a9 : FVec F S2 .f32) (ids : IVec S100000 32) (acc : IVec S_ 1) (m16 : IVec S32 1) (j : S_.Idx)
    (h : fn_part1 (F := F) a4 a5 a6 a7 a8 a9 ids acc m16 j = 1#1) (i : S100000.Idx) :
    0 ≤ (ids i).toInt ∧ (ids i).toInt < 512 := by
  dsimp only [fn_part1] at h
  exact part2_one (F := F) a7 a8 a9 ids _ j h i

/-- THE PRECONDITION DECODED, over any float instance: if the printed function of the twelve arguments is 1 then every
    entry of its last argument, the graph ids, lies in [0, 512) as a signed integer. -/
theorem fn_one {F : FTy → Type} [FloatOps F] (a0 a1 : FVec F S100000x256 .f32) (a2 : FVec F S4x32 .f32)
    (a3 a4 a5 : FVec F S32 .f32) (a6 : FVec F S32x16 .f32) (a7 : FVec F S16 .f32) (a8 : FVec F S16x2 .f32)
    (a9 : FVec F S2 .f32) (a10 : IVec S2x3200000 32) (ids : IVec S100000 32) (j : S_.Idx)
    (h : fn (F := F) a0 a1 a2 a3 a4 a5 a6 a7 a8 a9 a10 ids j = 1#1) (i : S100000.Idx) :
    0 ≤ (ids i).toInt ∧ (ids i).toInt < 512 := by
  dsimp only [fn] at h
  exact part1_one (F := F) a4 a5 a6 a7 a8 a9 ids _ _ j h i

/-- At the idealized kernel's launch memory: every graph id on every device lies in [0, 512). -/
theorem batch_range (m : (ℓ : Loc Cert.KernelIdeal.nD Cert.KernelIdeal.τ Cert.KernelIdeal.sig) → Buf (Elt Ideal) ℓ)
    (h : Cert.Pre_KernelIdeal m) (c : Dev Cert.KernelIdeal.nD) (i : Fin 100000) :
    0 ≤ ((m ((c.tc : Thread Cert.KernelIdeal.nD Cert.KernelIdeal.τ).loc Cert.KernelIdeal.main_arg11) : (⟨1, ![100000]⟩ : Shape).Idx → BitVec 32) (ix1 i)).toInt
    ∧ ((m ((c.tc : Thread Cert.KernelIdeal.nD Cert.KernelIdeal.τ).loc Cert.KernelIdeal.main_arg11) : (⟨1, ![100000]⟩ : Shape).Idx → BitVec 32) (ix1 i)).toInt < 512 :=
  fn_one (F := Ideal) _ _ _ _ _ _ _ _ _ _ _ _ ix0 (congrFun (h c) ix0) (ix1 i)

/-- The same at the idealized reference's launch memory. -/
theorem batch_range_ref (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) (i : Fin 100000) :
    0 ≤ ((m ((c.tc : Thread Cert.ReferenceIdeal.nD Cert.ReferenceIdeal.τ).loc Cert.ReferenceIdeal.main_arg11) : (⟨1, ![100000]⟩ : Shape).Idx → BitVec 32) (ix1 i)).toInt
    ∧ ((m ((c.tc : Thread Cert.ReferenceIdeal.nD Cert.ReferenceIdeal.τ).loc Cert.ReferenceIdeal.main_arg11) : (⟨1, ![100000]⟩ : Shape).Idx → BitVec 32) (ix1 i)).toInt < 512 :=
  fn_one (F := Ideal) _ _ _ _ _ _ _ _ _ _ _ _ ix0 (congrFun (h c) ix0) (ix1 i)

/-- The same at the word-level kernel's launch memory. -/
theorem batch_range_bits (m : (ℓ : Loc Cert.Kernel.nD Cert.Kernel.τ Cert.Kernel.sig) → Buf (Elt Bits) ℓ)
    (h : Cert.Pre_Kernel m) (c : Dev Cert.Kernel.nD) (i : Fin 100000) :
    0 ≤ ((m ((c.tc : Thread Cert.Kernel.nD Cert.Kernel.τ).loc Cert.Kernel.main_arg11) : (⟨1, ![100000]⟩ : Shape).Idx → BitVec 32) (ix1 i)).toInt
    ∧ ((m ((c.tc : Thread Cert.Kernel.nD Cert.Kernel.τ).loc Cert.Kernel.main_arg11) : (⟨1, ![100000]⟩ : Shape).Idx → BitVec 32) (ix1 i)).toInt < 512 :=
  fn_one (F := Bits) _ _ _ _ _ _ _ _ _ _ _ _ ix0 (congrFun (h c) ix0) (ix1 i)

end Cert.Proof.PreFacts

end
-- ==== Proof.lean ====
/-
  The certificate: the kernel program's entry point against its reference, as extended reals, where every graph id is a
  graph number.

  The kernel pools the node features per graph by a one-hot product accumulated over 50 blocks of 2000 nodes, computes two
  gate weights per graph on the host, and combines each node's two feature rows with its graph's weights, picked by a second
  one-hot product. The reference pools by scatter-add and picks the weights by a gather. A one-hot product with the ids IS
  the scatter-add (a node whose id is no graph number contributes to no graph either way), and where every id is a graph
  number — the precondition's added conjunct — the one-hot product with the gate table IS the gather: exactly one
  coefficient is 1, and in the extended reals 0 · x = 0, 1 · x = x, x + 0 = x. Everything between the two regions is the
  same host arithmetic in both programs, carried as one function of the pooled counts and sums, so no finiteness is used.

  The three frames: the kernel program's run of its two regions and the host operations around them (the same text at the
  word-level instance and at the ideal one), and the reference's run with its result dropped.
-/
import proofs.«412715_j18631568130347_1_alg».proof.Defs
import proofs.«412715_j18631568130347_1_alg».proof.Proof.Gen.Kernel
import proofs.«412715_j18631568130347_1_alg».proof.Proof.Gen.KernelIdeal
import proofs.«412715_j18631568130347_1_alg».proof.Proof.Gen.ReferenceIdeal
import proofs.«412715_j18631568130347_1_alg».proof.Proof.Gen.Pre_finite_inputs
import proofs.«412715_j18631568130347_1_alg».proof.Proof.K.Regs
import proofs.«412715_j18631568130347_1_alg».proof.Proof.KI.Result
import proofs.«412715_j18631568130347_1_alg».proof.Proof.Ref.Run
import proofs.«412715_j18631568130347_1_alg».proof.Proof.OutEq
import proofs.«412715_j18631568130347_1_alg».proof.Proof.Pre
import Idealize.ShloMosaic.Adequacy
import Idealize.ShloMosaic.Init

noncomputable section

namespace Cert.Proof

open Idealize.ShloMosaic Idealize.SL.Sem

/-- The word-level program runs to the end, faults nowhere, and leaves its arguments as launched. -/
theorem frame_k [Cert.Kernel.Facts] [Cert.Pre_finite_inputs.Facts] : Cert.frame_Kernel :=
  fun m ρ _ => Cert.Kernel.Hand.frame (F := Bits) m ρ

/-- The same of the idealized program. -/
theorem frame_ki [Cert.KernelIdeal.Facts] [Cert.Pre_finite_inputs.Facts] : Cert.frame_KernelIdeal :=
  fun m ρ _ => Cert.KernelIdeal.Hand.frame (F := Ideal) m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Hand.run (F := Ideal) m ρ)

/-- From memories that agree on the arguments and satisfy the precondition, both idealized programs run and end with the
    same result array: the kernel's is the specification's function of the arguments, which is the reference's. -/
theorem algebraic [Cert.KernelIdeal.Facts] [Cert.ReferenceIdeal.Facts] [Cert.Pre_finite_inputs.Facts] :
    Cert.algebraic_KernelIdeal_ReferenceIdeal := by
  intro m g m' g' hpre hagree
  refine ⟨fun c => Cert.KernelIdeal.Hand.kout (F := Ideal) m c, Cert.KernelIdeal.Hand.run (F := Ideal) m g, ?_⟩
  refine (θ_run Cert.ReferenceIdeal.defs _ _).mono (fun _ h c => ⟨(h c).1.trans ?_, (h c).2⟩)
    (Cert.ReferenceIdeal.Hand.run (F := Ideal) m' g')
  obtain ⟨h0, h1, h2, h3, h4, h5, h6, h7, h8, h9, h10, h11⟩ := hagree c
  rw [h0, h1, h2, h3, h4, h5, h6, h7, h8, h9, h10, h11]
  exact (Cert.KernelIdeal.Hand.kout_eq m c (Cert.Proof.PreFacts.batch_range m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
